-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S512x4096 : Shape := ⟨2, ![512, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel

variable [Facts]

def fn {F : FTy → Type} [FloatOps F] (main_arg0 : FVec F S512x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  main_v3
-- ==== Kernel.lean ====
abbrev S512x256 : Shape := ⟨2, ![512, 256]⟩
abbrev S8x128 : Shape := ⟨2, ![8, 128]⟩
abbrev S15x8x128 : Shape := ⟨3, ![15, 8, 128]⟩
abbrev S15 : Shape := ⟨1, ![15]⟩
abbrev S_ : Shape := ⟨0, ![]⟩
abbrev S512 : Shape := ⟨1, ![512]⟩
abbrev S512x1 : Shape := ⟨2, ![512, 1]⟩
abbrev S512x2 : Shape := ⟨2, ![512, 2]⟩
abbrev S2x512 : Shape := ⟨2, ![2, 512]⟩
abbrev S1x128 : Shape := ⟨2, ![1, 128]⟩
abbrev S1 : Shape := ⟨1, ![1]⟩
abbrev S1x8x128 : Shape := ⟨3, ![1, 8, 128]⟩
abbrev S15x4x128 : Shape := ⟨3, ![15, 4, 128]⟩
abbrev S4x128 : Shape := ⟨2, ![4, 128]⟩
abbrev S1x4x128 : Shape := ⟨3, ![1, 4, 128]⟩
abbrev S1x512 : Shape := ⟨2, ![1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S8x128, .f32⟩
  | .local _ .vmem, ⟨3, _⟩ => ⟨S15x8x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_65 : BitVec 32 := 1#32
  let v86 : BitVec 32 := Scalar.addi v2 c1_i32_65
  let c16_i32_66 : BitVec 32 := 16#32
  let v87 : BitVec 32 := Scalar.remsi v86 c16_i32_66
  let c1_i32_70 : BitVec 32 := 1#32
  let v88 : BitVec 32 := Scalar.muli v87 c1_i32_70
  let v89 : BitVec 32 := Scalar.addi c0_i32_71 v88
  v89.toNat
def k0_dev17 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_74 : BitVec 32 := 2#32
  let v96 : BitVec 32 := Scalar.addi v2 c2_i32_74
  let c16_i32_75 : BitVec 32 := 16#32
  let v97 : BitVec 32 := Scalar.remsi v96 c16_i32_75
  let c1_i32_79 : BitVec 32 := 1#32
  let v98 : BitVec 32 := Scalar.muli v97 c1_i32_79
  let v99 : BitVec 32 := Scalar.addi c0_i32_80 v98
  v99.toNat
def k0_dev18 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_83 : BitVec 32 := 3#32
  let v106 : BitVec 32 := Scalar.addi v2 c3_i32_83
  let c16_i32_84 : BitVec 32 := 16#32
  let v107 : BitVec 32 := Scalar.remsi v106 c16_i32_84
  let c1_i32_88 : BitVec 32 := 1#32
  let v108 : BitVec 32 := Scalar.muli v107 c1_i32_88
  let v109 : BitVec 32 := Scalar.addi c0_i32_89 v108
  v109.toNat
def k0_dev19 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_92 : BitVec 32 := 4#32
  let v116 : BitVec 32 := Scalar.addi v2 c4_i32_92
  let c16_i32_93 : BitVec 32 := 16#32
  let v117 : BitVec 32 := Scalar.remsi v116 c16_i32_93
  let c1_i32_97 : BitVec 32 := 1#32
  let v118 : BitVec 32 := Scalar.muli v117 c1_i32_97
  let v119 : BitVec 32 := Scalar.addi c0_i32_98 v118
  v119.toNat
def k0_dev20 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_101 : BitVec 32 := 5#32
  let v126 : BitVec 32 := Scalar.addi v2 c5_i32_101
  let c16_i32_102 : BitVec 32 := 16#32
  let v127 : BitVec 32 := Scalar.remsi v126 c16_i32_102
  let c1_i32_106 : BitVec 32 := 1#32
  let v128 : BitVec 32 := Scalar.muli v127 c1_i32_106
  let v129 : BitVec 32 := Scalar.addi c0_i32_107 v128
  v129.toNat
def k0_dev21 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_110 : BitVec 32 := 6#32
  let v136 : BitVec 32 := Scalar.addi v2 c6_i32_110
  let c16_i32_111 : BitVec 32 := 16#32
  let v137 : BitVec 32 := Scalar.remsi v136 c16_i32_111
  let c1_i32_115 : BitVec 32 := 1#32
  let v138 : BitVec 32 := Scalar.muli v137 c1_i32_115
  let v139 : BitVec 32 := Scalar.addi c0_i32_116 v138
  v139.toNat
def k0_dev22 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_119 : BitVec 32 := 7#32
  let v146 : BitVec 32 := Scalar.addi v2 c7_i32_119
  let c16_i32_120 : BitVec 32 := 16#32
  let v147 : BitVec 32 := Scalar.remsi v146 c16_i32_120
  let c1_i32_124 : BitVec 32 := 1#32
  let v148 : BitVec 32 := Scalar.muli v147 c1_i32_124
  let v149 : BitVec 32 := Scalar.addi c0_i32_125 v148
  v149.toNat
def k0_dev23 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_128 : BitVec 32 := 8#32
  let v156 : BitVec 32 := Scalar.addi v2 c8_i32_128
  let c16_i32_129 : BitVec 32 := 16#32
  let v157 : BitVec 32 := Scalar.remsi v156 c16_i32_129
  let c1_i32_133 : BitVec 32 := 1#32
  let v158 : BitVec 32 := Scalar.muli v157 c1_i32_133
  let v159 : BitVec 32 := Scalar.addi c0_i32_134 v158
  v159.toNat
def k0_dev24 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_137 : BitVec 32 := 9#32
  let v166 : BitVec 32 := Scalar.addi v2 c9_i32_137
  let c16_i32_138 : BitVec 32 := 16#32
  let v167 : BitVec 32 := Scalar.remsi v166 c16_i32_138
  let c1_i32_142 : BitVec 32 := 1#32
  let v168 : BitVec 32 := Scalar.muli v167 c1_i32_142
  let v169 : BitVec 32 := Scalar.addi c0_i32_143 v168
  v169.toNat
def k0_dev25 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_146 : BitVec 32 := 10#32
  let v176 : BitVec 32 := Scalar.addi v2 c10_i32_146
  let c16_i32_147 : BitVec 32 := 16#32
  let v177 : BitVec 32 := Scalar.remsi v176 c16_i32_147
  let c1_i32_151 : BitVec 32 := 1#32
  let v178 : BitVec 32 := Scalar.muli v177 c1_i32_151
  let v179 : BitVec 32 := Scalar.addi c0_i32_152 v178
  v179.toNat
def k0_dev26 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_155 : BitVec 32 := 11#32
  let v186 : BitVec 32 := Scalar.addi v2 c11_i32_155
  let c16_i32_156 : BitVec 32 := 16#32
  let v187 : BitVec 32 := Scalar.remsi v186 c16_i32_156
  let c1_i32_160 : BitVec 32 := 1#32
  let v188 : BitVec 32 := Scalar.muli v187 c1_i32_160
  let v189 : BitVec 32 := Scalar.addi c0_i32_161 v188
  v189.toNat
def k0_dev27 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_164 : BitVec 32 := 12#32
  let v196 : BitVec 32 := Scalar.addi v2 c12_i32_164
  let c16_i32_165 : BitVec 32 := 16#32
  let v197 : BitVec 32 := Scalar.remsi v196 c16_i32_165
  let c1_i32_169 : BitVec 32 := 1#32
  let v198 : BitVec 32 := Scalar.muli v197 c1_i32_169
  let v199 : BitVec 32 := Scalar.addi c0_i32_170 v198
  v199.toNat
def k0_dev28 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_173 : BitVec 32 := 13#32
  let v206 : BitVec 32 := Scalar.addi v2 c13_i32_173
  let c16_i32_174 : BitVec 32 := 16#32
  let v207 : BitVec 32 := Scalar.remsi v206 c16_i32_174
  let c1_i32_178 : BitVec 32 := 1#32
  let v208 : BitVec 32 := Scalar.muli v207 c1_i32_178
  let v209 : BitVec 32 := Scalar.addi c0_i32_179 v208
  v209.toNat
def k0_dev29 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_182 : BitVec 32 := 14#32
  let v216 : BitVec 32 := Scalar.addi v2 c14_i32_182
  let c16_i32_183 : BitVec 32 := 16#32
  let v217 : BitVec 32 := Scalar.remsi v216 c16_i32_183
  let c1_i32_187 : BitVec 32 := 1#32
  let v218 : BitVec 32 := Scalar.muli v217 c1_i32_187
  let v219 : BitVec 32 := Scalar.addi c0_i32_188 v218
  v219.toNat
def k0_dev30 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_191 : BitVec 32 := 15#32
  let v226 : BitVec 32 := Scalar.addi v2 c15_i32_191
  let c16_i32_192 : BitVec 32 := 16#32
  let v227 : BitVec 32 := Scalar.remsi v226 c16_i32_192
  let c1_i32_196 : BitVec 32 := 1#32
  let v228 : BitVec 32 := Scalar.muli v227 c1_i32_196
  let v229 : BitVec 32 := Scalar.addi c0_i32_197 v228
  v229.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  concatenates_S512x1_S512x1_S512x2_d1 : Shape.Concatenates [S512x1, S512x1] S512x2 1
  transposes_S512x2_p1_0_S2x512 : S512x2.Transposes [1, 0] S2x512
  slices_S2x512_o0_0_S1x128 : S2x512.Slices ![0, 0] S1x128
  slices_S2x512_o0_128_S1x128 : S2x512.Slices ![0, 128] S1x128
  slices_S2x512_o0_256_S1x128 : S2x512.Slices ![0, 256] S1x128
  slices_S2x512_o0_384_S1x128 : S2x512.Slices ![0, 384] S1x128
  slices_S2x512_o1_0_S1x128 : S2x512.Slices ![1, 0] S1x128
  slices_S2x512_o1_128_S1x128 : S2x512.Slices ![1, 128] S1x128
  slices_S2x512_o1_256_S1x128 : S2x512.Slices ![1, 256] S1x128
  slices_S2x512_o1_384_S1x128 : S2x512.Slices ![1, 384] S1x128
  concatenates_S1x128_S1x128_S1x128_S1x128_S1x128_S1x128_S1x128_S1x128_S8x128_d0 : Shape.Concatenates [S1x128, S1x128, S1x128, S1x128, S1x128, S1x128, S1x128, S1x128] S8x128 0
  inb_S8x128_S8x128_0_0 : ∀ a, (![0, 0] : Fin 2 → Nat) a + S8x128.size a ≤ S8x128.size a
  h_S8x128 : 0 < S8x128.numel
  shapeCasts_S8x128_S8x128 : S8x128.ShapeCasts S8x128
  hamt_15 : (15#32 : BitVec 32).msb = false
  inb_S15_S1_0 : ∀ a, (![0] : Fin 1 → Nat) a + S1.size a ≤ S15.size a
  squeezes_S1_S_ : S1.Squeezes S_
  inb_S15x8x128_S1x8x128_0_0_0 : ∀ a, (![0, 0, 0] : Fin 3 → Nat) a + S1x8x128.size a ≤ S15x8x128.size a
  squeezes_S1x8x128_S8x128 : S1x8x128.Squeezes S8x128
  inb_S15_S1_1 : ∀ a, (![1] : Fin 1 → Nat) a + S1.size a ≤ S15.size a
  inb_S15x8x128_S1x8x128_1_0_0 : ∀ a, (![1, 0, 0] : Fin 3 → Nat) a + S1x8x128.size a ≤ S15x8x128.size a
  inb_S15_S1_2 : ∀ a, (![2] : Fin 1 → Nat) a + S1.size a ≤ S15.size a
  inb_S15x8x128_S1x8x128_2_0_0 : ∀ a, (![2, 0, 0] : Fin 3 → Nat) a + S1x8x128.size a ≤ S15x8x128.size a
  inb_S15_S1_3 : ∀ a, (![3] : Fin 1 → Nat) a + S1.size a ≤ S15.size a
  inb_S15x8x128_S1x8x128_3_0_0 : ∀ a, (![3, 0, 0] : Fin 3 → Nat) a + S1x8x128.size a ≤ S15x8x128.size a
  inb_S15_S1_4 : ∀ a, (![4] : Fin 1 → Nat) a + S1.size a ≤ S15.size a
  inb_S15x8x128_S1x8x128_4_0_0 : ∀ a, (![4, 0, 0] : Fin 3 → Nat) a + S1x8x128.size a ≤ S15x8x128.size a
  inb_S15_S1_5 : ∀ a, (![5] : Fin 1 → Nat) a + S1.size a ≤ S15.size a
  inb_S15x8x128_S1x8x128_5_0_0 : ∀ a, (![5, 0, 0] : Fin 3 → Nat) a + S1x8x128.size a ≤ S15x8x128.size a
  inb_S15_S1_6 : ∀ a, (![6] : Fin 1 → Nat) a + S1.size a ≤ S15.size a
  inb_S15x8x128_S1x8x128_6_0_0 : ∀ a, (![6, 0, 0] : Fin 3 → Nat) a + S1x8x128.size a ≤ S15x8x128.size a
  inb_S15_S1_7 : ∀ a, (![7] : Fin 1 → Nat) a + S1.size a ≤ S15.size a
  inb_S15x8x128_S1x8x128_7_0_0 : ∀ a, (![7, 0, 0] : Fin 3 → Nat) a + S1x8x128.size a ≤ S15x8x128.size a
  inb_S15_S1_8 : ∀ a, (![8] : Fin 1 → Nat) a + S1.size a ≤ S15.size a
  inb_S15x8x128_S1x8x128_8_0_0 : ∀ a, (![8, 0, 0] : Fin 3 → Nat) a + S1x8x128.size a ≤ S15x8x128.size a
  inb_S15_S1_9 : ∀ a, (![9] : Fin 1 → Nat) a + S1.size a ≤ S15.size a
  inb_S15x8x128_S1x8x128_9_0_0 : ∀ a, (![9, 0, 0] : Fin 3 → Nat) a + S1x8x128.size a ≤ S15x8x128.size a
  inb_S15_S1_10 : ∀ a, (![10] : Fin 1 → Nat) a + S1.size a ≤ S15.size a
  inb_S15x8x128_S1x8x128_10_0_0 : ∀ a, (![10, 0, 0] : Fin 3 → Nat) a + S1x8x128.size a ≤ S15x8x128.size a
  inb_S15_S1_11 : ∀ a, (![11] : Fin 1 → Nat) a + S1.size a ≤ S15.size a
  inb_S15x8x128_S1x8x128_11_0_0 : ∀ a, (![11, 0, 0] : Fin 3 → Nat) a + S1x8x128.size a ≤ S15x8x128.size a
  inb_S15_S1_12 : ∀ a, (![12] : Fin 1 → Nat) a + S1.size a ≤ S15.size a
  inb_S15x8x128_S1x8x128_12_0_0 : ∀ a, (![12, 0, 0] : Fin 3 → Nat) a + S1x8x128.size a ≤ S15x8x128.size a
  inb_S15_S1_13 : ∀ a, (![13] : Fin 1 → Nat) a + S1.size a ≤ S15.size a
  inb_S15x8x128_S1x8x128_13_0_0 : ∀ a, (![13, 0, 0] : Fin 3 → Nat) a + S1x8x128.size a ≤ S15x8x128.size a
  inb_S15_S1_14 : ∀ a, (![14] : Fin 1 → Nat) a + S1.size a ≤ S15.size a
  inb_S15x8x128_S1x8x128_14_0_0 : ∀ a, (![14, 0, 0] : Fin 3 → Nat) a + S1x8x128.size a ≤ S15x8x128.size a
  inb_S15x8x128_S15x4x128_0_0_0 : ∀ a, (![0, 0, 0] : Fin 3 → Nat) a + S15x4x128.size a ≤ S15x8x128.size a
  h_S15x4x128 : 0 < S15x4x128.numel
  inb_S15x8x128_S15x4x128_0_4_0 : ∀ a, (![0, 4, 0] : Fin 3 → Nat) a + S15x4x128.size a ≤ S15x8x128.size a
  reduces_S15x4x128_S4x128 : S15x4x128.Reduces [0] S4x128
  inb_S8x128_S4x128_0_0 : ∀ a, (![0, 0] : Fin 2 → Nat) a + S4x128.size a ≤ S8x128.size a
  h_S4x128 : 0 < S4x128.numel
  inb_S8x128_S4x128_4_0 : ∀ a, (![4, 0] : Fin 2 → Nat) a + S4x128.size a ≤ S8x128.size a
  shapeCasts_S4x128_S1x4x128 : S4x128.ShapeCasts S1x4x128
  broadcasts_S1x4x128_S15x4x128 : S1x4x128.Broadcasts S15x4x128
  slices_S4x128_o0_0_S1x128 : S4x128.Slices ![0, 0] S1x128
  slices_S4x128_o1_0_S1x128 : S4x128.Slices ![1, 0] S1x128
  slices_S4x128_o2_0_S1x128 : S4x128.Slices ![2, 0] S1x128
  slices_S4x128_o3_0_S1x128 : S4x128.Slices ![3, 0] S1x128
  concatenates_S1x128_S1x128_S1x128_S1x128_S1x512_d1 : Shape.Concatenates [S1x128, S1x128, S1x128, S1x128] S1x512 1
  concatenates_S1x512_S1x512_S2x512_d0 : Shape.Concatenates [S1x512, S1x512] S2x512 0
  transposes_S2x512_p1_0_S512x2 : S2x512.Transposes [1, 0] S512x2
  slices_S512x2_o0_0_S512x1 : S512x2.Slices ![0, 0] S512x1
  slices_S512x2_o0_1_S512x1 : S512x2.Slices ![0, 1] S512x1
  hcc0_scratch3 : 1 + S15.numel ≤ 32
  hcc0_scratch4 : 16 + S15.numel ≤ 32
  hcc0_scratch5 : 31 + S_.numel ≤ 32
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole

variable [Facts₀]

abbrev cc0_scratch3 : DmaSems sig S15 := SemArray.consecutive 1 S15 hcc0_scratch3
abbrev cc0_scratch4 : DmaSems sig S15 := SemArray.consecutive 16 S15 hcc0_scratch4
abbrev cc0_scratch5 : DmaSems sig S_ := SemArray.consecutive 31 S_ hcc0_scratch5

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S512x4096 : Shape := ⟨2, ![512, 4096]⟩
abbrev S_ : Shape := ⟨0, ![]⟩
abbrev S512 : Shape := ⟨1, ![512]⟩
abbrev S512x1 : Shape := ⟨2, ![512, 1]⟩

abbrev nBuf : Space → Nat
  | .hbm => 12
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S_, .f32⟩
  | .hbm, ⟨2, _⟩ => ⟨S512, .f32⟩
  | .hbm, ⟨3, _⟩ => ⟨S512x1, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x4096, .f32⟩
  | .hbm, ⟨11, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S512x4096_S512_d1 : S512x4096.ReducesTo [1] S512
  h_S_ : 0 < S_.numel
  bcast_S512_S512x1_0 : S512.BroadcastsInDim S512x1 (![0] : Fin 1 → Fin S512x1.rank)
  bcast_S512x1_S512x4096_0_1 : S512x1.BroadcastsInDim S512x4096 (![0, 1] : Fin 2 → Fin S512x4096.rank)

variable [Facts₀]

class Facts : Prop extends Facts₀ where

variable [Facts]
-- ==== Proof.Ring16.lean ====
/-
  The ring of sixteen devices: the device a given number of places ahead of, or behind, another one.
-/
import Mathlib.Data.Fin.Basic
import Mathlib.Tactic.DeriveFintype

namespace Cert.Ring16

/-- The device `k + 1` places ahead of `c` on the ring of sixteen. -/
def fwd (c : Fin 16) (k : Fin 15) : Fin 16 := ⟨(c.val + k.val + 1) % 16, Nat.mod_lt _ (by decide)⟩
/-- The device `k + 1` places behind `c`. -/
def bwd (c : Fin 16) (k : Fin 15) : Fin 16 := ⟨(c.val + 15 - k.val) % 16, Nat.mod_lt _ (by decide)⟩
/-- The offset that leads back: `k + 1` and `opp k + 1` add up to sixteen. -/
def opp (k : Fin 15) : Fin 15 := ⟨14 - k.val, by omega⟩

theorem bwd_fwd (c : Fin 16) (k : Fin 15) : bwd (fwd c k) k = c := by revert c k; decide
theorem fwd_bwd (c : Fin 16) (k : Fin 15) : fwd (bwd c k) k = c := by revert c k; decide
theorem fwd_opp (c : Fin 16) (k : Fin 15) : fwd c (opp k) = bwd c k := by revert c k; decide
theorem bwd_opp (c : Fin 16) (k : Fin 15) : bwd c (opp k) = fwd c k := by revert c k; decide
theorem opp_opp (k : Fin 15) : opp (opp k) = k := by revert k; decide
theorem fwd_ne (c : Fin 16) (k : Fin 15) : fwd c k ≠ c := by revert c k; decide
theorem bwd_ne (c : Fin 16) (k : Fin 15) : bwd c k ≠ c := by revert c k; decide
theorem fwd_inj (c : Fin 16) (k k' : Fin 15) (h : fwd c k = fwd c k') : k = k' := by revert c k k'; decide
theorem bwd_inj (c : Fin 16) (k k' : Fin 15) (h : bwd c k = bwd c k') : k = k' := by revert c k k'; decide
/-- Every device other than `c` is some number of places behind it. -/
theorem exists_bwd (c d : Fin 16) (h : d ≠ c) : ∃ k : Fin 15, bwd c k = d := by revert c d; decide
theorem exists_fwd (c d : Fin 16) (h : d ≠ c) : ∃ k : Fin 15, fwd c k = d := by revert c d; decide

end Cert.Ring16
-- ==== Proof.Spec.lean ====
/-
  What one device computes, as pure functions of the sixteen column blocks of `x`.

  Device `c` holds the block `x_c` of 256 columns. From it it forms a tile of statistics, eight rows of 128 lanes:
  rows 0–3 hold the 512 row maxima `m_c` (row `r` of the tile holds entries `128 r … 128 r + 127`), rows 4–7 the
  512 row sums `s_c = Σ_j exp (x_c[i, j] - m_c[i])` laid out the same way. Every device sends its tile to every other
  one: slot `k` of device `c`'s receive buffer ends holding the tile of the device `k + 1` places behind it on
  the ring of sixteen. From its own tile and the fifteen received ones the device forms the global row maximum
  `M = max_d m_d` and the global row sum `S = Σ_d s_d · exp (m_d - M)`, and stores
  `exp (x_c - m_c) · (exp (m_c - M) / S)`.
-/
import proofs.«901065_g7700000000001066_dist_softmax_colshard_i_m512_n256_v7x_i16_f32_1_alg».proof.Proof.Gen.KernelIdeal.Skeleton
import Idealize.ShloMosaic.Lib.ValueIdx
import proofs.«901065_g7700000000001066_dist_softmax_colshard_i_m512_n256_v7x_i16_f32_1_alg».proof.Proof.Ring16

noncomputable section

namespace Cert.KernelIdeal.Spec

open Idealize.ShloMosaic Idealize.ShloMosaic.ValueIdx
open Cert.KernelIdeal Cert.KernelIdeal.Gen Cert.Ring16

variable {F : FTy → Type} [FloatOps F]

/-- The statistics tile of a block: rows 0–3 its row maxima, rows 4–7 its row sums of `exp (x - max)`. -/
def stats (x : Vec F S512x256 .f32) : FVec F S8x128 .f32 :=
  k0_pay10 (k0_pay2 x) (k0_pay3 x) (k0_pay4 x) (k0_pay5 x) (k0_pay6 x) (k0_pay7 x) (k0_pay8 x) (k0_pay9 x)

/-- Device `c`'s receive buffer once every tile has landed: slot `k` holds the tile of the device `k + 1` behind. -/
def comm (xs : Dev nD → Vec F S512x256 .f32) (c : Dev nD) : Vec F S15x8x128 .f32 :=
  fun i => stats (xs (bwd c (i 0))) (ix2 (i 1) (i 2))

/-- Rows 0–3 of every slot: the peers' maxima. -/
def peerMax (cm : Vec F S15x8x128 .f32) : Vec F S15x4x128 .f32 :=
  fun i => cm (ix3 (n0 := 15) (n1 := 8) (n2 := 128) (i 0) ⟨(i 1).val, Nat.lt_of_lt_of_le (i 1).isLt (by decide)⟩ (i 2))
/-- Rows 4–7 of every slot: the peers' sums. -/
def peerSum (cm : Vec F S15x8x128 .f32) : Vec F S15x4x128 .f32 :=
  fun i => cm (ix3 (n0 := 15) (n1 := 8) (n2 := 128) (i 0) ⟨(i 1).val + 4, by have h : (i 1).val < 4 := (i 1).isLt; omega⟩ (i 2))
/-- Rows 0–3 of the device's own tile: its maxima. -/
def ownMax (st : Vec F S8x128 .f32) : Vec F S4x128 .f32 :=
  fun i => st (ix2 (n0 := 8) (n1 := 128) ⟨(i 0).val, Nat.lt_of_lt_of_le (i 0).isLt (by decide)⟩ (i 1))
/-- Rows 4–7 of the device's own tile: its sums. -/
def ownSum (st : Vec F S8x128 .f32) : Vec F S4x128 .f32 :=
  fun i => st (ix2 (n0 := 8) (n1 := 128) ⟨(i 0).val + 4, by have h : (i 0).val < 4 := (i 0).isLt; omega⟩ (i 1))

/-- What device `c` stores as its block of the result. -/
def out (xs : Dev nD → Vec F S512x256 .f32) (c : Dev nD) : FVec F S512x256 .f32 :=
  k0_pay13 (k0_pay1 (xs c)) (k0_pay11 (xs c) (k0_pay1 (xs c))) (peerMax (comm xs c)) (peerSum (comm xs c))
    (k0_pay12 (peerMax (comm xs c)) (ownMax (stats (xs c)))) (ownSum (stats (xs c))) (ownMax (stats (xs c)))

end Cert.KernelIdeal.Spec

end
-- ==== Proof.Views.lean ====
/-
  The kernel's buffers and semaphores by name, and how its loads, its store and its transfers read and write them:
  slot `k` of the receive buffer is rows `[k, k + 1)` of a 15 × 8 × 128 array; the fifteen slots are pairwise disjoint
  and cover it; a tile written into slot `k` is read back at `(k, r, l)`.
-/
import proofs.«901065_g7700000000001066_dist_softmax_colshard_i_m512_n256_v7x_i16_f32_1_alg».proof.Proof.Spec
import proofs.«901065_g7700000000001066_dist_softmax_colshard_i_m512_n256_v7x_i16_f32_1_alg».proof.Proof.Gen.KernelIdeal
import proofs.«901065_g7700000000001066_dist_softmax_colshard_i_m512_n256_v7x_i16_f32_1_alg».proof.Proof.Gen.KernelIdeal.Skeleton
import Idealize.ShloMosaic.Lib.Pipeline.Value
import Idealize.ShloMosaic.Lib.ValueIdx

noncomputable section

namespace Cert.KernelIdeal.Views

open Idealize.ShloMosaic Idealize.ShloMosaic.ValueIdx
open Cert.KernelIdeal Cert.KernelIdeal.Gen Cert.Ring16

variable {F : FTy → Type} [FloatOps F]

/-! ## The buffers -/

/-- The result's staging buffer, the copy of the block in vector memory, the statistics tile, the receive buffer, and
    the block itself in main memory. -/
abbrev oM : Memref sig .tc .vmem S512x256 .f32 := Memref.whole cc0_stg0_0
abbrev xvM : Memref sig .tc .vmem S512x256 .f32 := Memref.whole cc0_scratch0
abbrev stM : Memref sig .tc .vmem S8x128 .f32 := Memref.whole cc0_scratch1
abbrev cmM : Memref sig .tc .vmem S15x8x128 .f32 := Memref.whole cc0_scratch2
abbrev xM : Memref sig .tc .hbm S512x256 .f32 := Memref.whole main_arg0

theorem slot_inb (k : Fin 15) : ∀ a, (![k.val, 0, 0] : Fin 3 → Nat) a + S1x8x128.size a ≤ S15x8x128.size a := fun a =>
  match a with
  | ⟨0, _⟩ => by show k.val + 1 ≤ 15; omega
  | ⟨1, _⟩ => by show 0 + 8 ≤ 8; omega
  | ⟨2, _⟩ => by show 0 + 128 ≤ 128; omega
theorem sem_inb (k : Fin 15) : ∀ a, (![k.val] : Fin 1 → Nat) a + S1.size a ≤ S15.size a := fun a =>
  match a with
  | ⟨0, _⟩ => by show k.val + 1 ≤ 15; omega

/-- Slot `k` of the receive buffer, as an 8 × 128 tile. -/
abbrev slotM (k : Fin 15) : Memref sig .tc .vmem S8x128 .f32 :=
  (cmM.slice (Rect.unit (s := S15x8x128) ![k.val, 0, 0] S1x8x128.size (slot_inb k)) (fun _ => rfl)).squeeze S8x128 squeezes_S1x8x128_S8x128

/-! ## The semaphores -/

/-- The runtime's barrier semaphore; the `k`-th send and receive semaphores; the semaphore of the block's copy. -/
abbrev barS : Sem sig := (SemArray.scalar (sig.barrier 0 rfl) : Sems sig S_).sem
abbrev sendA (k : Fin 15) : DmaSems sig S_ := (cc0_scratch3.slice (Rect.unit (s := S15) ![k.val] S1.size (sem_inb k))).squeeze S_ squeezes_S1_S_
abbrev recvA (k : Fin 15) : DmaSems sig S_ := (cc0_scratch4.slice (Rect.unit (s := S15) ![k.val] S1.size (sem_inb k))).squeeze S_ squeezes_S1_S_
abbrev loadA : DmaSems sig S_ := cc0_scratch5

/-- The semaphores by number: the staging semaphore is 0, the send semaphores 1–15, the receive semaphores 16–30, the
    copy's 31. -/
theorem sendA_val (k : Fin 15) : ((sendA k).sem : DmaSem sig).val = 1 + k.val := by
  revert k; decide
theorem recvA_val (k : Fin 15) : ((recvA k).sem : DmaSem sig).val = 16 + k.val := by
  revert k; decide
theorem loadA_val : (loadA.sem : DmaSem sig).val = 31 := by
  decide

/-! ## The slots of the receive buffer -/

/-- The elements of slot `k`: the indices whose first coordinate is `k`. -/
theorem mem_slot_set (k : Fin 15) (i : S15x8x128.Idx) : i ∈ (slotM k).view.set ↔ (i 0).val = k.val := by
  -- a squeeze keeps the element set; the slice's elements are the rectangle's: first coordinate in [k, k + 1), the other two free
  have hs : (slotM k).view.set = (Rect.unit (s := S15x8x128) ![k.val, 0, 0] S1x8x128.size (slot_inb k)).set :=
    (View.set_reshape _ _).trans (View.set_slice_whole cc0_scratch2 _)
  rw [hs, Rect.mem_set_unit]
  constructor
  · intro h
    have h0 := h ⟨0, by decide⟩
    have h1 : k.val ≤ (i 0).val ∧ (i 0).val < k.val + 1 := h0
    omega
  · intro h a
    match a with
    | ⟨0, _⟩ => show k.val ≤ (i 0).val ∧ (i 0).val < k.val + 1; omega
    | ⟨1, _⟩ => show 0 ≤ (i 1).val ∧ (i 1).val < 0 + 8; have := (i 1).isLt; exact ⟨Nat.zero_le _, by simpa using this⟩
    | ⟨2, _⟩ => show 0 ≤ (i 2).val ∧ (i 2).val < 0 + 128; have := (i 2).isLt; exact ⟨Nat.zero_le _, by simpa using this⟩

theorem slot_disjoint (k k' : Fin 15) (h : k ≠ k') : Disjoint (slotM k).view.set (slotM k').view.set := by
  -- an element of both slots would have first coordinate k and k'
  rw [Finset.disjoint_left]
  intro i h1 h2
  exact h (Fin.ext (((mem_slot_set k i).mp h1).symm.trans ((mem_slot_set k' i).mp h2)))

theorem slot_cover : (Finset.univ : Finset (Fin 15)).biUnion (fun k => (slotM k).view.set) = (Finset.univ : Finset S15x8x128.Idx) := by
  -- every index lies in the slot its first coordinate names
  ext i
  simp only [Finset.mem_biUnion, Finset.mem_univ, true_and, iff_true]
  exact ⟨⟨(i 0).val, (i 0).isLt⟩, (mem_slot_set _ i).mpr rfl⟩

/-- A tile `st` written whole into slot `k` over any contents `fd`: at an element `(k, r, l)` of the slot the
    buffer holds `st (r, l)`. -/
theorem write_slot (k : Fin 15) (fd : Vec F S15x8x128 .f32) (st : Vec F S8x128 .f32) (i : S15x8x128.Idx)
    (hi : i ∈ (slotM k).view.set) :
    (slotM k).view.write (Elt F) fd ((stM : Memref sig .tc .vmem S8x128 .f32).view.read (Elt F) st) Finset.univ i
      = st (ix2 (n0 := 8) (n1 := 128) (i 1) (i 2)) := by
  have hk : (i 0).val = k.val := (mem_slot_set k i).mp hi
  -- the tile's index (r, l) sits at (k, r, l): the squeeze puts it behind the coordinate 0, the slice adds the offsets (k, 0, 0)
  have hy : (slotM k).view.emb (ix2 (n0 := 8) (n1 := 128) (i 1) (i 2)) = i := by
    funext a
    apply Fin.ext
    show ((Rect.unit (s := S15x8x128) ![k.val, 0, 0] S1x8x128.size (slot_inb k)).emb
      (Shape.reshapeEquiv squeezes_S1x8x128_S8x128.numel_eq (ix2 (n0 := 8) (n1 := 128) (i 1) (i 2))) a : Nat) = (i a).val
    rw [Rect.emb_apply, Shape.reshapeEquiv_cons_one]
    match a with
    | ⟨0, _⟩ => show k.val + 1 * 0 = (i 0).val; omega
    | ⟨1, _⟩ => show 0 + 1 * (i 1).val = (i 1).val; omega
    | ⟨2, _⟩ => show 0 + 1 * (i 2).val = (i 2).val; omega
  have hw := View.write_emb_of_mem (v := (slotM k).view) (Val := Elt F) fd
    ((stM : Memref sig .tc .vmem S8x128 .f32).view.read (Elt F) st) (M := Finset.univ)
    (x := ix2 (n0 := 8) (n1 := 128) (i 1) (i 2)) (Finset.mem_univ _)
  rw [hy] at hw
  rw [hw]
  rfl

/-! ## The loads and the stores -/

/-- The two loads of the receive buffer: rows 0–3 and rows 4–7 of every slot. -/
theorem read_peerMax (f : Vec F S15x8x128 .f32) :
    (cmM : Memref sig .tc .vmem S15x8x128 .f32).view.readAt (Elt F)
      (Rect.unit (s := S15x8x128) ![0, 0, 0] S15x4x128.size inb_S15x8x128_S15x4x128_0_0_0).toLoadRect f = Spec.peerMax f := by
  -- the load reads the element at offset + coordinate on each axis
  funext x
  show f ((Rect.unit (s := S15x8x128) ![0, 0, 0] S15x4x128.size inb_S15x8x128_S15x4x128_0_0_0).toLoadRect.idx x) = _
  unfold Spec.peerMax
  refine congrArg f ?_
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem read_peerSum (f : Vec F S15x8x128 .f32) :
    (cmM : Memref sig .tc .vmem S15x8x128 .f32).view.readAt (Elt F)
      (Rect.unit (s := S15x8x128) ![0, 4, 0] S15x4x128.size inb_S15x8x128_S15x4x128_0_4_0).toLoadRect f = Spec.peerSum f := by
  -- the load reads the element at offset + coordinate on each axis
  funext x
  show f ((Rect.unit (s := S15x8x128) ![0, 4, 0] S15x4x128.size inb_S15x8x128_S15x4x128_0_4_0).toLoadRect.idx x) = _
  unfold Spec.peerSum
  refine congrArg f ?_
  funext a
  apply Fin.ext
  match a with
  | ⟨0, _⟩ => show 0 + 1 * (x 0).val = (x 0).val; omega
  | ⟨1, _⟩ => show 4 + 1 * (x 1).val = (x 1).val + 4; omega
  | ⟨2, _⟩ => show 0 + 1 * (x 2).val = (x 2).val; omega
/-- The loads of the statistics tile: rows 0–3 and rows 4–7. -/
theorem read_ownMax (f : Vec F S8x128 .f32) :
    (stM : Memref sig .tc .vmem S8x128 .f32).view.readAt (Elt F)
      (Rect.unit (s := S8x128) ![0, 0] S4x128.size inb_S8x128_S4x128_0_0).toLoadRect f = Spec.ownMax f := by
  -- the load reads the element at offset + coordinate on each axis
  funext x
  show f ((Rect.unit (s := S8x128) ![0, 0] S4x128.size inb_S8x128_S4x128_0_0).toLoadRect.idx x) = _
  unfold Spec.ownMax
  refine congrArg f ?_
  funext a
  apply Fin.ext
  match a with
  | ⟨0, _⟩ => show 0 + 1 * (x 0).val = (x 0).val; omega
  | ⟨1, _⟩ => show 0 + 1 * (x 1).val = (x 1).val; omega
theorem read_ownSum (f : Vec F S8x128 .f32) :
    (stM : Memref sig .tc .vmem S8x128 .f32).view.readAt (Elt F)
      (Rect.unit (s := S8x128) ![4, 0] S4x128.size inb_S8x128_S4x128_4_0).toLoadRect f = Spec.ownSum f := by
  -- the load reads the element at offset + coordinate on each axis
  funext x
  show f ((Rect.unit (s := S8x128) ![4, 0] S4x128.size inb_S8x128_S4x128_4_0).toLoadRect.idx x) = _
  unfold Spec.ownSum
  refine congrArg f ?_
  funext a
  apply Fin.ext
  match a with
  | ⟨0, _⟩ => show 4 + 1 * (x 0).val = (x 0).val + 4; omega
  | ⟨1, _⟩ => show 0 + 1 * (x 1).val = (x 1).val; omega

end Cert.KernelIdeal.Views

end
-- ==== Proof.Proto.lean ====
/-
  The protocol of the sixteen devices, as a schedule of rounds.

  Every device signals the barrier semaphore of the fifteen others once, then waits for fifteen units on its own: a
  device past that wait knows every other device is inside the kernel. With its signal to the device `k + 1` places
  ahead it hands over the slot of its own receive buffer that device will write, slot `opp k`. It then sends its
  statistics tile into slot `k` of the device `k + 1` ahead, for every `k`; the transfer completes on the sender's
  `k`-th send semaphore, once the tile has been read, and on the receiver's `k`-th receive semaphore, once the slot
  holds the tile. All cells have one round. A barrier cell has fifteen duties of one unit, duty `k` paid by the device
  `k + 1` places behind; a send, a receive and the copy's cell have the one duty `0` of the transfer's credit.
  Levels: receive cells above barrier cells above the rest, so that a device waits on its barrier while it still owes
  its fifteen transfers, and on everything else owing what it owes.
-/
import proofs.«901065_g7700000000001066_dist_softmax_colshard_i_m512_n256_v7x_i16_f32_1_alg».proof.Proof.Views
import proofs.«901065_g7700000000001066_dist_softmax_colshard_i_m512_n256_v7x_i16_f32_1_alg».proof.Proof.Gen.KernelIdeal.Launch
import proofs.«901065_g7700000000001066_dist_softmax_colshard_i_m512_n256_v7x_i16_f32_1_alg».proof.Proof.Gen.KernelIdeal.Points
import Idealize.ShloMosaic.Lib.Pipeline.Launch
import Idealize.ShloMosaic.Lib.Pipeline.Kit
import Idealize.ShloMosaic.Lib.Tactic
import Mathlib.Tactic.DeriveFintype

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

/-! ## The resource algebra: the pipeline library's copy and the protocol's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barCell (c : Dev nD) : GSem nD τ sig := ((c : Thread nD τ), .reg barS)
abbrev sendCell (c : Dev nD) (k : Fin 15) : GSem nD τ sig := ((c : Thread nD τ), .dma (sendA k).sem)
abbrev recvCell (c : Dev nD) (k : Fin 15) : GSem nD τ sig := ((c : Thread nD τ), .dma (recvA k).sem)
abbrev loadCell (c : Dev nD) : GSem nD τ sig := ((c : Thread nD τ), .dma loadA.sem)

/-- The cells of one device by kind. -/
inductive CK where
  | bar
  | send (k : Fin 15)
  | recv (k : Fin 15)
  | load
  deriving DecidableEq, Fintype

abbrev csem : CK → SemLoc sig
  | .bar => .reg barS
  | .send k => .dma (sendA k).sem
  | .recv k => .dma (recvA k).sem
  | .load => .dma loadA.sem
abbrev kcell (ck : Dev nD × CK) : GSem nD τ sig := ((ck.1 : Thread nD τ), csem ck.2)

/-- The credit of a tile's transfer and of the block's copy. -/
abbrev N : ℕ := (stM : Memref sig .tc .vmem S8x128 .f32).view.dmaCredit
abbrev Nx : ℕ := (xvM : Memref sig .tc .vmem S512x256 .f32).view.dmaCredit
theorem N_pos : 0 < N := View.dmaCredit_pos _ (by decide)
theorem Nx_pos : 0 < Nx := View.dmaCredit_pos _ (by decide)

/-! ## Contents -/

/-- Device `c`'s block of `x`, its statistics tile, its receive buffer once filled, and its block of the result. -/
def xin (c : Dev nD) : Vec F S512x256 .f32 := m ((c : Thread nD τ).loc main_arg0)
def statsV (c : Dev nD) : Vec F S8x128 .f32 := Spec.stats (xin m c)
def commV (c : Dev nD) : Vec F S15x8x128 .f32 := Spec.comm (xin m) c
def outV (c : Dev nD) : Vec F S512x256 .f32 := Spec.out (xin m) c

/-! ## Shares of the statistics tile: one piece per transfer, the rest kept for the loads -/

/-- What is left of the full share after `n` pieces have been split off. -/
def rem : ℕ → PosShare TreeShare
  | 0 => fullShare
  | n + 1 => (rem n).right
/-- The `n`-th piece. -/
def piece (n : ℕ) : PosShare TreeShare := (rem n).left

theorem rem_split (n : ℕ) : rem n ∈ piece n ·? rem (n + 1) := PosShare.mem_left_op_right (rem n)

/-! ## Points-to assertions -/

/-- The statistics tile at share `q`, holding the device's statistics. -/
def stPts (c : Dev nD) (q : PosShare TreeShare) : sProp 𝕄 :=
  (stM : Memref sig .tc .vmem S8x128 .f32).view.loc (c : Thread nD τ) ↦[(stM : Memref sig .tc .vmem S8x128 .f32).view.set]{q} statsV m c
/-- Slot `k` of the receive buffer at contents `f`. -/
def slotPts (c : Dev nD) (k : Fin 15) (f : Buf (Elt F) ((slotM k).view.loc (c : Thread nD τ))) : sProp 𝕄 :=
  (slotM k).view.loc (c : Thread nD τ) ↦[(slotM k).view.set]{fullShare} f
/-- The block's copy in vector memory and the block itself, both holding the block. -/
def xvPts (c : Dev nD) : sProp 𝕄 :=
  (xvM : Memref sig .tc .vmem S512x256 .f32).view.loc (c : Thread nD τ) ↦[(xvM : Memref sig .tc .vmem S512x256 .f32).view.set]{fullShare} xin m c
def xPts (c : Dev nD) : sProp 𝕄 :=
  (xM : Memref sig .tc .hbm S512x256 .f32).view.loc (c : Thread nD τ) ↦[(xM : Memref sig .tc .hbm S512x256 .f32).view.set]{fullShare} xin m c

instance stPts_storable (c : Dev nD) (q) : BI.Storable (upEmb : UEmb _ 𝕄) (stPts (F := F) m c q) := by unfold stPts; infer_instance
omit [FloatOps F] in
instance slotPts_storable (c : Dev nD) (k) (f) : BI.Storable (upEmb : UEmb _ 𝕄) (slotPts (F := F) c k f) := by unfold slotPts; infer_instance
omit [FloatOps F] in
instance xvPts_storable (c : Dev nD) : BI.Storable (upEmb : UEmb _ 𝕄) (xvPts (F := F) m c) := by unfold xvPts; infer_instance
omit [FloatOps F] in
instance xPts_storable (c : Dev nD) : BI.Storable (upEmb : UEmb _ 𝕄) (xPts (F := F) m c) := by unfold xPts; infer_instance

/-! ## The schedule -/

/-- What the signal of the device `d + 1` places behind `c` (duty `d` of `c`'s barrier cell) hands `c`: that
    device's slot `opp d`, which `c` will fill, and that it has reached round 0 of the slot's receive cell. -/
def barPay (c : Dev nD) (d : Fin 15) : sProp 𝕄 :=
  iprop((∃ f, slotPts (bwd c d) (opp d) f) ∗ reached ER (recvCell (bwd c d) (opp d)) 0)
/-- A send cell's landing gives back the piece of the statistics tile lent to the transfer. -/
def sendPay (c : Dev nD) (k : Fin 15) : sProp 𝕄 := stPts m c (piece k.val)
/-- A receive cell's landing: slot `k` holds what the filled buffer holds there. -/
def recvPay (c : Dev nD) (k : Fin 15) : sProp 𝕄 := slotPts c k (commV m c)
/-- The copy's landing: the vector-memory copy holds the block, and the block comes back. -/
def loadPay (c : Dev nD) : sProp 𝕄 := iprop(xvPts m c ∗ xPts m c)

/-- One round, round 0. -/
def Rd : Rounds.Schedule (GSem nD τ sig) (Fin 15) 𝕄 where
  duties g r := if r = 0 ∧ g.1.2 = .tc then
      (match g.2 with
        | .reg _ => Finset.univ
        | .dma s => if 1 ≤ s.val then {0} else ∅)
    else ∅
  unitless _ := False
  amount g _ _ := match g.2 with
    | .reg _ => 1
    | .dma s => if s.val = 31 then Nx else N
  payload g _ d := match g.2 with
    | .reg _ => barPay g.1.1 d
    | .dma s =>
      if h : 1 ≤ s.val ∧ s.val ≤ 15 then sendPay m g.1.1 ⟨s.val - 1, by omega⟩
      else if h : 16 ≤ s.val ∧ s.val ≤ 30 then recvPay m g.1.1 ⟨s.val - 16, by omega⟩
      else if s.val = 31 then loadPay m g.1.1 else iprop(emp)
  amount_pos g _ _ _ := by
    cases g.2 with
    | reg _ => exact Nat.one_pos
    | dma s => dsimp only; split; exact Nx_pos; exact N_pos

instance Rd_payload_storable (g : GSem nD τ sig) (r : ℕ) (d : Fin 15) :
    BI.Storable (upEmb : UEmb _ 𝕄) ((Rd (F := F) m).payload g r d) := by
  unfold Rd
  dsimp only
  cases g.2 with
  | reg _ => dsimp only; unfold barPay; infer_instance
  | dma s => dsimp only; unfold sendPay recvPay loadPay; (repeat' split) <;> infer_instance

section Sched
variable (c : Dev nD) (k : Fin 15)

theorem duties_bar : (Rd (F := F) m).duties (barCell c) 0 = Finset.univ := by dsimp only [Rd]; rw [if_pos ⟨rfl, rfl⟩]
theorem duties_send : (Rd (F := F) m).duties (sendCell c k) 0 = {0} := by
  dsimp only [Rd]; rw [if_pos ⟨rfl, rfl⟩, if_pos (by rw [sendA_val]; omega)]
theorem duties_recv : (Rd (F := F) m).duties (recvCell c k) 0 = {0} := by
  dsimp only [Rd]; rw [if_pos ⟨rfl, rfl⟩, if_pos (by rw [recvA_val]; omega)]
theorem duties_load : (Rd (F := F) m).duties (loadCell c) 0 = {0} := by
  dsimp only [Rd]; rw [if_pos ⟨rfl, rfl⟩, if_pos (by rw [loadA_val]; omega)]
theorem duties_later (g : GSem nD τ sig) : ∀ r, 1 ≤ r → (Rd (F := F) m).duties g r = ∅ :=
  fun r hr => by dsimp only [Rd]; rw [if_neg fun h => by omega]

theorem amount_bar (d : Fin 15) : (Rd (F := F) m).amount (barCell c) 0 d = 1 := rfl
theorem amount_send (d : Fin 15) : (Rd (F := F) m).amount (sendCell c k) 0 d = N := by
  dsimp only [Rd]; rw [if_neg (by rw [sendA_val]; omega)]
theorem amount_recv (d : Fin 15) : (Rd (F := F) m).amount (recvCell c k) 0 d = N := by
  dsimp only [Rd]; rw [if_neg (by rw [recvA_val]; omega)]
theorem amount_load (d : Fin 15) : (Rd (F := F) m).amount (loadCell c) 0 d = Nx := by
  dsimp only [Rd]; rw [if_pos loadA_val]

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c k) 0 = N := by
  unfold Schedule.expect Schedule.amountOf; rw [duties_send, Finset.sum_singleton, amount_send]
theorem expect_recv : (Rd (F := F) m).expect (recvCell c k) 0 = N := by
  unfold Schedule.expect Schedule.amountOf; rw [duties_recv, Finset.sum_singleton, amount_recv]
theorem expect_load : (Rd (F := F) m).expect (loadCell c) 0 = Nx := by
  unfold Schedule.expect Schedule.amountOf; rw [duties_load, Finset.sum_singleton, amount_load]

theorem payload_bar (d : Fin 15) : (Rd (F := F) m).payload (barCell c) 0 d = barPay c d := rfl
theorem payload_send (d : Fin 15) : (Rd (F := F) m).payload (sendCell c k) 0 d = sendPay m c k := by
  dsimp only [Rd]
  rw [dif_pos (by rw [sendA_val]; omega)]
  congr 1; exact Fin.ext (by simp only [sendA_val]; omega)
theorem payload_recv (d : Fin 15) : (Rd (F := F) m).payload (recvCell c k) 0 d = recvPay m c k := by
  dsimp only [Rd]
  rw [dif_neg (by rw [recvA_val]; omega), dif_pos (by rw [recvA_val]; omega)]
  congr 1; exact Fin.ext (by simp only [recvA_val]; omega)
theorem payload_load (d : Fin 15) : (Rd (F := F) m).payload (loadCell c) 0 d = loadPay m c := by
  dsimp only [Rd]
  rw [dif_neg (by rw [loadA_val]; omega), dif_neg (by rw [loadA_val]; omega), if_pos loadA_val]

/-- The rest of a one-duty cell's round, no duty taken: its payload. -/
theorem rest_send : bigSep ((Rd (F := F) m).duties (sendCell c k) 0 \ ∅) (fun d => (Rd (F := F) m).payload (sendCell c k) 0 d) = sendPay m c k := by
  rw [Finset.sdiff_empty, duties_send, bigSep_singleton, payload_send]
theorem rest_recv : bigSep ((Rd (F := F) m).duties (recvCell c k) 0 \ ∅) (fun d => (Rd (F := F) m).payload (recvCell c k) 0 d) = recvPay m c k := by
  rw [Finset.sdiff_empty, duties_recv, bigSep_singleton, payload_recv]
theorem rest_load : bigSep ((Rd (F := F) m).duties (loadCell c) 0 \ ∅) (fun d => (Rd (F := F) m).payload (loadCell c) 0 d) = loadPay m c := by
  rw [Finset.sdiff_empty, duties_load, bigSep_singleton, payload_load]
/-- The rest of the barrier cell's round, no duty taken: all fifteen payloads. -/
theorem rest_bar : bigSep ((Rd (F := F) m).duties (barCell c) 0 \ ∅) (fun d => (Rd (F := F) m).payload (barCell c) 0 d)
    = bigSep Finset.univ (fun d : Fin 15 => barPay (F := F) c d) := by
  rw [Finset.sdiff_empty, duties_bar]; rfl

end Sched

/-! ## What each device owes at launch; the levels -/

/-- The receive credits device `c` still owes once its first `n` transfers are issued. -/
def owedRecv (c : Dev nD) (n : ℕ) : CellTallies nD τ sig Unit :=
  ∑ k ∈ (Finset.univ : Finset (Fin 15)).filter (fun k => n ≤ k.val), tallyAt (recvCell (fwd c k) k) () N
/-- The barrier units device `c` still owes once its first `n` signals are sent. -/
def owedBar (c : Dev nD) (n : ℕ) : CellTallies nD τ sig Unit :=
  ∑ k ∈ (Finset.univ : Finset (Fin 15)).filter (fun k => n ≤ k.val), tallyAt (barCell (fwd c k)) () 1
/-- At launch: fifteen receive credits and fifteen barrier units. -/
def O₀ (c : Dev nD) : CellTallies nD τ sig Unit := owedRecv c 0 + owedBar c 0

theorem owedBar_peel (c : Dev nD) (k : Fin 15) : owedBar c k.val = owedBar c (k.val + 1) + tallyAt (barCell (fwd c k)) () 1 := by
  unfold owedBar
  have h : (Finset.univ : Finset (Fin 15)).filter (fun j => k.val ≤ j.val)
      = insert k ((Finset.univ : Finset (Fin 15)).filter (fun j => k.val + 1 ≤ j.val)) := by
    ext j; simp only [Finset.mem_filter, Finset.mem_univ, true_and, Finset.mem_insert]
    constructor
    · intro h; by_cases hj : j = k
      · exact Or.inl hj
      · exact Or.inr (by have : j.val ≠ k.val := fun e => hj (Fin.ext e); omega)
    · rintro (rfl | h) <;> omega
  rw [h, Finset.sum_insert (by simp), add_comm]
theorem owedRecv_peel (c : Dev nD) (k : Fin 15) : owedRecv c k.val = owedRecv c (k.val + 1) + tallyAt (recvCell (fwd c k) k) () N := by
  unfold owedRecv
  have h : (Finset.univ : Finset (Fin 15)).filter (fun j => k.val ≤ j.val)
      = insert k ((Finset.univ : Finset (Fin 15)).filter (fun j => k.val + 1 ≤ j.val)) := by
    ext j; simp only [Finset.mem_filter, Finset.mem_univ, true_and, Finset.mem_insert]
    constructor
    · intro h; by_cases hj : j = k
      · exact Or.inl hj
      · exact Or.inr (by have : j.val ≠ k.val := fun e => hj (Fin.ext e); omega)
    · rintro (rfl | h) <;> omega
  rw [h, Finset.sum_insert (by simp), add_comm]
theorem owedBar_done (c : Dev nD) : owedBar c 15 = 0 := by
  unfold owedBar; rw [Finset.filter_false_of_mem (fun k _ => by have := k.isLt; omega), Finset.sum_empty]
theorem owedRecv_done (c : Dev nD) : owedRecv c 15 = 0 := by
  unfold owedRecv; rw [Finset.filter_false_of_mem (fun k _ => by have := k.isLt; omega), Finset.sum_empty]

def L (g : GSem nD τ sig) : Finset Unit := if g.1.2 = .tc then {()} else ∅
/-- Receive cells at 2, barrier cells at 1, everything else (staging, send, the copy) at 0. -/
def lv (g : GSem nD τ sig) (_ : Unit) : ℕ :=
  match g.2 with
  | .reg _ => 1
  | .dma s => if 16 ≤ s.val ∧ s.val ≤ 30 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (k : Fin 15) (u : Unit) : lv (recvCell c k) u = 2 := by
  dsimp only [lv]; rw [if_pos (by rw [recvA_val]; omega)]

end Cert.KernelIdeal.Proto

end
-- ==== Proof.Ghost.lean ====
/-
  The ghost state of the protocol: what each device holds at launch and after its one grid point, and what it holds
  between two steps of each phase of its body (signals, transfers, receive waits, send waits).
-/
import proofs.«901065_g7700000000001066_dist_softmax_colshard_i_m512_n256_v7x_i16_f32_1_alg».proof.Proof.Proto

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device knows: the cells' invariants and that round 0 of every cell is reached -/

def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (Rd m) (K ck) (kcell ck) := by
  have h : (bigSep Finset.univ fun ck : Dev nD × CK => (cellInv ER (Rd m) (K ck) (kcell ck) : sProp 𝕄)) ⊢ cellInv ER (Rd m) (K ck) (kcell ck) :=
    bigSep_elim (Finset.mem_univ ck)
  unfold records; iintro ⟨#HI, -⟩; iapply h; iexact HI
theorem reached_at (K : Dev nD × CK → ℕ) (ck : Dev nD × CK) : records m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, #HR⟩; iapply h; iexact HR

/-! ## What stays with one device -/

/-- Its positions at round 0 of its own cells. -/
def positions (c : Dev nD) : sProp 𝕄 :=
  iprop(atPos ER (barCell c) 0 ∅ 0 ∗ (bigSep Finset.univ fun k : Fin 15 => atPos ER (sendCell c k) 0 ∅ 0)
    ∗ (bigSep Finset.univ fun k : Fin 15 => atPos ER (recvCell c k) 0 ∅ 0) ∗ atPos ER (loadCell c) 0 ∅ 0)
/-- The tokens of the duties it pays: duty `k` of the barrier cell of the device `k + 1` ahead, that device's `k`-th
    receive duty, its own send duties and its copy's. -/
def payToks (c : Dev nD) : sProp 𝕄 :=
  iprop((bigSep Finset.univ fun k : Fin 15 => dutyTok ER (barCell (fwd c k)) 0 k)
    ∗ (bigSep Finset.univ fun k : Fin 15 => dutyTok ER (recvCell (fwd c k) k) 0 0)
    ∗ (bigSep Finset.univ fun k : Fin 15 => dutyTok ER (sendCell c k) 0 0)
    ∗ dutyTok ER (loadCell c) 0 0)

def ghost (K : Dev nD × CK → ℕ) (c : Dev nD) : sProp 𝕄 := iprop(records m K ∗ positions c ∗ payToks c)

/-- Its launch credit: fifteen units on its barrier cell, a tile's credit on each receive cell. -/
def creds (c : Dev nD) : sProp 𝕄 :=
  iprop(cred (tallyAt (barCell c) () 15) ∗ bigSep Finset.univ fun k : Fin 15 => cred (tallyAt (recvCell c k) () N))

/-- What device `c`'s body starts from besides its scratch buffers. -/
def start (c : Dev nD) : sProp 𝕄 :=
  iprop((∃ K, ghost m K c) ∗ creds c ∗ levAts L lv ∗ xPts m c)

/-- The three scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The device's own thirty-one semaphores back at zero, closed. -/
def ownZero (c : Dev nD) : sProp 𝕄 :=
  iprop((bigSep Finset.univ fun k : Fin 15 => semVal (sendCell c k) 0) ∗ (bigSep Finset.univ fun k : Fin 15 => semVal (recvCell c k) 0)
    ∗ semVal (loadCell c) 0)

def Φ₀ (c : Dev nD) : sProp 𝕄 := iprop(start m c ∗ scratch c)
def Φ₁ (c : Dev nD) : sProp 𝕄 := iprop(xPts m c ∗ ownZero c ∗ scratch c)

/-- The pipeline's proof data: the one window is the result, holding the device's block of the result after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## Between two steps of a phase -/

/-- The indices from `n` on, and those before `n`. -/
abbrev ge (n : ℕ) : Finset (Fin 15) := Finset.univ.filter fun k => n ≤ k.val
abbrev lt (n : ℕ) : Finset (Fin 15) := Finset.univ.filter fun k => k.val < n

/-- After `n` signals: the barrier units still owed, the tokens of the signals to come, and the slots they hand over. -/
def SA (c : Dev nD) (n : ℕ) (W : Waits sig Unit) : sProp 𝕄 :=
  iprop(owes (c : Thread nD τ) (owedRecv c 0 + owedBar c n) W
    ∗ (bigSep (ge n) fun k => dutyTok ER (barCell (fwd c k)) 0 k)
    ∗ bigSep (ge n) fun k => iprop(∃ f, slotPts c (opp k) f))

/-- After `n` transfers: the receive credits still owed, what is left of the statistics tile, the peers' slots and the
    tokens of the transfers to come, and the send credits of the transfers issued. -/
def SD (c : Dev nD) (n : ℕ) (W : Waits sig Unit) : sProp 𝕄 :=
  iprop(owes (c : Thread nD τ) (owedRecv c n) W ∗ stPts m c (rem n)
    ∗ (bigSep (ge n) fun k => iprop(∃ f, slotPts (fwd c k) k f))
    ∗ (bigSep (ge n) fun k => dutyTok ER (recvCell (fwd c k) k) 0 0)
    ∗ (bigSep (ge n) fun k => dutyTok ER (sendCell c k) 0 0)
    ∗ bigSep (lt n) fun k => cred (tallyAt (sendCell c k) () N))

/-- After `n` receive waits: the credits and positions of the waits to come, and the slots landed. -/
def SE (c : Dev nD) (n : ℕ) : sProp 𝕄 :=
  iprop((∃ W, owes (c : Thread nD τ) 0 W)
    ∗ (bigSep (ge n) fun k => iprop(cred (tallyAt (recvCell c k) () N) ∗ atPos ER (recvCell c k) 0 ∅ 0))
    ∗ bigSep (lt n) fun k => iprop(slotPts c k (commV m c) ∗ atPos ER (recvCell c k) 1 ∅ 0))

/-- After `n` send waits: the credits and positions of the waits to come, and the pieces of the tile come back. -/
def SG (c : Dev nD) (n : ℕ) : sProp 𝕄 :=
  iprop((∃ W, owes (c : Thread nD τ) 0 W)
    ∗ (bigSep (ge n) fun k => iprop(cred (tallyAt (sendCell c k) () N) ∗ atPos ER (sendCell c k) 0 ∅ 0))
    ∗ bigSep (lt n) fun k => iprop(stPts m c (piece k.val) ∗ atPos ER (sendCell c k) 1 ∅ 0))

end Cert.KernelIdeal.Proto

end
-- ==== Proof.Levels.lean ====
/-
  The deadlock argument: at each of its waits a device owes only cells above the one it waits on.
-/
import proofs.«901065_g7700000000001066_dist_softmax_colshard_i_m512_n256_v7x_i16_f32_1_alg».proof.Proof.Ghost

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A receive credit still owed sits on the receive cell of a device ahead. -/
theorem owedRecv_pos {c : Dev nD} {n : ℕ} {g : GSem nD τ sig} {u : Unit} (h : 0 < owedRecv c n g u) :
    ∃ k, g = recvCell (fwd c k) k := by
  unfold owedRecv at h
  obtain ⟨k, -, hk⟩ := Pipeline.sum_pos_exists h
  rw [tallyAt_apply] at hk
  by_cases hg : g = recvCell (fwd c k) k ∧ u = ()
  · exact ⟨k, hg.1⟩
  · rw [if_neg hg] at hk; exact absurd hk (Nat.lt_irrefl 0)

omit [FloatOps F] in
/-- A barrier unit still owed sits on the barrier cell of a device ahead. -/
theorem owedBar_pos {c : Dev nD} {n : ℕ} {g : GSem nD τ sig} {u : Unit} (h : 0 < owedBar c n g u) :
    ∃ k, g = barCell (fwd c k) := by
  unfold owedBar at h
  obtain ⟨k, -, hk⟩ := Pipeline.sum_pos_exists h
  rw [tallyAt_apply] at hk
  by_cases hg : g = barCell (fwd c k) ∧ u = ()
  · exact ⟨k, hg.1⟩
  · rw [if_neg hg] at hk; exact absurd hk (Nat.lt_irrefl 0)

omit [FloatOps F] in
/-- Whatever a device owes at launch sits on receive or barrier cells. -/
theorem O₀_pos {c : Dev nD} {g : GSem nD τ sig} {u : Unit} (h : 0 < O₀ c g u) :
    (∃ k, g = recvCell (fwd c k) k) ∨ ∃ k, g = barCell (fwd c k) := by
  unfold O₀ at h
  rcases Pipeline.add_pos_cases h with h | h
  · exact Or.inl (owedRecv_pos h)
  · exact Or.inr (owedBar_pos h)

omit [FloatOps F] in
/-- Owing tallies that sit on receive and barrier cells only, a device may wait on a cell of level 0. -/
theorem mayWait_low_of (c : Dev nD) (q : DmaSem sig) (hq : ¬ (16 ≤ q.val ∧ q.val ≤ 30)) (O : CellTallies nD τ sig Unit)
    (hO : ∀ (g : GSem nD τ sig) (u : Unit), 0 < O g u → (∃ d k, g = recvCell d k) ∨ ∃ d, g = barCell d) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by
      rcases hO g u hg with ⟨d, k, rfl⟩ | ⟨d, rfl⟩
      · rw [L_tc]; exact Finset.mem_singleton_self _
      · rw [L_tc]; exact Finset.mem_singleton_self _)
    (fun p hp => by rw [Finset.mem_singleton.mp hp]; dsimp only [lv]; rw [if_neg hq])
    (fun g u hg => by
      rcases hO g u hg with ⟨d, k, rfl⟩ | ⟨d, rfl⟩
      · rw [lv_recv]; decide
      · rw [lv_bar]; decide)

omit [FloatOps F] in
/-- A wait on a cell of level 0 (a staging cell, the copy's cell), owing what is owed at launch or a part of it. -/
theorem mayWait_low (c : Dev nD) (q : DmaSem sig) (hq : ¬ (16 ≤ q.val ∧ q.val ≤ 30)) (O : CellTallies nD τ sig Unit)
    (hO : O = O₀ c ∨ O = owedRecv c 0 ∨ O = 0) :
    (levAts L lv : sProp 𝕄) ⊢ MayWait (c : Thread nD τ) (.dma q) () O := by
  rcases hO with rfl | rfl | rfl
  · refine mayWait_low_of c q hq _ fun g u hg => ?_
    rcases O₀_pos hg with ⟨k, rfl⟩ | ⟨k, rfl⟩
    · exact Or.inl ⟨_, _, rfl⟩
    · exact Or.inr ⟨_, rfl⟩
  · refine mayWait_low_of c q hq _ fun g u hg => ?_
    obtain ⟨k, rfl⟩ := owedRecv_pos hg
    exact Or.inl ⟨_, _, rfl⟩
  · rw [MayWait_zero]; iintro -; iempintro

omit [FloatOps F] in
/-- At its barrier wait a device owes its fifteen receive credits only: receive cells, above its barrier cell. -/
theorem mayWait_bar (c : Dev nD) :
    (levAts L lv : sProp 𝕄) ⊢ MayWait (c : Thread nD τ) (.reg barS) () (owedRecv c 0) :=
  MayOwe.of_cut (L := L) (lev := lv) 1
    (fun p hp => by rw [Finset.mem_singleton.mp hp, L_tc]; exact Finset.mem_singleton_self _)
    (fun g u hg => by
      obtain ⟨k, rfl⟩ := owedRecv_pos hg
      rw [L_tc]; exact Finset.mem_singleton_self _)
    (fun p hp => by rw [Finset.mem_singleton.mp hp]; exact Nat.le_of_eq (lv_bar c ()))
    (fun g u hg => by
      obtain ⟨k, rfl⟩ := owedRecv_pos hg
      rw [lv_recv]; decide)

end Cert.KernelIdeal.Proto

end
-- ==== Proof.Steps.lean ====
/-
  One step of each phase of a device's body: a signal, a transfer, a receive wait, a send wait, each taking the
  phase's state at `k` to its state at `k + 1`.
-/
import proofs.«901065_g7700000000001066_dist_softmax_colshard_i_m512_n256_v7x_i16_f32_1_alg».proof.Proof.Ghost
import proofs.«901065_g7700000000001066_dist_softmax_colshard_i_m512_n256_v7x_i16_f32_1_alg».proof.Proof.Levels

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × CK → ℕ) (c : Dev nD)

/-! ## Products over the indices from `n` on, and over those before `n` -/

/-- The indices from `n` on are `n` and those from `n + 1` on. -/
theorem ge_eq_insert (n : Fin 15) : ge n.val = insert n (ge (n.val + 1)) := by
  ext j; simp only [Finset.mem_filter, Finset.mem_univ, true_and, Finset.mem_insert]
  constructor
  · intro h; by_cases hj : j = n
    · exact Or.inl hj
    · exact Or.inr (by have : j.val ≠ n.val := fun e => hj (Fin.ext e); omega)
  · rintro (rfl | h) <;> omega
/-- The indices before `n + 1` are `n` and those before `n`. -/
theorem lt_eq_insert (n : Fin 15) : lt (n.val + 1) = insert n (lt n.val) := by
  ext j; simp only [Finset.mem_filter, Finset.mem_univ, true_and, Finset.mem_insert]
  constructor
  · intro h; by_cases hj : j = n
    · exact Or.inl hj
    · exact Or.inr (by have : j.val ≠ n.val := fun e => hj (Fin.ext e); omega)
  · rintro (rfl | h) <;> omega

/-- Taking the first of the indices from `n` on out of a product over them. -/
theorem peel_ge (n : Fin 15) (Φ : Fin 15 → sProp 𝕄) :
    bigSep (ge n.val) Φ ⊣⊢ iprop(Φ n ∗ bigSep (ge (n.val + 1)) Φ) :=
  .of_eq (by rw [ge_eq_insert n, bigSep_insert (by simp)]; rfl)
/-- Adding index `n` to a product over the indices before it. -/
theorem push_lt (n : Fin 15) (Φ : Fin 15 → sProp 𝕄) :
    bigSep (lt (n.val + 1)) Φ ⊣⊢ iprop(Φ n ∗ bigSep (lt n.val) Φ) :=
  .of_eq (by rw [lt_eq_insert n, bigSep_insert (by simp)]; rfl)
omit [FloatOps F] in
theorem ge_fifteen (Φ : Fin 15 → sProp 𝕄) : bigSep (ge 15) Φ = iprop(emp) := by
  rw [show ge 15 = ∅ from Finset.filter_false_of_mem (fun k _ => by have := k.isLt; omega), bigSep_empty]; rfl
omit [FloatOps F] in
theorem lt_zero (Φ : Fin 15 → sProp 𝕄) : bigSep (lt 0) Φ = iprop(emp) := by
  rw [show lt 0 = ∅ from Finset.filter_false_of_mem (fun k _ => by omega), bigSep_empty]; rfl
omit [FloatOps F] in
theorem ge_zero (Φ : Fin 15 → sProp 𝕄) : bigSep (ge 0) Φ = bigSep Finset.univ Φ := by
  rw [show ge 0 = Finset.univ from Finset.filter_true_of_mem (fun k _ => Nat.zero_le _)]
omit [FloatOps F] in
theorem lt_fifteen (Φ : Fin 15 → sProp 𝕄) : bigSep (lt 15) Φ = bigSep Finset.univ Φ := by
  rw [show lt 15 = Finset.univ from Finset.filter_true_of_mem (fun k _ => k.isLt)]

/-! ## What the records say of each kind of cell -/

theorem inv_bar (d : Dev nD) : records m K ⊢ cellInv ER (Rd m) (K (d, .bar)) (barCell d) := inv_at m K (d, .bar)
theorem inv_send (d : Dev nD) (k : Fin 15) : records m K ⊢ cellInv ER (Rd m) (K (d, .send k)) (sendCell d k) := inv_at m K (d, .send k)
theorem inv_recv (d : Dev nD) (k : Fin 15) : records m K ⊢ cellInv ER (Rd m) (K (d, .recv k)) (recvCell d k) := inv_at m K (d, .recv k)
theorem reached_bar (d : Dev nD) : records m K ⊢ reached ER (barCell d) 0 := reached_at m K (d, .bar)
theorem reached_send (d : Dev nD) (k : Fin 15) : records m K ⊢ reached ER (sendCell d k) 0 := reached_at m K (d, .send k)
theorem reached_recv (d : Dev nD) (k : Fin 15) : records m K ⊢ reached ER (recvCell d k) 0 := reached_at m K (d, .recv k)

/-! ## The transfer's credit, its landing, and the rest of a one-duty round -/

omit [FloatOps F] in
/-- A transfer into a slot credits what a transfer into the tile does: the two views have one shape. -/
theorem slot_credit (k : Fin 15) : (slotM k : Memref sig .tc .vmem S8x128 .f32).view.dmaCredit = N := rfl

/-- The statistics tile of `c` written over slot `k` of the device `k + 1` ahead is what that device's filled
    buffer holds there: the device `k + 1` behind it is `c`. -/
theorem send_lands (k : Fin 15) (fd : Buf (Elt F) ((slotM k : Memref sig .tc .vmem S8x128 .f32).view.loc (fwd c k : Thread nD τ))) :
    (((slotM k : Memref sig .tc .vmem S8x128 .f32).view.loc (fwd c k : Thread nD τ)
        ↦[(slotM k : Memref sig .tc .vmem S8x128 .f32).view.set]{fullShare}
          ((slotM k : Memref sig .tc .vmem S8x128 .f32).view.write (Elt F) fd
            ((stM : Memref sig .tc .vmem S8x128 .f32).view.read (Elt F) (statsV m c)) Finset.univ)) : sProp 𝕄)
      ⊢ (Rd m).payload (recvCell (fwd c k) k) 0 0 := by
  rw [payload_recv]
  unfold recvPay slotPts
  refine Entails.of_eq (pointsTo_congr fun i hi => ?_)
  refine (Views.write_slot k fd (statsV m c) i hi).trans ?_
  have hb : bwd (fwd c k) (i 0) = c :=
    (congrArg (bwd (fwd c k)) (Fin.ext ((Views.mem_slot_set k i).mp hi))).trans (bwd_fwd c k)
  show Spec.stats (xin m c) _ = Spec.stats (xin m (bwd (fwd c k) (i 0))) _
  rw [hb]

theorem rest_recv' (k : Fin 15) :
    bigSep ((Rd m).duties (recvCell c k) 0 \ ∅) (fun d => (Rd m).payload (recvCell c k) 0 d) = slotPts c k (commV m c) :=
  rest_recv m c k
theorem rest_send' (k : Fin 15) :
    bigSep ((Rd m).duties (sendCell c k) 0 \ ∅) (fun d => (Rd m).payload (sendCell c k) 0 d) = stPts m c (piece k.val) :=
  rest_send m c k

/-! ## The four steps -/

/-- The `k`-th signal, to the barrier cell of the device `k + 1` ahead: its duty `k`, handing over the device's own slot
    `opp k` and that round 0 of that slot's receive cell is reached. -/
theorem step_signal (k : Fin 15) (n : Dev nD) (hn : n = fwd c k) (amt : ℕ) (hamt : amt = 1) (W : Waits sig Unit)
    {α : Type} {Q : α → sProp 𝕄} {kont : PUnit → Prog (TpuEff nD τ sig (Elt F) Λ₀ .tc) α} :
    iprop(records m K ∗ SA c k.val W)
      ⊢ iprop((SA c (k.val + 1) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS amt) kont) Q) := by
  subst hn; subst hamt
  unfold SA
  iintro ⟨#Hrec, HL, Htoks, Hslots⟩ Hk
  ihave Htoks' := (peel_ge k _).mp $$ Htoks
  icases Htoks' with ⟨Htok, Htoks⟩
  ihave Hslots' := (peel_ge k _).mp $$ Hslots
  icases Hslots' with ⟨Hslot, Hslots⟩
  iapply (Rounds.wp_signal 𝒱₀ ER (Rd m) (c : Thread nD τ) none (dst := (fwd c k : Thread nD τ)) (sem := barS) (r := 0) (d := k)
      (κ := K (fwd c k, .bar))
      (by rw [duties_bar]; exact Finset.mem_univ _) (amount_bar m (fwd c k) k) () (owedRecv c 0 + owedBar c (k.val + 1))
      (O₀ := owedRecv c 0 + owedBar c k.val) (by rw [owedBar_peel c k, add_assoc]) (W := W)) $$ [HL Htok Hslot]
  · isplitr; · iapply (inv_bar m K (fwd c k)); iexact Hrec
    isplitl [HL]; · iexact HL
    isplitl [Htok]; · iexact Htok
    isplitl [Hslot]
    · rw [payload_bar]; unfold barPay; rw [bwd_fwd]
      isplitl [Hslot]; · iexact Hslot
      iapply (reached_recv m K c (opp k)); iexact Hrec
    iapply (reached_bar m K (fwd c k)); iexact Hrec
  iintro HL
  iapply Hk
  isplitl [HL]; · iexact HL
  isplitl [Htoks]; · iexact Htoks
  iexact Hslots

/-- The `k`-th transfer: the statistics tile into slot `k` of the device `k + 1` ahead, a piece of the tile lent to it. -/
theorem step_send (k : Fin 15) (n : Dev nD) (hn : n = fwd c k) (W : Waits sig Unit)
    {hsc : (slotM k : Memref sig (Dev.tc n : Thread nD τ).2.kind .vmem S8x128 .f32).view.ref.isScScratch = false}
    {hsrc : (stM : Memref sig .tc .vmem S8x128 .f32).view.WordExact} {hdst : (slotM k : Memref sig .tc .vmem S8x128 .f32).view.WordExact}
    {hsem : DmaTarget.Typed .vmem (.dma (recvA k).sem) (.remote (Dev.tc n : Thread nD τ) (slotM k : Memref sig .tc .vmem S8x128 .f32) (.dma (sendA k).sem) hsc)}
    {α : Type} {Q : α → sProp 𝕄} {kont : PUnit → Prog (TpuEff nD τ sig (Elt F) Λ₀ .tc) α} :
    iprop(records m K ∗ SD m c k.val W)
      ⊢ iprop((SD m c (k.val + 1) W -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma stM (.remote (Dev.tc n : Thread nD τ) (slotM k) (.dma (sendA k).sem) hsc) (.dma (recvA k).sem) hsrc hdst hsem) kont) Q) := by
  subst hn
  unfold SD stPts slotPts
  iintro ⟨#Hrec, HL, Hst, Hslots, Hrtoks, Hstoks, Hcreds⟩ Hk
  ihave Hslots' := (peel_ge k _).mp $$ Hslots
  icases Hslots' with ⟨⟨%fd, Hslot⟩, Hslots⟩
  ihave Hrtoks' := (peel_ge k _).mp $$ Hrtoks
  icases Hrtoks' with ⟨Hrtok, Hrtoks⟩
  ihave Hstoks' := (peel_ge k _).mp $$ Hstoks
  icases Hstoks' with ⟨Hstok, Hstoks⟩
  ihave Hst' := (pointsTo_share (rem_split k.val)).mp $$ Hst
  icases Hst' with ⟨Hpiece, Hst⟩
  iapply (Rounds.wp_send_pointsTo 𝒱₀ ER (Rd m) (c : Thread nD τ) none
      (c' := (fwd c k : Thread nD τ)) (src := stM) (dst := slotM k) (sS := .dma (sendA k).sem) (sem := .dma (recvA k).sem)
      (q := piece k.val) (fs := statsV m c) (fd := fd) (r₁ := 0) (r₂ := 0) (d₁ := 0) (d₂ := 0)
      (κ₁ := K (c, .send k)) (κ₂ := K (fwd c k, .recv k))
      (by rw [duties_send]; exact Finset.mem_singleton_self _) (by rw [duties_recv]; exact Finset.mem_singleton_self _)
      () () N (slot_credit k) (amount_send m c k 0) (amount_recv m (fwd c k) k 0)
      (owedRecv c (k.val + 1)) (owedRecv_peel c k) (W := W)
      (by rw [payload_send]; exact BI.Entails.refl _)
      (send_lands m c k fd)) $$ [HL Hpiece Hslot Hrtok Hstok]
  · isplitr; · iapply (inv_send m K c k); iexact Hrec
    isplitr; · iapply (inv_recv m K (fwd c k) k); iexact Hrec
    isplitl [Hpiece]; · iexact Hpiece
    isplitl [Hslot]; · iexact Hslot
    isplitl [HL]; · iexact HL
    isplitl [Hstok]; · iexact Hstok
    isplitr; · iapply (reached_send m K c k); iexact Hrec
    isplitl [Hrtok]; · iexact Hrtok
    iapply (reached_recv m K (fwd c k) k); iexact Hrec
  iintro ⟨Hcred, HL⟩
  iapply Hk
  isplitl [HL]; · iexact HL
  isplitl [Hst]; · iexact Hst
  isplitl [Hslots]; · iexact Hslots
  isplitl [Hrtoks]; · iexact Hrtoks
  isplitl [Hstoks]; · iexact Hstoks
  iapply (push_lt k _).mpr
  isplitl [Hcred]; · iexact Hcred
  iexact Hcreds

/-- The wait on the `k`-th receive cell: slot `k` comes back holding the tile of the device `k + 1` behind. -/
theorem step_recvw (k : Fin 15)
    {hsrc : (stM : Memref sig .tc .vmem S8x128 .f32).view.WordExact} {hdst : (slotM k : Memref sig .tc .vmem S8x128 .f32).view.WordExact}
    {α : Type} {Q : α → sProp 𝕄} {kont : PUnit → Prog (TpuEff nD τ sig (Elt F) Λ₀ .tc) α} :
    iprop(records m K ∗ SE m c k.val)
      ⊢ iprop((SE m c (k.val + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvA k).sem stM (slotM k) hsrc hdst) kont) Q) := by
  unfold SE
  iintro ⟨#Hrec, ⟨%W, HL⟩, Hge, Hlt⟩ Hk
  ihave Hge' := (peel_ge k _).mp $$ Hge
  icases Hge' with ⟨⟨Hc, Hat⟩, Hge⟩
  iapply (Rounds.wp_wait_rest_token 𝒱₀ ER (Rd m) (c : Thread nD τ) none (κ := K (c, .recv k))
      (w := .waitDma2 (recvA k).sem stM (slotM k) hsrc hdst)
      (wpE_waitDma2_eq 𝒱₀ (c : Thread nD τ) none Set.univ) (Set.mem_univ _) () (O := 0) (W := W) (R := 0) (T := ∅) (m := 0)
      ((Nat.zero_add _).trans ((slot_credit k).trans (expect_recv m c k).symm))) $$ [Hc HL Hat]
  · isplitr; · iapply (inv_recv m K c k); iexact Hrec
    isplitl [Hc]; · iexact Hc
    isplitl [HL]; · iexact HL
    isplitr; · rw [MayWait_zero]; iempintro
    iexact Hat
  iintro ⟨HL, Hat, -, Hrest⟩
  ihave Hpay := (Entails.of_eq (rest_recv' m c k)) $$ Hrest
  iapply Hk
  isplitl [HL]; · iexists _; iexact HL
  isplitl [Hge]; · iexact Hge
  iapply (push_lt k _).mpr
  isplitl [Hpay Hat]
  · isplitl [Hpay]; · iexact Hpay
    iexact Hat
  iexact Hlt

/-- The wait on the `k`-th send cell: the piece of the tile lent to the `k`-th transfer comes back. -/
theorem step_sendw (k : Fin 15)
    {hsrc : (slotM k : Memref sig .tc .vmem S8x128 .f32).view.WordExact} {hdst : (stM : Memref sig .tc .vmem S8x128 .f32).view.WordExact}
    {α : Type} {Q : α → sProp 𝕄} {kont : PUnit → Prog (TpuEff nD τ sig (Elt F) Λ₀ .tc) α} :
    iprop(records m K ∗ SG m c k.val)
      ⊢ iprop((SG m c (k.val + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendA k).sem (slotM k) stM hsrc hdst) kont) Q) := by
  unfold SG
  iintro ⟨#Hrec, ⟨%W, HL⟩, Hge, Hlt⟩ Hk
  ihave Hge' := (peel_ge k _).mp $$ Hge
  icases Hge' with ⟨⟨Hc, Hat⟩, Hge⟩
  iapply (Rounds.wp_wait_rest_token 𝒱₀ ER (Rd m) (c : Thread nD τ) none (κ := K (c, .send k))
      (w := .waitDma2 (sendA k).sem (slotM k) stM hsrc hdst)
      (wpE_waitDma2_eq 𝒱₀ (c : Thread nD τ) none Set.univ) (Set.mem_univ _) () (O := 0) (W := W) (R := 0) (T := ∅) (m := 0)
      ((Nat.zero_add _).trans (expect_send m c k).symm)) $$ [Hc HL Hat]
  · isplitr; · iapply (inv_send m K c k); iexact Hrec
    isplitl [Hc]; · iexact Hc
    isplitl [HL]; · iexact HL
    isplitr; · rw [MayWait_zero]; iempintro
    iexact Hat
  iintro ⟨HL, Hat, -, Hrest⟩
  ihave Hpay := (Entails.of_eq (rest_send' m c k)) $$ Hrest
  iapply Hk
  isplitl [HL]; · iexists _; iexact HL
  isplitl [Hge]; · iexact Hge
  iapply (push_lt k _).mpr
  isplitl [Hpay Hat]
  · isplitl [Hpay]; · iexact Hpay
    iexact Hat
  iexact Hlt

end Steps

/-- info: 'Cert.KernelIdeal.Proto.step_signal' depends on axioms: [propext, Classical.choice, Quot.sound] -/
#guard_msgs in #print axioms step_signal
/-- info: 'Cert.KernelIdeal.Proto.step_send' depends on axioms: [propext, Classical.choice, Quot.sound] -/
#guard_msgs in #print axioms step_send
/-- info: 'Cert.KernelIdeal.Proto.step_recvw' depends on axioms: [propext, Classical.choice, Quot.sound] -/
#guard_msgs in #print axioms step_recvw
/-- info: 'Cert.KernelIdeal.Proto.step_sendw' depends on axioms: [propext, Classical.choice, Quot.sound] -/
#guard_msgs in #print axioms step_sendw

end Cert.KernelIdeal.Proto

end
-- ==== Proof.PartsDefs.lean ====
/-
  The body cut into its printed parts: each part called on the kernel's buffers, and the resources a device holds
  where one phase of the body ends and the next begins.
-/
import proofs.«901065_g7700000000001066_dist_softmax_colshard_i_m512_n256_v7x_i16_f32_1_alg».proof.Proof.Steps

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The barrier semaphore as the body names it. -/
abbrev barA : Sems sig S_ := SemArray.scalar (sig.barrier 0 rfl)

/-- The device a transfer or signal of offset `k + 1` addresses, as the body computes it, is `fwd c k`. -/
theorem sdev (c : Dev nD) (k : Fin 15) (n : ℕ) (hn : n < nD) (h : n = (c.val + (k.val + 1)) % 16) : (⟨n, hn⟩ : Dev nD) = fwd c k :=
  Fin.ext (by show n = (fwd c k).val; rw [h]; unfold fwd; simp only [Nat.add_assoc])

variable (c : Dev nD)

/-- The statistics tile, whole, at the full share and at some contents; and holding the device's statistics. -/
def stAny : sProp 𝕄 := iprop(∃ f : Buf (Elt F) ((c : Thread nD τ).loc cc0_scratch1), ((c : Thread nD τ).loc cc0_scratch1) ↦{fullShare} f)
def xvAny : sProp 𝕄 := iprop(∃ f : Buf (Elt F) ((c : Thread nD τ).loc cc0_scratch0), ((c : Thread nD τ).loc cc0_scratch0) ↦{fullShare} f)
def cmAny : sProp 𝕄 := iprop(∃ f : Buf (Elt F) ((c : Thread nD τ).loc cc0_scratch2), ((c : Thread nD τ).loc cc0_scratch2) ↦{fullShare} f)
/-- The receive buffer whole, every slot landed. -/
def cmFull : sProp 𝕄 := ((c : Thread nD τ).loc cc0_scratch2) ↦{fullShare} (commV m c : Buf (Elt F) ((c : Thread nD τ).loc cc0_scratch2))
/-- The result's staging buffer at some contents, and holding the device's block of the result. -/
def outAny : sProp 𝕄 := iprop(∃ f : Buf (Elt F) ((c : Thread nD τ).loc cc0_stg0_0), ((c : Thread nD τ).loc cc0_stg0_0) ↦{fullShare} f)
def outFull : sProp 𝕄 := ((c : Thread nD τ).loc cc0_stg0_0) ↦{fullShare} (outV m c : Buf (Elt F) ((c : Thread nD τ).loc cc0_stg0_0))

/-- The offset that leads back, as a permutation of the fifteen offsets. -/
def oppE : Fin 15 ≃ Fin 15 := ⟨opp, opp, opp_opp, opp_opp⟩

omit [FloatOps F] in
/-- The receive buffer whole is the product of its fifteen slots, all at the same contents: the slots are pairwise
    disjoint and cover the buffer. -/
theorem cm_cut (f : Buf (Elt F) ((c : Thread nD τ).loc cc0_scratch2)) :
    (((c : Thread nD τ).loc cc0_scratch2) ↦{fullShare} f : sProp 𝕄) = bigSep Finset.univ fun k : Fin 15 => slotPts (F := F) c k f := by
  have h := pointsTo_biUnion (Ix := Unit) (Name := ℕ) (U := UU) (Lvl := ℕ) (q := fullShare) (f := f)
    (ℓ := (c : Thread nD τ).loc cc0_scratch2) Finset.univ
    (fun k : Fin 15 => (slotM k).view.set) (fun k _ k' _ h => slot_disjoint k k' h)
  have hc : (Finset.univ : Finset (Idx ((c : Thread nD τ).loc cc0_scratch2)))
      = Finset.univ.biUnion (fun k : Fin 15 => (slotM k).view.set) := slot_cover.symm
  rw [hc]
  exact h

omit [FloatOps F] in
/-- A product over the fifteen offsets, taken in the order of the offsets that lead back. -/
theorem by_opp (Φ : Fin 15 → sProp 𝕄) : bigSep Finset.univ Φ = bigSep Finset.univ fun k : Fin 15 => Φ (opp k) :=
  bigSep_univ_equiv oppE Φ

/-- The receive buffer cut into its fifteen slots, slot `opp k` at index `k`: the order in which the signals hand them over. -/
theorem cm_split : cmAny (F := F) c ⊢ bigSep Finset.univ fun k : Fin 15 => iprop(∃ f, slotPts (F := F) c (opp k) f) := by
  unfold cmAny
  iintro ⟨%f, H⟩
  ihave Hs := (Entails.of_eq ((cm_cut c f).trans (by_opp fun k : Fin 15 => slotPts (F := F) c k f))) $$ H
  have hm : ∀ k ∈ (Finset.univ : Finset (Fin 15)),
      slotPts (F := F) c (opp k) f ⊢ iprop(∃ f, slotPts (F := F) c (opp k) f) := fun k _ => by
    iintro Hk; iexists f; iexact Hk
  have hmono : (bigSep Finset.univ fun k : Fin 15 => slotPts (F := F) c (opp k) f)
      ⊢ bigSep Finset.univ fun k : Fin 15 => iprop(∃ f, slotPts (F := F) c (opp k) f) := bigSep_mono hm
  iapply hmono
  iexact Hs
/-- The fifteen landed slots are the whole receive buffer. -/
theorem cm_join : (bigSep Finset.univ fun k : Fin 15 => slotPts c k (commV m c)) ⊢ cmFull m c := by
  unfold cmFull
  exact Entails.of_eq (cm_cut c (commV m c)).symm
/-- What is left of the tile after `n` pieces is the `n`-th piece and what is left after `n + 1`. -/
theorem st_share (n : ℕ) : stPts m c (rem n) ⊣⊢ iprop(stPts m c (piece n) ∗ stPts m c (rem (n + 1))) := by
  unfold stPts
  exact pointsTo_share (rem_split n)

/-- What is left after `n` pieces, with the first `n` pieces, is the tile at the full share: by induction on `n`,
    the `n`-th piece rejoining what is left after `n + 1`. -/
theorem st_join_upto (n : ℕ) (hn : n ≤ 15) :
    iprop(stPts m c (rem n) ∗ bigSep (lt n) fun k : Fin 15 => stPts m c (piece k.val)) ⊢ stPts m c fullShare := by
  induction n with
  | zero =>
    rw [lt_zero]
    iintro ⟨H, -⟩
    iexact H
  | succ n ih =>
    have hlt : n < 15 := hn
    have hp : bigSep (lt (n + 1)) (fun k : Fin 15 => stPts m c (piece k.val))
        ⊣⊢ iprop(stPts m c (piece n) ∗ bigSep (lt n) fun k : Fin 15 => stPts m c (piece k.val)) :=
      push_lt (⟨n, hlt⟩ : Fin 15) (fun k : Fin 15 => stPts m c (piece k.val))
    iintro ⟨Hr, Hb⟩
    ihave Hb' := hp.1 $$ Hb
    icases Hb' with ⟨Hn, Hlo⟩
    iapply (ih (Nat.le_of_succ_le hn))
    isplitl [Hr Hn]
    · iapply (st_share m c n).2
      isplitl [Hn]
      · iexact Hn
      · iexact Hr
    · iexact Hlo

/-- The pieces of the statistics tile put back together. -/
theorem st_join : iprop(stPts m c (rem 15) ∗ bigSep Finset.univ fun k : Fin 15 => stPts m c (piece k.val)) ⊢ stPts m c fullShare := by
  have h := st_join_upto m c 15 le_rfl
  rw [lt_fifteen] at h
  exact h
/-- What the barrier wait hands over, by the transfer that uses it: the slot `k` of the device `k + 1` ahead. -/
theorem bar_slots : (bigSep Finset.univ fun d : Fin 15 => barPay (F := F) c d) ⊢ bigSep Finset.univ fun k : Fin 15 => iprop(∃ f, slotPts (F := F) (fwd c k) k f) := by
  rw [by_opp fun d : Fin 15 => barPay (F := F) c d]
  have hm : ∀ k ∈ (Finset.univ : Finset (Fin 15)),
      barPay (F := F) c (opp k) ⊢ iprop(∃ f, slotPts (F := F) (fwd c k) k f) := fun k _ => by
    unfold barPay
    rw [bwd_opp, opp_opp]
    iintro ⟨H, -⟩
    iexact H
  exact bigSep_mono hm

end Cert.KernelIdeal.Proto

end
-- ==== Proof.PartsA.lean ====
/-
  The first three parts of the body: the fifteen signals, the block's copy into vector memory and its wait, the block loaded.
-/
import proofs.«901065_g7700000000001066_dist_softmax_colshard_i_m512_n256_v7x_i16_f32_1_alg».proof.Proof.PartsDefs

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-! ## The block's copy: both views are whole buffers -/

theorem xv_set : (xvM : Memref sig .tc .vmem S512x256 .f32).view.set = Finset.univ := View.set_whole _

/-- The copy's destination, rewritten whole by the source's contents, holds the source's contents. -/
theorem copy_eq (fd : Buf (Elt F) ((xvM : Memref sig .tc .vmem S512x256 .f32).view.loc (c : Thread nD τ)))
    (fs : (main_arg0 : Ref sig .tc).ty.Contents (Elt F)) :
    (xvM : Memref sig .tc .vmem S512x256 .f32).view.write (Elt F) fd ((xM : Memref sig .tc .hbm S512x256 .f32).view.read (Elt F) fs) Finset.univ = fs := by
  show (View.whole cc0_scratch0).write (Elt F) fd ((View.whole main_arg0).read (Elt F) fs) Finset.univ = fs
  rw [View.read_whole]
  exact View.write_whole_univ _ _ _

theorem zero_offsets : (![0, 0] : Fin 2 → Nat) = fun _ => 0 := funext fun a =>
  match a with
  | ⟨0, _⟩ => rfl
  | ⟨1, _⟩ => rfl

/-- The load of the whole copy reads its contents. -/
theorem read_xv (f : (cc0_scratch0 : Ref sig .tc).ty.Contents (Elt F)) :
    (xvM : Memref sig .tc .vmem S512x256 .f32).view.readAt (Elt F)
      (Rect.unit (s := S512x256) ![0, 0] S512x256.size inb_S512x256_S512x256_0_0).toLoadRect f = f :=
  Memref.readAt_unit_zero (Elt F) cc0_scratch0 zero_offsets _ f

/-- The copy in vector memory through its view, and as the whole buffer. -/
theorem xv_pts (f : Buf (Elt F) ((c : Thread nD τ).loc cc0_scratch0)) :
    ((xvM : Memref sig .tc .vmem S512x256 .f32).view.loc (c : Thread nD τ) ↦[(xvM : Memref sig .tc .vmem S512x256 .f32).view.set]{fullShare} f : sProp 𝕄)
      = (((c : Thread nD τ).loc cc0_scratch0) ↦{fullShare} f : sProp 𝕄) := by rw [xv_set]

/-- What the copy's landing delivers is the payload of its cell's one duty. -/
theorem load_pay (fd : Buf (Elt F) ((xvM : Memref sig .tc .vmem S512x256 .f32).view.loc (c : Thread nD τ))) :
    iprop(((xvM : Memref sig .tc .vmem S512x256 .f32).view.loc (c : Thread nD τ) ↦[(xvM : Memref sig .tc .vmem S512x256 .f32).view.set]{fullShare}
              ((xvM : Memref sig .tc .vmem S512x256 .f32).view.write (Elt F) fd ((xM : Memref sig .tc .hbm S512x256 .f32).view.read (Elt F) (xin m c)) Finset.univ))
          ∗ ((xM : Memref sig .tc .hbm S512x256 .f32).view.loc (c : Thread nD τ) ↦[(xM : Memref sig .tc .hbm S512x256 .f32).view.set]{fullShare} xin m c))
      ⊢ (Rd (F := F) m).payload (loadCell c) 0 0 := by
  rw [payload_load, copy_eq]
  unfold loadPay xvPts xPts
  exact .rfl

/-- All fifteen signals sent: the device owes its receive credits only. -/
theorem SA_done (W : Waits sig Unit) : SA (F := F) c 15 W ⊢ owes (c : Thread nD τ) (owedRecv c 0) W := by
  unfold SA
  rw [ge_fifteen, ge_fifteen, owedBar_done, add_zero]
  iintro ⟨H, -, -⟩
  iexact H

/-! ## The parts -/

/-- Part 1: the device reads its id and sends its first five signals. -/
theorem part1_run (W : Waits sig Unit)
    (Q : (Σ' (d0 : Dev nD) (v2 : BitVec 32) (v3 : Sems sig S_) (v24 : BitVec 32), BitVec 32) → sProp 𝕄) :
    iprop(records m K ∗ SA c 0 W ∗ (SA c 5 W -∗ ∀ v2 v24 c16, Q ⟨c, v2, barA, v24, c16⟩))
      ⊢ wp frame (wpE (defs₀ (F := F)) 𝒱₀ (c : Thread nD τ) none) Set.univ (k0_part1 (F := F) xM (Memref.isWhole_whole _) oM (Memref.isWhole_whole _) xvM (Memref.isWhole_whole _) stM (Memref.isWhole_whole _) cmM (Memref.isWhole_whole _) cc0_scratch3 cc0_scratch4 cc0_scratch5) Q := by
  rw [k0_part1_eq_skeleton]; unfold k0_part1_skel
  simp only [semSignalWord, semWaitWord, Prog.lift, Prog.bind_op, Prog.bind_ret, Prog.pure_eq_ret, wp_deviceId]
  iintro ⟨#HR, HS, Hk⟩
  iapply (step_signal m K c ⟨0, by decide⟩ _ (sdev c ⟨0, by decide⟩ _ _ (k0_dev1_eq c)) _ rfl W) $$ [HS]
  · isplitr; · iexact HR
    iexact HS
  iintro HS
  iapply (step_signal m K c ⟨1, by decide⟩ _ (sdev c ⟨1, by decide⟩ _ _ (k0_dev2_eq c)) _ rfl W) $$ [HS]
  · isplitr; · iexact HR
    iexact HS
  iintro HS
  iapply (step_signal m K c ⟨2, by decide⟩ _ (sdev c ⟨2, by decide⟩ _ _ (k0_dev3_eq c)) _ rfl W) $$ [HS]
  · isplitr; · iexact HR
    iexact HS
  iintro HS
  iapply (step_signal m K c ⟨3, by decide⟩ _ (sdev c ⟨3, by decide⟩ _ _ (k0_dev4_eq c)) _ rfl W) $$ [HS]
  · isplitr; · iexact HR
    iexact HS
  iintro HS
  iapply (step_signal m K c ⟨4, by decide⟩ _ (sdev c ⟨4, by decide⟩ _ _ (k0_dev5_eq c)) _ rfl W) $$ [HS]
  · isplitr; · iexact HR
    iexact HS
  iintro HS
  rw [wp_ret]; imodintro
  ispecialize Hk $$ HS
  iapply Hk

/-- Part 2: signals 5–10. -/
theorem part2_run (W : Waits sig Unit) (v2 v24 c16 : BitVec 32) (Q : (Σ' (v48 : BitVec 32), BitVec 32) → sProp 𝕄) :
    iprop(records m K ∗ SA c 5 W ∗ (SA c 11 W -∗ ∀ r, Q r))
      ⊢ wp frame (wpE (defs₀ (F := F)) 𝒱₀ (c : Thread nD τ) none) Set.univ (k0_part2 (F := F) xM (Memref.isWhole_whole _) oM (Memref.isWhole_whole _) xvM (Memref.isWhole_whole _) stM (Memref.isWhole_whole _) cmM (Memref.isWhole_whole _) cc0_scratch3 cc0_scratch4 cc0_scratch5 c v2 barA v24 c16) Q := by
  rw [k0_part2_eq_skeleton]; unfold k0_part2_skel
  simp only [semSignalWord, semWaitWord, Prog.lift, Prog.bind_op, Prog.bind_ret, Prog.pure_eq_ret]
  iintro ⟨#HR, HS, Hk⟩
  iapply (step_signal m K c ⟨5, by decide⟩ _ (sdev c ⟨5, by decide⟩ _ _ (k0_dev6_eq c)) _ rfl W) $$ [HS]
  · isplitr; · iexact HR
    iexact HS
  iintro HS
  iapply (step_signal m K c ⟨6, by decide⟩ _ (sdev c ⟨6, by decide⟩ _ _ (k0_dev7_eq c)) _ rfl W) $$ [HS]
  · isplitr; · iexact HR
    iexact HS
  iintro HS
  iapply (step_signal m K c ⟨7, by decide⟩ _ (sdev c ⟨7, by decide⟩ _ _ (k0_dev8_eq c)) _ rfl W) $$ [HS]
  · isplitr; · iexact HR
    iexact HS
  iintro HS
  iapply (step_signal m K c ⟨8, by decide⟩ _ (sdev c ⟨8, by decide⟩ _ _ (k0_dev9_eq c)) _ rfl W) $$ [HS]
  · isplitr; · iexact HR
    iexact HS
  iintro HS
  iapply (step_signal m K c ⟨9, by decide⟩ _ (sdev c ⟨9, by decide⟩ _ _ (k0_dev10_eq c)) _ rfl W) $$ [HS]
  · isplitr; · iexact HR
    iexact HS
  iintro HS
  iapply (step_signal m K c ⟨10, by decide⟩ _ (sdev c ⟨10, by decide⟩ _ _ (k0_dev11_eq c)) _ rfl W) $$ [HS]
  · isplitr; · iexact HR
    iexact HS
  iintro HS
  rw [wp_ret]; imodintro
  ispecialize Hk $$ HS
  iapply Hk

/-- Part 3: signals 11–14; the block copied from main memory into vector memory, the copy waited for, the block loaded:
    the part returns the block, its row maxima and the pieces of its statistics tile. -/
theorem part3_run (W : Waits sig Unit) (v2 v48 c16 : BitVec 32)
    (Q : (Σ' (v64 : Vec F S512x256 .f32) (v66 : FVec F S512x1 .f32) (v73 : FVec F S2x512 .f32) (v74 : FVec F S1x128 .f32) (v75 : FVec F S1x128 .f32) (v76 : FVec F S1x128 .f32) (v77 : FVec F S1x128 .f32) (v78 : FVec F S1x128 .f32) (v79 : FVec F S1x128 .f32), FVec F S1x128 .f32) → sProp 𝕄) :
    iprop(records m K ∗ levAts L lv ∗ SA c 11 W ∗ xPts m c ∗ xvAny c ∗ dutyTok ER (loadCell c) 0 0 ∗ atPos ER (loadCell c) 0 ∅ 0
        ∗ ((iprop((∃ W', owes (c : Thread nD τ) (owedRecv c 0) W') ∗ xvPts m c ∗ xPts m c ∗ atPos ER (loadCell c) 1 ∅ 0))
            -∗ Q ⟨xin m c, k0_pay1 (xin m c), k0_pay2 (xin m c), k0_pay3 (xin m c), k0_pay4 (xin m c), k0_pay5 (xin m c), k0_pay6 (xin m c), k0_pay7 (xin m c), k0_pay8 (xin m c), k0_pay9 (xin m c)⟩))
      ⊢ wp frame (wpE (defs₀ (F := F)) 𝒱₀ (c : Thread nD τ) none) Set.univ (k0_part3 (F := F) xM (Memref.isWhole_whole _) oM (Memref.isWhole_whole _) xvM (Memref.isWhole_whole _) stM (Memref.isWhole_whole _) cmM (Memref.isWhole_whole _) cc0_scratch3 cc0_scratch4 cc0_scratch5 c v2 barA v48 c16) Q := by
  rw [k0_part3_eq_skeleton]; unfold k0_part3_skel
  simp only [semSignalWord, semWaitWord, Prog.lift, Prog.bind_op, Prog.bind_ret, Prog.pure_eq_ret]
  iintro ⟨#HR, #Hlev, HS, Hx, Hxv, Htok, Hat, Hk⟩
  iapply (step_signal m K c ⟨11, by decide⟩ _ (sdev c ⟨11, by decide⟩ _ _ (k0_dev12_eq c)) _ rfl W) $$ [HS]
  · isplitr; · iexact HR
    iexact HS
  iintro HS
  iapply (step_signal m K c ⟨12, by decide⟩ _ (sdev c ⟨12, by decide⟩ _ _ (k0_dev13_eq c)) _ rfl W) $$ [HS]
  · isplitr; · iexact HR
    iexact HS
  iintro HS
  iapply (step_signal m K c ⟨13, by decide⟩ _ (sdev c ⟨13, by decide⟩ _ _ (k0_dev14_eq c)) _ rfl W) $$ [HS]
  · isplitr; · iexact HR
    iexact HS
  iintro HS
  iapply (step_signal m K c ⟨14, by decide⟩ _ (sdev c ⟨14, by decide⟩ _ _ (k0_dev15_eq c)) _ rfl W) $$ [HS]
  · isplitr; · iexact HR
    iexact HS
  iintro HS
  ihave HO := (SA_done c W) $$ HS
  -- the copy of the block into vector memory: the one duty of its cell
  unfold xvAny
  icases Hxv with ⟨%f0, Hxv⟩
  ihave Hxv := (Entails.of_eq (xv_pts c f0).symm) $$ Hxv
  unfold xvPts xPts
  iapply (Rounds.wp_copy_pointsTo 𝒱₀ ER (Rd m) (c : Thread nD τ) none (src := xM) (dst := xvM) (sem := .dma loadA.sem)
      (q := fullShare) (fs := xin m c) (fd := f0) (r := 0) (d := 0) (κ := K (c, CK.load))
      (by rw [duties_load]; exact Finset.mem_singleton_self _) () Nx rfl (amount_load m c 0) (load_pay m c f0)) $$ [Hx Hxv Htok]
  · isplitr; · iapply (inv_at m K (c, CK.load)); iexact HR
    isplitl [Hx]; · iexact Hx
    isplitl [Hxv]; · iexact Hxv
    isplitl [Htok]; · iexact Htok
    iapply (reached_at m K (c, CK.load)); iexact HR
  iintro Hcr
  -- its wait, owing the receive credits: the copy and the block come back
  iapply (Rounds.wp_wait_rest_token 𝒱₀ ER (Rd m) (c : Thread nD τ) none (κ := K (c, CK.load))
      (wpE_waitDma2_eq 𝒱₀ (c : Thread nD τ) none Set.univ) (Set.mem_univ _) () (O := owedRecv c 0) (W := W) (R := 0) (m := 0) (T := ∅)
      (by rw [Nat.zero_add, expect_load])) $$ [Hcr HO Hat]
  · isplitr; · iapply (inv_at m K (c, CK.load)); iexact HR
    isplitl [Hcr]; · iexact Hcr
    isplitl [HO]; · iexact HO
    isplitr
    · iapply (mayWait_low c loadA.sem (by rw [loadA_val]; omega) (owedRecv c 0) (Or.inr (Or.inl rfl))); iexact Hlev
    iexact Hat
  iintro ⟨HO, Hat, -, Hpay⟩
  ihave Hp := (Entails.of_eq (rest_load m c)) $$ Hpay
  unfold loadPay xvPts xPts
  icases Hp with ⟨Hxv, Hx⟩
  -- the block loaded from the copy
  iapply (wp_load 𝒱₀ (c : Thread nD τ) none Set.univ (m := xvM) (by rw [xv_set]; exact Finset.subset_univ _)) $$ Hxv; iintro Hxv
  rw [read_xv, wp_ret]; imodintro
  iapply Hk
  isplitl [HO]; · iexists _; iexact HO
  isplitl [Hxv]; · iexact Hxv
  isplitl [Hx]; · iexact Hx
  iexact Hat

end Parts

end Cert.KernelIdeal.Proto

end
-- ==== Proof.PartsB.lean ====
/-
  The fourth part of the body: the statistics tile stored, the wait on the barrier, the first two transfers.
-/
import proofs.«901065_g7700000000001066_dist_softmax_colshard_i_m512_n256_v7x_i16_f32_1_alg».proof.Proof.PartsDefs

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-- The statistics tile addressed whole: all eight rows and all 128 lanes from the origin. -/
abbrev r0 : Rect S8x128 := Rect.unit (s := S8x128) ![0, 0] S8x128.size inb_S8x128_S8x128_0_0

omit [FloatOps F] in
theorem hz : (![0, 0] : Fin 2 → Nat) = fun _ => 0 := funext fun a =>
  match a with
  | ⟨0, _⟩ => rfl
  | ⟨1, _⟩ => rfl

omit [FloatOps F] in
/-- A tile stored whole over any contents is the tile's contents after the store. -/
theorem st_stored (f w : (cc0_scratch1 : Ref sig .tc).ty.Contents (Elt F)) :
    ((((stM : Memref sig .tc .vmem S8x128 .f32).access r0 : View sig .tc _ _ _).loc (c : Thread nD τ))
        ↦{fullShare} (((stM : Memref sig .tc .vmem S8x128 .f32).access r0 : View sig .tc _ _ _).write (Elt F) f w Finset.univ) : sProp 𝕄)
      = ((stM : Memref sig .tc .vmem S8x128 .f32).view.loc (c : Thread nD τ)
          ↦[(stM : Memref sig .tc .vmem S8x128 .f32).view.set]{fullShare} w) := by
  have hs : (stM : Memref sig .tc .vmem S8x128 .f32).view.set = Finset.univ := View.set_whole _
  have hw : ((stM : Memref sig .tc .vmem S8x128 .f32).access r0 : View sig .tc _ _ _).write (Elt F) f w Finset.univ = w :=
    Memref.write_access_unit_zero_univ (Elt F) cc0_scratch1 hz _ f w
  rw [hw, hs]

/-- The tile that the body stores is the device's statistics tile. -/
theorem st_is_stats :
    ((stM : Memref sig .tc .vmem S8x128 .f32).view.loc (c : Thread nD τ)
        ↦[(stM : Memref sig .tc .vmem S8x128 .f32).view.set]{fullShare}
          (k0_pay10 (k0_pay2 (xin m c)) (k0_pay3 (xin m c)) (k0_pay4 (xin m c)) (k0_pay5 (xin m c)) (k0_pay6 (xin m c))
            (k0_pay7 (xin m c)) (k0_pay8 (xin m c)) (k0_pay9 (xin m c))) : sProp 𝕄)
      = stPts m c fullShare := rfl

/-- No transfer issued yet: the state of the transfers' phase from the whole tile, the fifteen peers' slots and the
    tokens of all the transfers. -/
theorem SD_zero (W : Waits sig Unit) :
    iprop(owes (c : Thread nD τ) (owedRecv c 0) W ∗ stPts m c fullShare
        ∗ (bigSep Finset.univ fun k : Fin 15 => iprop(∃ f, slotPts (F := F) (fwd c k) k f))
        ∗ (bigSep Finset.univ fun k : Fin 15 => dutyTok ER (recvCell (fwd c k) k) 0 0)
        ∗ (bigSep Finset.univ fun k : Fin 15 => dutyTok ER (sendCell c k) 0 0))
      ⊢ SD m c 0 W := by
  unfold SD
  rw [ge_zero, ge_zero, ge_zero, lt_zero]
  iintro ⟨H1, H2, H3, H4, H5⟩
  isplitl [H1]; · iexact H1
  isplitl [H2]; · iexact H2
  isplitl [H3]; · iexact H3
  isplitl [H4]; · iexact H4
  isplitl [H5]; · iexact H5
  iempintro

/-- Part 4: a dead load of the statistics tile, the tile stored, the barrier wait (the fifteen peers' slots come with it),
    transfers 0 and 1. -/
theorem part4_run (W : Waits sig Unit) (v2 : BitVec 32) (Q : (Σ' (v87 : BitVec 32) (v97 : BitVec 32) (v107 : BitVec 32), BitVec 32) → sProp 𝕄) :
    iprop(records m K ∗ levAts L lv ∗ owes (c : Thread nD τ) (owedRecv c 0) W ∗ stAny c
        ∗ cred (tallyAt (barCell c) () 15) ∗ atPos ER (barCell c) 0 ∅ 0
        ∗ (bigSep Finset.univ fun k : Fin 15 => dutyTok ER (recvCell (fwd c k) k) 0 0)
        ∗ (bigSep Finset.univ fun k : Fin 15 => dutyTok ER (sendCell c k) 0 0)
        ∗ ((iprop((∃ W', SD m c 2 W') ∗ atPos ER (barCell c) 1 ∅ 0)) -∗ ∀ r, Q r))
      ⊢ wp frame (wpE (defs₀ (F := F)) 𝒱₀ (c : Thread nD τ) none) Set.univ (k0_part4 (F := F) xM (Memref.isWhole_whole _) oM (Memref.isWhole_whole _) xvM (Memref.isWhole_whole _) stM (Memref.isWhole_whole _) cmM (Memref.isWhole_whole _) cc0_scratch3 cc0_scratch4 cc0_scratch5 c v2 barA (k0_pay2 (xin m c)) (k0_pay3 (xin m c)) (k0_pay4 (xin m c)) (k0_pay5 (xin m c)) (k0_pay6 (xin m c)) (k0_pay7 (xin m c)) (k0_pay8 (xin m c)) (k0_pay9 (xin m c))) Q := by
  rw [k0_part4_eq_skeleton]; unfold k0_part4_skel
  simp only [semSignalWord, semWaitWord, Prog.lift, Prog.bind_op, Prog.bind_ret, Prog.pure_eq_ret, wp_deviceId]
  iintro ⟨#Hrec, #Hlev, HO, Hst, HcB, HatB, HtR, HtS, Hk⟩
  unfold stAny
  icases Hst with ⟨%f0, Hst⟩
  -- the load of the tile, whose value is not used
  iapply (wp_load 𝒱₀ (c : Thread nD τ) none Set.univ (m := stM) (S := Finset.univ) (q := fullShare) (f := f0) (Finset.subset_univ _)) $$ Hst
  iintro Hst1
  -- the tile stored whole: it now holds the device's statistics
  iapply (wp_store 𝒱₀ (c : Thread nD τ) none Set.univ (m := stM) (r := r0) (S := Finset.univ) (f := f0) (Finset.subset_univ _)) $$ Hst1
  iintro Hst2
  ihave Hst2' := (Entails.of_eq (st_stored c f0 _)) $$ Hst2
  ihave Hst3 := (Entails.of_eq (st_is_stats m c)) $$ Hst2'
  -- the wait for fifteen units on the device's own barrier cell, owing its fifteen receive credits: the rest of
  -- the cell's one round, whose payloads are the peers' slots
  iapply (Rounds.wp_wait_rest_token 𝒱₀ ER (Rd m) (c : Thread nD τ) none (κ := K (c, CK.bar))
      (wpE_semWait_eq 𝒱₀ (c : Thread nD τ) none Set.univ) (Set.mem_univ _) () (O := owedRecv c 0) (W := W) (R := 0) (m := 0) (T := ∅)
      (by rw [expect_bar]; decide)) $$ [HcB HO HatB]
  · isplitr; · iapply (inv_at m K (c, CK.bar)); iexact Hrec
    isplitl [HcB]; · iexact HcB
    isplitl [HO]; · iexact HO
    isplitr; · iapply (mayWait_bar c); iexact Hlev
    iexact HatB
  iintro ⟨HO1, HatB1, -, Hpay⟩
  ihave Hp := (Entails.of_eq (rest_bar m c)) $$ Hpay
  ihave Hsl := (bar_slots c) $$ Hp
  ihave HSD0 := (SD_zero m c (insert (SemLoc.reg barS, ()) W)) $$ [HO1 Hst3 Hsl HtR HtS]
  · isplitl [HO1]; · iexact HO1
    isplitl [Hst3]; · iexact Hst3
    isplitl [Hsl]; · iexact Hsl
    isplitl [HtR]; · iexact HtR
    iexact HtS
  -- transfer 0, to the device one place ahead
  iapply (step_send m K c ⟨0, by decide⟩ _ (sdev c ⟨0, by decide⟩ _ _ (k0_dev16_eq c)) (insert (SemLoc.reg barS, ()) W)) $$ [HSD0]
  · isplitr; · iexact Hrec
    iexact HSD0
  iintro HSD1
  -- transfer 1, to the device two places ahead
  iapply (step_send m K c ⟨1, by decide⟩ _ (sdev c ⟨1, by decide⟩ _ _ (k0_dev17_eq c)) (insert (SemLoc.reg barS, ()) W)) $$ [HSD1]
  · isplitr; · iexact Hrec
    iexact HSD1
  iintro HSD2
  rw [wp_ret]
  imodintro
  iapply Hk $$ [HSD2 HatB1] %_
  isplitl [HSD2]
  · iexists (insert (SemLoc.reg barS, ()) W); iexact HSD2
  · iexact HatB1

end Parts

end Cert.KernelIdeal.Proto

end
-- ==== Proof.PartsC.lean ====
/-
  Parts 5–9 of the body: transfers 2–14 and the first three receive waits.
-/
import proofs.«901065_g7700000000001066_dist_softmax_colshard_i_m512_n256_v7x_i16_f32_1_alg».proof.Proof.PartsDefs

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-- Part 5: transfers 2–4. -/
theorem part5_run (W : Waits sig Unit) (v2 vx : BitVec 32) (Q : (Σ' (va : BitVec 32) (vb : BitVec 32) (vc : BitVec 32), BitVec 32) → sProp 𝕄) :
    iprop(records m K ∗ SD m c 2 W ∗ (SD m c 5 W -∗ ∀ r, Q r))
      ⊢ wp frame (wpE (defs₀ (F := F)) 𝒱₀ (c : Thread nD τ) none) Set.univ (k0_part5 (F := F) xM (Memref.isWhole_whole _) oM (Memref.isWhole_whole _) xvM (Memref.isWhole_whole _) stM (Memref.isWhole_whole _) cmM (Memref.isWhole_whole _) cc0_scratch3 cc0_scratch4 cc0_scratch5 c v2 vx) Q := by
  rw [k0_part5_eq_skeleton]
  unfold k0_part5_skel
  simp only [Prog.lift, Prog.bind_op, Prog.bind_ret, Prog.pure_eq_ret]
  iintro ⟨#HR, HD, HK⟩
  iapply (step_send m K c ⟨2, by decide⟩ ⟨k0_dev18 c, k0_dev18_lt c⟩ (sdev c ⟨2, by decide⟩ _ _ (k0_dev18_eq c)) W) $$ [HD]
  · isplitr [HD]
    · iexact HR
    · iexact HD
  iintro HD
  iapply (step_send m K c ⟨3, by decide⟩ ⟨k0_dev19 c, k0_dev19_lt c⟩ (sdev c ⟨3, by decide⟩ _ _ (k0_dev19_eq c)) W) $$ [HD]
  · isplitr [HD]
    · iexact HR
    · iexact HD
  iintro HD
  iapply (step_send m K c ⟨4, by decide⟩ ⟨k0_dev20 c, k0_dev20_lt c⟩ (sdev c ⟨4, by decide⟩ _ _ (k0_dev20_eq c)) W) $$ [HD]
  · isplitr [HD]
    · iexact HR
    · iexact HD
  iintro HD
  rw [wp_ret]
  imodintro
  iapply HK $$ HD

/-- Part 6: transfers 5–7. -/
theorem part6_run (W : Waits sig Unit) (v2 vx : BitVec 32) (Q : (Σ' (va : BitVec 32) (vb : BitVec 32) (vc : BitVec 32), BitVec 32) → sProp 𝕄) :
    iprop(records m K ∗ SD m c 5 W ∗ (SD m c 8 W -∗ ∀ r, Q r))
      ⊢ wp frame (wpE (defs₀ (F := F)) 𝒱₀ (c : Thread nD τ) none) Set.univ (k0_part6 (F := F) xM (Memref.isWhole_whole _) oM (Memref.isWhole_whole _) xvM (Memref.isWhole_whole _) stM (Memref.isWhole_whole _) cmM (Memref.isWhole_whole _) cc0_scratch3 cc0_scratch4 cc0_scratch5 c v2 vx) Q := by
  rw [k0_part6_eq_skeleton]
  unfold k0_part6_skel
  simp only [Prog.lift, Prog.bind_op, Prog.bind_ret, Prog.pure_eq_ret]
  iintro ⟨#HR, HD, HK⟩
  iapply (step_send m K c ⟨5, by decide⟩ ⟨k0_dev21 c, k0_dev21_lt c⟩ (sdev c ⟨5, by decide⟩ _ _ (k0_dev21_eq c)) W) $$ [HD]
  · isplitr [HD]
    · iexact HR
    · iexact HD
  iintro HD
  iapply (step_send m K c ⟨6, by decide⟩ ⟨k0_dev22 c, k0_dev22_lt c⟩ (sdev c ⟨6, by decide⟩ _ _ (k0_dev22_eq c)) W) $$ [HD]
  · isplitr [HD]
    · iexact HR
    · iexact HD
  iintro HD
  iapply (step_send m K c ⟨7, by decide⟩ ⟨k0_dev23 c, k0_dev23_lt c⟩ (sdev c ⟨7, by decide⟩ _ _ (k0_dev23_eq c)) W) $$ [HD]
  · isplitr [HD]
    · iexact HR
    · iexact HD
  iintro HD
  rw [wp_ret]
  imodintro
  iapply HK $$ HD

/-- Part 7: transfers 8–10. -/
theorem part7_run (W : Waits sig Unit) (v2 vx : BitVec 32) (Q : (Σ' (va : BitVec 32) (vb : BitVec 32) (vc : BitVec 32), BitVec 32) → sProp 𝕄) :
    iprop(records m K ∗ SD m c 8 W ∗ (SD m c 11 W -∗ ∀ r, Q r))
      ⊢ wp frame (wpE (defs₀ (F := F)) 𝒱₀ (c : Thread nD τ) none) Set.univ (k0_part7 (F := F) xM (Memref.isWhole_whole _) oM (Memref.isWhole_whole _) xvM (Memref.isWhole_whole _) stM (Memref.isWhole_whole _) cmM (Memref.isWhole_whole _) cc0_scratch3 cc0_scratch4 cc0_scratch5 c v2 vx) Q := by
  rw [k0_part7_eq_skeleton]
  unfold k0_part7_skel
  simp only [Prog.lift, Prog.bind_op, Prog.bind_ret, Prog.pure_eq_ret]
  iintro ⟨#HR, HD, HK⟩
  iapply (step_send m K c ⟨8, by decide⟩ ⟨k0_dev24 c, k0_dev24_lt c⟩ (sdev c ⟨8, by decide⟩ _ _ (k0_dev24_eq c)) W) $$ [HD]
  · isplitr [HD]
    · iexact HR
    · iexact HD
  iintro HD
  iapply (step_send m K c ⟨9, by decide⟩ ⟨k0_dev25 c, k0_dev25_lt c⟩ (sdev c ⟨9, by decide⟩ _ _ (k0_dev25_eq c)) W) $$ [HD]
  · isplitr [HD]
    · iexact HR
    · iexact HD
  iintro HD
  iapply (step_send m K c ⟨10, by decide⟩ ⟨k0_dev26 c, k0_dev26_lt c⟩ (sdev c ⟨10, by decide⟩ _ _ (k0_dev26_eq c)) W) $$ [HD]
  · isplitr [HD]
    · iexact HR
    · iexact HD
  iintro HD
  rw [wp_ret]
  imodintro
  iapply HK $$ HD

/-- Part 8: transfers 11–13. -/
theorem part8_run (W : Waits sig Unit) (v2 vx : BitVec 32) (Q : (Σ' (va : BitVec 32) (vb : BitVec 32) (vc : BitVec 32), BitVec 32) → sProp 𝕄) :
    iprop(records m K ∗ SD m c 11 W ∗ (SD m c 14 W -∗ ∀ r, Q r))
      ⊢ wp frame (wpE (defs₀ (F := F)) 𝒱₀ (c : Thread nD τ) none) Set.univ (k0_part8 (F := F) xM (Memref.isWhole_whole _) oM (Memref.isWhole_whole _) xvM (Memref.isWhole_whole _) stM (Memref.isWhole_whole _) cmM (Memref.isWhole_whole _) cc0_scratch3 cc0_scratch4 cc0_scratch5 c v2 vx) Q := by
  rw [k0_part8_eq_skeleton]
  unfold k0_part8_skel
  simp only [Prog.lift, Prog.bind_op, Prog.bind_ret, Prog.pure_eq_ret]
  iintro ⟨#HR, HD, HK⟩
  iapply (step_send m K c ⟨11, by decide⟩ ⟨k0_dev27 c, k0_dev27_lt c⟩ (sdev c ⟨11, by decide⟩ _ _ (k0_dev27_eq c)) W) $$ [HD]
  · isplitr [HD]
    · iexact HR
    · iexact HD
  iintro HD
  iapply (step_send m K c ⟨12, by decide⟩ ⟨k0_dev28 c, k0_dev28_lt c⟩ (sdev c ⟨12, by decide⟩ _ _ (k0_dev28_eq c)) W) $$ [HD]
  · isplitr [HD]
    · iexact HR
    · iexact HD
  iintro HD
  iapply (step_send m K c ⟨13, by decide⟩ ⟨k0_dev29 c, k0_dev29_lt c⟩ (sdev c ⟨13, by decide⟩ _ _ (k0_dev29_eq c)) W) $$ [HD]
  · isplitr [HD]
    · iexact HR
    · iexact HD
  iintro HD
  rw [wp_ret]
  imodintro
  iapply HK $$ HD

/-- Once all fifteen transfers are issued nothing more is owed on the peers' receive cells, no peer's slot and no
    transfer's token is left, and the send credit of every transfer is held. -/
theorem SD_done (W : Waits sig Unit) :
    SD m c 15 W ⊢ iprop(owes (c : Thread nD τ) 0 W ∗ stPts m c (rem 15)
      ∗ bigSep Finset.univ fun k : Fin 15 => cred (tallyAt (sendCell c k) () N)) := by
  unfold SD
  rw [owedRecv_done, ge_fifteen, ge_fifteen, ge_fifteen, lt_fifteen]
  iintro ⟨HO, HS, -, -, -, HC⟩
  isplitl [HO]
  · iexact HO
  isplitl [HS]
  · iexact HS
  iexact HC

/-- Before the first receive wait: nothing owed, the credit and the position of every receive cell paired cell by
    cell, and no slot landed yet. -/
theorem SE_start (W : Waits sig Unit) :
    (iprop(owes (c : Thread nD τ) 0 W
        ∗ (bigSep Finset.univ fun k : Fin 15 => cred (tallyAt (recvCell c k) () N))
        ∗ bigSep Finset.univ fun k : Fin 15 => atPos ER (recvCell c k) 0 ∅ 0) : sProp 𝕄) ⊢ SE m c 0 := by
  unfold SE
  rw [ge_zero, lt_zero, bigSep_sep']
  iintro ⟨HO, HC, HP⟩
  isplitl [HO]
  · iexists W
    iexact HO
  isplitl [HC HP]
  · isplitl [HC]
    · iexact HC
    · iexact HP
  iempintro

/-- Part 9: the last transfer, then the waits on receive cells 0–2; the part returns the exponentials of the block
    against its own row maxima. -/
theorem part9_run (W : Waits sig Unit) (v64 : Vec F S512x256 .f32) (v66 : FVec F S512x1 .f32) (v87 v97 v107 v228 : BitVec 32)
    (Q : (Σ' (v238 : FVec F S512x256 .f32), BitVec 32) → sProp 𝕄) :
    iprop(records m K ∗ SD m c 14 W
        ∗ (bigSep Finset.univ fun k : Fin 15 => cred (tallyAt (recvCell c k) () N))
        ∗ (bigSep Finset.univ fun k : Fin 15 => atPos ER (recvCell c k) 0 ∅ 0)
        ∗ ((iprop(SE m c 3 ∗ stPts m c (rem 15) ∗ bigSep Finset.univ fun k : Fin 15 => cred (tallyAt (sendCell c k) () N)))
            -∗ ∀ w, Q ⟨k0_pay11 v64 v66, w⟩))
      ⊢ wp frame (wpE (defs₀ (F := F)) 𝒱₀ (c : Thread nD τ) none) Set.univ (k0_part9 (F := F) xM (Memref.isWhole_whole _) oM (Memref.isWhole_whole _) xvM (Memref.isWhole_whole _) stM (Memref.isWhole_whole _) cmM (Memref.isWhole_whole _) cc0_scratch3 cc0_scratch4 cc0_scratch5 c v64 v66 v87 v97 v107 v228) Q := by
  rw [k0_part9_eq_skeleton]
  unfold k0_part9_skel
  simp only [Prog.lift, Prog.bind_op, Prog.bind_ret, Prog.pure_eq_ret]
  iintro ⟨#HR, HD, HC, HP, HK⟩
  iapply (step_send m K c ⟨14, by decide⟩ ⟨k0_dev30 c, k0_dev30_lt c⟩ (sdev c ⟨14, by decide⟩ _ _ (k0_dev30_eq c)) W) $$ [HD]
  · isplitr [HD]
    · iexact HR
    · iexact HD
  iintro HD
  icases (SD_done m c W) $$ HD with ⟨HO, HS, HSC⟩
  ihave HE := (SE_start m c W) $$ [HO HC HP]
  · isplitl [HO]
    · iexact HO
    isplitl [HC]
    · iexact HC
    · iexact HP
  iapply (step_recvw m K c ⟨0, by decide⟩) $$ [HE]
  · isplitr [HE]
    · iexact HR
    · iexact HE
  iintro HE
  iapply (step_recvw m K c ⟨1, by decide⟩) $$ [HE]
  · isplitr [HE]
    · iexact HR
    · iexact HE
  iintro HE
  iapply (step_recvw m K c ⟨2, by decide⟩) $$ [HE]
  · isplitr [HE]
    · iexact HR
    · iexact HE
  iintro HE
  rw [wp_ret]
  imodintro
  iapply HK $$ [HE HS HSC]
  isplitl [HE]
  · iexact HE
  isplitl [HS]
  · iexact HS
  iexact HSC

end Parts

end Cert.KernelIdeal.Proto

end
-- ==== Proof.PartsD.lean ====
/-
  Parts 10–12 of the body: the waits on receive cells 3–14, then the receive buffer and the device's own maxima loaded.
-/
import proofs.«901065_g7700000000001066_dist_softmax_colshard_i_m512_n256_v7x_i16_f32_1_alg».proof.Proof.PartsDefs

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-- Once the fifteenth receive wait is past, no wait is left to come, every slot holds what the filled buffer holds
    there, and the fifteen slots are the receive buffer whole. -/
theorem recv_done : SE m c 15
    ⊢ iprop((∃ W, owes (c : Thread nD τ) 0 W) ∗ cmFull m c
        ∗ bigSep Finset.univ fun k : Fin 15 => atPos ER (recvCell c k) 1 ∅ 0) := by
  unfold SE
  rw [ge_fifteen, lt_fifteen, bigSep_sep']
  iintro ⟨HW, -, HL, HP⟩
  isplitl [HW]
  · iexact HW
  isplitl [HL]
  · iapply (cm_join m c) $$ HL
  · iexact HP

/-- Part 10: the waits on receive cells 3–6. -/
theorem part10_run (v117 v127 v137 v147 v157 w : BitVec 32) (Q : PUnit → sProp 𝕄) :
    iprop(records m K ∗ SE m c 3 ∗ (SE m c 7 -∗ Q ⟨⟩))
      ⊢ wp frame (wpE (defs₀ (F := F)) 𝒱₀ (c : Thread nD τ) none) Set.univ (k0_part10 (F := F) xM (Memref.isWhole_whole _) oM (Memref.isWhole_whole _) xvM (Memref.isWhole_whole _) stM (Memref.isWhole_whole _) cmM (Memref.isWhole_whole _) cc0_scratch3 cc0_scratch4 cc0_scratch5 v117 v127 v137 v147 v157 w) Q := by
  rw [k0_part10_eq_skeleton]; unfold k0_part10_skel
  simp only [Prog.lift, Prog.bind_op, Prog.bind_ret, Prog.pure_eq_ret]
  iintro ⟨#HR, HE, HK⟩
  -- the wait on receive cell 3, then 4, 5, 6: each hands over its slot
  iapply (step_recvw m K c ⟨3, by decide⟩) $$ [HE]
  · isplitr [HE]
    · iexact HR
    · iexact HE
  iintro HE
  iapply (step_recvw m K c ⟨4, by decide⟩) $$ [HE]
  · isplitr [HE]
    · iexact HR
    · iexact HE
  iintro HE
  iapply (step_recvw m K c ⟨5, by decide⟩) $$ [HE]
  · isplitr [HE]
    · iexact HR
    · iexact HE
  iintro HE
  iapply (step_recvw m K c ⟨6, by decide⟩) $$ [HE]
  · isplitr [HE]
    · iexact HR
    · iexact HE
  iintro HE
  rw [wp_ret]
  imodintro
  iapply HK $$ HE

/-- Part 11: the waits on receive cells 7–10. -/
theorem part11_run (v167 v177 v187 v197 : BitVec 32) (Q : PUnit → sProp 𝕄) :
    iprop(records m K ∗ SE m c 7 ∗ (SE m c 11 -∗ Q ⟨⟩))
      ⊢ wp frame (wpE (defs₀ (F := F)) 𝒱₀ (c : Thread nD τ) none) Set.univ (k0_part11 (F := F) xM (Memref.isWhole_whole _) oM (Memref.isWhole_whole _) xvM (Memref.isWhole_whole _) stM (Memref.isWhole_whole _) cmM (Memref.isWhole_whole _) cc0_scratch3 cc0_scratch4 cc0_scratch5 v167 v177 v187 v197) Q := by
  rw [k0_part11_eq_skeleton]; unfold k0_part11_skel
  simp only [Prog.lift, Prog.bind_op, Prog.bind_ret, Prog.pure_eq_ret]
  iintro ⟨#HR, HE, HK⟩
  -- the waits on receive cells 7, 8, 9, 10
  iapply (step_recvw m K c ⟨7, by decide⟩) $$ [HE]
  · isplitr [HE]
    · iexact HR
    · iexact HE
  iintro HE
  iapply (step_recvw m K c ⟨8, by decide⟩) $$ [HE]
  · isplitr [HE]
    · iexact HR
    · iexact HE
  iintro HE
  iapply (step_recvw m K c ⟨9, by decide⟩) $$ [HE]
  · isplitr [HE]
    · iexact HR
    · iexact HE
  iintro HE
  iapply (step_recvw m K c ⟨10, by decide⟩) $$ [HE]
  · isplitr [HE]
    · iexact HR
    · iexact HE
  iintro HE
  rw [wp_ret]
  imodintro
  iapply HK $$ HE

/-- Part 12: the waits on receive cells 11–14; every slot has landed, the receive buffer is whole again; its rows 0–3 and
    4–7 and the device's own maxima are loaded (the tile read at what is left of its share). -/
theorem part12_run (v207 v217 v227 : BitVec 32)
    (Q : (Σ' (v329 : Vec F S15x4x128 .f32) (v330 : Vec F S15x4x128 .f32), FVec F S4x128 .f32) → sProp 𝕄) :
    iprop(records m K ∗ SE m c 11 ∗ stPts m c (rem 15)
        ∗ ((iprop((∃ W, owes (c : Thread nD τ) 0 W) ∗ cmFull m c ∗ stPts m c (rem 15)
              ∗ bigSep Finset.univ fun k : Fin 15 => atPos ER (recvCell c k) 1 ∅ 0))
            -∗ Q ⟨Spec.peerMax (commV m c), Spec.peerSum (commV m c), k0_pay12 (Spec.peerMax (commV m c)) (Spec.ownMax (statsV m c))⟩))
      ⊢ wp frame (wpE (defs₀ (F := F)) 𝒱₀ (c : Thread nD τ) none) Set.univ (k0_part12 (F := F) xM (Memref.isWhole_whole _) oM (Memref.isWhole_whole _) xvM (Memref.isWhole_whole _) stM (Memref.isWhole_whole _) cmM (Memref.isWhole_whole _) cc0_scratch3 cc0_scratch4 cc0_scratch5 v207 v217 v227) Q := by
  rw [k0_part12_eq_skeleton]; unfold k0_part12_skel
  simp only [Prog.lift, Prog.bind_op, Prog.bind_ret, Prog.pure_eq_ret]
  iintro ⟨#HR, HE, HS, HK⟩
  -- the waits on receive cells 11, 12, 13, 14
  iapply (step_recvw m K c ⟨11, by decide⟩) $$ [HE]
  · isplitr [HE]
    · iexact HR
    · iexact HE
  iintro HE
  iapply (step_recvw m K c ⟨12, by decide⟩) $$ [HE]
  · isplitr [HE]
    · iexact HR
    · iexact HE
  iintro HE
  iapply (step_recvw m K c ⟨13, by decide⟩) $$ [HE]
  · isplitr [HE]
    · iexact HR
    · iexact HE
  iintro HE
  iapply (step_recvw m K c ⟨14, by decide⟩) $$ [HE]
  · isplitr [HE]
    · iexact HR
    · iexact HE
  iintro HE
  -- all fifteen slots have landed: the receive buffer is whole
  ihave ⟨HW, HC, HP⟩ := (recv_done m c) $$ HE
  unfold cmFull stPts
  -- rows 0–3 of every slot, then rows 4–7: two reads of the whole buffer
  iapply (wp_load 𝒱₀ (c : Thread nD τ) none Set.univ (m := cmM) (Finset.subset_univ _)) $$ HC
  iintro HC
  iapply (wp_load 𝒱₀ (c : Thread nD τ) none Set.univ (m := cmM) (Finset.subset_univ _)) $$ HC
  iintro HC
  -- rows 0–3 of the statistics tile, read at the share that is left of it: a read needs no more than some share
  iapply (wp_load 𝒱₀ (c : Thread nD τ) none Set.univ (m := stM) (View.setOn_subset_set _ _)) $$ HS
  iintro HS
  rw [read_peerMax, read_peerSum, read_ownMax, wp_ret]
  imodintro
  iapply HK
  isplitl [HW]
  · iexact HW
  isplitl [HC]
  · iexact HC
  isplitl [HS]
  · iexact HS
  · iexact HP

end Parts

end Cert.KernelIdeal.Proto

end
-- ==== Proof.PartsE.lean ====
/-
  Parts 13–15 of the body and its tail: the device's sums and maxima loaded, its block of the result stored, the fifteen send waits.
-/
import proofs.«901065_g7700000000001066_dist_softmax_colshard_i_m512_n256_v7x_i16_f32_1_alg».proof.Proof.PartsDefs

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-! ## The result's staging buffer read and written whole -/

/-- The rectangle of the store: the whole 512 × 256 block at offsets zero. -/
abbrev rOut : Rect S512x256 := Rect.unit (s := S512x256) ![0, 0] S512x256.size inb_S512x256_S512x256_0_0

omit [FloatOps F] in
theorem zero_offs : (![0, 0] : Fin 2 → Nat) = fun _ => 0 := funext fun a => by fin_cases a <;> rfl

omit [FloatOps F] in
/-- A block stored whole over any contents is the buffer's contents. -/
theorem out_write (f w : (cc0_stg0_0 : Ref sig .tc).ty.Contents (Elt F)) :
    ((oM : Memref sig .tc .vmem S512x256 .f32).access rOut : View sig .tc _ _ _).write (Elt F) f w Finset.univ = w :=
  Memref.write_access_unit_zero_univ (Elt F) cc0_stg0_0 zero_offs _ f w

/-- What the body stores, formed from the block's row maxima and exponentials, the peers' maxima and sums and the
    device's own sums and maxima, is the device's block of the result. -/
theorem out_eq :
    k0_pay13 (k0_pay1 (xin m c)) (k0_pay11 (xin m c) (k0_pay1 (xin m c))) (Spec.peerMax (commV m c)) (Spec.peerSum (commV m c))
        (k0_pay12 (Spec.peerMax (commV m c)) (Spec.ownMax (statsV m c))) (Spec.ownSum (statsV m c)) (Spec.ownMax (statsV m c))
      = outV m c := by
  unfold outV Spec.out statsV commV; rfl

/-! ## The parts -/

/-- Part 13: the device's own sums and maxima loaded, a dead load of the result's staging buffer, the block of the result
    stored, the waits on send cells 0 and 1. -/
theorem part13_run (Q : PUnit → sProp 𝕄) :
    iprop(records m K ∗ stPts m c (rem 15) ∗ outAny c ∗ SG m c 0
        ∗ ((iprop(stPts m c (rem 15) ∗ outFull m c ∗ SG m c 2)) -∗ Q ⟨⟩))
      ⊢ wp frame (wpE (defs₀ (F := F)) 𝒱₀ (c : Thread nD τ) none) Set.univ (k0_part13 (F := F) xM (Memref.isWhole_whole _) oM (Memref.isWhole_whole _) xvM (Memref.isWhole_whole _) stM (Memref.isWhole_whole _) cmM (Memref.isWhole_whole _) cc0_scratch3 cc0_scratch4 cc0_scratch5 (k0_pay1 (xin m c)) (k0_pay11 (xin m c) (k0_pay1 (xin m c))) (Spec.peerMax (commV m c)) (Spec.peerSum (commV m c)) (k0_pay12 (Spec.peerMax (commV m c)) (Spec.ownMax (statsV m c)))) Q := by
  rw [k0_part13_eq_skeleton]; unfold k0_part13_skel
  simp only [semSignalWord, semWaitWord, Prog.lift, Prog.bind_op, Prog.bind_ret, Prog.pure_eq_ret, wp_deviceId]
  unfold stPts outAny outFull
  iintro ⟨#HR, Hst, ⟨%g, Hout⟩, HSG, Hk⟩
  -- rows 4–7 and rows 0–3 of the statistics tile, read at what is left of its share
  iapply (wp_load 𝒱₀ (c : Thread nD τ) none Set.univ (m := stM) (View.setOn_subset_set _ _)) $$ Hst; iintro Hst
  rw [read_ownSum]
  iapply (wp_load 𝒱₀ (c : Thread nD τ) none Set.univ (m := stM) (View.setOn_subset_set _ _)) $$ Hst; iintro Hst
  rw [read_ownMax]
  -- the staging buffer read at whatever it holds, then written whole
  iapply (wp_load 𝒱₀ (c : Thread nD τ) none Set.univ (m := oM) (Finset.subset_univ _)) $$ Hout; iintro Hout
  iapply (wp_store 𝒱₀ (c : Thread nD τ) none Set.univ (m := oM) (r := rOut) (Mk := Finset.univ) (Finset.subset_univ _)) $$ Hout; iintro Hout
  rw [out_write, out_eq]
  -- the waits on send cells 0 and 1
  iapply (step_sendw m K c ⟨0, by decide⟩) $$ [HSG]
  · isplitr; · iexact HR
    iexact HSG
  iintro HSG
  iapply (step_sendw m K c ⟨1, by decide⟩) $$ [HSG]
  · isplitr; · iexact HR
    iexact HSG
  iintro HSG
  rw [wp_ret]; imodintro
  iapply Hk
  isplitl [Hst]; · iexact Hst
  isplitl [Hout]; · iexact Hout
  iexact HSG

/-- Part 14: the waits on send cells 2–6. -/
theorem part14_run (Q : PUnit → sProp 𝕄) :
    iprop(records m K ∗ SG m c 2 ∗ (SG m c 7 -∗ Q ⟨⟩)) ⊢ wp frame (wpE (defs₀ (F := F)) 𝒱₀ (c : Thread nD τ) none) Set.univ (k0_part14 (F := F) xM (Memref.isWhole_whole _) oM (Memref.isWhole_whole _) xvM (Memref.isWhole_whole _) stM (Memref.isWhole_whole _) cmM (Memref.isWhole_whole _) cc0_scratch3 cc0_scratch4 cc0_scratch5) Q := by
  rw [k0_part14_eq_skeleton]; unfold k0_part14_skel
  simp only [semSignalWord, semWaitWord, Prog.lift, Prog.bind_op, Prog.bind_ret, Prog.pure_eq_ret, wp_deviceId]
  iintro ⟨#HR, HSG, Hk⟩
  iapply (step_sendw m K c ⟨2, by decide⟩) $$ [HSG]
  · isplitr; · iexact HR
    iexact HSG
  iintro HSG
  iapply (step_sendw m K c ⟨3, by decide⟩) $$ [HSG]
  · isplitr; · iexact HR
    iexact HSG
  iintro HSG
  iapply (step_sendw m K c ⟨4, by decide⟩) $$ [HSG]
  · isplitr; · iexact HR
    iexact HSG
  iintro HSG
  iapply (step_sendw m K c ⟨5, by decide⟩) $$ [HSG]
  · isplitr; · iexact HR
    iexact HSG
  iintro HSG
  iapply (step_sendw m K c ⟨6, by decide⟩) $$ [HSG]
  · isplitr; · iexact HR
    iexact HSG
  iintro HSG
  rw [wp_ret]; imodintro
  iapply Hk; iexact HSG

/-- Part 15: the waits on send cells 7–11. -/
theorem part15_run (Q : PUnit → sProp 𝕄) :
    iprop(records m K ∗ SG m c 7 ∗ (SG m c 12 -∗ Q ⟨⟩)) ⊢ wp frame (wpE (defs₀ (F := F)) 𝒱₀ (c : Thread nD τ) none) Set.univ (k0_part15 (F := F) xM (Memref.isWhole_whole _) oM (Memref.isWhole_whole _) xvM (Memref.isWhole_whole _) stM (Memref.isWhole_whole _) cmM (Memref.isWhole_whole _) cc0_scratch3 cc0_scratch4 cc0_scratch5) Q := by
  rw [k0_part15_eq_skeleton]; unfold k0_part15_skel
  simp only [semSignalWord, semWaitWord, Prog.lift, Prog.bind_op, Prog.bind_ret, Prog.pure_eq_ret, wp_deviceId]
  iintro ⟨#HR, HSG, Hk⟩
  iapply (step_sendw m K c ⟨7, by decide⟩) $$ [HSG]
  · isplitr; · iexact HR
    iexact HSG
  iintro HSG
  iapply (step_sendw m K c ⟨8, by decide⟩) $$ [HSG]
  · isplitr; · iexact HR
    iexact HSG
  iintro HSG
  iapply (step_sendw m K c ⟨9, by decide⟩) $$ [HSG]
  · isplitr; · iexact HR
    iexact HSG
  iintro HSG
  iapply (step_sendw m K c ⟨10, by decide⟩) $$ [HSG]
  · isplitr; · iexact HR
    iexact HSG
  iintro HSG
  iapply (step_sendw m K c ⟨11, by decide⟩) $$ [HSG]
  · isplitr; · iexact HR
    iexact HSG
  iintro HSG
  rw [wp_ret]; imodintro
  iapply Hk; iexact HSG

/-- The body's tail: the waits on send cells 12–14; what follows them still runs under the program's last step. -/
theorem part16_run (Q : PUnit → sProp 𝕄) :
    iprop(records m K ∗ SG m c 12 ∗ (SG m c 15 -∗ wp frame (wpE (defs₀ (F := F)) 𝒱₀ (c : Thread nD τ) none) Set.univ (.ret ⟨⟩) Q))
      ⊢ wp frame (wpE (defs₀ (F := F)) 𝒱₀ (c : Thread nD τ) none) Set.univ
          (do
            let v414 : DmaSems sig S1 := cc0_scratch3.slice (Rect.unit (s := S15) ![12] S1.size inb_S15_S1_12)
            let v415 : DmaSems sig S_ := v414.squeeze S_ squeezes_S1_S_
            let v416 : Memref sig .tc .vmem S1x8x128 .f32 := cmM.slice (Rect.unit (s := S15x8x128) ![12, 0, 0] S1x8x128.size inb_S15x8x128_S1x8x128_12_0_0) (fun _ => rfl)
            let v417 : Memref sig .tc .vmem S8x128 .f32 := v416.squeeze S8x128 squeezes_S1x8x128_S8x128
            Prog.lift (.waitDma2 v415.sem v417 stM ((View.wordExact_bits rfl).reshape _ _) (Memref.IsWhole.wordExact (Memref.isWhole_whole _)))
            let v418 : DmaSems sig S1 := cc0_scratch3.slice (Rect.unit (s := S15) ![13] S1.size inb_S15_S1_13)
            let v419 : DmaSems sig S_ := v418.squeeze S_ squeezes_S1_S_
            let v420 : Memref sig .tc .vmem S1x8x128 .f32 := cmM.slice (Rect.unit (s := S15x8x128) ![13, 0, 0] S1x8x128.size inb_S15x8x128_S1x8x128_13_0_0) (fun _ => rfl)
            let v421 : Memref sig .tc .vmem S8x128 .f32 := v420.squeeze S8x128 squeezes_S1x8x128_S8x128
            Prog.lift (.waitDma2 v419.sem v421 stM ((View.wordExact_bits rfl).reshape _ _) (Memref.IsWhole.wordExact (Memref.isWhole_whole _)))
            let v422 : DmaSems sig S1 := cc0_scratch3.slice (Rect.unit (s := S15) ![14] S1.size inb_S15_S1_14)
            let v423 : DmaSems sig S_ := v422.squeeze S_ squeezes_S1_S_
            let v424 : Memref sig .tc .vmem S1x8x128 .f32 := cmM.slice (Rect.unit (s := S15x8x128) ![14, 0, 0] S1x8x128.size inb_S15x8x128_S1x8x128_14_0_0) (fun _ => rfl)
            let v425 : Memref sig .tc .vmem S8x128 .f32 := v424.squeeze S8x128 squeezes_S1x8x128_S8x128
            Prog.lift (.waitDma2 v423.sem v425 stM ((View.wordExact_bits rfl).reshape _ _) (Memref.IsWhole.wordExact (Memref.isWhole_whole _)))
            pure ⟨⟩ : Prog (TpuEff nD τ sig (Elt F) Λ₀ .tc) PUnit) Q := by
  simp only [semSignalWord, semWaitWord, Prog.lift, Prog.bind_op, Prog.bind_ret, Prog.pure_eq_ret, wp_deviceId]
  iintro ⟨#HR, HSG, Hk⟩
  iapply (step_sendw m K c ⟨12, by decide⟩) $$ [HSG]
  · isplitr; · iexact HR
    iexact HSG
  iintro HSG
  iapply (step_sendw m K c ⟨13, by decide⟩) $$ [HSG]
  · isplitr; · iexact HR
    iexact HSG
  iintro HSG
  iapply (step_sendw m K c ⟨14, by decide⟩) $$ [HSG]
  · isplitr; · iexact HR
    iexact HSG
  iintro HSG
  iapply Hk; iexact HSG

/-- The tail with nothing left to do after its waits. -/
theorem part16_run' (Q : PUnit → sProp 𝕄) :
    iprop(records m K ∗ SG m c 12 ∗ (SG m c 15 -∗ Q ⟨⟩))
      ⊢ wp frame (wpE (defs₀ (F := F)) 𝒱₀ (c : Thread nD τ) none) Set.univ
          (do
            let v414 : DmaSems sig S1 := cc0_scratch3.slice (Rect.unit (s := S15) ![12] S1.size inb_S15_S1_12)
            let v415 : DmaSems sig S_ := v414.squeeze S_ squeezes_S1_S_
            let v416 : Memref sig .tc .vmem S1x8x128 .f32 := cmM.slice (Rect.unit (s := S15x8x128) ![12, 0, 0] S1x8x128.size inb_S15x8x128_S1x8x128_12_0_0) (fun _ => rfl)
            let v417 : Memref sig .tc .vmem S8x128 .f32 := v416.squeeze S8x128 squeezes_S1x8x128_S8x128
            Prog.lift (.waitDma2 v415.sem v417 stM ((View.wordExact_bits rfl).reshape _ _) (Memref.IsWhole.wordExact (Memref.isWhole_whole _)))
            let v418 : DmaSems sig S1 := cc0_scratch3.slice (Rect.unit (s := S15) ![13] S1.size inb_S15_S1_13)
            let v419 : DmaSems sig S_ := v418.squeeze S_ squeezes_S1_S_
            let v420 : Memref sig .tc .vmem S1x8x128 .f32 := cmM.slice (Rect.unit (s := S15x8x128) ![13, 0, 0] S1x8x128.size inb_S15x8x128_S1x8x128_13_0_0) (fun _ => rfl)
            let v421 : Memref sig .tc .vmem S8x128 .f32 := v420.squeeze S8x128 squeezes_S1x8x128_S8x128
            Prog.lift (.waitDma2 v419.sem v421 stM ((View.wordExact_bits rfl).reshape _ _) (Memref.IsWhole.wordExact (Memref.isWhole_whole _)))
            let v422 : DmaSems sig S1 := cc0_scratch3.slice (Rect.unit (s := S15) ![14] S1.size inb_S15_S1_14)
            let v423 : DmaSems sig S_ := v422.squeeze S_ squeezes_S1_S_
            let v424 : Memref sig .tc .vmem S1x8x128 .f32 := cmM.slice (Rect.unit (s := S15x8x128) ![14, 0, 0] S1x8x128.size inb_S15x8x128_S1x8x128_14_0_0) (fun _ => rfl)
            let v425 : Memref sig .tc .vmem S8x128 .f32 := v424.squeeze S8x128 squeezes_S1x8x128_S8x128
            Prog.lift (.waitDma2 v423.sem v425 stM ((View.wordExact_bits rfl).reshape _ _) (Memref.IsWhole.wordExact (Memref.isWhole_whole _)))
            pure ⟨⟩ : Prog (TpuEff nD τ sig (Elt F) Λ₀ .tc) PUnit) Q := by
  iintro ⟨#HR, HSG, Hk⟩
  iapply (part16_run m K c Q)
  isplitr; · iexact HR
  isplitl [HSG]; · iexact HSG
  iintro HSG
  rw [wp_ret]; imodintro
  iapply Hk; iexact HSG

end Parts

end Cert.KernelIdeal.Proto

end
-- ==== Proof.Body.lean ====
/-
  One device's body from start to end: the parts in sequence, then the statistics tile put back together and the
  device's own thirty-one cells closed.
-/
import proofs.«901065_g7700000000001066_dist_softmax_colshard_i_m512_n256_v7x_i16_f32_1_alg».proof.Proof.PartsA
import proofs.«901065_g7700000000001066_dist_softmax_colshard_i_m512_n256_v7x_i16_f32_1_alg».proof.Proof.PartsB
import proofs.«901065_g7700000000001066_dist_softmax_colshard_i_m512_n256_v7x_i16_f32_1_alg».proof.Proof.PartsC
import proofs.«901065_g7700000000001066_dist_softmax_colshard_i_m512_n256_v7x_i16_f32_1_alg».proof.Proof.PartsD
import proofs.«901065_g7700000000001066_dist_softmax_colshard_i_m512_n256_v7x_i16_f32_1_alg».proof.Proof.PartsE

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A persistent assertion serves every factor of a product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section Body

variable (K : Dev nD × CK → ℕ) (c : Dev nD)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop((ghost m K c ∗ creds c ∗ levAts L lv ∗ xPts m c ∗ scratch c)
    ∗ (dats m ρ 0 c).owesAt () t₀.castSucc
    ∗ (∃ d, stg c cc0_stg0_0 ((dats m ρ 0 c).before (0 : Fin 1) t₀ d)))

def bodyPost : sProp 𝕄 :=
  iprop(Φ₁ m c ∗ (dats m ρ 0 c).owesAt () t₀.succ ∗ stg c cc0_stg0_0 (outV m c))

/-- The own cells closed: a cell at round 1 with nothing taken has its counter at zero, which is the device's again. -/
theorem close_cell (x : CK) (hx : x ≠ .bar) :
    iprop(records m K ∗ atPos ER (kcell (c, x)) 1 ∅ 0) ⊢ (|={Set.univ}=> semVal (kcell (c, x)) 0 : sProp 𝕄) := by
  iintro ⟨#HR, Hat⟩
  iapply (Rounds.cell_close ER (Rd m) (Set.mem_univ (K (c, x))) (fun h => h) (R := 1) (duties_later m (kcell (c, x))))
  isplitr
  · iapply (inv_at m K (c, x)); iexact HR
  · iexact Hat

set_option maxHeartbeats 1600000 in
/-- The body, part by part, from `bodyPre` to `bodyPost`. -/
theorem sound_body (Kt : PUnit → sProp 𝕄) :
    iprop(bodyPre m ρ K c ∗ (bodyPost m ρ c -∗ Kt ⟨⟩))
      ⊢ wp frame (wpE (defs₀ (F := F)) 𝒱₀ (c : Thread nD τ) none) Set.univ (cc0_body (F := F) xM (Memref.isWhole_whole _) oM (Memref.isWhole_whole _) xvM (Memref.isWhole_whole _) stM (Memref.isWhole_whole _) cmM (Memref.isWhole_whole _) cc0_scratch3 cc0_scratch4 cc0_scratch5) Kt := by
  rw [cc0_body_eq_skeleton]; unfold cc0_body_skel
  unfold bodyPre ghost positions payToks creds scratch
  iintro ⟨⟨⟨⟨#HR, ⟨HatB, HatS, HatV, HatL⟩, ⟨HtB, HtV, HtS, HtL⟩⟩, ⟨HcB, HcV⟩, #Hlev, Hx, ⟨Hxv, Hst, Hcm⟩⟩, Ho, ⟨%d0, %g0, %hg0, Hout⟩⟩, Hk⟩
  unfold Dat.owesAt Pipeline.owesWithin
  icases Ho with ⟨%W, %hW, HO⟩
  rw [show (dats m ρ 0 c).owed t₀.castSucc = O₀ c from rfl]
  ihave Hsl := (cm_split (F := F) c) $$ [Hcm]
  · unfold cmAny; iexact Hcm
  -- parts 1–3: the signals, the copy, the block loaded
  rw [wp_bind]
  iapply (part1_run m K c W _)
  isplitr; · iexact HR
  isplitl [HO HtB Hsl]
  · unfold SA O₀; rw [ge_zero, ge_zero]
    isplitl [HO]; · iexact HO
    isplitl [HtB] <;> iassumption
  iintro HSA %v2 %v24 %c16
  dsimp only
  rw [wp_bind]
  iapply (part2_run m K c W v2 v24 c16 _)
  isplitr; · iexact HR
  isplitl [HSA]; · iexact HSA
  iintro HSA %r2
  obtain ⟨v48, c16'⟩ := r2
  dsimp only
  rw [wp_bind]
  iapply (part3_run m K c W v2 v48 c16' _)
  isplitr; · iexact HR
  isplitr; · iexact Hlev
  isplitl [HSA]; · iexact HSA
  isplitl [Hx]; · iexact Hx
  isplitl [Hxv]; · unfold xvAny; iexact Hxv
  isplitl [HtL]; · iexact HtL
  isplitl [HatL]; · iexact HatL
  iintro ⟨⟨%W3, HO⟩, Hxv, Hx, HatL⟩
  dsimp only
  -- part 4: the tile stored, the barrier wait, transfers 0 and 1
  rw [wp_bind]
  iapply (part4_run m K c W3 v2 _)
  isplitr; · iexact HR
  isplitr; · iexact Hlev
  isplitl [HO]; · iexact HO
  isplitl [Hst]; · unfold stAny; iexact Hst
  isplitl [HcB]; · iexact HcB
  isplitl [HatB]; · iexact HatB
  isplitl [HtV]; · iexact HtV
  isplitl [HtS]; · iexact HtS
  iintro ⟨⟨%W4, HSD⟩, HatB⟩ %r4
  obtain ⟨v87, v97, v107, v108⟩ := r4
  dsimp only
  -- parts 5–9: the other transfers, the first receive waits
  rw [wp_bind]
  iapply (part5_run m K c W4 v2 v108 _)
  isplitr; · iexact HR
  isplitl [HSD]; · iexact HSD
  iintro HSD %r5
  obtain ⟨v117, v127, v137, v138⟩ := r5
  dsimp only
  rw [wp_bind]
  iapply (part6_run m K c W4 v2 v138 _)
  isplitr; · iexact HR
  isplitl [HSD]; · iexact HSD
  iintro HSD %r6
  obtain ⟨v147, v157, v167, v168⟩ := r6
  dsimp only
  rw [wp_bind]
  iapply (part7_run m K c W4 v2 v168 _)
  isplitr; · iexact HR
  isplitl [HSD]; · iexact HSD
  iintro HSD %r7
  obtain ⟨v177, v187, v197, v198⟩ := r7
  dsimp only
  rw [wp_bind]
  iapply (part8_run m K c W4 v2 v198 _)
  isplitr; · iexact HR
  isplitl [HSD]; · iexact HSD
  iintro HSD %r8
  obtain ⟨v207, v217, v227, v228⟩ := r8
  dsimp only
  rw [wp_bind]
  iapply (part9_run m K c W4 (xin m c) (k0_pay1 (xin m c)) v87 v97 v107 v228 _)
  isplitr; · iexact HR
  isplitl [HSD]; · iexact HSD
  isplitl [HcV]; · iexact HcV
  isplitl [HatV]; · iexact HatV
  iintro ⟨HSE, Hst, HcS⟩ %w9
  dsimp only
  -- parts 10–12: the other receive waits, the loads
  rw [wp_bind]
  iapply (part10_run m K c v117 v127 v137 v147 v157 w9 _)
  isplitr; · iexact HR
  isplitl [HSE]; · iexact HSE
  iintro HSE
  rw [wp_bind]
  iapply (part11_run m K c v167 v177 v187 v197 _)
  isplitr; · iexact HR
  isplitl [HSE]; · iexact HSE
  iintro HSE
  rw [wp_bind]
  iapply (part12_run m K c v207 v217 v227 _)
  isplitr; · iexact HR
  isplitl [HSE]; · iexact HSE
  isplitl [Hst]; · iexact Hst
  iintro ⟨⟨%W12, HO⟩, Hcm, Hst, HatV⟩
  dsimp only
  -- parts 13–15 and the tail: the result stored, the send waits
  have hg : g0 = (dats m ρ 0 c).before (0 : Fin 1) t₀ d0 := hg0
  rw [wp_bind]
  iapply (part13_run m K c _)
  isplitr; · iexact HR
  isplitl [Hst]; · iexact Hst
  isplitl [Hout]; · unfold outAny; iexists g0; iexact Hout
  isplitl [HO HcS HatS]
  · unfold SG; rw [ge_zero, lt_zero]
    isplitl [HO]; · iexists W12; iexact HO
    isplitl [HcS HatS]
    · rw [bigSep_sep']; isplitl [HcS] <;> iassumption
    · iempintro
  iintro ⟨Hst, Hout, HSG⟩
  rw [wp_bind]
  iapply (part14_run m K c _)
  isplitr; · iexact HR
  isplitl [HSG]; · iexact HSG
  iintro HSG
  rw [wp_bind]
  iapply (part15_run m K c _)
  isplitr; · iexact HR
  isplitl [HSG]; · iexact HSG
  iintro HSG
  iapply (part16_run m K c _)
  isplitr; · iexact HR
  isplitl [HSG]; · iexact HSG
  iintro HSG
  -- the tile whole again, the cells closed
  unfold SG
  rw [ge_fifteen, lt_fifteen, bigSep_sep']
  icases HSG with ⟨⟨%Wf, HO⟩, -, Hpc, HatS⟩
  ihave Hst := (st_join m c) $$ [Hst Hpc]
  · isplitl [Hst] <;> iassumption
  imod (show iprop(records m K ∗ bigSep Finset.univ fun k : Fin 15 => atPos ER (sendCell c k) 1 ∅ 0)
      ⊢ (|={Set.univ}=> bigSep Finset.univ fun k : Fin 15 => semVal (sendCell c k) 0 : sProp 𝕄) from
        (bigSep_with_persistent (R := records m K) fun k _ => close_cell m K c (.send k) (fun h => by cases h)).trans (bigSep_fupd _ _)) $$ [HatS] with HzS
  · isplitr; · iexact HR
    iexact HatS
  imod (show iprop(records m K ∗ bigSep Finset.univ fun k : Fin 15 => atPos ER (recvCell c k) 1 ∅ 0)
      ⊢ (|={Set.univ}=> bigSep Finset.univ fun k : Fin 15 => semVal (recvCell c k) 0 : sProp 𝕄) from
        (bigSep_with_persistent (R := records m K) fun k _ => close_cell m K c (.recv k) (fun h => by cases h)).trans (bigSep_fupd _ _)) $$ [HatV] with HzV
  · isplitr; · iexact HR
    iexact HatV
  imod (close_cell m K c .load (fun h => by cases h)) $$ [HatL] with HzL
  · isplitr; · iexact HR
    iexact HatL
  rw [wp_ret]; imodintro
  iapply Hk
  unfold bodyPost Φ₁ ownZero scratch Dat.owesAt Pipeline.owesWithin
  rw [show (dats m ρ 0 c).owed t₀.succ = 0 from rfl]
  isplitl [Hx HzS HzV HzL Hxv Hst Hcm]
  · isplitl [Hx]; · iexact Hx
    isplitl [HzS HzV HzL]
    · isplitl [HzS]; · iexact HzS
      isplitl [HzV] <;> iassumption
    isplitl [Hxv]; · unfold xvPts; rw [View.set_whole]; iexists _; iexact Hxv
    isplitl [Hst]; · unfold stPts; rw [View.set_whole]; iexists _; iexact Hst
    unfold cmFull; iexists _; iexact Hcm
  isplitl [HO]
  · iexists Wf
    isplitr; · ipureintro; exact fun _ _ => Or.inl trivial
    iexact HO
  unfold outFull
  iexists _; isplitr; · (ipureintro; rfl)
  iexact Hout

end Body

end Cert.KernelIdeal.Proto

end
-- ==== Proof.Deal.lean ====
/-
  How the launch deals the protocol's ghost state to the sixteen devices.

  The launch element of the protocol's algebra is every cell of every device in its launch state (round 0 reached,
  its owner at position 0) and one token per duty of round 0: fifteen for a barrier cell, one for a send cell, a
  receive cell and the copy's cell. Dealt device by device, each device gets the round states and positions of its own
  thirty-two cells and their forty-six tokens. With every device's thirty-two counters at zero the cells' invariants
  are allocated for all devices under one update, and the tokens move to the devices that pay them: token `k` of a
  device's barrier cell and the token of its `k`-th receive cell go to the device `k + 1` places behind it, so device
  `c` gets those of the device `k + 1` places ahead of it, for every `k`. The re-indexing is the ring's rotation by
  `k + 1` places, a bijection of the sixteen devices for each fixed `k`.
-/
import proofs.«901065_g7700000000001066_dist_softmax_colshard_i_m512_n256_v7x_i16_f32_1_alg».proof.Proof.Ghost
import Mathlib.Logic.Equiv.Prod

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own scoped DMA semaphores, numbers 1 to 31 (number 0 is the result's staging semaphore). -/
abbrev osem : Fin 31 → SemLoc sig := fun i => .dma ⟨i.val + 1, by have := i.isLt; show i.val + 1 < 32; omega⟩

theorem ownSemFacts : Pipeline.OwnSemFacts cfg0.spec osem := by decide

theorem share_eq (c : Dev nD) (w : Fin cfg0.W) : (dats m ρ 0 c).share w = fullShare := by unfold Dat.share; split <;> rfl

/-! ## Products over the cells of one device, over its tokens, and over devices and offsets -/

/-- A device's cells: the barrier cell, fifteen send cells, fifteen receive cells, the copy's cell. -/
def ckEquiv : Unit ⊕ Fin 15 ⊕ Fin 15 ⊕ Unit ≃ CK where
  toFun
    | .inl _ => .bar
    | .inr (.inl k) => .send k
    | .inr (.inr (.inl k)) => .recv k
    | .inr (.inr (.inr _)) => .load
  invFun
    | .bar => .inl ()
    | .send k => .inr (.inl k)
    | .recv k => .inr (.inr (.inl k))
    | .load => .inr (.inr (.inr ()))
  left_inv x := by rcases x with _ | k | k | _ <;> rfl
  right_inv x := by cases x <;> rfl

/-- A product over a device's cells is the product of its four groups. -/
theorem bigSep_CK {M : Type} [URA M] (Φ : CK → sProp M) :
    bigSep Finset.univ Φ = iprop(Φ .bar ∗ (bigSep Finset.univ fun k => Φ (.send k)) ∗ (bigSep Finset.univ fun k => Φ (.recv k)) ∗ Φ .load) := by
  rw [bigSep_univ_equiv ckEquiv Φ, bigSep_univ_sum, bigSep_univ_sum, bigSep_univ_sum,
    bigSep_univ_of_subsingleton (), bigSep_univ_of_subsingleton ()]
  rfl

/-- The tokens minted for one device, one per duty of round 0 of its own cells. -/
inductive TK where
  | bar (d : Fin 15)
  | send (k : Fin 15)
  | recv (k : Fin 15)
  | load
  deriving DecidableEq, Fintype

def tkEquiv : Fin 15 ⊕ Fin 15 ⊕ Fin 15 ⊕ Unit ≃ TK where
  toFun
    | .inl d => .bar d
    | .inr (.inl k) => .send k
    | .inr (.inr (.inl k)) => .recv k
    | .inr (.inr (.inr _)) => .load
  invFun
    | .bar d => .inl d
    | .send k => .inr (.inl k)
    | .recv k => .inr (.inr (.inl k))
    | .load => .inr (.inr (.inr ()))
  left_inv x := by rcases x with _ | k | k | _ <;> rfl
  right_inv x := by cases x <;> rfl

theorem bigSep_TK {M : Type} [URA M] (Φ : TK → sProp M) :
    bigSep Finset.univ Φ = iprop((bigSep Finset.univ fun d => Φ (.bar d)) ∗ (bigSep Finset.univ fun k => Φ (.send k)) ∗ (bigSep Finset.univ fun k => Φ (.recv k)) ∗ Φ .load) := by
  rw [bigSep_univ_equiv tkEquiv Φ, bigSep_univ_sum, bigSep_univ_sum, bigSep_univ_sum,
    bigSep_univ_of_subsingleton ()]
  rfl

/-- Two nested products over finite types exchange. -/
theorem bigSep_swap {M : Type} [URA M] {α β : Type} [Fintype α] [Fintype β] (Φ : α → β → sProp M) :
    (bigSep Finset.univ fun a => bigSep Finset.univ fun b => Φ a b) = bigSep Finset.univ fun b => bigSep Finset.univ fun a => Φ a b := by
  have h1 : bigSep Finset.univ (fun p : α × β => Φ p.1 p.2) = bigSep Finset.univ fun a => bigSep Finset.univ fun b => Φ a b := bigSep_univ_prod _
  have h2 : bigSep Finset.univ (fun p : β × α => Φ p.2 p.1) = bigSep Finset.univ fun b => bigSep Finset.univ fun a => Φ a b := bigSep_univ_prod _
  have h3 : bigSep Finset.univ (fun p : α × β => Φ p.1 p.2) = bigSep Finset.univ (fun p : β × α => Φ p.2 p.1) := bigSep_univ_equiv (Equiv.prodComm β α) _
  rw [← h1, h3, h2]

/-- The ring's rotation by `k + 1` places. -/
def ringEq (k : Fin 15) : Dev nD ≃ Dev nD := ⟨fun c => fwd c k, fun c => bwd c k, fun c => bwd_fwd c k, fun c => fwd_bwd c k⟩

/-- A product over devices and offsets, each device's factor at offset `k` taken from the device `k + 1` places ahead:
    for each `k` the rotation permutes the devices. -/
theorem bigSep_around {M : Type} [URA M] (Φ : Dev nD → Fin 15 → sProp M) :
    (bigSep Finset.univ fun c : Dev nD => bigSep Finset.univ fun k : Fin 15 => Φ c k)
      = bigSep Finset.univ fun c : Dev nD => bigSep Finset.univ fun k : Fin 15 => Φ (fwd c k) k := by
  rw [bigSep_swap Φ, bigSep_swap fun c k => Φ (fwd c k) k]
  exact bigSep_congr fun k _ => bigSep_univ_equiv (ringEq k) fun c => Φ c k

/-! ## The cells and the tokens of the launch element -/

/-- A semaphore's number, regular semaphores first: 0 for a regular semaphore, `n + 1` for DMA semaphore `n`. -/
private def semCode : SemLoc sig → ℕ
  | .reg _ => 0
  | .dma s => s.val + 1

/-- A device's thirty-two cells are distinct semaphores: the barrier semaphore is the one regular semaphore, the send
    semaphores are DMA semaphores 1–15, the receive semaphores 16–30, the copy's 31. -/
theorem csem_injective : Function.Injective (csem : CK → SemLoc sig) := by
  intro x y h
  have hc := congrArg semCode h
  rcases x with _ | k | k | _ <;> rcases y with _ | k' | k' | _ <;>
    simp only [csem, semCode, sendA_val, recvA_val, loadA_val] at hc <;>
    first
      | rfl
      | exact congrArg _ (Fin.ext (by omega))
      | (exfalso; omega)

theorem kcell_injective : Function.Injective (kcell : Dev nD × CK → GSem nD τ sig) := by
  rintro ⟨c, x⟩ ⟨c', x'⟩ h
  have h1 : c = c' := congrArg (fun g : GSem nD τ sig => g.1.1) h
  subst h1
  have h2 : csem x = csem x' := congrArg Prod.snd h
  rw [csem_injective h2]

/-- Every cell of every device. -/
def ringCells : Finset (GSem nD τ sig) := Finset.univ.map ⟨kcell, kcell_injective⟩

/-- The token as minted: the cell, round 0, the duty. -/
abbrev tokOf (ct : Dev nD × TK) : GSem nD τ sig × ℕ × Fin 15 := match ct.2 with
  | .bar d => (barCell ct.1, 0, d)
  | .send k => (sendCell ct.1 k, 0, 0)
  | .recv k => (recvCell ct.1 k, 0, 0)
  | .load => (loadCell ct.1, 0, 0)

/-- The cell a token belongs to. -/
def TK.cell : TK → CK
  | .bar _ => .bar
  | .send k => .send k
  | .recv k => .recv k
  | .load => .load

theorem tokOf_cell (c : Dev nD) (t : TK) : (tokOf (c, t)).1 = kcell (c, t.cell) := by cases t <;> rfl

theorem tokOf_injective : Function.Injective (tokOf : Dev nD × TK → GSem nD τ sig × ℕ × Fin 15) := by
  rintro ⟨c, t⟩ ⟨c', t'⟩ h
  have hk : kcell (c, t.cell) = kcell (c', t'.cell) := by rw [← tokOf_cell, ← tokOf_cell, h]
  have hc := kcell_injective hk
  have h1 : c = c' := congrArg Prod.fst hc
  have h2 : t.cell = t'.cell := congrArg Prod.snd hc
  have h3 : (tokOf (c, t)).2.2 = (tokOf (c', t')).2.2 := congrArg (fun x : GSem nD τ sig × ℕ × Fin 15 => x.2.2) h
  subst h1
  suffices ht : t = t' by rw [ht]
  cases t <;> cases t' <;> first
    | exact CK.noConfusion h2
    | exact congrArg TK.bar h3
    | exact congrArg TK.send (CK.send.inj h2)
    | exact congrArg TK.recv (CK.recv.inj h2)
    | rfl

/-- Every token of round 0. -/
def ringToks : Finset (GSem nD τ sig × ℕ × Fin 15) := Finset.univ.map ⟨tokOf, tokOf_injective⟩

/-- The launch element: the pipeline's cells and tokens, and the protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 15 => dutyTok ER (barCell c) 0 d)
    ∗ (bigSep Finset.univ fun k : Fin 15 => dutyTok ER (sendCell c k) 0 0)
    ∗ (bigSep Finset.univ fun k : Fin 15 => dutyTok ER (recvCell c k) 0 0)
    ∗ dutyTok ER (loadCell c) 0 0)

/-- What the launch element deals device `c`: the round states of its cells, its positions with round 0 reached, and
    its cells' tokens. -/
def G (c : Dev nD) : sProp 𝕄 :=
  iprop((bigSep Finset.univ fun x : CK => roundState ER (Rd m) (kcell (c, x)) 0)
    ∗ (bigSep Finset.univ fun x : CK => iprop(atPos ER (kcell (c, x)) 0 ∅ 0 ∗ reached ER (kcell (c, x)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : CK => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => (bigSep_TK _).trans rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

/-- The thirty-one own semaphores in their three groups. -/
def e31 : Fin 15 ⊕ Fin 15 ⊕ Unit ≃ Fin 31 where
  toFun
    | .inl k => ⟨k.val, by omega⟩
    | .inr (.inl k) => ⟨15 + k.val, by omega⟩
    | .inr (.inr _) => ⟨30, by omega⟩
  invFun i := if h : i.val < 15 then .inl ⟨i.val, h⟩ else if h' : i.val < 30 then .inr (.inl ⟨i.val - 15, by omega⟩) else .inr (.inr ())
  left_inv x := by
    rcases x with k | k | _
    · simp only [k.isLt, dite_true, Fin.eta]
    · have := k.isLt
      simp only [show ¬ (15 + k.val < 15) by omega, show 15 + k.val < 30 by omega, dite_true, dite_false, Nat.add_sub_cancel_left, Fin.eta]
    · simp
  right_inv i := by
    by_cases h : i.val < 15
    · simp only [h, dite_true]
    · by_cases h' : i.val < 30
      · simp only [h, h', dite_true, dite_false]; exact Fin.ext (by simp only; omega)
      · simp only [h, h', dite_false]; exact Fin.ext (by have := i.isLt; simp only; omega)

theorem osem_send (k : Fin 15) : osem (e31 (.inl k)) = .dma (sendA k).sem :=
  congrArg SemLoc.dma (Fin.ext (by rw [sendA_val]; show k.val + 1 = 1 + k.val; omega))
theorem osem_recv (k : Fin 15) : osem (e31 (.inr (.inl k))) = .dma (recvA k).sem :=
  congrArg SemLoc.dma (Fin.ext (by rw [recvA_val]; show 15 + k.val + 1 = 16 + k.val; omega))
theorem osem_load : osem (e31 (.inr (.inr ()))) = .dma loadA.sem :=
  congrArg SemLoc.dma (Fin.ext (by rw [loadA_val]; rfl))

/-- The kernel's own semaphores at zero: the send, the receive and the copy's cells at zero. -/
theorem ownSems0_eq (c : Dev nD) : (Pipeline.ownSems0 (Ix := Unit) (Name := ℕ) (U := UU) (Lvl := ℕ) (Val := Elt F) (τ := τ) osem c : sProp 𝕄)
    = ownZero c := by
  unfold Pipeline.ownSems0 ownZero
  rw [bigSep_univ_equiv e31, bigSep_univ_sum, bigSep_univ_sum, bigSep_univ_of_subsingleton ()]
  simp only [osem_send, osem_recv, osem_load]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [ownSems0_eq, unscopedSems0_eq, bigSep_CK]
  unfold ownZero
  iintro ⟨⟨HS, HV, HL⟩, HB⟩
  isplitl [HB]; · iexact HB
  isplitl [HS]; · iexact HS
  isplitl [HV]; · iexact HV
  iexact HL

/-! ## The global step: the invariants allocated, the tokens handed to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (Rd m) κ (kcell (c, x))))
          ∗ (bigSep Finset.univ fun x : CK => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (Rd m) (kcell (c, x)) 0)
      ⊢ (|={Set.univ}=> bigSep Finset.univ fun x : CK => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions c ∗ payToks c) ⊢ G' m c := by
  unfold G' ghost
  iintro H
  iexists K
  iexact H

/-- The tokens dealt around the ring: token `k` of a device's barrier cell and the token of its `k`-th receive cell go
    to the device `k + 1` places behind it; its send tokens and its copy's stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_around (fun c d => (dutyTok ER (barCell c) 0 d : sProp 𝕄)),
    bigSep_around (fun c k => (dutyTok ER (recvCell c k) 0 0 : sProp 𝕄))]
  iintro ⟨H1, H2, H3, H4⟩
  isplitl [H1]; · iexact H1
  isplitl [H3]; · iexact H3
  isplitl [H2]; · iexact H2
  iexact H4

private theorem frame_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CK => iprop(∃ κ : ℕ, cellInv ER (Rd m) κ (kcell (c, x))))
          ∗ (bigSep Finset.univ fun x : CK => iprop(atPos ER (kcell (c, x)) 0 ∅ 0 ∗ reached ER (kcell (c, x)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (frame_persistent (R := records m K) fun c _ => ghost_intro m K c)
  isplitr
  · unfold records; isplitl; · iexact HI
    iexact HR
  · iapply ((Entails.of_eq (bigSep_sep' Finset.univ (fun c : Dev nD => bigSep Finset.univ fun x : CK => (atPos ER (kcell (c, x)) 0 ∅ 0 : sProp 𝕄)) payToks).symm).trans
      (bigSep_mono fun c _ => show _ ⊢ iprop(positions c ∗ payToks c) from Entails.of_eq (congrArg (fun P : sProp 𝕄 => iprop(P ∗ payToks c)) ((bigSep_CK _).trans rfl))))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

/-- The block in main memory is one whole buffer. -/
theorem xPts_eq (c : Dev nD) : xPts m c = (((c : Thread nD τ).loc main_arg0) ↦{fullShare} xin m c : sProp 𝕄) := by
  unfold xPts; rw [View.set_whole]

theorem start_intro (hcreds : ∀ c, (Pipeline.launchCred O₀ c : sProp 𝕄) ⊢ creds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (hcreds c) $$ Hcr
  imodintro
  unfold start G'
  isplitl
  · isplitl [HG]; · iexact HG
    isplitl [Hc]; · iexact Hc
    isplitl [Hlev]; · iexact Hlev
    rw [xPts_eq]; unfold xin; iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ scratch
  iintro H
  iexact H

end Cert.KernelIdeal.Proto

end

/-- info: 'Cert.KernelIdeal.Proto.fund_ring' depends on axioms: [propext, Classical.choice, Quot.sound] -/
#guard_msgs in #print axioms Cert.KernelIdeal.Proto.fund_ring
/-- info: 'Cert.KernelIdeal.Proto.glob' depends on axioms: [propext, Classical.choice, Quot.sound] -/
#guard_msgs in #print axioms Cert.KernelIdeal.Proto.glob
/-- info: 'Cert.KernelIdeal.Proto.start_intro' depends on axioms: [propext, Classical.choice, Quot.sound] -/
#guard_msgs in #print axioms Cert.KernelIdeal.Proto.start_intro
/-- info: 'Cert.KernelIdeal.Proto.phi0_intro' depends on axioms: [propext, Classical.choice, Quot.sound] -/
#guard_msgs in #print axioms Cert.KernelIdeal.Proto.phi0_intro
/-- info: 'Cert.KernelIdeal.Proto.phi1_exit' depends on axioms: [propext, Classical.choice, Quot.sound] -/
#guard_msgs in #print axioms Cert.KernelIdeal.Proto.phi1_exit
/-- info: 'Cert.KernelIdeal.Proto.ownSemFacts' depends on axioms: [propext, Classical.choice, Quot.sound] -/
#guard_msgs in #print axioms Cert.KernelIdeal.Proto.ownSemFacts
-- ==== Proof.Credit.lean ====
/-
  The launch credit: the units the sixteen devices owe at launch, summed per cell, are what each cell's owner waits
  for. Fifteen devices owe a device's barrier cell one unit each; the device `k + 1` places behind owes its `k`-th
  receive cell a tile's credit. And the staging cell sits at level 0, below everything owed at launch.
-/
import proofs.«901065_g7700000000001066_dist_softmax_colshard_i_m512_n256_v7x_i16_f32_1_alg».proof.Proof.Ghost
import proofs.«901065_g7700000000001066_dist_softmax_colshard_i_m512_n256_v7x_i16_f32_1_alg».proof.Proof.Levels

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Telling cells apart -/

omit [FloatOps F] in
theorem bar_eq_iff {a b : Dev nD} : Iff (barCell a = barCell b) (a = b) :=
  ⟨fun h => congrArg (fun g : GSem nD τ sig => g.1.1) h, fun h => h ▸ rfl⟩

omit [FloatOps F] in
/-- Receive semaphores are told apart by their numbers. -/
theorem recvSem_inj {k k' : Fin 15} (h : (SemLoc.dma (recvA k).sem : SemLoc sig) = .dma (recvA k').sem) : k = k' := by
  have h1 : ((recvA k).sem : DmaSem sig).val = ((recvA k').sem : DmaSem sig).val := congrArg Fin.val (SemLoc.dma.inj h)
  rw [recvA_val, recvA_val] at h1
  exact Fin.ext (by omega)

omit [FloatOps F] in
theorem recv_eq_iff {a b : Dev nD} {k k' : Fin 15} : Iff (recvCell a k = recvCell b k') (a = b ∧ k = k') :=
  ⟨fun h => ⟨congrArg (fun g : GSem nD τ sig => g.1.1) h, recvSem_inj (congrArg Prod.snd h)⟩, fun h => by rw [h.1, h.2]⟩

omit [FloatOps F] in
theorem recvSem_ne_bar (k : Fin 15) : (SemLoc.dma (recvA k).sem : SemLoc sig) ≠ .reg barS := fun h => by cases h

omit [FloatOps F] in
theorem recv_ne_bar (a b : Dev nD) (k : Fin 15) : recvCell a k ≠ barCell b :=
  fun h => recvSem_ne_bar k (congrArg Prod.snd h)

/-! ## What one device owes one cell -/

omit [FloatOps F] in
theorem filter_ge_zero : (Finset.univ : Finset (Fin 15)).filter (fun k => 0 ≤ k.val) = Finset.univ :=
  Finset.filter_true_of_mem fun k _ => Nat.zero_le _

omit [FloatOps F] in
theorem owedBar_at (d : Dev nD) (g : GSem nD τ sig) :
    owedBar d 0 g () = ∑ k : Fin 15, if g = barCell (fwd d k) then 1 else 0 := by
  unfold owedBar
  rw [filter_ge_zero, Finset.sum_apply, Finsupp.finsetSum_apply]
  refine Finset.sum_congr rfl fun k _ => ?_
  rw [tallyAt_apply]
  by_cases h : g = barCell (fwd d k)
  · rw [if_pos ⟨h, rfl⟩, if_pos h]
  · rw [if_neg (fun h' => h h'.1), if_neg h]

omit [FloatOps F] in
theorem owedRecv_at (d : Dev nD) (g : GSem nD τ sig) :
    owedRecv d 0 g () = ∑ k : Fin 15, if g = recvCell (fwd d k) k then N else 0 := by
  unfold owedRecv
  rw [filter_ge_zero, Finset.sum_apply, Finsupp.finsetSum_apply]
  refine Finset.sum_congr rfl fun k _ => ?_
  rw [tallyAt_apply]
  by_cases h : g = recvCell (fwd d k) k
  · rw [if_pos ⟨h, rfl⟩, if_pos h]
  · rw [if_neg (fun h' => h h'.1), if_neg h]

omit [FloatOps F] in
/-- No receive credit is owed to a barrier cell, and no barrier unit to a receive cell. -/
theorem owedRecv_bar (d c : Dev nD) : owedRecv d 0 (barCell c) () = 0 := by
  rw [owedRecv_at]
  exact Finset.sum_eq_zero fun k _ => if_neg (recv_ne_bar _ _ _).symm
omit [FloatOps F] in
theorem owedBar_recv (d c : Dev nD) (k : Fin 15) : owedBar d 0 (recvCell c k) () = 0 := by
  rw [owedBar_at]
  exact Finset.sum_eq_zero fun j _ => if_neg (recv_ne_bar _ _ _)

omit [FloatOps F] in
/-- Device `d` owes device `c`'s barrier cell one unit exactly when it is another device: `c` is then some number of
    places ahead of `d`, and only one of `d`'s fifteen signals goes there. -/
theorem owed_bar (d c : Dev nD) : O₀ d (barCell c) () = if d ≠ c then 1 else 0 := by
  unfold O₀
  rw [Pi.add_apply, Finsupp.add_apply, owedRecv_bar, Nat.zero_add, owedBar_at]
  by_cases h : d = c
  · subst h
    rw [if_neg (not_not.mpr rfl)]
    exact Finset.sum_eq_zero fun k _ => if_neg fun e => fwd_ne d k (bar_eq_iff.mp e).symm
  · obtain ⟨k₀, hk₀⟩ := exists_fwd d c (Ne.symm h)
    have hs : ∀ k ∈ (Finset.univ : Finset (Fin 15)),
        (if barCell c = barCell (fwd d k) then 1 else 0) = if k = k₀ then 1 else 0 := fun k _ => by
      by_cases hk : k = k₀
      · rw [if_pos hk, if_pos (by rw [hk, hk₀])]
      · rw [if_neg hk, if_neg fun e => hk (fwd_inj d k k₀ (by rw [hk₀]; exact (bar_eq_iff.mp e).symm))]
    rw [if_pos h, Finset.sum_congr rfl hs, Finset.sum_ite_eq' Finset.univ k₀ fun _ => 1, if_pos (Finset.mem_univ _)]

omit [FloatOps F] in
/-- Device `d` owes the `k`-th receive cell of device `c` a tile's credit exactly when it is the device `k + 1`
    places behind `c`. -/
theorem owed_recv (d c : Dev nD) (k : Fin 15) : O₀ d (recvCell c k) () = if d = bwd c k then N else 0 := by
  unfold O₀
  rw [Pi.add_apply, Finsupp.add_apply, owedBar_recv, Nat.add_zero, owedRecv_at]
  have hs : ∀ j ∈ (Finset.univ : Finset (Fin 15)),
      (if recvCell c k = recvCell (fwd d j) j then N else 0) = if j = k then (if d = bwd c k then N else 0) else 0 := fun j _ => by
    by_cases hj : j = k
    · subst hj
      rw [if_pos rfl]
      by_cases hd : d = bwd c j
      · rw [if_pos hd, if_pos (by rw [hd, fwd_bwd])]
      · rw [if_neg hd, if_neg fun e => hd (by rw [(recv_eq_iff.mp e).1, bwd_fwd])]
    · rw [if_neg hj, if_neg fun e => hj (recv_eq_iff.mp e).2.symm]
  rw [Finset.sum_congr rfl hs, Finset.sum_ite_eq' Finset.univ k fun _ => if d = bwd c k then N else 0, if_pos (Finset.mem_univ _)]

/-! ## The launch credit -/

omit [FloatOps F] in
/-- The fifteen devices other than `c`. -/
theorem card_others : ∀ c : Dev nD, (Finset.univ.erase c).card = 15 := by decide

omit [FloatOps F] in
theorem count_others (c : Dev nD) : (∑ d : Dev nD, if d ≠ c then 1 else 0) = 15 := by
  rw [Finset.sum_ite, Finset.sum_const_zero, Nat.add_zero, Finset.sum_const, smul_eq_mul, Nat.mul_one,
    Finset.filter_ne' Finset.univ c, card_others]

omit [FloatOps F] in
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, count_others]

omit [FloatOps F] in
theorem launch_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (bwd c k) fun _ => N, if_pos (Finset.mem_univ _)]

/-- The receive semaphores among a device's cells. -/
def recvSems : Fin 15 ↪ SemLoc sig := ⟨fun k => .dma (recvA k).sem, fun _ _ h => recvSem_inj h⟩

omit [FloatOps F] in
/-- What the launch deals device `c`: fifteen units on its barrier cell and a tile's credit on each receive cell. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  have hsub : Finset.univ.map recvSems ⊆ (Finset.univ : Finset (SemLoc sig)).erase (.reg barS) := fun sm hsm => by
    obtain ⟨k, -, rfl⟩ := Finset.mem_map.mp hsm
    exact Finset.mem_erase.mpr ⟨recvSem_ne_bar k, Finset.mem_univ _⟩
  refine (bigSep_subset hsub).trans ?_
  rw [bigSep_map]
  exact Entails.of_eq (bigSep_congr fun k _ => congrArg cred (launch_recv c k))

/-! ## The staging cell's waits -/

/-- The result's staging semaphore is DMA semaphore 0, a cell of level 0: the pipeline may wait on it before the one
    grid point, owing what is owed at launch, and after it, owing nothing. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr (Or.inr rfl))

/-- info: 'Cert.KernelIdeal.Proto.mayWait_bar' depends on axioms: [propext, Classical.choice, Quot.sound] -/
#guard_msgs in #print axioms mayWait_bar

/-- info: 'Cert.KernelIdeal.Proto.creds_intro' depends on axioms: [propext, Classical.choice, Quot.sound] -/
#guard_msgs in #print axioms creds_intro

/-- info: 'Cert.KernelIdeal.Proto.waits' depends on axioms: [propext, Classical.choice, Quot.sound] -/
#guard_msgs in #print axioms waits

end Cert.KernelIdeal.Proto

end
-- ==== Proof.Final.lean ====
/-
  The result array after the kernel's one grid point.

  The kernel has no grid: one point. Its one window is the whole result array, at block index 0 and with nothing cut
  off, and it is written back at that point. So the array after the point is the array at launch overwritten, on all of
  its indices, by what the body left in the window's staging buffer: it IS that contents, the device's block of the result.
-/
import proofs.«901065_g7700000000001066_dist_softmax_colshard_i_m512_n256_v7x_i16_f32_1_alg».proof.Proof.Ghost
import Idealize.ShloMosaic.Lib.Pipeline.Value

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- For any proof data of the one pipeline: if the window's staging buffer holds `G` after the point, the result array
    ends holding `G`. The array after the point is the write-back, on every index, of the window's contents into the
    rectangle of the array that starts at `0 · size` on each axis and has the array's own sizes: the whole array. -/
theorem arrAt_whole {Ix : Type} [DecidableEq Ix] {Name : Type} [DecidableEq Name] {U : Type} [URA U] {Lvl : Type}
    (c : Dev nD) (dat : Dat τ (Elt F) Ix Name U Lvl cfg0 c) (G : Vec F S512x256 .f32)
    (h : dat.after (0 : Fin 1) t0_0 = G) : dat.arrAt (0 : Fin 1) cfg0.N = G := by
  -- one point: the array after all points is the array after point 0
  have hN : dat.arrAt (0 : Fin 1) cfg0.N = dat.arrAt (0 : Fin 1) ((t0_0 : Fin cfg0.N).val + 1) :=
    congrArg (dat.arrAt (0 : Fin 1)) N_0
  rw [hN, Dat.arrAt_succ, if_pos (flush0_0 t0_0)]
  -- what is written back is the window's contents, nothing cut off
  show ((cfg0.win 0).blk t0_0).view.write (Elt F) _ ((cfg0.win 0).cut (cfg0.grid.coords t0_0) (dat.after (0 : Fin 1) t0_0)) Finset.univ = G
  rw [h]
  -- the block at index 0 of the array's own sizes is the whole array
  exact Memref.write_access_unit_zero_univ (Elt F) main_v1 (funext fun a => Nat.zero_mul _) _ _ _

variable (m : (ℓ : Loc nD τ sig) → Buf (Elt F) ℓ) (ρ : Dev nD → PrngReg)

/-- Device `c`'s result array ends holding its block of the result. -/
theorem final_out (c : Dev nD) : (dats m ρ 0 c).arrAt (0 : Fin 1) cfg0.N = outV m c :=
  arrAt_whole c (dats m ρ 0 c) (outV m c) (by dsimp only [dats])

/-- info: 'Cert.KernelIdeal.Proto.final_out' depends on axioms: [propext, Classical.choice, Quot.sound] -/
#guard_msgs in #print axioms final_out

end Cert.KernelIdeal.Proto

end
-- ==== Proof.Run.lean ====
/-
  The run of the sixteen devices: the library's launch theorem applied to the body's obligation, and what the final
  state holds: each device's block of the result, and its block of `x` unchanged.
-/
import proofs.«901065_g7700000000001066_dist_softmax_colshard_i_m512_n256_v7x_i16_f32_1_alg».proof.Proof.Body
import proofs.«901065_g7700000000001066_dist_softmax_colshard_i_m512_n256_v7x_i16_f32_1_alg».proof.Proof.Deal
import proofs.«901065_g7700000000001066_dist_softmax_colshard_i_m512_n256_v7x_i16_f32_1_alg».proof.Proof.Credit
import proofs.«901065_g7700000000001066_dist_softmax_colshard_i_m512_n256_v7x_i16_f32_1_alg».proof.Proof.Final

noncomputable section

namespace Cert.KernelIdeal.Proto

open Cert.KernelIdeal Cert.KernelIdeal.Gen Cert.Ring16 Cert.KernelIdeal.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 1) t₀ d)))

set_option maxRecDepth 100000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (c : Thread nD τ) none) Set.univ (cc0_body (F := F) xM (Memref.isWhole_whole _) oM (Memref.isWhole_whole _) xvM (Memref.isWhole_whole _) stM (Memref.isWhole_whole _) cmM (Memref.isWhole_whole _) cc0_scratch3 cc0_scratch4 cc0_scratch5) (fun _ => bodyPost m ρ c)
  unfold bodyPre' Φ₀ start
  iintro ⟨⟨⟨⟨%K, Hg⟩, Hcr, Hlev, Hx⟩, Hscr⟩, Ho, Hout⟩
  iapply (sound_body m ρ K c fun _ => bodyPost m ρ c)
  unfold bodyPre
  isplitr []
  · isplitl [Hg Hcr Hlev Hx Hscr]
    · isplitl [Hg]; · iexact Hg
      isplitl [Hcr]; · iexact Hcr
      isplitl [Hlev]; · iexact Hlev
      isplitl [Hx]; · iexact Hx
      iexact Hscr
    isplitl [Ho]; · iexact Ho
    iexact Hout
  · iintro H; iexact H

def finalA (c : Dev nD) (w : Fin cfg0.W) : Buf (Elt F) ((cfg0.win w).arr.view.loc (c : Thread nD τ)) := (dats m ρ 0 c).arrAt w cfg0.N

/-- What every final state holds: each device's result array at the computed contents, its block of `x` unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- At the compiled mesh of sixteen devices, for any float values, from any memory with zero counters: every weakly fair
    execution of @main terminates, and every final state has each device's result array at the computed contents and its
    block of `x` unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => xPts m c) (Z := fun _ => iprop(emp))
    (hX := start_intro m ρ (fun c => creds_intro c)) (hin := phi0_intro m ρ) (hout := phi1_exit m ρ)
    (QY := fun c s => s.mem ((c : Thread nD τ).loc main_arg0) = m ((c : Thread nD τ).loc main_arg0))
    (hY := fun c s' => by
      show iprop(xPts m c ∗ iprop(emp) ∗ SI s') ⊢ _
      rw [xPts_eq]
      iintro ⟨Hx, -, HSI⟩
      icombine HSI Hx gives %hx
      imodintro
      isplitr; · ipureintro; exact Buf.eq_of_forall_mem_univ hx
      iexact HSI)
    (hQ := fun _ h c => ⟨(h c).1, (h c).2.2⟩)

/-- info: 'Cert.KernelIdeal.Proto.run_main' depends on axioms: [propext, Classical.choice, Quot.sound] -/
#guard_msgs in #print axioms run_main

/-- The run with each device's result named: its block of the result as the pure function of the sixteen blocks. -/
theorem run_value : θ_run defs (onTc (τ := τ) (main (F := F))) ⟨m, fun _ => 0, ρ⟩ (fun r => ∀ c : Dev nD,
    r.2.mem ((c : Thread nD τ).loc main_v1) = Spec.out (fun d => m ((d : Thread nD τ).loc main_arg0)) c
    ∧ r.2.mem ((c : Thread nD τ).loc main_arg0) = m ((c : Thread nD τ).loc main_arg0)) :=
  (θ_run defs _ _).mono (fun r h c => ⟨((h c).1 (0 : Fin 1)).trans (final_out m ρ c), (h c).2⟩) (run_main m ρ)

end Cert.KernelIdeal.Proto

end
-- ==== Proof.Bits.Spec.lean ====
/-
  What one device computes, as pure functions of the sixteen column blocks of `x`.

  Device `c` holds the block `x_c` of 256 columns. From it it forms a tile of statistics, eight rows of 128 lanes:
  rows 0–3 hold the 512 row maxima `m_c` (row `r` of the tile holds entries `128 r … 128 r + 127`), rows 4–7 the
  512 row sums `s_c = Σ_j exp (x_c[i, j] - m_c[i])` laid out the same way. Every device sends its tile to every other
  one: slot `k` of device `c`'s receive buffer ends holding the tile of the device `k + 1` places behind it on
  the ring of sixteen. From its own tile and the fifteen received ones the device forms the global row maximum
  `M = max_d m_d` and the global row sum `S = Σ_d s_d · exp (m_d - M)`, and stores
  `exp (x_c - m_c) · (exp (m_c - M) / S)`.
-/
import proofs.«901065_g7700000000001066_dist_softmax_colshard_i_m512_n256_v7x_i16_f32_1_alg».proof.Proof.Gen.Kernel.Skeleton
import Idealize.ShloMosaic.Lib.ValueIdx
import proofs.«901065_g7700000000001066_dist_softmax_colshard_i_m512_n256_v7x_i16_f32_1_alg».proof.Proof.Ring16

noncomputable section

namespace Cert.Kernel.Spec

open Idealize.ShloMosaic Idealize.ShloMosaic.ValueIdx
open Cert.Kernel Cert.Kernel.Gen Cert.Ring16

variable {F : FTy → Type} [FloatOps F]

/-- The statistics tile of a block: rows 0–3 its row maxima, rows 4–7 its row sums of `exp (x - max)`. -/
def stats (x : Vec F S512x256 .f32) : FVec F S8x128 .f32 :=
  k0_pay10 (k0_pay2 x) (k0_pay3 x) (k0_pay4 x) (k0_pay5 x) (k0_pay6 x) (k0_pay7 x) (k0_pay8 x) (k0_pay9 x)

/-- Device `c`'s receive buffer once every tile has landed: slot `k` holds the tile of the device `k + 1` behind. -/
def comm (xs : Dev nD → Vec F S512x256 .f32) (c : Dev nD) : Vec F S15x8x128 .f32 :=
  fun i => stats (xs (bwd c (i 0))) (ix2 (i 1) (i 2))

/-- Rows 0–3 of every slot: the peers' maxima. -/
def peerMax (cm : Vec F S15x8x128 .f32) : Vec F S15x4x128 .f32 :=
  fun i => cm (ix3 (n0 := 15) (n1 := 8) (n2 := 128) (i 0) ⟨(i 1).val, Nat.lt_of_lt_of_le (i 1).isLt (by decide)⟩ (i 2))
/-- Rows 4–7 of every slot: the peers' sums. -/
def peerSum (cm : Vec F S15x8x128 .f32) : Vec F S15x4x128 .f32 :=
  fun i => cm (ix3 (n0 := 15) (n1 := 8) (n2 := 128) (i 0) ⟨(i 1).val + 4, by have h : (i 1).val < 4 := (i 1).isLt; omega⟩ (i 2))
/-- Rows 0–3 of the device's own tile: its maxima. -/
def ownMax (st : Vec F S8x128 .f32) : Vec F S4x128 .f32 :=
  fun i => st (ix2 (n0 := 8) (n1 := 128) ⟨(i 0).val, Nat.lt_of_lt_of_le (i 0).isLt (by decide)⟩ (i 1))
/-- Rows 4–7 of the device's own tile: its sums. -/
def ownSum (st : Vec F S8x128 .f32) : Vec F S4x128 .f32 :=
  fun i => st (ix2 (n0 := 8) (n1 := 128) ⟨(i 0).val + 4, by have h : (i 0).val < 4 := (i 0).isLt; omega⟩ (i 1))

/-- What device `c` stores as its block of the result. -/
def out (xs : Dev nD → Vec F S512x256 .f32) (c : Dev nD) : FVec F S512x256 .f32 :=
  k0_pay13 (k0_pay1 (xs c)) (k0_pay11 (xs c) (k0_pay1 (xs c))) (peerMax (comm xs c)) (peerSum (comm xs c))
    (k0_pay12 (peerMax (comm xs c)) (ownMax (stats (xs c)))) (ownSum (stats (xs c))) (ownMax (stats (xs c)))

end Cert.Kernel.Spec

end
-- ==== Proof.Bits.Views.lean ====
/-
  The kernel's buffers and semaphores by name, and how its loads, its store and its transfers read and write them:
  slot `k` of the receive buffer is rows `[k, k + 1)` of a 15 × 8 × 128 array; the fifteen slots are pairwise disjoint
  and cover it; a tile written into slot `k` is read back at `(k, r, l)`.
-/
import proofs.«901065_g7700000000001066_dist_softmax_colshard_i_m512_n256_v7x_i16_f32_1_alg».proof.Proof.Bits.Spec
import proofs.«901065_g7700000000001066_dist_softmax_colshard_i_m512_n256_v7x_i16_f32_1_alg».proof.Proof.Gen.Kernel
import proofs.«901065_g7700000000001066_dist_softmax_colshard_i_m512_n256_v7x_i16_f32_1_alg».proof.Proof.Gen.Kernel.Skeleton
import Idealize.ShloMosaic.Lib.Pipeline.Value
import Idealize.ShloMosaic.Lib.ValueIdx

noncomputable section

namespace Cert.Kernel.Views

open Idealize.ShloMosaic Idealize.ShloMosaic.ValueIdx
open Cert.Kernel Cert.Kernel.Gen Cert.Ring16

variable {F : FTy → Type} [FloatOps F]

/-! ## The buffers -/

/-- The result's staging buffer, the copy of the block in vector memory, the statistics tile, the receive buffer, and
    the block itself in main memory. -/
abbrev oM : Memref sig .tc .vmem S512x256 .f32 := Memref.whole cc0_stg0_0
abbrev xvM : Memref sig .tc .vmem S512x256 .f32 := Memref.whole cc0_scratch0
abbrev stM : Memref sig .tc .vmem S8x128 .f32 := Memref.whole cc0_scratch1
abbrev cmM : Memref sig .tc .vmem S15x8x128 .f32 := Memref.whole cc0_scratch2
abbrev xM : Memref sig .tc .hbm S512x256 .f32 := Memref.whole main_arg0

theorem slot_inb (k : Fin 15) : ∀ a, (![k.val, 0, 0] : Fin 3 → Nat) a + S1x8x128.size a ≤ S15x8x128.size a := fun a =>
  match a with
  | ⟨0, _⟩ => by show k.val + 1 ≤ 15; omega
  | ⟨1, _⟩ => by show 0 + 8 ≤ 8; omega
  | ⟨2, _⟩ => by show 0 + 128 ≤ 128; omega
theorem sem_inb (k : Fin 15) : ∀ a, (![k.val] : Fin 1 → Nat) a + S1.size a ≤ S15.size a := fun a =>
  match a with
  | ⟨0, _⟩ => by show k.val + 1 ≤ 15; omega

/-- Slot `k` of the receive buffer, as an 8 × 128 tile. -/
abbrev slotM (k : Fin 15) : Memref sig .tc .vmem S8x128 .f32 :=
  (cmM.slice (Rect.unit (s := S15x8x128) ![k.val, 0, 0] S1x8x128.size (slot_inb k)) (fun _ => rfl)).squeeze S8x128 squeezes_S1x8x128_S8x128

/-! ## The semaphores -/

/-- The runtime's barrier semaphore; the `k`-th send and receive semaphores; the semaphore of the block's copy. -/
abbrev barS : Sem sig := (SemArray.scalar (sig.barrier 0 rfl) : Sems sig S_).sem
abbrev sendA (k : Fin 15) : DmaSems sig S_ := (cc0_scratch3.slice (Rect.unit (s := S15) ![k.val] S1.size (sem_inb k))).squeeze S_ squeezes_S1_S_
abbrev recvA (k : Fin 15) : DmaSems sig S_ := (cc0_scratch4.slice (Rect.unit (s := S15) ![k.val] S1.size (sem_inb k))).squeeze S_ squeezes_S1_S_
abbrev loadA : DmaSems sig S_ := cc0_scratch5

/-- The semaphores by number: the staging semaphore is 0, the send semaphores 1–15, the receive semaphores 16–30, the
    copy's 31. -/
theorem sendA_val (k : Fin 15) : ((sendA k).sem : DmaSem sig).val = 1 + k.val := by
  revert k; decide
theorem recvA_val (k : Fin 15) : ((recvA k).sem : DmaSem sig).val = 16 + k.val := by
  revert k; decide
theorem loadA_val : (loadA.sem : DmaSem sig).val = 31 := by
  decide

/-! ## The slots of the receive buffer -/

/-- The elements of slot `k`: the indices whose first coordinate is `k`. -/
theorem mem_slot_set (k : Fin 15) (i : S15x8x128.Idx) : i ∈ (slotM k).view.set ↔ (i 0).val = k.val := by
  -- a squeeze keeps the element set; the slice's elements are the rectangle's: first coordinate in [k, k + 1), the other two free
  have hs : (slotM k).view.set = (Rect.unit (s := S15x8x128) ![k.val, 0, 0] S1x8x128.size (slot_inb k)).set :=
    (View.set_reshape _ _).trans (View.set_slice_whole cc0_scratch2 _)
  rw [hs, Rect.mem_set_unit]
  constructor
  · intro h
    have h0 := h ⟨0, by decide⟩
    have h1 : k.val ≤ (i 0).val ∧ (i 0).val < k.val + 1 := h0
    omega
  · intro h a
    match a with
    | ⟨0, _⟩ => show k.val ≤ (i 0).val ∧ (i 0).val < k.val + 1; omega
    | ⟨1, _⟩ => show 0 ≤ (i 1).val ∧ (i 1).val < 0 + 8; have := (i 1).isLt; exact ⟨Nat.zero_le _, by simpa using this⟩
    | ⟨2, _⟩ => show 0 ≤ (i 2).val ∧ (i 2).val < 0 + 128; have := (i 2).isLt; exact ⟨Nat.zero_le _, by simpa using this⟩

theorem slot_disjoint (k k' : Fin 15) (h : k ≠ k') : Disjoint (slotM k).view.set (slotM k').view.set := by
  -- an element of both slots would have first coordinate k and k'
  rw [Finset.disjoint_left]
  intro i h1 h2
  exact h (Fin.ext (((mem_slot_set k i).mp h1).symm.trans ((mem_slot_set k' i).mp h2)))

theorem slot_cover : (Finset.univ : Finset (Fin 15)).biUnion (fun k => (slotM k).view.set) = (Finset.univ : Finset S15x8x128.Idx) := by
  -- every index lies in the slot its first coordinate names
  ext i
  simp only [Finset.mem_biUnion, Finset.mem_univ, true_and, iff_true]
  exact ⟨⟨(i 0).val, (i 0).isLt⟩, (mem_slot_set _ i).mpr rfl⟩

/-- A tile `st` written whole into slot `k` over any contents `fd`: at an element `(k, r, l)` of the slot the
    buffer holds `st (r, l)`. -/
theorem write_slot (k : Fin 15) (fd : Vec F S15x8x128 .f32) (st : Vec F S8x128 .f32) (i : S15x8x128.Idx)
    (hi : i ∈ (slotM k).view.set) :
    (slotM k).view.write (Elt F) fd ((stM : Memref sig .tc .vmem S8x128 .f32).view.read (Elt F) st) Finset.univ i
      = st (ix2 (n0 := 8) (n1 := 128) (i 1) (i 2)) := by
  have hk : (i 0).val = k.val := (mem_slot_set k i).mp hi
  -- the tile's index (r, l) sits at (k, r, l): the squeeze puts it behind the coordinate 0, the slice adds the offsets (k, 0, 0)
  have hy : (slotM k).view.emb (ix2 (n0 := 8) (n1 := 128) (i 1) (i 2)) = i := by
    funext a
    apply Fin.ext
    show ((Rect.unit (s := S15x8x128) ![k.val, 0, 0] S1x8x128.size (slot_inb k)).emb
      (Shape.reshapeEquiv squeezes_S1x8x128_S8x128.numel_eq (ix2 (n0 := 8) (n1 := 128) (i 1) (i 2))) a : Nat) = (i a).val
    rw [Rect.emb_apply, Shape.reshapeEquiv_cons_one]
    match a with
    | ⟨0, _⟩ => show k.val + 1 * 0 = (i 0).val; omega
    | ⟨1, _⟩ => show 0 + 1 * (i 1).val = (i 1).val; omega
    | ⟨2, _⟩ => show 0 + 1 * (i 2).val = (i 2).val; omega
  have hw := View.write_emb_of_mem (v := (slotM k).view) (Val := Elt F) fd
    ((stM : Memref sig .tc .vmem S8x128 .f32).view.read (Elt F) st) (M := Finset.univ)
    (x := ix2 (n0 := 8) (n1 := 128) (i 1) (i 2)) (Finset.mem_univ _)
  rw [hy] at hw
  rw [hw]
  rfl

/-! ## The loads and the stores -/

/-- The two loads of the receive buffer: rows 0–3 and rows 4–7 of every slot. -/
theorem read_peerMax (f : Vec F S15x8x128 .f32) :
    (cmM : Memref sig .tc .vmem S15x8x128 .f32).view.readAt (Elt F)
      (Rect.unit (s := S15x8x128) ![0, 0, 0] S15x4x128.size inb_S15x8x128_S15x4x128_0_0_0).toLoadRect f = Spec.peerMax f := by
  -- the load reads the element at offset + coordinate on each axis
  funext x
  show f ((Rect.unit (s := S15x8x128) ![0, 0, 0] S15x4x128.size inb_S15x8x128_S15x4x128_0_0_0).toLoadRect.idx x) = _
  unfold Spec.peerMax
  refine congrArg f ?_
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem read_peerSum (f : Vec F S15x8x128 .f32) :
    (cmM : Memref sig .tc .vmem S15x8x128 .f32).view.readAt (Elt F)
      (Rect.unit (s := S15x8x128) ![0, 4, 0] S15x4x128.size inb_S15x8x128_S15x4x128_0_4_0).toLoadRect f = Spec.peerSum f := by
  -- the load reads the element at offset + coordinate on each axis
  funext x
  show f ((Rect.unit (s := S15x8x128) ![0, 4, 0] S15x4x128.size inb_S15x8x128_S15x4x128_0_4_0).toLoadRect.idx x) = _
  unfold Spec.peerSum
  refine congrArg f ?_
  funext a
  apply Fin.ext
  match a with
  | ⟨0, _⟩ => show 0 + 1 * (x 0).val = (x 0).val; omega
  | ⟨1, _⟩ => show 4 + 1 * (x 1).val = (x 1).val + 4; omega
  | ⟨2, _⟩ => show 0 + 1 * (x 2).val = (x 2).val; omega
/-- The loads of the statistics tile: rows 0–3 and rows 4–7. -/
theorem read_ownMax (f : Vec F S8x128 .f32) :
    (stM : Memref sig .tc .vmem S8x128 .f32).view.readAt (Elt F)
      (Rect.unit (s := S8x128) ![0, 0] S4x128.size inb_S8x128_S4x128_0_0).toLoadRect f = Spec.ownMax f := by
  -- the load reads the element at offset + coordinate on each axis
  funext x
  show f ((Rect.unit (s := S8x128) ![0, 0] S4x128.size inb_S8x128_S4x128_0_0).toLoadRect.idx x) = _
  unfold Spec.ownMax
  refine congrArg f ?_
  funext a
  apply Fin.ext
  match a with
  | ⟨0, _⟩ => show 0 + 1 * (x 0).val = (x 0).val; omega
  | ⟨1, _⟩ => show 0 + 1 * (x 1).val = (x 1).val; omega
theorem read_ownSum (f : Vec F S8x128 .f32) :
    (stM : Memref sig .tc .vmem S8x128 .f32).view.readAt (Elt F)
      (Rect.unit (s := S8x128) ![4, 0] S4x128.size inb_S8x128_S4x128_4_0).toLoadRect f = Spec.ownSum f := by
  -- the load reads the element at offset + coordinate on each axis
  funext x
  show f ((Rect.unit (s := S8x128) ![4, 0] S4x128.size inb_S8x128_S4x128_4_0).toLoadRect.idx x) = _
  unfold Spec.ownSum
  refine congrArg f ?_
  funext a
  apply Fin.ext
  match a with
  | ⟨0, _⟩ => show 4 + 1 * (x 0).val = (x 0).val + 4; omega
  | ⟨1, _⟩ => show 0 + 1 * (x 1).val = (x 1).val; omega

end Cert.Kernel.Views

end
-- ==== Proof.Bits.Proto.lean ====
/-
  The protocol of the sixteen devices, as a schedule of rounds.

  Every device signals the barrier semaphore of the fifteen others once, then waits for fifteen units on its own: a
  device past that wait knows every other device is inside the kernel. With its signal to the device `k + 1` places
  ahead it hands over the slot of its own receive buffer that device will write, slot `opp k`. It then sends its
  statistics tile into slot `k` of the device `k + 1` ahead, for every `k`; the transfer completes on the sender's
  `k`-th send semaphore, once the tile has been read, and on the receiver's `k`-th receive semaphore, once the slot
  holds the tile. All cells have one round. A barrier cell has fifteen duties of one unit, duty `k` paid by the device
  `k + 1` places behind; a send, a receive and the copy's cell have the one duty `0` of the transfer's credit.
  Levels: receive cells above barrier cells above the rest, so that a device waits on its barrier while it still owes
  its fifteen transfers, and on everything else owing what it owes.
-/
import proofs.«901065_g7700000000001066_dist_softmax_colshard_i_m512_n256_v7x_i16_f32_1_alg».proof.Proof.Bits.Views
import proofs.«901065_g7700000000001066_dist_softmax_colshard_i_m512_n256_v7x_i16_f32_1_alg».proof.Proof.Gen.Kernel.Launch
import proofs.«901065_g7700000000001066_dist_softmax_colshard_i_m512_n256_v7x_i16_f32_1_alg».proof.Proof.Gen.Kernel.Points
import Idealize.ShloMosaic.Lib.Pipeline.Launch
import Idealize.ShloMosaic.Lib.Pipeline.Kit
import Idealize.ShloMosaic.Lib.Tactic
import Mathlib.Tactic.DeriveFintype

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

/-! ## The resource algebra: the pipeline library's copy and the protocol's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barCell (c : Dev nD) : GSem nD τ sig := ((c : Thread nD τ), .reg barS)
abbrev sendCell (c : Dev nD) (k : Fin 15) : GSem nD τ sig := ((c : Thread nD τ), .dma (sendA k).sem)
abbrev recvCell (c : Dev nD) (k : Fin 15) : GSem nD τ sig := ((c : Thread nD τ), .dma (recvA k).sem)
abbrev loadCell (c : Dev nD) : GSem nD τ sig := ((c : Thread nD τ), .dma loadA.sem)

/-- The cells of one device by kind. -/
inductive CK where
  | bar
  | send (k : Fin 15)
  | recv (k : Fin 15)
  | load
  deriving DecidableEq, Fintype

abbrev csem : CK → SemLoc sig
  | .bar => .reg barS
  | .send k => .dma (sendA k).sem
  | .recv k => .dma (recvA k).sem
  | .load => .dma loadA.sem
abbrev kcell (ck : Dev nD × CK) : GSem nD τ sig := ((ck.1 : Thread nD τ), csem ck.2)

/-- The credit of a tile's transfer and of the block's copy. -/
abbrev N : ℕ := (stM : Memref sig .tc .vmem S8x128 .f32).view.dmaCredit
abbrev Nx : ℕ := (xvM : Memref sig .tc .vmem S512x256 .f32).view.dmaCredit
theorem N_pos : 0 < N := View.dmaCredit_pos _ (by decide)
theorem Nx_pos : 0 < Nx := View.dmaCredit_pos _ (by decide)

/-! ## Contents -/

/-- Device `c`'s block of `x`, its statistics tile, its receive buffer once filled, and its block of the result. -/
def xin (c : Dev nD) : Vec F S512x256 .f32 := m ((c : Thread nD τ).loc main_arg0)
def statsV (c : Dev nD) : Vec F S8x128 .f32 := Spec.stats (xin m c)
def commV (c : Dev nD) : Vec F S15x8x128 .f32 := Spec.comm (xin m) c
def outV (c : Dev nD) : Vec F S512x256 .f32 := Spec.out (xin m) c

/-! ## Shares of the statistics tile: one piece per transfer, the rest kept for the loads -/

/-- What is left of the full share after `n` pieces have been split off. -/
def rem : ℕ → PosShare TreeShare
  | 0 => fullShare
  | n + 1 => (rem n).right
/-- The `n`-th piece. -/
def piece (n : ℕ) : PosShare TreeShare := (rem n).left

theorem rem_split (n : ℕ) : rem n ∈ piece n ·? rem (n + 1) := PosShare.mem_left_op_right (rem n)

/-! ## Points-to assertions -/

/-- The statistics tile at share `q`, holding the device's statistics. -/
def stPts (c : Dev nD) (q : PosShare TreeShare) : sProp 𝕄 :=
  (stM : Memref sig .tc .vmem S8x128 .f32).view.loc (c : Thread nD τ) ↦[(stM : Memref sig .tc .vmem S8x128 .f32).view.set]{q} statsV m c
/-- Slot `k` of the receive buffer at contents `f`. -/
def slotPts (c : Dev nD) (k : Fin 15) (f : Buf (Elt F) ((slotM k).view.loc (c : Thread nD τ))) : sProp 𝕄 :=
  (slotM k).view.loc (c : Thread nD τ) ↦[(slotM k).view.set]{fullShare} f
/-- The block's copy in vector memory and the block itself, both holding the block. -/
def xvPts (c : Dev nD) : sProp 𝕄 :=
  (xvM : Memref sig .tc .vmem S512x256 .f32).view.loc (c : Thread nD τ) ↦[(xvM : Memref sig .tc .vmem S512x256 .f32).view.set]{fullShare} xin m c
def xPts (c : Dev nD) : sProp 𝕄 :=
  (xM : Memref sig .tc .hbm S512x256 .f32).view.loc (c : Thread nD τ) ↦[(xM : Memref sig .tc .hbm S512x256 .f32).view.set]{fullShare} xin m c

instance stPts_storable (c : Dev nD) (q) : BI.Storable (upEmb : UEmb _ 𝕄) (stPts (F := F) m c q) := by unfold stPts; infer_instance
omit [FloatOps F] in
instance slotPts_storable (c : Dev nD) (k) (f) : BI.Storable (upEmb : UEmb _ 𝕄) (slotPts (F := F) c k f) := by unfold slotPts; infer_instance
omit [FloatOps F] in
instance xvPts_storable (c : Dev nD) : BI.Storable (upEmb : UEmb _ 𝕄) (xvPts (F := F) m c) := by unfold xvPts; infer_instance
omit [FloatOps F] in
instance xPts_storable (c : Dev nD) : BI.Storable (upEmb : UEmb _ 𝕄) (xPts (F := F) m c) := by unfold xPts; infer_instance

/-! ## The schedule -/

/-- What the signal of the device `d + 1` places behind `c` (duty `d` of `c`'s barrier cell) hands `c`: that
    device's slot `opp d`, which `c` will fill, and that it has reached round 0 of the slot's receive cell. -/
def barPay (c : Dev nD) (d : Fin 15) : sProp 𝕄 :=
  iprop((∃ f, slotPts (bwd c d) (opp d) f) ∗ reached ER (recvCell (bwd c d) (opp d)) 0)
/-- A send cell's landing gives back the piece of the statistics tile lent to the transfer. -/
def sendPay (c : Dev nD) (k : Fin 15) : sProp 𝕄 := stPts m c (piece k.val)
/-- A receive cell's landing: slot `k` holds what the filled buffer holds there. -/
def recvPay (c : Dev nD) (k : Fin 15) : sProp 𝕄 := slotPts c k (commV m c)
/-- The copy's landing: the vector-memory copy holds the block, and the block comes back. -/
def loadPay (c : Dev nD) : sProp 𝕄 := iprop(xvPts m c ∗ xPts m c)

/-- One round, round 0. -/
def Rd : Rounds.Schedule (GSem nD τ sig) (Fin 15) 𝕄 where
  duties g r := if r = 0 ∧ g.1.2 = .tc then
      (match g.2 with
        | .reg _ => Finset.univ
        | .dma s => if 1 ≤ s.val then {0} else ∅)
    else ∅
  unitless _ := False
  amount g _ _ := match g.2 with
    | .reg _ => 1
    | .dma s => if s.val = 31 then Nx else N
  payload g _ d := match g.2 with
    | .reg _ => barPay g.1.1 d
    | .dma s =>
      if h : 1 ≤ s.val ∧ s.val ≤ 15 then sendPay m g.1.1 ⟨s.val - 1, by omega⟩
      else if h : 16 ≤ s.val ∧ s.val ≤ 30 then recvPay m g.1.1 ⟨s.val - 16, by omega⟩
      else if s.val = 31 then loadPay m g.1.1 else iprop(emp)
  amount_pos g _ _ _ := by
    cases g.2 with
    | reg _ => exact Nat.one_pos
    | dma s => dsimp only; split; exact Nx_pos; exact N_pos

instance Rd_payload_storable (g : GSem nD τ sig) (r : ℕ) (d : Fin 15) :
    BI.Storable (upEmb : UEmb _ 𝕄) ((Rd (F := F) m).payload g r d) := by
  unfold Rd
  dsimp only
  cases g.2 with
  | reg _ => dsimp only; unfold barPay; infer_instance
  | dma s => dsimp only; unfold sendPay recvPay loadPay; (repeat' split) <;> infer_instance

section Sched
variable (c : Dev nD) (k : Fin 15)

theorem duties_bar : (Rd (F := F) m).duties (barCell c) 0 = Finset.univ := by dsimp only [Rd]; rw [if_pos ⟨rfl, rfl⟩]
theorem duties_send : (Rd (F := F) m).duties (sendCell c k) 0 = {0} := by
  dsimp only [Rd]; rw [if_pos ⟨rfl, rfl⟩, if_pos (by rw [sendA_val]; omega)]
theorem duties_recv : (Rd (F := F) m).duties (recvCell c k) 0 = {0} := by
  dsimp only [Rd]; rw [if_pos ⟨rfl, rfl⟩, if_pos (by rw [recvA_val]; omega)]
theorem duties_load : (Rd (F := F) m).duties (loadCell c) 0 = {0} := by
  dsimp only [Rd]; rw [if_pos ⟨rfl, rfl⟩, if_pos (by rw [loadA_val]; omega)]
theorem duties_later (g : GSem nD τ sig) : ∀ r, 1 ≤ r → (Rd (F := F) m).duties g r = ∅ :=
  fun r hr => by dsimp only [Rd]; rw [if_neg fun h => by omega]

theorem amount_bar (d : Fin 15) : (Rd (F := F) m).amount (barCell c) 0 d = 1 := rfl
theorem amount_send (d : Fin 15) : (Rd (F := F) m).amount (sendCell c k) 0 d = N := by
  dsimp only [Rd]; rw [if_neg (by rw [sendA_val]; omega)]
theorem amount_recv (d : Fin 15) : (Rd (F := F) m).amount (recvCell c k) 0 d = N := by
  dsimp only [Rd]; rw [if_neg (by rw [recvA_val]; omega)]
theorem amount_load (d : Fin 15) : (Rd (F := F) m).amount (loadCell c) 0 d = Nx := by
  dsimp only [Rd]; rw [if_pos loadA_val]

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c k) 0 = N := by
  unfold Schedule.expect Schedule.amountOf; rw [duties_send, Finset.sum_singleton, amount_send]
theorem expect_recv : (Rd (F := F) m).expect (recvCell c k) 0 = N := by
  unfold Schedule.expect Schedule.amountOf; rw [duties_recv, Finset.sum_singleton, amount_recv]
theorem expect_load : (Rd (F := F) m).expect (loadCell c) 0 = Nx := by
  unfold Schedule.expect Schedule.amountOf; rw [duties_load, Finset.sum_singleton, amount_load]

theorem payload_bar (d : Fin 15) : (Rd (F := F) m).payload (barCell c) 0 d = barPay c d := rfl
theorem payload_send (d : Fin 15) : (Rd (F := F) m).payload (sendCell c k) 0 d = sendPay m c k := by
  dsimp only [Rd]
  rw [dif_pos (by rw [sendA_val]; omega)]
  congr 1; exact Fin.ext (by simp only [sendA_val]; omega)
theorem payload_recv (d : Fin 15) : (Rd (F := F) m).payload (recvCell c k) 0 d = recvPay m c k := by
  dsimp only [Rd]
  rw [dif_neg (by rw [recvA_val]; omega), dif_pos (by rw [recvA_val]; omega)]
  congr 1; exact Fin.ext (by simp only [recvA_val]; omega)
theorem payload_load (d : Fin 15) : (Rd (F := F) m).payload (loadCell c) 0 d = loadPay m c := by
  dsimp only [Rd]
  rw [dif_neg (by rw [loadA_val]; omega), dif_neg (by rw [loadA_val]; omega), if_pos loadA_val]

/-- The rest of a one-duty cell's round, no duty taken: its payload. -/
theorem rest_send : bigSep ((Rd (F := F) m).duties (sendCell c k) 0 \ ∅) (fun d => (Rd (F := F) m).payload (sendCell c k) 0 d) = sendPay m c k := by
  rw [Finset.sdiff_empty, duties_send, bigSep_singleton, payload_send]
theorem rest_recv : bigSep ((Rd (F := F) m).duties (recvCell c k) 0 \ ∅) (fun d => (Rd (F := F) m).payload (recvCell c k) 0 d) = recvPay m c k := by
  rw [Finset.sdiff_empty, duties_recv, bigSep_singleton, payload_recv]
theorem rest_load : bigSep ((Rd (F := F) m).duties (loadCell c) 0 \ ∅) (fun d => (Rd (F := F) m).payload (loadCell c) 0 d) = loadPay m c := by
  rw [Finset.sdiff_empty, duties_load, bigSep_singleton, payload_load]
/-- The rest of the barrier cell's round, no duty taken: all fifteen payloads. -/
theorem rest_bar : bigSep ((Rd (F := F) m).duties (barCell c) 0 \ ∅) (fun d => (Rd (F := F) m).payload (barCell c) 0 d)
    = bigSep Finset.univ (fun d : Fin 15 => barPay (F := F) c d) := by
  rw [Finset.sdiff_empty, duties_bar]; rfl

end Sched

/-! ## What each device owes at launch; the levels -/

/-- The receive credits device `c` still owes once its first `n` transfers are issued. -/
def owedRecv (c : Dev nD) (n : ℕ) : CellTallies nD τ sig Unit :=
  ∑ k ∈ (Finset.univ : Finset (Fin 15)).filter (fun k => n ≤ k.val), tallyAt (recvCell (fwd c k) k) () N
/-- The barrier units device `c` still owes once its first `n` signals are sent. -/
def owedBar (c : Dev nD) (n : ℕ) : CellTallies nD τ sig Unit :=
  ∑ k ∈ (Finset.univ : Finset (Fin 15)).filter (fun k => n ≤ k.val), tallyAt (barCell (fwd c k)) () 1
/-- At launch: fifteen receive credits and fifteen barrier units. -/
def O₀ (c : Dev nD) : CellTallies nD τ sig Unit := owedRecv c 0 + owedBar c 0

theorem owedBar_peel (c : Dev nD) (k : Fin 15) : owedBar c k.val = owedBar c (k.val + 1) + tallyAt (barCell (fwd c k)) () 1 := by
  unfold owedBar
  have h : (Finset.univ : Finset (Fin 15)).filter (fun j => k.val ≤ j.val)
      = insert k ((Finset.univ : Finset (Fin 15)).filter (fun j => k.val + 1 ≤ j.val)) := by
    ext j; simp only [Finset.mem_filter, Finset.mem_univ, true_and, Finset.mem_insert]
    constructor
    · intro h; by_cases hj : j = k
      · exact Or.inl hj
      · exact Or.inr (by have : j.val ≠ k.val := fun e => hj (Fin.ext e); omega)
    · rintro (rfl | h) <;> omega
  rw [h, Finset.sum_insert (by simp), add_comm]
theorem owedRecv_peel (c : Dev nD) (k : Fin 15) : owedRecv c k.val = owedRecv c (k.val + 1) + tallyAt (recvCell (fwd c k) k) () N := by
  unfold owedRecv
  have h : (Finset.univ : Finset (Fin 15)).filter (fun j => k.val ≤ j.val)
      = insert k ((Finset.univ : Finset (Fin 15)).filter (fun j => k.val + 1 ≤ j.val)) := by
    ext j; simp only [Finset.mem_filter, Finset.mem_univ, true_and, Finset.mem_insert]
    constructor
    · intro h; by_cases hj : j = k
      · exact Or.inl hj
      · exact Or.inr (by have : j.val ≠ k.val := fun e => hj (Fin.ext e); omega)
    · rintro (rfl | h) <;> omega
  rw [h, Finset.sum_insert (by simp), add_comm]
theorem owedBar_done (c : Dev nD) : owedBar c 15 = 0 := by
  unfold owedBar; rw [Finset.filter_false_of_mem (fun k _ => by have := k.isLt; omega), Finset.sum_empty]
theorem owedRecv_done (c : Dev nD) : owedRecv c 15 = 0 := by
  unfold owedRecv; rw [Finset.filter_false_of_mem (fun k _ => by have := k.isLt; omega), Finset.sum_empty]

def L (g : GSem nD τ sig) : Finset Unit := if g.1.2 = .tc then {()} else ∅
/-- Receive cells at 2, barrier cells at 1, everything else (staging, send, the copy) at 0. -/
def lv (g : GSem nD τ sig) (_ : Unit) : ℕ :=
  match g.2 with
  | .reg _ => 1
  | .dma s => if 16 ≤ s.val ∧ s.val ≤ 30 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (k : Fin 15) (u : Unit) : lv (recvCell c k) u = 2 := by
  dsimp only [lv]; rw [if_pos (by rw [recvA_val]; omega)]

end Cert.Kernel.Proto

end
-- ==== Proof.Bits.Ghost.lean ====
/-
  The ghost state of the protocol: what each device holds at launch and after its one grid point, and what it holds
  between two steps of each phase of its body (signals, transfers, receive waits, send waits).
-/
import proofs.«901065_g7700000000001066_dist_softmax_colshard_i_m512_n256_v7x_i16_f32_1_alg».proof.Proof.Bits.Proto

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device knows: the cells' invariants and that round 0 of every cell is reached -/

def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (Rd m) (K ck) (kcell ck) := by
  have h : (bigSep Finset.univ fun ck : Dev nD × CK => (cellInv ER (Rd m) (K ck) (kcell ck) : sProp 𝕄)) ⊢ cellInv ER (Rd m) (K ck) (kcell ck) :=
    bigSep_elim (Finset.mem_univ ck)
  unfold records; iintro ⟨#HI, -⟩; iapply h; iexact HI
theorem reached_at (K : Dev nD × CK → ℕ) (ck : Dev nD × CK) : records m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, #HR⟩; iapply h; iexact HR

/-! ## What stays with one device -/

/-- Its positions at round 0 of its own cells. -/
def positions (c : Dev nD) : sProp 𝕄 :=
  iprop(atPos ER (barCell c) 0 ∅ 0 ∗ (bigSep Finset.univ fun k : Fin 15 => atPos ER (sendCell c k) 0 ∅ 0)
    ∗ (bigSep Finset.univ fun k : Fin 15 => atPos ER (recvCell c k) 0 ∅ 0) ∗ atPos ER (loadCell c) 0 ∅ 0)
/-- The tokens of the duties it pays: duty `k` of the barrier cell of the device `k + 1` ahead, that device's `k`-th
    receive duty, its own send duties and its copy's. -/
def payToks (c : Dev nD) : sProp 𝕄 :=
  iprop((bigSep Finset.univ fun k : Fin 15 => dutyTok ER (barCell (fwd c k)) 0 k)
    ∗ (bigSep Finset.univ fun k : Fin 15 => dutyTok ER (recvCell (fwd c k) k) 0 0)
    ∗ (bigSep Finset.univ fun k : Fin 15 => dutyTok ER (sendCell c k) 0 0)
    ∗ dutyTok ER (loadCell c) 0 0)

def ghost (K : Dev nD × CK → ℕ) (c : Dev nD) : sProp 𝕄 := iprop(records m K ∗ positions c ∗ payToks c)

/-- Its launch credit: fifteen units on its barrier cell, a tile's credit on each receive cell. -/
def creds (c : Dev nD) : sProp 𝕄 :=
  iprop(cred (tallyAt (barCell c) () 15) ∗ bigSep Finset.univ fun k : Fin 15 => cred (tallyAt (recvCell c k) () N))

/-- What device `c`'s body starts from besides its scratch buffers. -/
def start (c : Dev nD) : sProp 𝕄 :=
  iprop((∃ K, ghost m K c) ∗ creds c ∗ levAts L lv ∗ xPts m c)

/-- The three scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The device's own thirty-one semaphores back at zero, closed. -/
def ownZero (c : Dev nD) : sProp 𝕄 :=
  iprop((bigSep Finset.univ fun k : Fin 15 => semVal (sendCell c k) 0) ∗ (bigSep Finset.univ fun k : Fin 15 => semVal (recvCell c k) 0)
    ∗ semVal (loadCell c) 0)

def Φ₀ (c : Dev nD) : sProp 𝕄 := iprop(start m c ∗ scratch c)
def Φ₁ (c : Dev nD) : sProp 𝕄 := iprop(xPts m c ∗ ownZero c ∗ scratch c)

/-- The pipeline's proof data: the one window is the result, holding the device's block of the result after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## Between two steps of a phase -/

/-- The indices from `n` on, and those before `n`. -/
abbrev ge (n : ℕ) : Finset (Fin 15) := Finset.univ.filter fun k => n ≤ k.val
abbrev lt (n : ℕ) : Finset (Fin 15) := Finset.univ.filter fun k => k.val < n

/-- After `n` signals: the barrier units still owed, the tokens of the signals to come, and the slots they hand over. -/
def SA (c : Dev nD) (n : ℕ) (W : Waits sig Unit) : sProp 𝕄 :=
  iprop(owes (c : Thread nD τ) (owedRecv c 0 + owedBar c n) W
    ∗ (bigSep (ge n) fun k => dutyTok ER (barCell (fwd c k)) 0 k)
    ∗ bigSep (ge n) fun k => iprop(∃ f, slotPts c (opp k) f))

/-- After `n` transfers: the receive credits still owed, what is left of the statistics tile, the peers' slots and the
    tokens of the transfers to come, and the send credits of the transfers issued. -/
def SD (c : Dev nD) (n : ℕ) (W : Waits sig Unit) : sProp 𝕄 :=
  iprop(owes (c : Thread nD τ) (owedRecv c n) W ∗ stPts m c (rem n)
    ∗ (bigSep (ge n) fun k => iprop(∃ f, slotPts (fwd c k) k f))
    ∗ (bigSep (ge n) fun k => dutyTok ER (recvCell (fwd c k) k) 0 0)
    ∗ (bigSep (ge n) fun k => dutyTok ER (sendCell c k) 0 0)
    ∗ bigSep (lt n) fun k => cred (tallyAt (sendCell c k) () N))

/-- After `n` receive waits: the credits and positions of the waits to come, and the slots landed. -/
def SE (c : Dev nD) (n : ℕ) : sProp 𝕄 :=
  iprop((∃ W, owes (c : Thread nD τ) 0 W)
    ∗ (bigSep (ge n) fun k => iprop(cred (tallyAt (recvCell c k) () N) ∗ atPos ER (recvCell c k) 0 ∅ 0))
    ∗ bigSep (lt n) fun k => iprop(slotPts c k (commV m c) ∗ atPos ER (recvCell c k) 1 ∅ 0))

/-- After `n` send waits: the credits and positions of the waits to come, and the pieces of the tile come back. -/
def SG (c : Dev nD) (n : ℕ) : sProp 𝕄 :=
  iprop((∃ W, owes (c : Thread nD τ) 0 W)
    ∗ (bigSep (ge n) fun k => iprop(cred (tallyAt (sendCell c k) () N) ∗ atPos ER (sendCell c k) 0 ∅ 0))
    ∗ bigSep (lt n) fun k => iprop(stPts m c (piece k.val) ∗ atPos ER (sendCell c k) 1 ∅ 0))

end Cert.Kernel.Proto

end
-- ==== Proof.Bits.Levels.lean ====
/-
  The deadlock argument: at each of its waits a device owes only cells above the one it waits on.
-/
import proofs.«901065_g7700000000001066_dist_softmax_colshard_i_m512_n256_v7x_i16_f32_1_alg».proof.Proof.Bits.Ghost

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A receive credit still owed sits on the receive cell of a device ahead. -/
theorem owedRecv_pos {c : Dev nD} {n : ℕ} {g : GSem nD τ sig} {u : Unit} (h : 0 < owedRecv c n g u) :
    ∃ k, g = recvCell (fwd c k) k := by
  unfold owedRecv at h
  obtain ⟨k, -, hk⟩ := Pipeline.sum_pos_exists h
  rw [tallyAt_apply] at hk
  by_cases hg : g = recvCell (fwd c k) k ∧ u = ()
  · exact ⟨k, hg.1⟩
  · rw [if_neg hg] at hk; exact absurd hk (Nat.lt_irrefl 0)

omit [FloatOps F] in
/-- A barrier unit still owed sits on the barrier cell of a device ahead. -/
theorem owedBar_pos {c : Dev nD} {n : ℕ} {g : GSem nD τ sig} {u : Unit} (h : 0 < owedBar c n g u) :
    ∃ k, g = barCell (fwd c k) := by
  unfold owedBar at h
  obtain ⟨k, -, hk⟩ := Pipeline.sum_pos_exists h
  rw [tallyAt_apply] at hk
  by_cases hg : g = barCell (fwd c k) ∧ u = ()
  · exact ⟨k, hg.1⟩
  · rw [if_neg hg] at hk; exact absurd hk (Nat.lt_irrefl 0)

omit [FloatOps F] in
/-- Whatever a device owes at launch sits on receive or barrier cells. -/
theorem O₀_pos {c : Dev nD} {g : GSem nD τ sig} {u : Unit} (h : 0 < O₀ c g u) :
    (∃ k, g = recvCell (fwd c k) k) ∨ ∃ k, g = barCell (fwd c k) := by
  unfold O₀ at h
  rcases Pipeline.add_pos_cases h with h | h
  · exact Or.inl (owedRecv_pos h)
  · exact Or.inr (owedBar_pos h)

omit [FloatOps F] in
/-- Owing tallies that sit on receive and barrier cells only, a device may wait on a cell of level 0. -/
theorem mayWait_low_of (c : Dev nD) (q : DmaSem sig) (hq : ¬ (16 ≤ q.val ∧ q.val ≤ 30)) (O : CellTallies nD τ sig Unit)
    (hO : ∀ (g : GSem nD τ sig) (u : Unit), 0 < O g u → (∃ d k, g = recvCell d k) ∨ ∃ d, g = barCell d) :
    (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by
      rcases hO g u hg with ⟨d, k, rfl⟩ | ⟨d, rfl⟩
      · rw [L_tc]; exact Finset.mem_singleton_self _
      · rw [L_tc]; exact Finset.mem_singleton_self _)
    (fun p hp => by rw [Finset.mem_singleton.mp hp]; dsimp only [lv]; rw [if_neg hq])
    (fun g u hg => by
      rcases hO g u hg with ⟨d, k, rfl⟩ | ⟨d, rfl⟩
      · rw [lv_recv]; decide
      · rw [lv_bar]; decide)

omit [FloatOps F] in
/-- A wait on a cell of level 0 (a staging cell, the copy's cell), owing what is owed at launch or a part of it. -/
theorem mayWait_low (c : Dev nD) (q : DmaSem sig) (hq : ¬ (16 ≤ q.val ∧ q.val ≤ 30)) (O : CellTallies nD τ sig Unit)
    (hO : O = O₀ c ∨ O = owedRecv c 0 ∨ O = 0) :
    (levAts L lv : sProp 𝕄) ⊢ MayWait (c : Thread nD τ) (.dma q) () O := by
  rcases hO with rfl | rfl | rfl
  · refine mayWait_low_of c q hq _ fun g u hg => ?_
    rcases O₀_pos hg with ⟨k, rfl⟩ | ⟨k, rfl⟩
    · exact Or.inl ⟨_, _, rfl⟩
    · exact Or.inr ⟨_, rfl⟩
  · refine mayWait_low_of c q hq _ fun g u hg => ?_
    obtain ⟨k, rfl⟩ := owedRecv_pos hg
    exact Or.inl ⟨_, _, rfl⟩
  · rw [MayWait_zero]; iintro -; iempintro

omit [FloatOps F] in
/-- At its barrier wait a device owes its fifteen receive credits only: receive cells, above its barrier cell. -/
theorem mayWait_bar (c : Dev nD) :
    (levAts L lv : sProp 𝕄) ⊢ MayWait (c : Thread nD τ) (.reg barS) () (owedRecv c 0) :=
  MayOwe.of_cut (L := L) (lev := lv) 1
    (fun p hp => by rw [Finset.mem_singleton.mp hp, L_tc]; exact Finset.mem_singleton_self _)
    (fun g u hg => by
      obtain ⟨k, rfl⟩ := owedRecv_pos hg
      rw [L_tc]; exact Finset.mem_singleton_self _)
    (fun p hp => by rw [Finset.mem_singleton.mp hp]; exact Nat.le_of_eq (lv_bar c ()))
    (fun g u hg => by
      obtain ⟨k, rfl⟩ := owedRecv_pos hg
      rw [lv_recv]; decide)

end Cert.Kernel.Proto

end
-- ==== Proof.Bits.Steps.lean ====
/-
  One step of each phase of a device's body: a signal, a transfer, a receive wait, a send wait, each taking the
  phase's state at `k` to its state at `k + 1`.
-/
import proofs.«901065_g7700000000001066_dist_softmax_colshard_i_m512_n256_v7x_i16_f32_1_alg».proof.Proof.Bits.Ghost
import proofs.«901065_g7700000000001066_dist_softmax_colshard_i_m512_n256_v7x_i16_f32_1_alg».proof.Proof.Bits.Levels

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (K : Dev nD × CK → ℕ) (c : Dev nD)

/-! ## Products over the indices from `n` on, and over those before `n` -/

/-- The indices from `n` on are `n` and those from `n + 1` on. -/
theorem ge_eq_insert (n : Fin 15) : ge n.val = insert n (ge (n.val + 1)) := by
  ext j; simp only [Finset.mem_filter, Finset.mem_univ, true_and, Finset.mem_insert]
  constructor
  · intro h; by_cases hj : j = n
    · exact Or.inl hj
    · exact Or.inr (by have : j.val ≠ n.val := fun e => hj (Fin.ext e); omega)
  · rintro (rfl | h) <;> omega
/-- The indices before `n + 1` are `n` and those before `n`. -/
theorem lt_eq_insert (n : Fin 15) : lt (n.val + 1) = insert n (lt n.val) := by
  ext j; simp only [Finset.mem_filter, Finset.mem_univ, true_and, Finset.mem_insert]
  constructor
  · intro h; by_cases hj : j = n
    · exact Or.inl hj
    · exact Or.inr (by have : j.val ≠ n.val := fun e => hj (Fin.ext e); omega)
  · rintro (rfl | h) <;> omega

/-- Taking the first of the indices from `n` on out of a product over them. -/
theorem peel_ge (n : Fin 15) (Φ : Fin 15 → sProp 𝕄) :
    bigSep (ge n.val) Φ ⊣⊢ iprop(Φ n ∗ bigSep (ge (n.val + 1)) Φ) :=
  .of_eq (by rw [ge_eq_insert n, bigSep_insert (by simp)]; rfl)
/-- Adding index `n` to a product over the indices before it. -/
theorem push_lt (n : Fin 15) (Φ : Fin 15 → sProp 𝕄) :
    bigSep (lt (n.val + 1)) Φ ⊣⊢ iprop(Φ n ∗ bigSep (lt n.val) Φ) :=
  .of_eq (by rw [lt_eq_insert n, bigSep_insert (by simp)]; rfl)
omit [FloatOps F] in
theorem ge_fifteen (Φ : Fin 15 → sProp 𝕄) : bigSep (ge 15) Φ = iprop(emp) := by
  rw [show ge 15 = ∅ from Finset.filter_false_of_mem (fun k _ => by have := k.isLt; omega), bigSep_empty]; rfl
omit [FloatOps F] in
theorem lt_zero (Φ : Fin 15 → sProp 𝕄) : bigSep (lt 0) Φ = iprop(emp) := by
  rw [show lt 0 = ∅ from Finset.filter_false_of_mem (fun k _ => by omega), bigSep_empty]; rfl
omit [FloatOps F] in
theorem ge_zero (Φ : Fin 15 → sProp 𝕄) : bigSep (ge 0) Φ = bigSep Finset.univ Φ := by
  rw [show ge 0 = Finset.univ from Finset.filter_true_of_mem (fun k _ => Nat.zero_le _)]
omit [FloatOps F] in
theorem lt_fifteen (Φ : Fin 15 → sProp 𝕄) : bigSep (lt 15) Φ = bigSep Finset.univ Φ := by
  rw [show lt 15 = Finset.univ from Finset.filter_true_of_mem (fun k _ => k.isLt)]

/-! ## What the records say of each kind of cell -/

theorem inv_bar (d : Dev nD) : records m K ⊢ cellInv ER (Rd m) (K (d, .bar)) (barCell d) := inv_at m K (d, .bar)
theorem inv_send (d : Dev nD) (k : Fin 15) : records m K ⊢ cellInv ER (Rd m) (K (d, .send k)) (sendCell d k) := inv_at m K (d, .send k)
theorem inv_recv (d : Dev nD) (k : Fin 15) : records m K ⊢ cellInv ER (Rd m) (K (d, .recv k)) (recvCell d k) := inv_at m K (d, .recv k)
theorem reached_bar (d : Dev nD) : records m K ⊢ reached ER (barCell d) 0 := reached_at m K (d, .bar)
theorem reached_send (d : Dev nD) (k : Fin 15) : records m K ⊢ reached ER (sendCell d k) 0 := reached_at m K (d, .send k)
theorem reached_recv (d : Dev nD) (k : Fin 15) : records m K ⊢ reached ER (recvCell d k) 0 := reached_at m K (d, .recv k)

/-! ## The transfer's credit, its landing, and the rest of a one-duty round -/

omit [FloatOps F] in
/-- A transfer into a slot credits what a transfer into the tile does: the two views have one shape. -/
theorem slot_credit (k : Fin 15) : (slotM k : Memref sig .tc .vmem S8x128 .f32).view.dmaCredit = N := rfl

/-- The statistics tile of `c` written over slot `k` of the device `k + 1` ahead is what that device's filled
    buffer holds there: the device `k + 1` behind it is `c`. -/
theorem send_lands (k : Fin 15) (fd : Buf (Elt F) ((slotM k : Memref sig .tc .vmem S8x128 .f32).view.loc (fwd c k : Thread nD τ))) :
    (((slotM k : Memref sig .tc .vmem S8x128 .f32).view.loc (fwd c k : Thread nD τ)
        ↦[(slotM k : Memref sig .tc .vmem S8x128 .f32).view.set]{fullShare}
          ((slotM k : Memref sig .tc .vmem S8x128 .f32).view.write (Elt F) fd
            ((stM : Memref sig .tc .vmem S8x128 .f32).view.read (Elt F) (statsV m c)) Finset.univ)) : sProp 𝕄)
      ⊢ (Rd m).payload (recvCell (fwd c k) k) 0 0 := by
  rw [payload_recv]
  unfold recvPay slotPts
  refine Entails.of_eq (pointsTo_congr fun i hi => ?_)
  refine (Views.write_slot k fd (statsV m c) i hi).trans ?_
  have hb : bwd (fwd c k) (i 0) = c :=
    (congrArg (bwd (fwd c k)) (Fin.ext ((Views.mem_slot_set k i).mp hi))).trans (bwd_fwd c k)
  show Spec.stats (xin m c) _ = Spec.stats (xin m (bwd (fwd c k) (i 0))) _
  rw [hb]

theorem rest_recv' (k : Fin 15) :
    bigSep ((Rd m).duties (recvCell c k) 0 \ ∅) (fun d => (Rd m).payload (recvCell c k) 0 d) = slotPts c k (commV m c) :=
  rest_recv m c k
theorem rest_send' (k : Fin 15) :
    bigSep ((Rd m).duties (sendCell c k) 0 \ ∅) (fun d => (Rd m).payload (sendCell c k) 0 d) = stPts m c (piece k.val) :=
  rest_send m c k

/-! ## The four steps -/

/-- The `k`-th signal, to the barrier cell of the device `k + 1` ahead: its duty `k`, handing over the device's own slot
    `opp k` and that round 0 of that slot's receive cell is reached. -/
theorem step_signal (k : Fin 15) (n : Dev nD) (hn : n = fwd c k) (amt : ℕ) (hamt : amt = 1) (W : Waits sig Unit)
    {α : Type} {Q : α → sProp 𝕄} {kont : PUnit → Prog (TpuEff nD τ sig (Elt F) Λ₀ .tc) α} :
    iprop(records m K ∗ SA c k.val W)
      ⊢ iprop((SA c (k.val + 1) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS amt) kont) Q) := by
  subst hn; subst hamt
  unfold SA
  iintro ⟨#Hrec, HL, Htoks, Hslots⟩ Hk
  ihave Htoks' := (peel_ge k _).mp $$ Htoks
  icases Htoks' with ⟨Htok, Htoks⟩
  ihave Hslots' := (peel_ge k _).mp $$ Hslots
  icases Hslots' with ⟨Hslot, Hslots⟩
  iapply (Rounds.wp_signal 𝒱₀ ER (Rd m) (c : Thread nD τ) none (dst := (fwd c k : Thread nD τ)) (sem := barS) (r := 0) (d := k)
      (κ := K (fwd c k, .bar))
      (by rw [duties_bar]; exact Finset.mem_univ _) (amount_bar m (fwd c k) k) () (owedRecv c 0 + owedBar c (k.val + 1))
      (O₀ := owedRecv c 0 + owedBar c k.val) (by rw [owedBar_peel c k, add_assoc]) (W := W)) $$ [HL Htok Hslot]
  · isplitr; · iapply (inv_bar m K (fwd c k)); iexact Hrec
    isplitl [HL]; · iexact HL
    isplitl [Htok]; · iexact Htok
    isplitl [Hslot]
    · rw [payload_bar]; unfold barPay; rw [bwd_fwd]
      isplitl [Hslot]; · iexact Hslot
      iapply (reached_recv m K c (opp k)); iexact Hrec
    iapply (reached_bar m K (fwd c k)); iexact Hrec
  iintro HL
  iapply Hk
  isplitl [HL]; · iexact HL
  isplitl [Htoks]; · iexact Htoks
  iexact Hslots

/-- The `k`-th transfer: the statistics tile into slot `k` of the device `k + 1` ahead, a piece of the tile lent to it. -/
theorem step_send (k : Fin 15) (n : Dev nD) (hn : n = fwd c k) (W : Waits sig Unit)
    {hsc : (slotM k : Memref sig (Dev.tc n : Thread nD τ).2.kind .vmem S8x128 .f32).view.ref.isScScratch = false}
    {hsrc : (stM : Memref sig .tc .vmem S8x128 .f32).view.WordExact} {hdst : (slotM k : Memref sig .tc .vmem S8x128 .f32).view.WordExact}
    {hsem : DmaTarget.Typed .vmem (.dma (recvA k).sem) (.remote (Dev.tc n : Thread nD τ) (slotM k : Memref sig .tc .vmem S8x128 .f32) (.dma (sendA k).sem) hsc)}
    {α : Type} {Q : α → sProp 𝕄} {kont : PUnit → Prog (TpuEff nD τ sig (Elt F) Λ₀ .tc) α} :
    iprop(records m K ∗ SD m c k.val W)
      ⊢ iprop((SD m c (k.val + 1) W -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma stM (.remote (Dev.tc n : Thread nD τ) (slotM k) (.dma (sendA k).sem) hsc) (.dma (recvA k).sem) hsrc hdst hsem) kont) Q) := by
  subst hn
  unfold SD stPts slotPts
  iintro ⟨#Hrec, HL, Hst, Hslots, Hrtoks, Hstoks, Hcreds⟩ Hk
  ihave Hslots' := (peel_ge k _).mp $$ Hslots
  icases Hslots' with ⟨⟨%fd, Hslot⟩, Hslots⟩
  ihave Hrtoks' := (peel_ge k _).mp $$ Hrtoks
  icases Hrtoks' with ⟨Hrtok, Hrtoks⟩
  ihave Hstoks' := (peel_ge k _).mp $$ Hstoks
  icases Hstoks' with ⟨Hstok, Hstoks⟩
  ihave Hst' := (pointsTo_share (rem_split k.val)).mp $$ Hst
  icases Hst' with ⟨Hpiece, Hst⟩
  iapply (Rounds.wp_send_pointsTo 𝒱₀ ER (Rd m) (c : Thread nD τ) none
      (c' := (fwd c k : Thread nD τ)) (src := stM) (dst := slotM k) (sS := .dma (sendA k).sem) (sem := .dma (recvA k).sem)
      (q := piece k.val) (fs := statsV m c) (fd := fd) (r₁ := 0) (r₂ := 0) (d₁ := 0) (d₂ := 0)
      (κ₁ := K (c, .send k)) (κ₂ := K (fwd c k, .recv k))
      (by rw [duties_send]; exact Finset.mem_singleton_self _) (by rw [duties_recv]; exact Finset.mem_singleton_self _)
      () () N (slot_credit k) (amount_send m c k 0) (amount_recv m (fwd c k) k 0)
      (owedRecv c (k.val + 1)) (owedRecv_peel c k) (W := W)
      (by rw [payload_send]; exact BI.Entails.refl _)
      (send_lands m c k fd)) $$ [HL Hpiece Hslot Hrtok Hstok]
  · isplitr; · iapply (inv_send m K c k); iexact Hrec
    isplitr; · iapply (inv_recv m K (fwd c k) k); iexact Hrec
    isplitl [Hpiece]; · iexact Hpiece
    isplitl [Hslot]; · iexact Hslot
    isplitl [HL]; · iexact HL
    isplitl [Hstok]; · iexact Hstok
    isplitr; · iapply (reached_send m K c k); iexact Hrec
    isplitl [Hrtok]; · iexact Hrtok
    iapply (reached_recv m K (fwd c k) k); iexact Hrec
  iintro ⟨Hcred, HL⟩
  iapply Hk
  isplitl [HL]; · iexact HL
  isplitl [Hst]; · iexact Hst
  isplitl [Hslots]; · iexact Hslots
  isplitl [Hrtoks]; · iexact Hrtoks
  isplitl [Hstoks]; · iexact Hstoks
  iapply (push_lt k _).mpr
  isplitl [Hcred]; · iexact Hcred
  iexact Hcreds

/-- The wait on the `k`-th receive cell: slot `k` comes back holding the tile of the device `k + 1` behind. -/
theorem step_recvw (k : Fin 15)
    {hsrc : (stM : Memref sig .tc .vmem S8x128 .f32).view.WordExact} {hdst : (slotM k : Memref sig .tc .vmem S8x128 .f32).view.WordExact}
    {α : Type} {Q : α → sProp 𝕄} {kont : PUnit → Prog (TpuEff nD τ sig (Elt F) Λ₀ .tc) α} :
    iprop(records m K ∗ SE m c k.val)
      ⊢ iprop((SE m c (k.val + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvA k).sem stM (slotM k) hsrc hdst) kont) Q) := by
  unfold SE
  iintro ⟨#Hrec, ⟨%W, HL⟩, Hge, Hlt⟩ Hk
  ihave Hge' := (peel_ge k _).mp $$ Hge
  icases Hge' with ⟨⟨Hc, Hat⟩, Hge⟩
  iapply (Rounds.wp_wait_rest_token 𝒱₀ ER (Rd m) (c : Thread nD τ) none (κ := K (c, .recv k))
      (w := .waitDma2 (recvA k).sem stM (slotM k) hsrc hdst)
      (wpE_waitDma2_eq 𝒱₀ (c : Thread nD τ) none Set.univ) (Set.mem_univ _) () (O := 0) (W := W) (R := 0) (T := ∅) (m := 0)
      ((Nat.zero_add _).trans ((slot_credit k).trans (expect_recv m c k).symm))) $$ [Hc HL Hat]
  · isplitr; · iapply (inv_recv m K c k); iexact Hrec
    isplitl [Hc]; · iexact Hc
    isplitl [HL]; · iexact HL
    isplitr; · rw [MayWait_zero]; iempintro
    iexact Hat
  iintro ⟨HL, Hat, -, Hrest⟩
  ihave Hpay := (Entails.of_eq (rest_recv' m c k)) $$ Hrest
  iapply Hk
  isplitl [HL]; · iexists _; iexact HL
  isplitl [Hge]; · iexact Hge
  iapply (push_lt k _).mpr
  isplitl [Hpay Hat]
  · isplitl [Hpay]; · iexact Hpay
    iexact Hat
  iexact Hlt

/-- The wait on the `k`-th send cell: the piece of the tile lent to the `k`-th transfer comes back. -/
theorem step_sendw (k : Fin 15)
    {hsrc : (slotM k : Memref sig .tc .vmem S8x128 .f32).view.WordExact} {hdst : (stM : Memref sig .tc .vmem S8x128 .f32).view.WordExact}
    {α : Type} {Q : α → sProp 𝕄} {kont : PUnit → Prog (TpuEff nD τ sig (Elt F) Λ₀ .tc) α} :
    iprop(records m K ∗ SG m c k.val)
      ⊢ iprop((SG m c (k.val + 1) -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendA k).sem (slotM k) stM hsrc hdst) kont) Q) := by
  unfold SG
  iintro ⟨#Hrec, ⟨%W, HL⟩, Hge, Hlt⟩ Hk
  ihave Hge' := (peel_ge k _).mp $$ Hge
  icases Hge' with ⟨⟨Hc, Hat⟩, Hge⟩
  iapply (Rounds.wp_wait_rest_token 𝒱₀ ER (Rd m) (c : Thread nD τ) none (κ := K (c, .send k))
      (w := .waitDma2 (sendA k).sem (slotM k) stM hsrc hdst)
      (wpE_waitDma2_eq 𝒱₀ (c : Thread nD τ) none Set.univ) (Set.mem_univ _) () (O := 0) (W := W) (R := 0) (T := ∅) (m := 0)
      ((Nat.zero_add _).trans (expect_send m c k).symm)) $$ [Hc HL Hat]
  · isplitr; · iapply (inv_send m K c k); iexact Hrec
    isplitl [Hc]; · iexact Hc
    isplitl [HL]; · iexact HL
    isplitr; · rw [MayWait_zero]; iempintro
    iexact Hat
  iintro ⟨HL, Hat, -, Hrest⟩
  ihave Hpay := (Entails.of_eq (rest_send' m c k)) $$ Hrest
  iapply Hk
  isplitl [HL]; · iexists _; iexact HL
  isplitl [Hge]; · iexact Hge
  iapply (push_lt k _).mpr
  isplitl [Hpay Hat]
  · isplitl [Hpay]; · iexact Hpay
    iexact Hat
  iexact Hlt

end Steps

/-- info: 'Cert.Kernel.Proto.step_signal' depends on axioms: [propext, Classical.choice, Quot.sound] -/
#guard_msgs in #print axioms step_signal
/-- info: 'Cert.Kernel.Proto.step_send' depends on axioms: [propext, Classical.choice, Quot.sound] -/
#guard_msgs in #print axioms step_send
/-- info: 'Cert.Kernel.Proto.step_recvw' depends on axioms: [propext, Classical.choice, Quot.sound] -/
#guard_msgs in #print axioms step_recvw
/-- info: 'Cert.Kernel.Proto.step_sendw' depends on axioms: [propext, Classical.choice, Quot.sound] -/
#guard_msgs in #print axioms step_sendw

end Cert.Kernel.Proto

end
-- ==== Proof.Bits.PartsDefs.lean ====
/-
  The body cut into its printed parts: each part called on the kernel's buffers, and the resources a device holds
  where one phase of the body ends and the next begins.
-/
import proofs.«901065_g7700000000001066_dist_softmax_colshard_i_m512_n256_v7x_i16_f32_1_alg».proof.Proof.Bits.Steps

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The barrier semaphore as the body names it. -/
abbrev barA : Sems sig S_ := SemArray.scalar (sig.barrier 0 rfl)

/-- The device a transfer or signal of offset `k + 1` addresses, as the body computes it, is `fwd c k`. -/
theorem sdev (c : Dev nD) (k : Fin 15) (n : ℕ) (hn : n < nD) (h : n = (c.val + (k.val + 1)) % 16) : (⟨n, hn⟩ : Dev nD) = fwd c k :=
  Fin.ext (by show n = (fwd c k).val; rw [h]; unfold fwd; simp only [Nat.add_assoc])

variable (c : Dev nD)

/-- The statistics tile, whole, at the full share and at some contents; and holding the device's statistics. -/
def stAny : sProp 𝕄 := iprop(∃ f : Buf (Elt F) ((c : Thread nD τ).loc cc0_scratch1), ((c : Thread nD τ).loc cc0_scratch1) ↦{fullShare} f)
def xvAny : sProp 𝕄 := iprop(∃ f : Buf (Elt F) ((c : Thread nD τ).loc cc0_scratch0), ((c : Thread nD τ).loc cc0_scratch0) ↦{fullShare} f)
def cmAny : sProp 𝕄 := iprop(∃ f : Buf (Elt F) ((c : Thread nD τ).loc cc0_scratch2), ((c : Thread nD τ).loc cc0_scratch2) ↦{fullShare} f)
/-- The receive buffer whole, every slot landed. -/
def cmFull : sProp 𝕄 := ((c : Thread nD τ).loc cc0_scratch2) ↦{fullShare} (commV m c : Buf (Elt F) ((c : Thread nD τ).loc cc0_scratch2))
/-- The result's staging buffer at some contents, and holding the device's block of the result. -/
def outAny : sProp 𝕄 := iprop(∃ f : Buf (Elt F) ((c : Thread nD τ).loc cc0_stg0_0), ((c : Thread nD τ).loc cc0_stg0_0) ↦{fullShare} f)
def outFull : sProp 𝕄 := ((c : Thread nD τ).loc cc0_stg0_0) ↦{fullShare} (outV m c : Buf (Elt F) ((c : Thread nD τ).loc cc0_stg0_0))

/-- The offset that leads back, as a permutation of the fifteen offsets. -/
def oppE : Fin 15 ≃ Fin 15 := ⟨opp, opp, opp_opp, opp_opp⟩

omit [FloatOps F] in
/-- The receive buffer whole is the product of its fifteen slots, all at the same contents: the slots are pairwise
    disjoint and cover the buffer. -/
theorem cm_cut (f : Buf (Elt F) ((c : Thread nD τ).loc cc0_scratch2)) :
    (((c : Thread nD τ).loc cc0_scratch2) ↦{fullShare} f : sProp 𝕄) = bigSep Finset.univ fun k : Fin 15 => slotPts (F := F) c k f := by
  have h := pointsTo_biUnion (Ix := Unit) (Name := ℕ) (U := UU) (Lvl := ℕ) (q := fullShare) (f := f)
    (ℓ := (c : Thread nD τ).loc cc0_scratch2) Finset.univ
    (fun k : Fin 15 => (slotM k).view.set) (fun k _ k' _ h => slot_disjoint k k' h)
  have hc : (Finset.univ : Finset (Idx ((c : Thread nD τ).loc cc0_scratch2)))
      = Finset.univ.biUnion (fun k : Fin 15 => (slotM k).view.set) := slot_cover.symm
  rw [hc]
  exact h

omit [FloatOps F] in
/-- A product over the fifteen offsets, taken in the order of the offsets that lead back. -/
theorem by_opp (Φ : Fin 15 → sProp 𝕄) : bigSep Finset.univ Φ = bigSep Finset.univ fun k : Fin 15 => Φ (opp k) :=
  bigSep_univ_equiv oppE Φ

/-- The receive buffer cut into its fifteen slots, slot `opp k` at index `k`: the order in which the signals hand them over. -/
theorem cm_split : cmAny (F := F) c ⊢ bigSep Finset.univ fun k : Fin 15 => iprop(∃ f, slotPts (F := F) c (opp k) f) := by
  unfold cmAny
  iintro ⟨%f, H⟩
  ihave Hs := (Entails.of_eq ((cm_cut c f).trans (by_opp fun k : Fin 15 => slotPts (F := F) c k f))) $$ H
  have hm : ∀ k ∈ (Finset.univ : Finset (Fin 15)),
      slotPts (F := F) c (opp k) f ⊢ iprop(∃ f, slotPts (F := F) c (opp k) f) := fun k _ => by
    iintro Hk; iexists f; iexact Hk
  have hmono : (bigSep Finset.univ fun k : Fin 15 => slotPts (F := F) c (opp k) f)
      ⊢ bigSep Finset.univ fun k : Fin 15 => iprop(∃ f, slotPts (F := F) c (opp k) f) := bigSep_mono hm
  iapply hmono
  iexact Hs
/-- The fifteen landed slots are the whole receive buffer. -/
theorem cm_join : (bigSep Finset.univ fun k : Fin 15 => slotPts c k (commV m c)) ⊢ cmFull m c := by
  unfold cmFull
  exact Entails.of_eq (cm_cut c (commV m c)).symm
/-- What is left of the tile after `n` pieces is the `n`-th piece and what is left after `n + 1`. -/
theorem st_share (n : ℕ) : stPts m c (rem n) ⊣⊢ iprop(stPts m c (piece n) ∗ stPts m c (rem (n + 1))) := by
  unfold stPts
  exact pointsTo_share (rem_split n)

/-- What is left after `n` pieces, with the first `n` pieces, is the tile at the full share: by induction on `n`,
    the `n`-th piece rejoining what is left after `n + 1`. -/
theorem st_join_upto (n : ℕ) (hn : n ≤ 15) :
    iprop(stPts m c (rem n) ∗ bigSep (lt n) fun k : Fin 15 => stPts m c (piece k.val)) ⊢ stPts m c fullShare := by
  induction n with
  | zero =>
    rw [lt_zero]
    iintro ⟨H, -⟩
    iexact H
  | succ n ih =>
    have hlt : n < 15 := hn
    have hp : bigSep (lt (n + 1)) (fun k : Fin 15 => stPts m c (piece k.val))
        ⊣⊢ iprop(stPts m c (piece n) ∗ bigSep (lt n) fun k : Fin 15 => stPts m c (piece k.val)) :=
      push_lt (⟨n, hlt⟩ : Fin 15) (fun k : Fin 15 => stPts m c (piece k.val))
    iintro ⟨Hr, Hb⟩
    ihave Hb' := hp.1 $$ Hb
    icases Hb' with ⟨Hn, Hlo⟩
    iapply (ih (Nat.le_of_succ_le hn))
    isplitl [Hr Hn]
    · iapply (st_share m c n).2
      isplitl [Hn]
      · iexact Hn
      · iexact Hr
    · iexact Hlo

/-- The pieces of the statistics tile put back together. -/
theorem st_join : iprop(stPts m c (rem 15) ∗ bigSep Finset.univ fun k : Fin 15 => stPts m c (piece k.val)) ⊢ stPts m c fullShare := by
  have h := st_join_upto m c 15 le_rfl
  rw [lt_fifteen] at h
  exact h
/-- What the barrier wait hands over, by the transfer that uses it: the slot `k` of the device `k + 1` ahead. -/
theorem bar_slots : (bigSep Finset.univ fun d : Fin 15 => barPay (F := F) c d) ⊢ bigSep Finset.univ fun k : Fin 15 => iprop(∃ f, slotPts (F := F) (fwd c k) k f) := by
  rw [by_opp fun d : Fin 15 => barPay (F := F) c d]
  have hm : ∀ k ∈ (Finset.univ : Finset (Fin 15)),
      barPay (F := F) c (opp k) ⊢ iprop(∃ f, slotPts (F := F) (fwd c k) k f) := fun k _ => by
    unfold barPay
    rw [bwd_opp, opp_opp]
    iintro ⟨H, -⟩
    iexact H
  exact bigSep_mono hm

end Cert.Kernel.Proto

end
-- ==== Proof.Bits.PartsA.lean ====
/-
  The first three parts of the body: the fifteen signals, the block's copy into vector memory and its wait, the block loaded.
-/
import proofs.«901065_g7700000000001066_dist_softmax_colshard_i_m512_n256_v7x_i16_f32_1_alg».proof.Proof.Bits.PartsDefs

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-! ## The block's copy: both views are whole buffers -/

theorem xv_set : (xvM : Memref sig .tc .vmem S512x256 .f32).view.set = Finset.univ := View.set_whole _

/-- The copy's destination, rewritten whole by the source's contents, holds the source's contents. -/
theorem copy_eq (fd : Buf (Elt F) ((xvM : Memref sig .tc .vmem S512x256 .f32).view.loc (c : Thread nD τ)))
    (fs : (main_arg0 : Ref sig .tc).ty.Contents (Elt F)) :
    (xvM : Memref sig .tc .vmem S512x256 .f32).view.write (Elt F) fd ((xM : Memref sig .tc .hbm S512x256 .f32).view.read (Elt F) fs) Finset.univ = fs := by
  show (View.whole cc0_scratch0).write (Elt F) fd ((View.whole main_arg0).read (Elt F) fs) Finset.univ = fs
  rw [View.read_whole]
  exact View.write_whole_univ _ _ _

theorem zero_offsets : (![0, 0] : Fin 2 → Nat) = fun _ => 0 := funext fun a =>
  match a with
  | ⟨0, _⟩ => rfl
  | ⟨1, _⟩ => rfl

/-- The load of the whole copy reads its contents. -/
theorem read_xv (f : (cc0_scratch0 : Ref sig .tc).ty.Contents (Elt F)) :
    (xvM : Memref sig .tc .vmem S512x256 .f32).view.readAt (Elt F)
      (Rect.unit (s := S512x256) ![0, 0] S512x256.size inb_S512x256_S512x256_0_0).toLoadRect f = f :=
  Memref.readAt_unit_zero (Elt F) cc0_scratch0 zero_offsets _ f

/-- The copy in vector memory through its view, and as the whole buffer. -/
theorem xv_pts (f : Buf (Elt F) ((c : Thread nD τ).loc cc0_scratch0)) :
    ((xvM : Memref sig .tc .vmem S512x256 .f32).view.loc (c : Thread nD τ) ↦[(xvM : Memref sig .tc .vmem S512x256 .f32).view.set]{fullShare} f : sProp 𝕄)
      = (((c : Thread nD τ).loc cc0_scratch0) ↦{fullShare} f : sProp 𝕄) := by rw [xv_set]

/-- What the copy's landing delivers is the payload of its cell's one duty. -/
theorem load_pay (fd : Buf (Elt F) ((xvM : Memref sig .tc .vmem S512x256 .f32).view.loc (c : Thread nD τ))) :
    iprop(((xvM : Memref sig .tc .vmem S512x256 .f32).view.loc (c : Thread nD τ) ↦[(xvM : Memref sig .tc .vmem S512x256 .f32).view.set]{fullShare}
              ((xvM : Memref sig .tc .vmem S512x256 .f32).view.write (Elt F) fd ((xM : Memref sig .tc .hbm S512x256 .f32).view.read (Elt F) (xin m c)) Finset.univ))
          ∗ ((xM : Memref sig .tc .hbm S512x256 .f32).view.loc (c : Thread nD τ) ↦[(xM : Memref sig .tc .hbm S512x256 .f32).view.set]{fullShare} xin m c))
      ⊢ (Rd (F := F) m).payload (loadCell c) 0 0 := by
  rw [payload_load, copy_eq]
  unfold loadPay xvPts xPts
  exact .rfl

/-- All fifteen signals sent: the device owes its receive credits only. -/
theorem SA_done (W : Waits sig Unit) : SA (F := F) c 15 W ⊢ owes (c : Thread nD τ) (owedRecv c 0) W := by
  unfold SA
  rw [ge_fifteen, ge_fifteen, owedBar_done, add_zero]
  iintro ⟨H, -, -⟩
  iexact H

/-! ## The parts -/

/-- Part 1: the device reads its id and sends its first five signals. -/
theorem part1_run (W : Waits sig Unit)
    (Q : (Σ' (d0 : Dev nD) (v2 : BitVec 32) (v3 : Sems sig S_) (v24 : BitVec 32), BitVec 32) → sProp 𝕄) :
    iprop(records m K ∗ SA c 0 W ∗ (SA c 5 W -∗ ∀ v2 v24 c16, Q ⟨c, v2, barA, v24, c16⟩))
      ⊢ wp frame (wpE (defs₀ (F := F)) 𝒱₀ (c : Thread nD τ) none) Set.univ (k0_part1 (F := F) xM (Memref.isWhole_whole _) oM (Memref.isWhole_whole _) xvM (Memref.isWhole_whole _) stM (Memref.isWhole_whole _) cmM (Memref.isWhole_whole _) cc0_scratch3 cc0_scratch4 cc0_scratch5) Q := by
  rw [k0_part1_eq_skeleton]; unfold k0_part1_skel
  simp only [semSignalWord, semWaitWord, Prog.lift, Prog.bind_op, Prog.bind_ret, Prog.pure_eq_ret, wp_deviceId]
  iintro ⟨#HR, HS, Hk⟩
  iapply (step_signal m K c ⟨0, by decide⟩ _ (sdev c ⟨0, by decide⟩ _ _ (k0_dev1_eq c)) _ rfl W) $$ [HS]
  · isplitr; · iexact HR
    iexact HS
  iintro HS
  iapply (step_signal m K c ⟨1, by decide⟩ _ (sdev c ⟨1, by decide⟩ _ _ (k0_dev2_eq c)) _ rfl W) $$ [HS]
  · isplitr; · iexact HR
    iexact HS
  iintro HS
  iapply (step_signal m K c ⟨2, by decide⟩ _ (sdev c ⟨2, by decide⟩ _ _ (k0_dev3_eq c)) _ rfl W) $$ [HS]
  · isplitr; · iexact HR
    iexact HS
  iintro HS
  iapply (step_signal m K c ⟨3, by decide⟩ _ (sdev c ⟨3, by decide⟩ _ _ (k0_dev4_eq c)) _ rfl W) $$ [HS]
  · isplitr; · iexact HR
    iexact HS
  iintro HS
  iapply (step_signal m K c ⟨4, by decide⟩ _ (sdev c ⟨4, by decide⟩ _ _ (k0_dev5_eq c)) _ rfl W) $$ [HS]
  · isplitr; · iexact HR
    iexact HS
  iintro HS
  rw [wp_ret]; imodintro
  ispecialize Hk $$ HS
  iapply Hk

/-- Part 2: signals 5–10. -/
theorem part2_run (W : Waits sig Unit) (v2 v24 c16 : BitVec 32) (Q : (Σ' (v48 : BitVec 32), BitVec 32) → sProp 𝕄) :
    iprop(records m K ∗ SA c 5 W ∗ (SA c 11 W -∗ ∀ r, Q r))
      ⊢ wp frame (wpE (defs₀ (F := F)) 𝒱₀ (c : Thread nD τ) none) Set.univ (k0_part2 (F := F) xM (Memref.isWhole_whole _) oM (Memref.isWhole_whole _) xvM (Memref.isWhole_whole _) stM (Memref.isWhole_whole _) cmM (Memref.isWhole_whole _) cc0_scratch3 cc0_scratch4 cc0_scratch5 c v2 barA v24 c16) Q := by
  rw [k0_part2_eq_skeleton]; unfold k0_part2_skel
  simp only [semSignalWord, semWaitWord, Prog.lift, Prog.bind_op, Prog.bind_ret, Prog.pure_eq_ret]
  iintro ⟨#HR, HS, Hk⟩
  iapply (step_signal m K c ⟨5, by decide⟩ _ (sdev c ⟨5, by decide⟩ _ _ (k0_dev6_eq c)) _ rfl W) $$ [HS]
  · isplitr; · iexact HR
    iexact HS
  iintro HS
  iapply (step_signal m K c ⟨6, by decide⟩ _ (sdev c ⟨6, by decide⟩ _ _ (k0_dev7_eq c)) _ rfl W) $$ [HS]
  · isplitr; · iexact HR
    iexact HS
  iintro HS
  iapply (step_signal m K c ⟨7, by decide⟩ _ (sdev c ⟨7, by decide⟩ _ _ (k0_dev8_eq c)) _ rfl W) $$ [HS]
  · isplitr; · iexact HR
    iexact HS
  iintro HS
  iapply (step_signal m K c ⟨8, by decide⟩ _ (sdev c ⟨8, by decide⟩ _ _ (k0_dev9_eq c)) _ rfl W) $$ [HS]
  · isplitr; · iexact HR
    iexact HS
  iintro HS
  iapply (step_signal m K c ⟨9, by decide⟩ _ (sdev c ⟨9, by decide⟩ _ _ (k0_dev10_eq c)) _ rfl W) $$ [HS]
  · isplitr; · iexact HR
    iexact HS
  iintro HS
  iapply (step_signal m K c ⟨10, by decide⟩ _ (sdev c ⟨10, by decide⟩ _ _ (k0_dev11_eq c)) _ rfl W) $$ [HS]
  · isplitr; · iexact HR
    iexact HS
  iintro HS
  rw [wp_ret]; imodintro
  ispecialize Hk $$ HS
  iapply Hk

/-- Part 3: signals 11–14; the block copied from main memory into vector memory, the copy waited for, the block loaded:
    the part returns the block, its row maxima and the pieces of its statistics tile. -/
theorem part3_run (W : Waits sig Unit) (v2 v48 c16 : BitVec 32)
    (Q : (Σ' (v64 : Vec F S512x256 .f32) (v66 : FVec F S512x1 .f32) (v73 : FVec F S2x512 .f32) (v74 : FVec F S1x128 .f32) (v75 : FVec F S1x128 .f32) (v76 : FVec F S1x128 .f32) (v77 : FVec F S1x128 .f32) (v78 : FVec F S1x128 .f32) (v79 : FVec F S1x128 .f32), FVec F S1x128 .f32) → sProp 𝕄) :
    iprop(records m K ∗ levAts L lv ∗ SA c 11 W ∗ xPts m c ∗ xvAny c ∗ dutyTok ER (loadCell c) 0 0 ∗ atPos ER (loadCell c) 0 ∅ 0
        ∗ ((iprop((∃ W', owes (c : Thread nD τ) (owedRecv c 0) W') ∗ xvPts m c ∗ xPts m c ∗ atPos ER (loadCell c) 1 ∅ 0))
            -∗ Q ⟨xin m c, k0_pay1 (xin m c), k0_pay2 (xin m c), k0_pay3 (xin m c), k0_pay4 (xin m c), k0_pay5 (xin m c), k0_pay6 (xin m c), k0_pay7 (xin m c), k0_pay8 (xin m c), k0_pay9 (xin m c)⟩))
      ⊢ wp frame (wpE (defs₀ (F := F)) 𝒱₀ (c : Thread nD τ) none) Set.univ (k0_part3 (F := F) xM (Memref.isWhole_whole _) oM (Memref.isWhole_whole _) xvM (Memref.isWhole_whole _) stM (Memref.isWhole_whole _) cmM (Memref.isWhole_whole _) cc0_scratch3 cc0_scratch4 cc0_scratch5 c v2 barA v48 c16) Q := by
  rw [k0_part3_eq_skeleton]; unfold k0_part3_skel
  simp only [semSignalWord, semWaitWord, Prog.lift, Prog.bind_op, Prog.bind_ret, Prog.pure_eq_ret]
  iintro ⟨#HR, #Hlev, HS, Hx, Hxv, Htok, Hat, Hk⟩
  iapply (step_signal m K c ⟨11, by decide⟩ _ (sdev c ⟨11, by decide⟩ _ _ (k0_dev12_eq c)) _ rfl W) $$ [HS]
  · isplitr; · iexact HR
    iexact HS
  iintro HS
  iapply (step_signal m K c ⟨12, by decide⟩ _ (sdev c ⟨12, by decide⟩ _ _ (k0_dev13_eq c)) _ rfl W) $$ [HS]
  · isplitr; · iexact HR
    iexact HS
  iintro HS
  iapply (step_signal m K c ⟨13, by decide⟩ _ (sdev c ⟨13, by decide⟩ _ _ (k0_dev14_eq c)) _ rfl W) $$ [HS]
  · isplitr; · iexact HR
    iexact HS
  iintro HS
  iapply (step_signal m K c ⟨14, by decide⟩ _ (sdev c ⟨14, by decide⟩ _ _ (k0_dev15_eq c)) _ rfl W) $$ [HS]
  · isplitr; · iexact HR
    iexact HS
  iintro HS
  ihave HO := (SA_done c W) $$ HS
  -- the copy of the block into vector memory: the one duty of its cell
  unfold xvAny
  icases Hxv with ⟨%f0, Hxv⟩
  ihave Hxv := (Entails.of_eq (xv_pts c f0).symm) $$ Hxv
  unfold xvPts xPts
  iapply (Rounds.wp_copy_pointsTo 𝒱₀ ER (Rd m) (c : Thread nD τ) none (src := xM) (dst := xvM) (sem := .dma loadA.sem)
      (q := fullShare) (fs := xin m c) (fd := f0) (r := 0) (d := 0) (κ := K (c, CK.load))
      (by rw [duties_load]; exact Finset.mem_singleton_self _) () Nx rfl (amount_load m c 0) (load_pay m c f0)) $$ [Hx Hxv Htok]
  · isplitr; · iapply (inv_at m K (c, CK.load)); iexact HR
    isplitl [Hx]; · iexact Hx
    isplitl [Hxv]; · iexact Hxv
    isplitl [Htok]; · iexact Htok
    iapply (reached_at m K (c, CK.load)); iexact HR
  iintro Hcr
  -- its wait, owing the receive credits: the copy and the block come back
  iapply (Rounds.wp_wait_rest_token 𝒱₀ ER (Rd m) (c : Thread nD τ) none (κ := K (c, CK.load))
      (wpE_waitDma2_eq 𝒱₀ (c : Thread nD τ) none Set.univ) (Set.mem_univ _) () (O := owedRecv c 0) (W := W) (R := 0) (m := 0) (T := ∅)
      (by rw [Nat.zero_add, expect_load])) $$ [Hcr HO Hat]
  · isplitr; · iapply (inv_at m K (c, CK.load)); iexact HR
    isplitl [Hcr]; · iexact Hcr
    isplitl [HO]; · iexact HO
    isplitr
    · iapply (mayWait_low c loadA.sem (by rw [loadA_val]; omega) (owedRecv c 0) (Or.inr (Or.inl rfl))); iexact Hlev
    iexact Hat
  iintro ⟨HO, Hat, -, Hpay⟩
  ihave Hp := (Entails.of_eq (rest_load m c)) $$ Hpay
  unfold loadPay xvPts xPts
  icases Hp with ⟨Hxv, Hx⟩
  -- the block loaded from the copy
  iapply (wp_load 𝒱₀ (c : Thread nD τ) none Set.univ (m := xvM) (by rw [xv_set]; exact Finset.subset_univ _)) $$ Hxv; iintro Hxv
  rw [read_xv, wp_ret]; imodintro
  iapply Hk
  isplitl [HO]; · iexists _; iexact HO
  isplitl [Hxv]; · iexact Hxv
  isplitl [Hx]; · iexact Hx
  iexact Hat

end Parts

end Cert.Kernel.Proto

end
-- ==== Proof.Bits.PartsB.lean ====
/-
  The fourth part of the body: the statistics tile stored, the wait on the barrier, the first two transfers.
-/
import proofs.«901065_g7700000000001066_dist_softmax_colshard_i_m512_n256_v7x_i16_f32_1_alg».proof.Proof.Bits.PartsDefs

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-- The statistics tile addressed whole: all eight rows and all 128 lanes from the origin. -/
abbrev r0 : Rect S8x128 := Rect.unit (s := S8x128) ![0, 0] S8x128.size inb_S8x128_S8x128_0_0

omit [FloatOps F] in
theorem hz : (![0, 0] : Fin 2 → Nat) = fun _ => 0 := funext fun a =>
  match a with
  | ⟨0, _⟩ => rfl
  | ⟨1, _⟩ => rfl

omit [FloatOps F] in
/-- A tile stored whole over any contents is the tile's contents after the store. -/
theorem st_stored (f w : (cc0_scratch1 : Ref sig .tc).ty.Contents (Elt F)) :
    ((((stM : Memref sig .tc .vmem S8x128 .f32).access r0 : View sig .tc _ _ _).loc (c : Thread nD τ))
        ↦{fullShare} (((stM : Memref sig .tc .vmem S8x128 .f32).access r0 : View sig .tc _ _ _).write (Elt F) f w Finset.univ) : sProp 𝕄)
      = ((stM : Memref sig .tc .vmem S8x128 .f32).view.loc (c : Thread nD τ)
          ↦[(stM : Memref sig .tc .vmem S8x128 .f32).view.set]{fullShare} w) := by
  have hs : (stM : Memref sig .tc .vmem S8x128 .f32).view.set = Finset.univ := View.set_whole _
  have hw : ((stM : Memref sig .tc .vmem S8x128 .f32).access r0 : View sig .tc _ _ _).write (Elt F) f w Finset.univ = w :=
    Memref.write_access_unit_zero_univ (Elt F) cc0_scratch1 hz _ f w
  rw [hw, hs]

/-- The tile that the body stores is the device's statistics tile. -/
theorem st_is_stats :
    ((stM : Memref sig .tc .vmem S8x128 .f32).view.loc (c : Thread nD τ)
        ↦[(stM : Memref sig .tc .vmem S8x128 .f32).view.set]{fullShare}
          (k0_pay10 (k0_pay2 (xin m c)) (k0_pay3 (xin m c)) (k0_pay4 (xin m c)) (k0_pay5 (xin m c)) (k0_pay6 (xin m c))
            (k0_pay7 (xin m c)) (k0_pay8 (xin m c)) (k0_pay9 (xin m c))) : sProp 𝕄)
      = stPts m c fullShare := rfl

/-- No transfer issued yet: the state of the transfers' phase from the whole tile, the fifteen peers' slots and the
    tokens of all the transfers. -/
theorem SD_zero (W : Waits sig Unit) :
    iprop(owes (c : Thread nD τ) (owedRecv c 0) W ∗ stPts m c fullShare
        ∗ (bigSep Finset.univ fun k : Fin 15 => iprop(∃ f, slotPts (F := F) (fwd c k) k f))
        ∗ (bigSep Finset.univ fun k : Fin 15 => dutyTok ER (recvCell (fwd c k) k) 0 0)
        ∗ (bigSep Finset.univ fun k : Fin 15 => dutyTok ER (sendCell c k) 0 0))
      ⊢ SD m c 0 W := by
  unfold SD
  rw [ge_zero, ge_zero, ge_zero, lt_zero]
  iintro ⟨H1, H2, H3, H4, H5⟩
  isplitl [H1]; · iexact H1
  isplitl [H2]; · iexact H2
  isplitl [H3]; · iexact H3
  isplitl [H4]; · iexact H4
  isplitl [H5]; · iexact H5
  iempintro

/-- Part 4: a dead load of the statistics tile, the tile stored, the barrier wait (the fifteen peers' slots come with it),
    transfers 0 and 1. -/
theorem part4_run (W : Waits sig Unit) (v2 : BitVec 32) (Q : (Σ' (v87 : BitVec 32) (v97 : BitVec 32) (v107 : BitVec 32), BitVec 32) → sProp 𝕄) :
    iprop(records m K ∗ levAts L lv ∗ owes (c : Thread nD τ) (owedRecv c 0) W ∗ stAny c
        ∗ cred (tallyAt (barCell c) () 15) ∗ atPos ER (barCell c) 0 ∅ 0
        ∗ (bigSep Finset.univ fun k : Fin 15 => dutyTok ER (recvCell (fwd c k) k) 0 0)
        ∗ (bigSep Finset.univ fun k : Fin 15 => dutyTok ER (sendCell c k) 0 0)
        ∗ ((iprop((∃ W', SD m c 2 W') ∗ atPos ER (barCell c) 1 ∅ 0)) -∗ ∀ r, Q r))
      ⊢ wp frame (wpE (defs₀ (F := F)) 𝒱₀ (c : Thread nD τ) none) Set.univ (k0_part4 (F := F) xM (Memref.isWhole_whole _) oM (Memref.isWhole_whole _) xvM (Memref.isWhole_whole _) stM (Memref.isWhole_whole _) cmM (Memref.isWhole_whole _) cc0_scratch3 cc0_scratch4 cc0_scratch5 c v2 barA (k0_pay2 (xin m c)) (k0_pay3 (xin m c)) (k0_pay4 (xin m c)) (k0_pay5 (xin m c)) (k0_pay6 (xin m c)) (k0_pay7 (xin m c)) (k0_pay8 (xin m c)) (k0_pay9 (xin m c))) Q := by
  rw [k0_part4_eq_skeleton]; unfold k0_part4_skel
  simp only [semSignalWord, semWaitWord, Prog.lift, Prog.bind_op, Prog.bind_ret, Prog.pure_eq_ret, wp_deviceId]
  iintro ⟨#Hrec, #Hlev, HO, Hst, HcB, HatB, HtR, HtS, Hk⟩
  unfold stAny
  icases Hst with ⟨%f0, Hst⟩
  -- the load of the tile, whose value is not used
  iapply (wp_load 𝒱₀ (c : Thread nD τ) none Set.univ (m := stM) (S := Finset.univ) (q := fullShare) (f := f0) (Finset.subset_univ _)) $$ Hst
  iintro Hst1
  -- the tile stored whole: it now holds the device's statistics
  iapply (wp_store 𝒱₀ (c : Thread nD τ) none Set.univ (m := stM) (r := r0) (S := Finset.univ) (f := f0) (Finset.subset_univ _)) $$ Hst1
  iintro Hst2
  ihave Hst2' := (Entails.of_eq (st_stored c f0 _)) $$ Hst2
  ihave Hst3 := (Entails.of_eq (st_is_stats m c)) $$ Hst2'
  -- the wait for fifteen units on the device's own barrier cell, owing its fifteen receive credits: the rest of
  -- the cell's one round, whose payloads are the peers' slots
  iapply (Rounds.wp_wait_rest_token 𝒱₀ ER (Rd m) (c : Thread nD τ) none (κ := K (c, CK.bar))
      (wpE_semWait_eq 𝒱₀ (c : Thread nD τ) none Set.univ) (Set.mem_univ _) () (O := owedRecv c 0) (W := W) (R := 0) (m := 0) (T := ∅)
      (by rw [expect_bar]; decide)) $$ [HcB HO HatB]
  · isplitr; · iapply (inv_at m K (c, CK.bar)); iexact Hrec
    isplitl [HcB]; · iexact HcB
    isplitl [HO]; · iexact HO
    isplitr; · iapply (mayWait_bar c); iexact Hlev
    iexact HatB
  iintro ⟨HO1, HatB1, -, Hpay⟩
  ihave Hp := (Entails.of_eq (rest_bar m c)) $$ Hpay
  ihave Hsl := (bar_slots c) $$ Hp
  ihave HSD0 := (SD_zero m c (insert (SemLoc.reg barS, ()) W)) $$ [HO1 Hst3 Hsl HtR HtS]
  · isplitl [HO1]; · iexact HO1
    isplitl [Hst3]; · iexact Hst3
    isplitl [Hsl]; · iexact Hsl
    isplitl [HtR]; · iexact HtR
    iexact HtS
  -- transfer 0, to the device one place ahead
  iapply (step_send m K c ⟨0, by decide⟩ _ (sdev c ⟨0, by decide⟩ _ _ (k0_dev16_eq c)) (insert (SemLoc.reg barS, ()) W)) $$ [HSD0]
  · isplitr; · iexact Hrec
    iexact HSD0
  iintro HSD1
  -- transfer 1, to the device two places ahead
  iapply (step_send m K c ⟨1, by decide⟩ _ (sdev c ⟨1, by decide⟩ _ _ (k0_dev17_eq c)) (insert (SemLoc.reg barS, ()) W)) $$ [HSD1]
  · isplitr; · iexact Hrec
    iexact HSD1
  iintro HSD2
  rw [wp_ret]
  imodintro
  iapply Hk $$ [HSD2 HatB1] %_
  isplitl [HSD2]
  · iexists (insert (SemLoc.reg barS, ()) W); iexact HSD2
  · iexact HatB1

end Parts

end Cert.Kernel.Proto

end
-- ==== Proof.Bits.PartsC.lean ====
/-
  Parts 5–9 of the body: transfers 2–14 and the first three receive waits.
-/
import proofs.«901065_g7700000000001066_dist_softmax_colshard_i_m512_n256_v7x_i16_f32_1_alg».proof.Proof.Bits.PartsDefs

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-- Part 5: transfers 2–4. -/
theorem part5_run (W : Waits sig Unit) (v2 vx : BitVec 32) (Q : (Σ' (va : BitVec 32) (vb : BitVec 32) (vc : BitVec 32), BitVec 32) → sProp 𝕄) :
    iprop(records m K ∗ SD m c 2 W ∗ (SD m c 5 W -∗ ∀ r, Q r))
      ⊢ wp frame (wpE (defs₀ (F := F)) 𝒱₀ (c : Thread nD τ) none) Set.univ (k0_part5 (F := F) xM (Memref.isWhole_whole _) oM (Memref.isWhole_whole _) xvM (Memref.isWhole_whole _) stM (Memref.isWhole_whole _) cmM (Memref.isWhole_whole _) cc0_scratch3 cc0_scratch4 cc0_scratch5 c v2 vx) Q := by
  rw [k0_part5_eq_skeleton]
  unfold k0_part5_skel
  simp only [Prog.lift, Prog.bind_op, Prog.bind_ret, Prog.pure_eq_ret]
  iintro ⟨#HR, HD, HK⟩
  iapply (step_send m K c ⟨2, by decide⟩ ⟨k0_dev18 c, k0_dev18_lt c⟩ (sdev c ⟨2, by decide⟩ _ _ (k0_dev18_eq c)) W) $$ [HD]
  · isplitr [HD]
    · iexact HR
    · iexact HD
  iintro HD
  iapply (step_send m K c ⟨3, by decide⟩ ⟨k0_dev19 c, k0_dev19_lt c⟩ (sdev c ⟨3, by decide⟩ _ _ (k0_dev19_eq c)) W) $$ [HD]
  · isplitr [HD]
    · iexact HR
    · iexact HD
  iintro HD
  iapply (step_send m K c ⟨4, by decide⟩ ⟨k0_dev20 c, k0_dev20_lt c⟩ (sdev c ⟨4, by decide⟩ _ _ (k0_dev20_eq c)) W) $$ [HD]
  · isplitr [HD]
    · iexact HR
    · iexact HD
  iintro HD
  rw [wp_ret]
  imodintro
  iapply HK $$ HD

/-- Part 6: transfers 5–7. -/
theorem part6_run (W : Waits sig Unit) (v2 vx : BitVec 32) (Q : (Σ' (va : BitVec 32) (vb : BitVec 32) (vc : BitVec 32), BitVec 32) → sProp 𝕄) :
    iprop(records m K ∗ SD m c 5 W ∗ (SD m c 8 W -∗ ∀ r, Q r))
      ⊢ wp frame (wpE (defs₀ (F := F)) 𝒱₀ (c : Thread nD τ) none) Set.univ (k0_part6 (F := F) xM (Memref.isWhole_whole _) oM (Memref.isWhole_whole _) xvM (Memref.isWhole_whole _) stM (Memref.isWhole_whole _) cmM (Memref.isWhole_whole _) cc0_scratch3 cc0_scratch4 cc0_scratch5 c v2 vx) Q := by
  rw [k0_part6_eq_skeleton]
  unfold k0_part6_skel
  simp only [Prog.lift, Prog.bind_op, Prog.bind_ret, Prog.pure_eq_ret]
  iintro ⟨#HR, HD, HK⟩
  iapply (step_send m K c ⟨5, by decide⟩ ⟨k0_dev21 c, k0_dev21_lt c⟩ (sdev c ⟨5, by decide⟩ _ _ (k0_dev21_eq c)) W) $$ [HD]
  · isplitr [HD]
    · iexact HR
    · iexact HD
  iintro HD
  iapply (step_send m K c ⟨6, by decide⟩ ⟨k0_dev22 c, k0_dev22_lt c⟩ (sdev c ⟨6, by decide⟩ _ _ (k0_dev22_eq c)) W) $$ [HD]
  · isplitr [HD]
    · iexact HR
    · iexact HD
  iintro HD
  iapply (step_send m K c ⟨7, by decide⟩ ⟨k0_dev23 c, k0_dev23_lt c⟩ (sdev c ⟨7, by decide⟩ _ _ (k0_dev23_eq c)) W) $$ [HD]
  · isplitr [HD]
    · iexact HR
    · iexact HD
  iintro HD
  rw [wp_ret]
  imodintro
  iapply HK $$ HD

/-- Part 7: transfers 8–10. -/
theorem part7_run (W : Waits sig Unit) (v2 vx : BitVec 32) (Q : (Σ' (va : BitVec 32) (vb : BitVec 32) (vc : BitVec 32), BitVec 32) → sProp 𝕄) :
    iprop(records m K ∗ SD m c 8 W ∗ (SD m c 11 W -∗ ∀ r, Q r))
      ⊢ wp frame (wpE (defs₀ (F := F)) 𝒱₀ (c : Thread nD τ) none) Set.univ (k0_part7 (F := F) xM (Memref.isWhole_whole _) oM (Memref.isWhole_whole _) xvM (Memref.isWhole_whole _) stM (Memref.isWhole_whole _) cmM (Memref.isWhole_whole _) cc0_scratch3 cc0_scratch4 cc0_scratch5 c v2 vx) Q := by
  rw [k0_part7_eq_skeleton]
  unfold k0_part7_skel
  simp only [Prog.lift, Prog.bind_op, Prog.bind_ret, Prog.pure_eq_ret]
  iintro ⟨#HR, HD, HK⟩
  iapply (step_send m K c ⟨8, by decide⟩ ⟨k0_dev24 c, k0_dev24_lt c⟩ (sdev c ⟨8, by decide⟩ _ _ (k0_dev24_eq c)) W) $$ [HD]
  · isplitr [HD]
    · iexact HR
    · iexact HD
  iintro HD
  iapply (step_send m K c ⟨9, by decide⟩ ⟨k0_dev25 c, k0_dev25_lt c⟩ (sdev c ⟨9, by decide⟩ _ _ (k0_dev25_eq c)) W) $$ [HD]
  · isplitr [HD]
    · iexact HR
    · iexact HD
  iintro HD
  iapply (step_send m K c ⟨10, by decide⟩ ⟨k0_dev26 c, k0_dev26_lt c⟩ (sdev c ⟨10, by decide⟩ _ _ (k0_dev26_eq c)) W) $$ [HD]
  · isplitr [HD]
    · iexact HR
    · iexact HD
  iintro HD
  rw [wp_ret]
  imodintro
  iapply HK $$ HD

/-- Part 8: transfers 11–13. -/
theorem part8_run (W : Waits sig Unit) (v2 vx : BitVec 32) (Q : (Σ' (va : BitVec 32) (vb : BitVec 32) (vc : BitVec 32), BitVec 32) → sProp 𝕄) :
    iprop(records m K ∗ SD m c 11 W ∗ (SD m c 14 W -∗ ∀ r, Q r))
      ⊢ wp frame (wpE (defs₀ (F := F)) 𝒱₀ (c : Thread nD τ) none) Set.univ (k0_part8 (F := F) xM (Memref.isWhole_whole _) oM (Memref.isWhole_whole _) xvM (Memref.isWhole_whole _) stM (Memref.isWhole_whole _) cmM (Memref.isWhole_whole _) cc0_scratch3 cc0_scratch4 cc0_scratch5 c v2 vx) Q := by
  rw [k0_part8_eq_skeleton]
  unfold k0_part8_skel
  simp only [Prog.lift, Prog.bind_op, Prog.bind_ret, Prog.pure_eq_ret]
  iintro ⟨#HR, HD, HK⟩
  iapply (step_send m K c ⟨11, by decide⟩ ⟨k0_dev27 c, k0_dev27_lt c⟩ (sdev c ⟨11, by decide⟩ _ _ (k0_dev27_eq c)) W) $$ [HD]
  · isplitr [HD]
    · iexact HR
    · iexact HD
  iintro HD
  iapply (step_send m K c ⟨12, by decide⟩ ⟨k0_dev28 c, k0_dev28_lt c⟩ (sdev c ⟨12, by decide⟩ _ _ (k0_dev28_eq c)) W) $$ [HD]
  · isplitr [HD]
    · iexact HR
    · iexact HD
  iintro HD
  iapply (step_send m K c ⟨13, by decide⟩ ⟨k0_dev29 c, k0_dev29_lt c⟩ (sdev c ⟨13, by decide⟩ _ _ (k0_dev29_eq c)) W) $$ [HD]
  · isplitr [HD]
    · iexact HR
    · iexact HD
  iintro HD
  rw [wp_ret]
  imodintro
  iapply HK $$ HD

/-- Once all fifteen transfers are issued nothing more is owed on the peers' receive cells, no peer's slot and no
    transfer's token is left, and the send credit of every transfer is held. -/
theorem SD_done (W : Waits sig Unit) :
    SD m c 15 W ⊢ iprop(owes (c : Thread nD τ) 0 W ∗ stPts m c (rem 15)
      ∗ bigSep Finset.univ fun k : Fin 15 => cred (tallyAt (sendCell c k) () N)) := by
  unfold SD
  rw [owedRecv_done, ge_fifteen, ge_fifteen, ge_fifteen, lt_fifteen]
  iintro ⟨HO, HS, -, -, -, HC⟩
  isplitl [HO]
  · iexact HO
  isplitl [HS]
  · iexact HS
  iexact HC

/-- Before the first receive wait: nothing owed, the credit and the position of every receive cell paired cell by
    cell, and no slot landed yet. -/
theorem SE_start (W : Waits sig Unit) :
    (iprop(owes (c : Thread nD τ) 0 W
        ∗ (bigSep Finset.univ fun k : Fin 15 => cred (tallyAt (recvCell c k) () N))
        ∗ bigSep Finset.univ fun k : Fin 15 => atPos ER (recvCell c k) 0 ∅ 0) : sProp 𝕄) ⊢ SE m c 0 := by
  unfold SE
  rw [ge_zero, lt_zero, bigSep_sep']
  iintro ⟨HO, HC, HP⟩
  isplitl [HO]
  · iexists W
    iexact HO
  isplitl [HC HP]
  · isplitl [HC]
    · iexact HC
    · iexact HP
  iempintro

/-- Part 9: the last transfer, then the waits on receive cells 0–2; the part returns the exponentials of the block
    against its own row maxima. -/
theorem part9_run (W : Waits sig Unit) (v64 : Vec F S512x256 .f32) (v66 : FVec F S512x1 .f32) (v87 v97 v107 v228 : BitVec 32)
    (Q : (Σ' (v238 : FVec F S512x256 .f32), BitVec 32) → sProp 𝕄) :
    iprop(records m K ∗ SD m c 14 W
        ∗ (bigSep Finset.univ fun k : Fin 15 => cred (tallyAt (recvCell c k) () N))
        ∗ (bigSep Finset.univ fun k : Fin 15 => atPos ER (recvCell c k) 0 ∅ 0)
        ∗ ((iprop(SE m c 3 ∗ stPts m c (rem 15) ∗ bigSep Finset.univ fun k : Fin 15 => cred (tallyAt (sendCell c k) () N)))
            -∗ ∀ w, Q ⟨k0_pay11 v64 v66, w⟩))
      ⊢ wp frame (wpE (defs₀ (F := F)) 𝒱₀ (c : Thread nD τ) none) Set.univ (k0_part9 (F := F) xM (Memref.isWhole_whole _) oM (Memref.isWhole_whole _) xvM (Memref.isWhole_whole _) stM (Memref.isWhole_whole _) cmM (Memref.isWhole_whole _) cc0_scratch3 cc0_scratch4 cc0_scratch5 c v64 v66 v87 v97 v107 v228) Q := by
  rw [k0_part9_eq_skeleton]
  unfold k0_part9_skel
  simp only [Prog.lift, Prog.bind_op, Prog.bind_ret, Prog.pure_eq_ret]
  iintro ⟨#HR, HD, HC, HP, HK⟩
  iapply (step_send m K c ⟨14, by decide⟩ ⟨k0_dev30 c, k0_dev30_lt c⟩ (sdev c ⟨14, by decide⟩ _ _ (k0_dev30_eq c)) W) $$ [HD]
  · isplitr [HD]
    · iexact HR
    · iexact HD
  iintro HD
  icases (SD_done m c W) $$ HD with ⟨HO, HS, HSC⟩
  ihave HE := (SE_start m c W) $$ [HO HC HP]
  · isplitl [HO]
    · iexact HO
    isplitl [HC]
    · iexact HC
    · iexact HP
  iapply (step_recvw m K c ⟨0, by decide⟩) $$ [HE]
  · isplitr [HE]
    · iexact HR
    · iexact HE
  iintro HE
  iapply (step_recvw m K c ⟨1, by decide⟩) $$ [HE]
  · isplitr [HE]
    · iexact HR
    · iexact HE
  iintro HE
  iapply (step_recvw m K c ⟨2, by decide⟩) $$ [HE]
  · isplitr [HE]
    · iexact HR
    · iexact HE
  iintro HE
  rw [wp_ret]
  imodintro
  iapply HK $$ [HE HS HSC]
  isplitl [HE]
  · iexact HE
  isplitl [HS]
  · iexact HS
  iexact HSC

end Parts

end Cert.Kernel.Proto

end
-- ==== Proof.Bits.PartsD.lean ====
/-
  Parts 10–12 of the body: the waits on receive cells 3–14, then the receive buffer and the device's own maxima loaded.
-/
import proofs.«901065_g7700000000001066_dist_softmax_colshard_i_m512_n256_v7x_i16_f32_1_alg».proof.Proof.Bits.PartsDefs

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-- Once the fifteenth receive wait is past, no wait is left to come, every slot holds what the filled buffer holds
    there, and the fifteen slots are the receive buffer whole. -/
theorem recv_done : SE m c 15
    ⊢ iprop((∃ W, owes (c : Thread nD τ) 0 W) ∗ cmFull m c
        ∗ bigSep Finset.univ fun k : Fin 15 => atPos ER (recvCell c k) 1 ∅ 0) := by
  unfold SE
  rw [ge_fifteen, lt_fifteen, bigSep_sep']
  iintro ⟨HW, -, HL, HP⟩
  isplitl [HW]
  · iexact HW
  isplitl [HL]
  · iapply (cm_join m c) $$ HL
  · iexact HP

/-- Part 10: the waits on receive cells 3–6. -/
theorem part10_run (v117 v127 v137 v147 v157 w : BitVec 32) (Q : PUnit → sProp 𝕄) :
    iprop(records m K ∗ SE m c 3 ∗ (SE m c 7 -∗ Q ⟨⟩))
      ⊢ wp frame (wpE (defs₀ (F := F)) 𝒱₀ (c : Thread nD τ) none) Set.univ (k0_part10 (F := F) xM (Memref.isWhole_whole _) oM (Memref.isWhole_whole _) xvM (Memref.isWhole_whole _) stM (Memref.isWhole_whole _) cmM (Memref.isWhole_whole _) cc0_scratch3 cc0_scratch4 cc0_scratch5 v117 v127 v137 v147 v157 w) Q := by
  rw [k0_part10_eq_skeleton]; unfold k0_part10_skel
  simp only [Prog.lift, Prog.bind_op, Prog.bind_ret, Prog.pure_eq_ret]
  iintro ⟨#HR, HE, HK⟩
  -- the wait on receive cell 3, then 4, 5, 6: each hands over its slot
  iapply (step_recvw m K c ⟨3, by decide⟩) $$ [HE]
  · isplitr [HE]
    · iexact HR
    · iexact HE
  iintro HE
  iapply (step_recvw m K c ⟨4, by decide⟩) $$ [HE]
  · isplitr [HE]
    · iexact HR
    · iexact HE
  iintro HE
  iapply (step_recvw m K c ⟨5, by decide⟩) $$ [HE]
  · isplitr [HE]
    · iexact HR
    · iexact HE
  iintro HE
  iapply (step_recvw m K c ⟨6, by decide⟩) $$ [HE]
  · isplitr [HE]
    · iexact HR
    · iexact HE
  iintro HE
  rw [wp_ret]
  imodintro
  iapply HK $$ HE

/-- Part 11: the waits on receive cells 7–10. -/
theorem part11_run (v167 v177 v187 v197 : BitVec 32) (Q : PUnit → sProp 𝕄) :
    iprop(records m K ∗ SE m c 7 ∗ (SE m c 11 -∗ Q ⟨⟩))
      ⊢ wp frame (wpE (defs₀ (F := F)) 𝒱₀ (c : Thread nD τ) none) Set.univ (k0_part11 (F := F) xM (Memref.isWhole_whole _) oM (Memref.isWhole_whole _) xvM (Memref.isWhole_whole _) stM (Memref.isWhole_whole _) cmM (Memref.isWhole_whole _) cc0_scratch3 cc0_scratch4 cc0_scratch5 v167 v177 v187 v197) Q := by
  rw [k0_part11_eq_skeleton]; unfold k0_part11_skel
  simp only [Prog.lift, Prog.bind_op, Prog.bind_ret, Prog.pure_eq_ret]
  iintro ⟨#HR, HE, HK⟩
  -- the waits on receive cells 7, 8, 9, 10
  iapply (step_recvw m K c ⟨7, by decide⟩) $$ [HE]
  · isplitr [HE]
    · iexact HR
    · iexact HE
  iintro HE
  iapply (step_recvw m K c ⟨8, by decide⟩) $$ [HE]
  · isplitr [HE]
    · iexact HR
    · iexact HE
  iintro HE
  iapply (step_recvw m K c ⟨9, by decide⟩) $$ [HE]
  · isplitr [HE]
    · iexact HR
    · iexact HE
  iintro HE
  iapply (step_recvw m K c ⟨10, by decide⟩) $$ [HE]
  · isplitr [HE]
    · iexact HR
    · iexact HE
  iintro HE
  rw [wp_ret]
  imodintro
  iapply HK $$ HE

/-- Part 12: the waits on receive cells 11–14; every slot has landed, the receive buffer is whole again; its rows 0–3 and
    4–7 and the device's own maxima are loaded (the tile read at what is left of its share). -/
theorem part12_run (v207 v217 v227 : BitVec 32)
    (Q : (Σ' (v329 : Vec F S15x4x128 .f32) (v330 : Vec F S15x4x128 .f32), FVec F S4x128 .f32) → sProp 𝕄) :
    iprop(records m K ∗ SE m c 11 ∗ stPts m c (rem 15)
        ∗ ((iprop((∃ W, owes (c : Thread nD τ) 0 W) ∗ cmFull m c ∗ stPts m c (rem 15)
              ∗ bigSep Finset.univ fun k : Fin 15 => atPos ER (recvCell c k) 1 ∅ 0))
            -∗ Q ⟨Spec.peerMax (commV m c), Spec.peerSum (commV m c), k0_pay12 (Spec.peerMax (commV m c)) (Spec.ownMax (statsV m c))⟩))
      ⊢ wp frame (wpE (defs₀ (F := F)) 𝒱₀ (c : Thread nD τ) none) Set.univ (k0_part12 (F := F) xM (Memref.isWhole_whole _) oM (Memref.isWhole_whole _) xvM (Memref.isWhole_whole _) stM (Memref.isWhole_whole _) cmM (Memref.isWhole_whole _) cc0_scratch3 cc0_scratch4 cc0_scratch5 v207 v217 v227) Q := by
  rw [k0_part12_eq_skeleton]; unfold k0_part12_skel
  simp only [Prog.lift, Prog.bind_op, Prog.bind_ret, Prog.pure_eq_ret]
  iintro ⟨#HR, HE, HS, HK⟩
  -- the waits on receive cells 11, 12, 13, 14
  iapply (step_recvw m K c ⟨11, by decide⟩) $$ [HE]
  · isplitr [HE]
    · iexact HR
    · iexact HE
  iintro HE
  iapply (step_recvw m K c ⟨12, by decide⟩) $$ [HE]
  · isplitr [HE]
    · iexact HR
    · iexact HE
  iintro HE
  iapply (step_recvw m K c ⟨13, by decide⟩) $$ [HE]
  · isplitr [HE]
    · iexact HR
    · iexact HE
  iintro HE
  iapply (step_recvw m K c ⟨14, by decide⟩) $$ [HE]
  · isplitr [HE]
    · iexact HR
    · iexact HE
  iintro HE
  -- all fifteen slots have landed: the receive buffer is whole
  ihave ⟨HW, HC, HP⟩ := (recv_done m c) $$ HE
  unfold cmFull stPts
  -- rows 0–3 of every slot, then rows 4–7: two reads of the whole buffer
  iapply (wp_load 𝒱₀ (c : Thread nD τ) none Set.univ (m := cmM) (Finset.subset_univ _)) $$ HC
  iintro HC
  iapply (wp_load 𝒱₀ (c : Thread nD τ) none Set.univ (m := cmM) (Finset.subset_univ _)) $$ HC
  iintro HC
  -- rows 0–3 of the statistics tile, read at the share that is left of it: a read needs no more than some share
  iapply (wp_load 𝒱₀ (c : Thread nD τ) none Set.univ (m := stM) (View.setOn_subset_set _ _)) $$ HS
  iintro HS
  rw [read_peerMax, read_peerSum, read_ownMax, wp_ret]
  imodintro
  iapply HK
  isplitl [HW]
  · iexact HW
  isplitl [HC]
  · iexact HC
  isplitl [HS]
  · iexact HS
  · iexact HP

end Parts

end Cert.Kernel.Proto

end
-- ==== Proof.Bits.PartsE.lean ====
/-
  Parts 13–15 of the body and its tail: the device's sums and maxima loaded, its block of the result stored, the fifteen send waits.
-/
import proofs.«901065_g7700000000001066_dist_softmax_colshard_i_m512_n256_v7x_i16_f32_1_alg».proof.Proof.Bits.PartsDefs

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)

/-! ## The result's staging buffer read and written whole -/

/-- The rectangle of the store: the whole 512 × 256 block at offsets zero. -/
abbrev rOut : Rect S512x256 := Rect.unit (s := S512x256) ![0, 0] S512x256.size inb_S512x256_S512x256_0_0

omit [FloatOps F] in
theorem zero_offs : (![0, 0] : Fin 2 → Nat) = fun _ => 0 := funext fun a => by fin_cases a <;> rfl

omit [FloatOps F] in
/-- A block stored whole over any contents is the buffer's contents. -/
theorem out_write (f w : (cc0_stg0_0 : Ref sig .tc).ty.Contents (Elt F)) :
    ((oM : Memref sig .tc .vmem S512x256 .f32).access rOut : View sig .tc _ _ _).write (Elt F) f w Finset.univ = w :=
  Memref.write_access_unit_zero_univ (Elt F) cc0_stg0_0 zero_offs _ f w

/-- What the body stores, formed from the block's row maxima and exponentials, the peers' maxima and sums and the
    device's own sums and maxima, is the device's block of the result. -/
theorem out_eq :
    k0_pay13 (k0_pay1 (xin m c)) (k0_pay11 (xin m c) (k0_pay1 (xin m c))) (Spec.peerMax (commV m c)) (Spec.peerSum (commV m c))
        (k0_pay12 (Spec.peerMax (commV m c)) (Spec.ownMax (statsV m c))) (Spec.ownSum (statsV m c)) (Spec.ownMax (statsV m c))
      = outV m c := by
  unfold outV Spec.out statsV commV; rfl

/-! ## The parts -/

/-- Part 13: the device's own sums and maxima loaded, a dead load of the result's staging buffer, the block of the result
    stored, the waits on send cells 0 and 1. -/
theorem part13_run (Q : PUnit → sProp 𝕄) :
    iprop(records m K ∗ stPts m c (rem 15) ∗ outAny c ∗ SG m c 0
        ∗ ((iprop(stPts m c (rem 15) ∗ outFull m c ∗ SG m c 2)) -∗ Q ⟨⟩))
      ⊢ wp frame (wpE (defs₀ (F := F)) 𝒱₀ (c : Thread nD τ) none) Set.univ (k0_part13 (F := F) xM (Memref.isWhole_whole _) oM (Memref.isWhole_whole _) xvM (Memref.isWhole_whole _) stM (Memref.isWhole_whole _) cmM (Memref.isWhole_whole _) cc0_scratch3 cc0_scratch4 cc0_scratch5 (k0_pay1 (xin m c)) (k0_pay11 (xin m c) (k0_pay1 (xin m c))) (Spec.peerMax (commV m c)) (Spec.peerSum (commV m c)) (k0_pay12 (Spec.peerMax (commV m c)) (Spec.ownMax (statsV m c)))) Q := by
  rw [k0_part13_eq_skeleton]; unfold k0_part13_skel
  simp only [semSignalWord, semWaitWord, Prog.lift, Prog.bind_op, Prog.bind_ret, Prog.pure_eq_ret, wp_deviceId]
  unfold stPts outAny outFull
  iintro ⟨#HR, Hst, ⟨%g, Hout⟩, HSG, Hk⟩
  -- rows 4–7 and rows 0–3 of the statistics tile, read at what is left of its share
  iapply (wp_load 𝒱₀ (c : Thread nD τ) none Set.univ (m := stM) (View.setOn_subset_set _ _)) $$ Hst; iintro Hst
  rw [read_ownSum]
  iapply (wp_load 𝒱₀ (c : Thread nD τ) none Set.univ (m := stM) (View.setOn_subset_set _ _)) $$ Hst; iintro Hst
  rw [read_ownMax]
  -- the staging buffer read at whatever it holds, then written whole
  iapply (wp_load 𝒱₀ (c : Thread nD τ) none Set.univ (m := oM) (Finset.subset_univ _)) $$ Hout; iintro Hout
  iapply (wp_store 𝒱₀ (c : Thread nD τ) none Set.univ (m := oM) (r := rOut) (Mk := Finset.univ) (Finset.subset_univ _)) $$ Hout; iintro Hout
  rw [out_write, out_eq]
  -- the waits on send cells 0 and 1
  iapply (step_sendw m K c ⟨0, by decide⟩) $$ [HSG]
  · isplitr; · iexact HR
    iexact HSG
  iintro HSG
  iapply (step_sendw m K c ⟨1, by decide⟩) $$ [HSG]
  · isplitr; · iexact HR
    iexact HSG
  iintro HSG
  rw [wp_ret]; imodintro
  iapply Hk
  isplitl [Hst]; · iexact Hst
  isplitl [Hout]; · iexact Hout
  iexact HSG

/-- Part 14: the waits on send cells 2–6. -/
theorem part14_run (Q : PUnit → sProp 𝕄) :
    iprop(records m K ∗ SG m c 2 ∗ (SG m c 7 -∗ Q ⟨⟩)) ⊢ wp frame (wpE (defs₀ (F := F)) 𝒱₀ (c : Thread nD τ) none) Set.univ (k0_part14 (F := F) xM (Memref.isWhole_whole _) oM (Memref.isWhole_whole _) xvM (Memref.isWhole_whole _) stM (Memref.isWhole_whole _) cmM (Memref.isWhole_whole _) cc0_scratch3 cc0_scratch4 cc0_scratch5) Q := by
  rw [k0_part14_eq_skeleton]; unfold k0_part14_skel
  simp only [semSignalWord, semWaitWord, Prog.lift, Prog.bind_op, Prog.bind_ret, Prog.pure_eq_ret, wp_deviceId]
  iintro ⟨#HR, HSG, Hk⟩
  iapply (step_sendw m K c ⟨2, by decide⟩) $$ [HSG]
  · isplitr; · iexact HR
    iexact HSG
  iintro HSG
  iapply (step_sendw m K c ⟨3, by decide⟩) $$ [HSG]
  · isplitr; · iexact HR
    iexact HSG
  iintro HSG
  iapply (step_sendw m K c ⟨4, by decide⟩) $$ [HSG]
  · isplitr; · iexact HR
    iexact HSG
  iintro HSG
  iapply (step_sendw m K c ⟨5, by decide⟩) $$ [HSG]
  · isplitr; · iexact HR
    iexact HSG
  iintro HSG
  iapply (step_sendw m K c ⟨6, by decide⟩) $$ [HSG]
  · isplitr; · iexact HR
    iexact HSG
  iintro HSG
  rw [wp_ret]; imodintro
  iapply Hk; iexact HSG

/-- Part 15: the waits on send cells 7–11. -/
theorem part15_run (Q : PUnit → sProp 𝕄) :
    iprop(records m K ∗ SG m c 7 ∗ (SG m c 12 -∗ Q ⟨⟩)) ⊢ wp frame (wpE (defs₀ (F := F)) 𝒱₀ (c : Thread nD τ) none) Set.univ (k0_part15 (F := F) xM (Memref.isWhole_whole _) oM (Memref.isWhole_whole _) xvM (Memref.isWhole_whole _) stM (Memref.isWhole_whole _) cmM (Memref.isWhole_whole _) cc0_scratch3 cc0_scratch4 cc0_scratch5) Q := by
  rw [k0_part15_eq_skeleton]; unfold k0_part15_skel
  simp only [semSignalWord, semWaitWord, Prog.lift, Prog.bind_op, Prog.bind_ret, Prog.pure_eq_ret, wp_deviceId]
  iintro ⟨#HR, HSG, Hk⟩
  iapply (step_sendw m K c ⟨7, by decide⟩) $$ [HSG]
  · isplitr; · iexact HR
    iexact HSG
  iintro HSG
  iapply (step_sendw m K c ⟨8, by decide⟩) $$ [HSG]
  · isplitr; · iexact HR
    iexact HSG
  iintro HSG
  iapply (step_sendw m K c ⟨9, by decide⟩) $$ [HSG]
  · isplitr; · iexact HR
    iexact HSG
  iintro HSG
  iapply (step_sendw m K c ⟨10, by decide⟩) $$ [HSG]
  · isplitr; · iexact HR
    iexact HSG
  iintro HSG
  iapply (step_sendw m K c ⟨11, by decide⟩) $$ [HSG]
  · isplitr; · iexact HR
    iexact HSG
  iintro HSG
  rw [wp_ret]; imodintro
  iapply Hk; iexact HSG

/-- The body's tail: the waits on send cells 12–14; what follows them still runs under the program's last step. -/
theorem part16_run (Q : PUnit → sProp 𝕄) :
    iprop(records m K ∗ SG m c 12 ∗ (SG m c 15 -∗ wp frame (wpE (defs₀ (F := F)) 𝒱₀ (c : Thread nD τ) none) Set.univ (.ret ⟨⟩) Q))
      ⊢ wp frame (wpE (defs₀ (F := F)) 𝒱₀ (c : Thread nD τ) none) Set.univ
          (do
            let v414 : DmaSems sig S1 := cc0_scratch3.slice (Rect.unit (s := S15) ![12] S1.size inb_S15_S1_12)
            let v415 : DmaSems sig S_ := v414.squeeze S_ squeezes_S1_S_
            let v416 : Memref sig .tc .vmem S1x8x128 .f32 := cmM.slice (Rect.unit (s := S15x8x128) ![12, 0, 0] S1x8x128.size inb_S15x8x128_S1x8x128_12_0_0) (fun _ => rfl)
            let v417 : Memref sig .tc .vmem S8x128 .f32 := v416.squeeze S8x128 squeezes_S1x8x128_S8x128
            Prog.lift (.waitDma2 v415.sem v417 stM ((View.wordExact_bits rfl).reshape _ _) (Memref.IsWhole.wordExact (Memref.isWhole_whole _)))
            let v418 : DmaSems sig S1 := cc0_scratch3.slice (Rect.unit (s := S15) ![13] S1.size inb_S15_S1_13)
            let v419 : DmaSems sig S_ := v418.squeeze S_ squeezes_S1_S_
            let v420 : Memref sig .tc .vmem S1x8x128 .f32 := cmM.slice (Rect.unit (s := S15x8x128) ![13, 0, 0] S1x8x128.size inb_S15x8x128_S1x8x128_13_0_0) (fun _ => rfl)
            let v421 : Memref sig .tc .vmem S8x128 .f32 := v420.squeeze S8x128 squeezes_S1x8x128_S8x128
            Prog.lift (.waitDma2 v419.sem v421 stM ((View.wordExact_bits rfl).reshape _ _) (Memref.IsWhole.wordExact (Memref.isWhole_whole _)))
            let v422 : DmaSems sig S1 := cc0_scratch3.slice (Rect.unit (s := S15) ![14] S1.size inb_S15_S1_14)
            let v423 : DmaSems sig S_ := v422.squeeze S_ squeezes_S1_S_
            let v424 : Memref sig .tc .vmem S1x8x128 .f32 := cmM.slice (Rect.unit (s := S15x8x128) ![14, 0, 0] S1x8x128.size inb_S15x8x128_S1x8x128_14_0_0) (fun _ => rfl)
            let v425 : Memref sig .tc .vmem S8x128 .f32 := v424.squeeze S8x128 squeezes_S1x8x128_S8x128
            Prog.lift (.waitDma2 v423.sem v425 stM ((View.wordExact_bits rfl).reshape _ _) (Memref.IsWhole.wordExact (Memref.isWhole_whole _)))
            pure ⟨⟩ : Prog (TpuEff nD τ sig (Elt F) Λ₀ .tc) PUnit) Q := by
  simp only [semSignalWord, semWaitWord, Prog.lift, Prog.bind_op, Prog.bind_ret, Prog.pure_eq_ret, wp_deviceId]
  iintro ⟨#HR, HSG, Hk⟩
  iapply (step_sendw m K c ⟨12, by decide⟩) $$ [HSG]
  · isplitr; · iexact HR
    iexact HSG
  iintro HSG
  iapply (step_sendw m K c ⟨13, by decide⟩) $$ [HSG]
  · isplitr; · iexact HR
    iexact HSG
  iintro HSG
  iapply (step_sendw m K c ⟨14, by decide⟩) $$ [HSG]
  · isplitr; · iexact HR
    iexact HSG
  iintro HSG
  iapply Hk; iexact HSG

/-- The tail with nothing left to do after its waits. -/
theorem part16_run' (Q : PUnit → sProp 𝕄) :
    iprop(records m K ∗ SG m c 12 ∗ (SG m c 15 -∗ Q ⟨⟩))
      ⊢ wp frame (wpE (defs₀ (F := F)) 𝒱₀ (c : Thread nD τ) none) Set.univ
          (do
            let v414 : DmaSems sig S1 := cc0_scratch3.slice (Rect.unit (s := S15) ![12] S1.size inb_S15_S1_12)
            let v415 : DmaSems sig S_ := v414.squeeze S_ squeezes_S1_S_
            let v416 : Memref sig .tc .vmem S1x8x128 .f32 := cmM.slice (Rect.unit (s := S15x8x128) ![12, 0, 0] S1x8x128.size inb_S15x8x128_S1x8x128_12_0_0) (fun _ => rfl)
            let v417 : Memref sig .tc .vmem S8x128 .f32 := v416.squeeze S8x128 squeezes_S1x8x128_S8x128
            Prog.lift (.waitDma2 v415.sem v417 stM ((View.wordExact_bits rfl).reshape _ _) (Memref.IsWhole.wordExact (Memref.isWhole_whole _)))
            let v418 : DmaSems sig S1 := cc0_scratch3.slice (Rect.unit (s := S15) ![13] S1.size inb_S15_S1_13)
            let v419 : DmaSems sig S_ := v418.squeeze S_ squeezes_S1_S_
            let v420 : Memref sig .tc .vmem S1x8x128 .f32 := cmM.slice (Rect.unit (s := S15x8x128) ![13, 0, 0] S1x8x128.size inb_S15x8x128_S1x8x128_13_0_0) (fun _ => rfl)
            let v421 : Memref sig .tc .vmem S8x128 .f32 := v420.squeeze S8x128 squeezes_S1x8x128_S8x128
            Prog.lift (.waitDma2 v419.sem v421 stM ((View.wordExact_bits rfl).reshape _ _) (Memref.IsWhole.wordExact (Memref.isWhole_whole _)))
            let v422 : DmaSems sig S1 := cc0_scratch3.slice (Rect.unit (s := S15) ![14] S1.size inb_S15_S1_14)
            let v423 : DmaSems sig S_ := v422.squeeze S_ squeezes_S1_S_
            let v424 : Memref sig .tc .vmem S1x8x128 .f32 := cmM.slice (Rect.unit (s := S15x8x128) ![14, 0, 0] S1x8x128.size inb_S15x8x128_S1x8x128_14_0_0) (fun _ => rfl)
            let v425 : Memref sig .tc .vmem S8x128 .f32 := v424.squeeze S8x128 squeezes_S1x8x128_S8x128
            Prog.lift (.waitDma2 v423.sem v425 stM ((View.wordExact_bits rfl).reshape _ _) (Memref.IsWhole.wordExact (Memref.isWhole_whole _)))
            pure ⟨⟩ : Prog (TpuEff nD τ sig (Elt F) Λ₀ .tc) PUnit) Q := by
  iintro ⟨#HR, HSG, Hk⟩
  iapply (part16_run m K c Q)
  isplitr; · iexact HR
  isplitl [HSG]; · iexact HSG
  iintro HSG
  rw [wp_ret]; imodintro
  iapply Hk; iexact HSG

end Parts

end Cert.Kernel.Proto

end
-- ==== Proof.Bits.Body.lean ====
/-
  One device's body from start to end: the parts in sequence, then the statistics tile put back together and the
  device's own thirty-one cells closed.
-/
import proofs.«901065_g7700000000001066_dist_softmax_colshard_i_m512_n256_v7x_i16_f32_1_alg».proof.Proof.Bits.PartsA
import proofs.«901065_g7700000000001066_dist_softmax_colshard_i_m512_n256_v7x_i16_f32_1_alg».proof.Proof.Bits.PartsB
import proofs.«901065_g7700000000001066_dist_softmax_colshard_i_m512_n256_v7x_i16_f32_1_alg».proof.Proof.Bits.PartsC
import proofs.«901065_g7700000000001066_dist_softmax_colshard_i_m512_n256_v7x_i16_f32_1_alg».proof.Proof.Bits.PartsD
import proofs.«901065_g7700000000001066_dist_softmax_colshard_i_m512_n256_v7x_i16_f32_1_alg».proof.Proof.Bits.PartsE

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A persistent assertion serves every factor of a product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section Body

variable (K : Dev nD × CK → ℕ) (c : Dev nD)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop((ghost m K c ∗ creds c ∗ levAts L lv ∗ xPts m c ∗ scratch c)
    ∗ (dats m ρ 0 c).owesAt () t₀.castSucc
    ∗ (∃ d, stg c cc0_stg0_0 ((dats m ρ 0 c).before (0 : Fin 1) t₀ d)))

def bodyPost : sProp 𝕄 :=
  iprop(Φ₁ m c ∗ (dats m ρ 0 c).owesAt () t₀.succ ∗ stg c cc0_stg0_0 (outV m c))

/-- The own cells closed: a cell at round 1 with nothing taken has its counter at zero, which is the device's again. -/
theorem close_cell (x : CK) (hx : x ≠ .bar) :
    iprop(records m K ∗ atPos ER (kcell (c, x)) 1 ∅ 0) ⊢ (|={Set.univ}=> semVal (kcell (c, x)) 0 : sProp 𝕄) := by
  iintro ⟨#HR, Hat⟩
  iapply (Rounds.cell_close ER (Rd m) (Set.mem_univ (K (c, x))) (fun h => h) (R := 1) (duties_later m (kcell (c, x))))
  isplitr
  · iapply (inv_at m K (c, x)); iexact HR
  · iexact Hat

set_option maxHeartbeats 1600000 in
/-- The body, part by part, from `bodyPre` to `bodyPost`. -/
theorem sound_body (Kt : PUnit → sProp 𝕄) :
    iprop(bodyPre m ρ K c ∗ (bodyPost m ρ c -∗ Kt ⟨⟩))
      ⊢ wp frame (wpE (defs₀ (F := F)) 𝒱₀ (c : Thread nD τ) none) Set.univ (cc0_body (F := F) xM (Memref.isWhole_whole _) oM (Memref.isWhole_whole _) xvM (Memref.isWhole_whole _) stM (Memref.isWhole_whole _) cmM (Memref.isWhole_whole _) cc0_scratch3 cc0_scratch4 cc0_scratch5) Kt := by
  rw [cc0_body_eq_skeleton]; unfold cc0_body_skel
  unfold bodyPre ghost positions payToks creds scratch
  iintro ⟨⟨⟨⟨#HR, ⟨HatB, HatS, HatV, HatL⟩, ⟨HtB, HtV, HtS, HtL⟩⟩, ⟨HcB, HcV⟩, #Hlev, Hx, ⟨Hxv, Hst, Hcm⟩⟩, Ho, ⟨%d0, %g0, %hg0, Hout⟩⟩, Hk⟩
  unfold Dat.owesAt Pipeline.owesWithin
  icases Ho with ⟨%W, %hW, HO⟩
  rw [show (dats m ρ 0 c).owed t₀.castSucc = O₀ c from rfl]
  ihave Hsl := (cm_split (F := F) c) $$ [Hcm]
  · unfold cmAny; iexact Hcm
  -- parts 1–3: the signals, the copy, the block loaded
  rw [wp_bind]
  iapply (part1_run m K c W _)
  isplitr; · iexact HR
  isplitl [HO HtB Hsl]
  · unfold SA O₀; rw [ge_zero, ge_zero]
    isplitl [HO]; · iexact HO
    isplitl [HtB] <;> iassumption
  iintro HSA %v2 %v24 %c16
  dsimp only
  rw [wp_bind]
  iapply (part2_run m K c W v2 v24 c16 _)
  isplitr; · iexact HR
  isplitl [HSA]; · iexact HSA
  iintro HSA %r2
  obtain ⟨v48, c16'⟩ := r2
  dsimp only
  rw [wp_bind]
  iapply (part3_run m K c W v2 v48 c16' _)
  isplitr; · iexact HR
  isplitr; · iexact Hlev
  isplitl [HSA]; · iexact HSA
  isplitl [Hx]; · iexact Hx
  isplitl [Hxv]; · unfold xvAny; iexact Hxv
  isplitl [HtL]; · iexact HtL
  isplitl [HatL]; · iexact HatL
  iintro ⟨⟨%W3, HO⟩, Hxv, Hx, HatL⟩
  dsimp only
  -- part 4: the tile stored, the barrier wait, transfers 0 and 1
  rw [wp_bind]
  iapply (part4_run m K c W3 v2 _)
  isplitr; · iexact HR
  isplitr; · iexact Hlev
  isplitl [HO]; · iexact HO
  isplitl [Hst]; · unfold stAny; iexact Hst
  isplitl [HcB]; · iexact HcB
  isplitl [HatB]; · iexact HatB
  isplitl [HtV]; · iexact HtV
  isplitl [HtS]; · iexact HtS
  iintro ⟨⟨%W4, HSD⟩, HatB⟩ %r4
  obtain ⟨v87, v97, v107, v108⟩ := r4
  dsimp only
  -- parts 5–9: the other transfers, the first receive waits
  rw [wp_bind]
  iapply (part5_run m K c W4 v2 v108 _)
  isplitr; · iexact HR
  isplitl [HSD]; · iexact HSD
  iintro HSD %r5
  obtain ⟨v117, v127, v137, v138⟩ := r5
  dsimp only
  rw [wp_bind]
  iapply (part6_run m K c W4 v2 v138 _)
  isplitr; · iexact HR
  isplitl [HSD]; · iexact HSD
  iintro HSD %r6
  obtain ⟨v147, v157, v167, v168⟩ := r6
  dsimp only
  rw [wp_bind]
  iapply (part7_run m K c W4 v2 v168 _)
  isplitr; · iexact HR
  isplitl [HSD]; · iexact HSD
  iintro HSD %r7
  obtain ⟨v177, v187, v197, v198⟩ := r7
  dsimp only
  rw [wp_bind]
  iapply (part8_run m K c W4 v2 v198 _)
  isplitr; · iexact HR
  isplitl [HSD]; · iexact HSD
  iintro HSD %r8
  obtain ⟨v207, v217, v227, v228⟩ := r8
  dsimp only
  rw [wp_bind]
  iapply (part9_run m K c W4 (xin m c) (k0_pay1 (xin m c)) v87 v97 v107 v228 _)
  isplitr; · iexact HR
  isplitl [HSD]; · iexact HSD
  isplitl [HcV]; · iexact HcV
  isplitl [HatV]; · iexact HatV
  iintro ⟨HSE, Hst, HcS⟩ %w9
  dsimp only
  -- parts 10–12: the other receive waits, the loads
  rw [wp_bind]
  iapply (part10_run m K c v117 v127 v137 v147 v157 w9 _)
  isplitr; · iexact HR
  isplitl [HSE]; · iexact HSE
  iintro HSE
  rw [wp_bind]
  iapply (part11_run m K c v167 v177 v187 v197 _)
  isplitr; · iexact HR
  isplitl [HSE]; · iexact HSE
  iintro HSE
  rw [wp_bind]
  iapply (part12_run m K c v207 v217 v227 _)
  isplitr; · iexact HR
  isplitl [HSE]; · iexact HSE
  isplitl [Hst]; · iexact Hst
  iintro ⟨⟨%W12, HO⟩, Hcm, Hst, HatV⟩
  dsimp only
  -- parts 13–15 and the tail: the result stored, the send waits
  have hg : g0 = (dats m ρ 0 c).before (0 : Fin 1) t₀ d0 := hg0
  rw [wp_bind]
  iapply (part13_run m K c _)
  isplitr; · iexact HR
  isplitl [Hst]; · iexact Hst
  isplitl [Hout]; · unfold outAny; iexists g0; iexact Hout
  isplitl [HO HcS HatS]
  · unfold SG; rw [ge_zero, lt_zero]
    isplitl [HO]; · iexists W12; iexact HO
    isplitl [HcS HatS]
    · rw [bigSep_sep']; isplitl [HcS] <;> iassumption
    · iempintro
  iintro ⟨Hst, Hout, HSG⟩
  rw [wp_bind]
  iapply (part14_run m K c _)
  isplitr; · iexact HR
  isplitl [HSG]; · iexact HSG
  iintro HSG
  rw [wp_bind]
  iapply (part15_run m K c _)
  isplitr; · iexact HR
  isplitl [HSG]; · iexact HSG
  iintro HSG
  iapply (part16_run m K c _)
  isplitr; · iexact HR
  isplitl [HSG]; · iexact HSG
  iintro HSG
  -- the tile whole again, the cells closed
  unfold SG
  rw [ge_fifteen, lt_fifteen, bigSep_sep']
  icases HSG with ⟨⟨%Wf, HO⟩, -, Hpc, HatS⟩
  ihave Hst := (st_join m c) $$ [Hst Hpc]
  · isplitl [Hst] <;> iassumption
  imod (show iprop(records m K ∗ bigSep Finset.univ fun k : Fin 15 => atPos ER (sendCell c k) 1 ∅ 0)
      ⊢ (|={Set.univ}=> bigSep Finset.univ fun k : Fin 15 => semVal (sendCell c k) 0 : sProp 𝕄) from
        (bigSep_with_persistent (R := records m K) fun k _ => close_cell m K c (.send k) (fun h => by cases h)).trans (bigSep_fupd _ _)) $$ [HatS] with HzS
  · isplitr; · iexact HR
    iexact HatS
  imod (show iprop(records m K ∗ bigSep Finset.univ fun k : Fin 15 => atPos ER (recvCell c k) 1 ∅ 0)
      ⊢ (|={Set.univ}=> bigSep Finset.univ fun k : Fin 15 => semVal (recvCell c k) 0 : sProp 𝕄) from
        (bigSep_with_persistent (R := records m K) fun k _ => close_cell m K c (.recv k) (fun h => by cases h)).trans (bigSep_fupd _ _)) $$ [HatV] with HzV
  · isplitr; · iexact HR
    iexact HatV
  imod (close_cell m K c .load (fun h => by cases h)) $$ [HatL] with HzL
  · isplitr; · iexact HR
    iexact HatL
  rw [wp_ret]; imodintro
  iapply Hk
  unfold bodyPost Φ₁ ownZero scratch Dat.owesAt Pipeline.owesWithin
  rw [show (dats m ρ 0 c).owed t₀.succ = 0 from rfl]
  isplitl [Hx HzS HzV HzL Hxv Hst Hcm]
  · isplitl [Hx]; · iexact Hx
    isplitl [HzS HzV HzL]
    · isplitl [HzS]; · iexact HzS
      isplitl [HzV] <;> iassumption
    isplitl [Hxv]; · unfold xvPts; rw [View.set_whole]; iexists _; iexact Hxv
    isplitl [Hst]; · unfold stPts; rw [View.set_whole]; iexists _; iexact Hst
    unfold cmFull; iexists _; iexact Hcm
  isplitl [HO]
  · iexists Wf
    isplitr; · ipureintro; exact fun _ _ => Or.inl trivial
    iexact HO
  unfold outFull
  iexists _; isplitr; · (ipureintro; rfl)
  iexact Hout

end Body

end Cert.Kernel.Proto

end
-- ==== Proof.Bits.Deal.lean ====
/-
  How the launch deals the protocol's ghost state to the sixteen devices.

  The launch element of the protocol's algebra is every cell of every device in its launch state (round 0 reached,
  its owner at position 0) and one token per duty of round 0: fifteen for a barrier cell, one for a send cell, a
  receive cell and the copy's cell. Dealt device by device, each device gets the round states and positions of its own
  thirty-two cells and their forty-six tokens. With every device's thirty-two counters at zero the cells' invariants
  are allocated for all devices under one update, and the tokens move to the devices that pay them: token `k` of a
  device's barrier cell and the token of its `k`-th receive cell go to the device `k + 1` places behind it, so device
  `c` gets those of the device `k + 1` places ahead of it, for every `k`. The re-indexing is the ring's rotation by
  `k + 1` places, a bijection of the sixteen devices for each fixed `k`.
-/
import proofs.«901065_g7700000000001066_dist_softmax_colshard_i_m512_n256_v7x_i16_f32_1_alg».proof.Proof.Bits.Ghost
import Mathlib.Logic.Equiv.Prod

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's own scoped DMA semaphores, numbers 1 to 31 (number 0 is the result's staging semaphore). -/
abbrev osem : Fin 31 → SemLoc sig := fun i => .dma ⟨i.val + 1, by have := i.isLt; show i.val + 1 < 32; omega⟩

theorem ownSemFacts : Pipeline.OwnSemFacts cfg0.spec osem := by decide

theorem share_eq (c : Dev nD) (w : Fin cfg0.W) : (dats m ρ 0 c).share w = fullShare := by unfold Dat.share; split <;> rfl

/-! ## Products over the cells of one device, over its tokens, and over devices and offsets -/

/-- A device's cells: the barrier cell, fifteen send cells, fifteen receive cells, the copy's cell. -/
def ckEquiv : Unit ⊕ Fin 15 ⊕ Fin 15 ⊕ Unit ≃ CK where
  toFun
    | .inl _ => .bar
    | .inr (.inl k) => .send k
    | .inr (.inr (.inl k)) => .recv k
    | .inr (.inr (.inr _)) => .load
  invFun
    | .bar => .inl ()
    | .send k => .inr (.inl k)
    | .recv k => .inr (.inr (.inl k))
    | .load => .inr (.inr (.inr ()))
  left_inv x := by rcases x with _ | k | k | _ <;> rfl
  right_inv x := by cases x <;> rfl

/-- A product over a device's cells is the product of its four groups. -/
theorem bigSep_CK {M : Type} [URA M] (Φ : CK → sProp M) :
    bigSep Finset.univ Φ = iprop(Φ .bar ∗ (bigSep Finset.univ fun k => Φ (.send k)) ∗ (bigSep Finset.univ fun k => Φ (.recv k)) ∗ Φ .load) := by
  rw [bigSep_univ_equiv ckEquiv Φ, bigSep_univ_sum, bigSep_univ_sum, bigSep_univ_sum,
    bigSep_univ_of_subsingleton (), bigSep_univ_of_subsingleton ()]
  rfl

/-- The tokens minted for one device, one per duty of round 0 of its own cells. -/
inductive TK where
  | bar (d : Fin 15)
  | send (k : Fin 15)
  | recv (k : Fin 15)
  | load
  deriving DecidableEq, Fintype

def tkEquiv : Fin 15 ⊕ Fin 15 ⊕ Fin 15 ⊕ Unit ≃ TK where
  toFun
    | .inl d => .bar d
    | .inr (.inl k) => .send k
    | .inr (.inr (.inl k)) => .recv k
    | .inr (.inr (.inr _)) => .load
  invFun
    | .bar d => .inl d
    | .send k => .inr (.inl k)
    | .recv k => .inr (.inr (.inl k))
    | .load => .inr (.inr (.inr ()))
  left_inv x := by rcases x with _ | k | k | _ <;> rfl
  right_inv x := by cases x <;> rfl

theorem bigSep_TK {M : Type} [URA M] (Φ : TK → sProp M) :
    bigSep Finset.univ Φ = iprop((bigSep Finset.univ fun d => Φ (.bar d)) ∗ (bigSep Finset.univ fun k => Φ (.send k)) ∗ (bigSep Finset.univ fun k => Φ (.recv k)) ∗ Φ .load) := by
  rw [bigSep_univ_equiv tkEquiv Φ, bigSep_univ_sum, bigSep_univ_sum, bigSep_univ_sum,
    bigSep_univ_of_subsingleton ()]
  rfl

/-- Two nested products over finite types exchange. -/
theorem bigSep_swap {M : Type} [URA M] {α β : Type} [Fintype α] [Fintype β] (Φ : α → β → sProp M) :
    (bigSep Finset.univ fun a => bigSep Finset.univ fun b => Φ a b) = bigSep Finset.univ fun b => bigSep Finset.univ fun a => Φ a b := by
  have h1 : bigSep Finset.univ (fun p : α × β => Φ p.1 p.2) = bigSep Finset.univ fun a => bigSep Finset.univ fun b => Φ a b := bigSep_univ_prod _
  have h2 : bigSep Finset.univ (fun p : β × α => Φ p.2 p.1) = bigSep Finset.univ fun b => bigSep Finset.univ fun a => Φ a b := bigSep_univ_prod _
  have h3 : bigSep Finset.univ (fun p : α × β => Φ p.1 p.2) = bigSep Finset.univ (fun p : β × α => Φ p.2 p.1) := bigSep_univ_equiv (Equiv.prodComm β α) _
  rw [← h1, h3, h2]

/-- The ring's rotation by `k + 1` places. -/
def ringEq (k : Fin 15) : Dev nD ≃ Dev nD := ⟨fun c => fwd c k, fun c => bwd c k, fun c => bwd_fwd c k, fun c => fwd_bwd c k⟩

/-- A product over devices and offsets, each device's factor at offset `k` taken from the device `k + 1` places ahead:
    for each `k` the rotation permutes the devices. -/
theorem bigSep_around {M : Type} [URA M] (Φ : Dev nD → Fin 15 → sProp M) :
    (bigSep Finset.univ fun c : Dev nD => bigSep Finset.univ fun k : Fin 15 => Φ c k)
      = bigSep Finset.univ fun c : Dev nD => bigSep Finset.univ fun k : Fin 15 => Φ (fwd c k) k := by
  rw [bigSep_swap Φ, bigSep_swap fun c k => Φ (fwd c k) k]
  exact bigSep_congr fun k _ => bigSep_univ_equiv (ringEq k) fun c => Φ c k

/-! ## The cells and the tokens of the launch element -/

/-- A semaphore's number, regular semaphores first: 0 for a regular semaphore, `n + 1` for DMA semaphore `n`. -/
private def semCode : SemLoc sig → ℕ
  | .reg _ => 0
  | .dma s => s.val + 1

/-- A device's thirty-two cells are distinct semaphores: the barrier semaphore is the one regular semaphore, the send
    semaphores are DMA semaphores 1–15, the receive semaphores 16–30, the copy's 31. -/
theorem csem_injective : Function.Injective (csem : CK → SemLoc sig) := by
  intro x y h
  have hc := congrArg semCode h
  rcases x with _ | k | k | _ <;> rcases y with _ | k' | k' | _ <;>
    simp only [csem, semCode, sendA_val, recvA_val, loadA_val] at hc <;>
    first
      | rfl
      | exact congrArg _ (Fin.ext (by omega))
      | (exfalso; omega)

theorem kcell_injective : Function.Injective (kcell : Dev nD × CK → GSem nD τ sig) := by
  rintro ⟨c, x⟩ ⟨c', x'⟩ h
  have h1 : c = c' := congrArg (fun g : GSem nD τ sig => g.1.1) h
  subst h1
  have h2 : csem x = csem x' := congrArg Prod.snd h
  rw [csem_injective h2]

/-- Every cell of every device. -/
def ringCells : Finset (GSem nD τ sig) := Finset.univ.map ⟨kcell, kcell_injective⟩

/-- The token as minted: the cell, round 0, the duty. -/
abbrev tokOf (ct : Dev nD × TK) : GSem nD τ sig × ℕ × Fin 15 := match ct.2 with
  | .bar d => (barCell ct.1, 0, d)
  | .send k => (sendCell ct.1 k, 0, 0)
  | .recv k => (recvCell ct.1 k, 0, 0)
  | .load => (loadCell ct.1, 0, 0)

/-- The cell a token belongs to. -/
def TK.cell : TK → CK
  | .bar _ => .bar
  | .send k => .send k
  | .recv k => .recv k
  | .load => .load

theorem tokOf_cell (c : Dev nD) (t : TK) : (tokOf (c, t)).1 = kcell (c, t.cell) := by cases t <;> rfl

theorem tokOf_injective : Function.Injective (tokOf : Dev nD × TK → GSem nD τ sig × ℕ × Fin 15) := by
  rintro ⟨c, t⟩ ⟨c', t'⟩ h
  have hk : kcell (c, t.cell) = kcell (c', t'.cell) := by rw [← tokOf_cell, ← tokOf_cell, h]
  have hc := kcell_injective hk
  have h1 : c = c' := congrArg Prod.fst hc
  have h2 : t.cell = t'.cell := congrArg Prod.snd hc
  have h3 : (tokOf (c, t)).2.2 = (tokOf (c', t')).2.2 := congrArg (fun x : GSem nD τ sig × ℕ × Fin 15 => x.2.2) h
  subst h1
  suffices ht : t = t' by rw [ht]
  cases t <;> cases t' <;> first
    | exact CK.noConfusion h2
    | exact congrArg TK.bar h3
    | exact congrArg TK.send (CK.send.inj h2)
    | exact congrArg TK.recv (CK.recv.inj h2)
    | rfl

/-- Every token of round 0. -/
def ringToks : Finset (GSem nD τ sig × ℕ × Fin 15) := Finset.univ.map ⟨tokOf, tokOf_injective⟩

/-- The launch element: the pipeline's cells and tokens, and the protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 15 => dutyTok ER (barCell c) 0 d)
    ∗ (bigSep Finset.univ fun k : Fin 15 => dutyTok ER (sendCell c k) 0 0)
    ∗ (bigSep Finset.univ fun k : Fin 15 => dutyTok ER (recvCell c k) 0 0)
    ∗ dutyTok ER (loadCell c) 0 0)

/-- What the launch element deals device `c`: the round states of its cells, its positions with round 0 reached, and
    its cells' tokens. -/
def G (c : Dev nD) : sProp 𝕄 :=
  iprop((bigSep Finset.univ fun x : CK => roundState ER (Rd m) (kcell (c, x)) 0)
    ∗ (bigSep Finset.univ fun x : CK => iprop(atPos ER (kcell (c, x)) 0 ∅ 0 ∗ reached ER (kcell (c, x)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : CK => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => (bigSep_TK _).trans rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

/-- The thirty-one own semaphores in their three groups. -/
def e31 : Fin 15 ⊕ Fin 15 ⊕ Unit ≃ Fin 31 where
  toFun
    | .inl k => ⟨k.val, by omega⟩
    | .inr (.inl k) => ⟨15 + k.val, by omega⟩
    | .inr (.inr _) => ⟨30, by omega⟩
  invFun i := if h : i.val < 15 then .inl ⟨i.val, h⟩ else if h' : i.val < 30 then .inr (.inl ⟨i.val - 15, by omega⟩) else .inr (.inr ())
  left_inv x := by
    rcases x with k | k | _
    · simp only [k.isLt, dite_true, Fin.eta]
    · have := k.isLt
      simp only [show ¬ (15 + k.val < 15) by omega, show 15 + k.val < 30 by omega, dite_true, dite_false, Nat.add_sub_cancel_left, Fin.eta]
    · simp
  right_inv i := by
    by_cases h : i.val < 15
    · simp only [h, dite_true]
    · by_cases h' : i.val < 30
      · simp only [h, h', dite_true, dite_false]; exact Fin.ext (by simp only; omega)
      · simp only [h, h', dite_false]; exact Fin.ext (by have := i.isLt; simp only; omega)

theorem osem_send (k : Fin 15) : osem (e31 (.inl k)) = .dma (sendA k).sem :=
  congrArg SemLoc.dma (Fin.ext (by rw [sendA_val]; show k.val + 1 = 1 + k.val; omega))
theorem osem_recv (k : Fin 15) : osem (e31 (.inr (.inl k))) = .dma (recvA k).sem :=
  congrArg SemLoc.dma (Fin.ext (by rw [recvA_val]; show 15 + k.val + 1 = 16 + k.val; omega))
theorem osem_load : osem (e31 (.inr (.inr ()))) = .dma loadA.sem :=
  congrArg SemLoc.dma (Fin.ext (by rw [loadA_val]; rfl))

/-- The kernel's own semaphores at zero: the send, the receive and the copy's cells at zero. -/
theorem ownSems0_eq (c : Dev nD) : (Pipeline.ownSems0 (Ix := Unit) (Name := ℕ) (U := UU) (Lvl := ℕ) (Val := Elt F) (τ := τ) osem c : sProp 𝕄)
    = ownZero c := by
  unfold Pipeline.ownSems0 ownZero
  rw [bigSep_univ_equiv e31, bigSep_univ_sum, bigSep_univ_sum, bigSep_univ_of_subsingleton ()]
  simp only [osem_send, osem_recv, osem_load]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [ownSems0_eq, unscopedSems0_eq, bigSep_CK]
  unfold ownZero
  iintro ⟨⟨HS, HV, HL⟩, HB⟩
  isplitl [HB]; · iexact HB
  isplitl [HS]; · iexact HS
  isplitl [HV]; · iexact HV
  iexact HL

/-! ## The global step: the invariants allocated, the tokens handed to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CK => iprop(∃ κ : ℕ, cellInv ER (Rd m) κ (kcell (c, x))))
          ∗ (bigSep Finset.univ fun x : CK => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (Rd m) (kcell (c, x)) 0)
      ⊢ (|={Set.univ}=> bigSep Finset.univ fun x : CK => iprop(∃ κ : ℕ, cellInv ER (Rd m) κ (kcell (c, x))) : sProp 𝕄) from by
        rw [← bigSep_sep']
        exact (bigSep_mono fun x _ => (Rounds.body_intro ER (Rd m) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions c ∗ payToks c) ⊢ G' m c := by
  unfold G' ghost
  iintro H
  iexists K
  iexact H

/-- The tokens dealt around the ring: token `k` of a device's barrier cell and the token of its `k`-th receive cell go
    to the device `k + 1` places behind it; its send tokens and its copy's stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_around (fun c d => (dutyTok ER (barCell c) 0 d : sProp 𝕄)),
    bigSep_around (fun c k => (dutyTok ER (recvCell c k) 0 0 : sProp 𝕄))]
  iintro ⟨H1, H2, H3, H4⟩
  isplitl [H1]; · iexact H1
  isplitl [H3]; · iexact H3
  isplitl [H2]; · iexact H2
  iexact H4

private theorem frame_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CK => iprop(∃ κ : ℕ, cellInv ER (Rd m) κ (kcell (c, x))))
          ∗ (bigSep Finset.univ fun x : CK => iprop(atPos ER (kcell (c, x)) 0 ∅ 0 ∗ reached ER (kcell (c, x)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (frame_persistent (R := records m K) fun c _ => ghost_intro m K c)
  isplitr
  · unfold records; isplitl; · iexact HI
    iexact HR
  · iapply ((Entails.of_eq (bigSep_sep' Finset.univ (fun c : Dev nD => bigSep Finset.univ fun x : CK => (atPos ER (kcell (c, x)) 0 ∅ 0 : sProp 𝕄)) payToks).symm).trans
      (bigSep_mono fun c _ => show _ ⊢ iprop(positions c ∗ payToks c) from Entails.of_eq (congrArg (fun P : sProp 𝕄 => iprop(P ∗ payToks c)) ((bigSep_CK _).trans rfl))))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

/-- The block in main memory is one whole buffer. -/
theorem xPts_eq (c : Dev nD) : xPts m c = (((c : Thread nD τ).loc main_arg0) ↦{fullShare} xin m c : sProp 𝕄) := by
  unfold xPts; rw [View.set_whole]

theorem start_intro (hcreds : ∀ c, (Pipeline.launchCred O₀ c : sProp 𝕄) ⊢ creds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (hcreds c) $$ Hcr
  imodintro
  unfold start G'
  isplitl
  · isplitl [HG]; · iexact HG
    isplitl [Hc]; · iexact Hc
    isplitl [Hlev]; · iexact Hlev
    rw [xPts_eq]; unfold xin; iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ scratch
  iintro H
  iexact H

end Cert.Kernel.Proto

end

/-- info: 'Cert.Kernel.Proto.fund_ring' depends on axioms: [propext, Classical.choice, Quot.sound] -/
#guard_msgs in #print axioms Cert.Kernel.Proto.fund_ring
/-- info: 'Cert.Kernel.Proto.glob' depends on axioms: [propext, Classical.choice, Quot.sound] -/
#guard_msgs in #print axioms Cert.Kernel.Proto.glob
/-- info: 'Cert.Kernel.Proto.start_intro' depends on axioms: [propext, Classical.choice, Quot.sound] -/
#guard_msgs in #print axioms Cert.Kernel.Proto.start_intro
/-- info: 'Cert.Kernel.Proto.phi0_intro' depends on axioms: [propext, Classical.choice, Quot.sound] -/
#guard_msgs in #print axioms Cert.Kernel.Proto.phi0_intro
/-- info: 'Cert.Kernel.Proto.phi1_exit' depends on axioms: [propext, Classical.choice, Quot.sound] -/
#guard_msgs in #print axioms Cert.Kernel.Proto.phi1_exit
/-- info: 'Cert.Kernel.Proto.ownSemFacts' depends on axioms: [propext, Classical.choice, Quot.sound] -/
#guard_msgs in #print axioms Cert.Kernel.Proto.ownSemFacts
-- ==== Proof.Bits.Credit.lean ====
/-
  The launch credit: the units the sixteen devices owe at launch, summed per cell, are what each cell's owner waits
  for. Fifteen devices owe a device's barrier cell one unit each; the device `k + 1` places behind owes its `k`-th
  receive cell a tile's credit. And the staging cell sits at level 0, below everything owed at launch.
-/
import proofs.«901065_g7700000000001066_dist_softmax_colshard_i_m512_n256_v7x_i16_f32_1_alg».proof.Proof.Bits.Ghost
import proofs.«901065_g7700000000001066_dist_softmax_colshard_i_m512_n256_v7x_i16_f32_1_alg».proof.Proof.Bits.Levels

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Telling cells apart -/

omit [FloatOps F] in
theorem bar_eq_iff {a b : Dev nD} : Iff (barCell a = barCell b) (a = b) :=
  ⟨fun h => congrArg (fun g : GSem nD τ sig => g.1.1) h, fun h => h ▸ rfl⟩

omit [FloatOps F] in
/-- Receive semaphores are told apart by their numbers. -/
theorem recvSem_inj {k k' : Fin 15} (h : (SemLoc.dma (recvA k).sem : SemLoc sig) = .dma (recvA k').sem) : k = k' := by
  have h1 : ((recvA k).sem : DmaSem sig).val = ((recvA k').sem : DmaSem sig).val := congrArg Fin.val (SemLoc.dma.inj h)
  rw [recvA_val, recvA_val] at h1
  exact Fin.ext (by omega)

omit [FloatOps F] in
theorem recv_eq_iff {a b : Dev nD} {k k' : Fin 15} : Iff (recvCell a k = recvCell b k') (a = b ∧ k = k') :=
  ⟨fun h => ⟨congrArg (fun g : GSem nD τ sig => g.1.1) h, recvSem_inj (congrArg Prod.snd h)⟩, fun h => by rw [h.1, h.2]⟩

omit [FloatOps F] in
theorem recvSem_ne_bar (k : Fin 15) : (SemLoc.dma (recvA k).sem : SemLoc sig) ≠ .reg barS := fun h => by cases h

omit [FloatOps F] in
theorem recv_ne_bar (a b : Dev nD) (k : Fin 15) : recvCell a k ≠ barCell b :=
  fun h => recvSem_ne_bar k (congrArg Prod.snd h)

/-! ## What one device owes one cell -/

omit [FloatOps F] in
theorem filter_ge_zero : (Finset.univ : Finset (Fin 15)).filter (fun k => 0 ≤ k.val) = Finset.univ :=
  Finset.filter_true_of_mem fun k _ => Nat.zero_le _

omit [FloatOps F] in
theorem owedBar_at (d : Dev nD) (g : GSem nD τ sig) :
    owedBar d 0 g () = ∑ k : Fin 15, if g = barCell (fwd d k) then 1 else 0 := by
  unfold owedBar
  rw [filter_ge_zero, Finset.sum_apply, Finsupp.finsetSum_apply]
  refine Finset.sum_congr rfl fun k _ => ?_
  rw [tallyAt_apply]
  by_cases h : g = barCell (fwd d k)
  · rw [if_pos ⟨h, rfl⟩, if_pos h]
  · rw [if_neg (fun h' => h h'.1), if_neg h]

omit [FloatOps F] in
theorem owedRecv_at (d : Dev nD) (g : GSem nD τ sig) :
    owedRecv d 0 g () = ∑ k : Fin 15, if g = recvCell (fwd d k) k then N else 0 := by
  unfold owedRecv
  rw [filter_ge_zero, Finset.sum_apply, Finsupp.finsetSum_apply]
  refine Finset.sum_congr rfl fun k _ => ?_
  rw [tallyAt_apply]
  by_cases h : g = recvCell (fwd d k) k
  · rw [if_pos ⟨h, rfl⟩, if_pos h]
  · rw [if_neg (fun h' => h h'.1), if_neg h]

omit [FloatOps F] in
/-- No receive credit is owed to a barrier cell, and no barrier unit to a receive cell. -/
theorem owedRecv_bar (d c : Dev nD) : owedRecv d 0 (barCell c) () = 0 := by
  rw [owedRecv_at]
  exact Finset.sum_eq_zero fun k _ => if_neg (recv_ne_bar _ _ _).symm
omit [FloatOps F] in
theorem owedBar_recv (d c : Dev nD) (k : Fin 15) : owedBar d 0 (recvCell c k) () = 0 := by
  rw [owedBar_at]
  exact Finset.sum_eq_zero fun j _ => if_neg (recv_ne_bar _ _ _)

omit [FloatOps F] in
/-- Device `d` owes device `c`'s barrier cell one unit exactly when it is another device: `c` is then some number of
    places ahead of `d`, and only one of `d`'s fifteen signals goes there. -/
theorem owed_bar (d c : Dev nD) : O₀ d (barCell c) () = if d ≠ c then 1 else 0 := by
  unfold O₀
  rw [Pi.add_apply, Finsupp.add_apply, owedRecv_bar, Nat.zero_add, owedBar_at]
  by_cases h : d = c
  · subst h
    rw [if_neg (not_not.mpr rfl)]
    exact Finset.sum_eq_zero fun k _ => if_neg fun e => fwd_ne d k (bar_eq_iff.mp e).symm
  · obtain ⟨k₀, hk₀⟩ := exists_fwd d c (Ne.symm h)
    have hs : ∀ k ∈ (Finset.univ : Finset (Fin 15)),
        (if barCell c = barCell (fwd d k) then 1 else 0) = if k = k₀ then 1 else 0 := fun k _ => by
      by_cases hk : k = k₀
      · rw [if_pos hk, if_pos (by rw [hk, hk₀])]
      · rw [if_neg hk, if_neg fun e => hk (fwd_inj d k k₀ (by rw [hk₀]; exact (bar_eq_iff.mp e).symm))]
    rw [if_pos h, Finset.sum_congr rfl hs, Finset.sum_ite_eq' Finset.univ k₀ fun _ => 1, if_pos (Finset.mem_univ _)]

omit [FloatOps F] in
/-- Device `d` owes the `k`-th receive cell of device `c` a tile's credit exactly when it is the device `k + 1`
    places behind `c`. -/
theorem owed_recv (d c : Dev nD) (k : Fin 15) : O₀ d (recvCell c k) () = if d = bwd c k then N else 0 := by
  unfold O₀
  rw [Pi.add_apply, Finsupp.add_apply, owedBar_recv, Nat.add_zero, owedRecv_at]
  have hs : ∀ j ∈ (Finset.univ : Finset (Fin 15)),
      (if recvCell c k = recvCell (fwd d j) j then N else 0) = if j = k then (if d = bwd c k then N else 0) else 0 := fun j _ => by
    by_cases hj : j = k
    · subst hj
      rw [if_pos rfl]
      by_cases hd : d = bwd c j
      · rw [if_pos hd, if_pos (by rw [hd, fwd_bwd])]
      · rw [if_neg hd, if_neg fun e => hd (by rw [(recv_eq_iff.mp e).1, bwd_fwd])]
    · rw [if_neg hj, if_neg fun e => hj (recv_eq_iff.mp e).2.symm]
  rw [Finset.sum_congr rfl hs, Finset.sum_ite_eq' Finset.univ k fun _ => if d = bwd c k then N else 0, if_pos (Finset.mem_univ _)]

/-! ## The launch credit -/

omit [FloatOps F] in
/-- The fifteen devices other than `c`. -/
theorem card_others : ∀ c : Dev nD, (Finset.univ.erase c).card = 15 := by decide

omit [FloatOps F] in
theorem count_others (c : Dev nD) : (∑ d : Dev nD, if d ≠ c then 1 else 0) = 15 := by
  rw [Finset.sum_ite, Finset.sum_const_zero, Nat.add_zero, Finset.sum_const, smul_eq_mul, Nat.mul_one,
    Finset.filter_ne' Finset.univ c, card_others]

omit [FloatOps F] in
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, count_others]

omit [FloatOps F] in
theorem launch_recv (c : Dev nD) (k : Fin 15) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (bwd c k) fun _ => N, if_pos (Finset.mem_univ _)]

/-- The receive semaphores among a device's cells. -/
def recvSems : Fin 15 ↪ SemLoc sig := ⟨fun k => .dma (recvA k).sem, fun _ _ h => recvSem_inj h⟩

omit [FloatOps F] in
/-- What the launch deals device `c`: fifteen units on its barrier cell and a tile's credit on each receive cell. -/
theorem creds_intro (c : Dev nD) : (Pipeline.launchCred O₀ c : sProp 𝕄) ⊢ creds c := by
  unfold Pipeline.launchCred creds
  rw [bigSep_univ_at _ (SemLoc.reg barS), launch_bar]
  refine sep_mono_right ?_
  have hsub : Finset.univ.map recvSems ⊆ (Finset.univ : Finset (SemLoc sig)).erase (.reg barS) := fun sm hsm => by
    obtain ⟨k, -, rfl⟩ := Finset.mem_map.mp hsm
    exact Finset.mem_erase.mpr ⟨recvSem_ne_bar k, Finset.mem_univ _⟩
  refine (bigSep_subset hsub).trans ?_
  rw [bigSep_map]
  exact Entails.of_eq (bigSep_congr fun k _ => congrArg cred (launch_recv c k))

/-! ## The staging cell's waits -/

/-- The result's staging semaphore is DMA semaphore 0, a cell of level 0: the pipeline may wait on it before the one
    grid point, owing what is owed at launch, and after it, owing nothing. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr (Or.inr rfl))

/-- info: 'Cert.Kernel.Proto.mayWait_bar' depends on axioms: [propext, Classical.choice, Quot.sound] -/
#guard_msgs in #print axioms mayWait_bar

/-- info: 'Cert.Kernel.Proto.creds_intro' depends on axioms: [propext, Classical.choice, Quot.sound] -/
#guard_msgs in #print axioms creds_intro

/-- info: 'Cert.Kernel.Proto.waits' depends on axioms: [propext, Classical.choice, Quot.sound] -/
#guard_msgs in #print axioms waits

end Cert.Kernel.Proto

end
-- ==== Proof.Bits.Final.lean ====
/-
  The result array after the kernel's one grid point.

  The kernel has no grid: one point. Its one window is the whole result array, at block index 0 and with nothing cut
  off, and it is written back at that point. So the array after the point is the array at launch overwritten, on all of
  its indices, by what the body left in the window's staging buffer: it IS that contents, the device's block of the result.
-/
import proofs.«901065_g7700000000001066_dist_softmax_colshard_i_m512_n256_v7x_i16_f32_1_alg».proof.Proof.Bits.Ghost
import Idealize.ShloMosaic.Lib.Pipeline.Value

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- For any proof data of the one pipeline: if the window's staging buffer holds `G` after the point, the result array
    ends holding `G`. The array after the point is the write-back, on every index, of the window's contents into the
    rectangle of the array that starts at `0 · size` on each axis and has the array's own sizes: the whole array. -/
theorem arrAt_whole {Ix : Type} [DecidableEq Ix] {Name : Type} [DecidableEq Name] {U : Type} [URA U] {Lvl : Type}
    (c : Dev nD) (dat : Dat τ (Elt F) Ix Name U Lvl cfg0 c) (G : Vec F S512x256 .f32)
    (h : dat.after (0 : Fin 1) t0_0 = G) : dat.arrAt (0 : Fin 1) cfg0.N = G := by
  -- one point: the array after all points is the array after point 0
  have hN : dat.arrAt (0 : Fin 1) cfg0.N = dat.arrAt (0 : Fin 1) ((t0_0 : Fin cfg0.N).val + 1) :=
    congrArg (dat.arrAt (0 : Fin 1)) N_0
  rw [hN, Dat.arrAt_succ, if_pos (flush0_0 t0_0)]
  -- what is written back is the window's contents, nothing cut off
  show ((cfg0.win 0).blk t0_0).view.write (Elt F) _ ((cfg0.win 0).cut (cfg0.grid.coords t0_0) (dat.after (0 : Fin 1) t0_0)) Finset.univ = G
  rw [h]
  -- the block at index 0 of the array's own sizes is the whole array
  exact Memref.write_access_unit_zero_univ (Elt F) main_v1 (funext fun a => Nat.zero_mul _) _ _ _

variable (m : (ℓ : Loc nD τ sig) → Buf (Elt F) ℓ) (ρ : Dev nD → PrngReg)

/-- Device `c`'s result array ends holding its block of the result. -/
theorem final_out (c : Dev nD) : (dats m ρ 0 c).arrAt (0 : Fin 1) cfg0.N = outV m c :=
  arrAt_whole c (dats m ρ 0 c) (outV m c) (by dsimp only [dats])

/-- info: 'Cert.Kernel.Proto.final_out' depends on axioms: [propext, Classical.choice, Quot.sound] -/
#guard_msgs in #print axioms final_out

end Cert.Kernel.Proto

end
-- ==== Proof.Bits.Run.lean ====
/-
  The run of the sixteen devices: the library's launch theorem applied to the body's obligation, and what the final
  state holds: each device's block of the result, and its block of `x` unchanged.
-/
import proofs.«901065_g7700000000001066_dist_softmax_colshard_i_m512_n256_v7x_i16_f32_1_alg».proof.Proof.Bits.Body
import proofs.«901065_g7700000000001066_dist_softmax_colshard_i_m512_n256_v7x_i16_f32_1_alg».proof.Proof.Bits.Deal
import proofs.«901065_g7700000000001066_dist_softmax_colshard_i_m512_n256_v7x_i16_f32_1_alg».proof.Proof.Bits.Credit
import proofs.«901065_g7700000000001066_dist_softmax_colshard_i_m512_n256_v7x_i16_f32_1_alg».proof.Proof.Bits.Final

noncomputable section

namespace Cert.Kernel.Proto

open Cert.Kernel Cert.Kernel.Gen Cert.Ring16 Cert.Kernel.Views

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 4000 in
def bodyPre' (c : Dev nD) : sProp 𝕄 :=
  iprop(Φ₀ m c ∗ (dats m ρ 0 c).owesAt () t₀.castSucc
    ∗ (∃ d, stg c cc0_stg0_0 ((dats m ρ 0 c).before (0 : Fin 1) t₀ d)))

set_option maxRecDepth 100000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (c : Thread nD τ) none) Set.univ (cc0_body (F := F) xM (Memref.isWhole_whole _) oM (Memref.isWhole_whole _) xvM (Memref.isWhole_whole _) stM (Memref.isWhole_whole _) cmM (Memref.isWhole_whole _) cc0_scratch3 cc0_scratch4 cc0_scratch5) (fun _ => bodyPost m ρ c)
  unfold bodyPre' Φ₀ start
  iintro ⟨⟨⟨⟨%K, Hg⟩, Hcr, Hlev, Hx⟩, Hscr⟩, Ho, Hout⟩
  iapply (sound_body m ρ K c fun _ => bodyPost m ρ c)
  unfold bodyPre
  isplitr []
  · isplitl [Hg Hcr Hlev Hx Hscr]
    · isplitl [Hg]; · iexact Hg
      isplitl [Hcr]; · iexact Hcr
      isplitl [Hlev]; · iexact Hlev
      isplitl [Hx]; · iexact Hx
      iexact Hscr
    isplitl [Ho]; · iexact Ho
    iexact Hout
  · iintro H; iexact H

def finalA (c : Dev nD) (w : Fin cfg0.W) : Buf (Elt F) ((cfg0.win w).arr.view.loc (c : Thread nD τ)) := (dats m ρ 0 c).arrAt w cfg0.N

/-- What every final state holds: each device's result array at the computed contents, its block of `x` unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- At the compiled mesh of sixteen devices, for any float values, from any memory with zero counters: every weakly fair
    execution of @main terminates, and every final state has each device's result array at the computed contents and its
    block of `x` unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => xPts m c) (Z := fun _ => iprop(emp))
    (hX := start_intro m ρ (fun c => creds_intro c)) (hin := phi0_intro m ρ) (hout := phi1_exit m ρ)
    (QY := fun c s => s.mem ((c : Thread nD τ).loc main_arg0) = m ((c : Thread nD τ).loc main_arg0))
    (hY := fun c s' => by
      show iprop(xPts m c ∗ iprop(emp) ∗ SI s') ⊢ _
      rw [xPts_eq]
      iintro ⟨Hx, -, HSI⟩
      icombine HSI Hx gives %hx
      imodintro
      isplitr; · ipureintro; exact Buf.eq_of_forall_mem_univ hx
      iexact HSI)
    (hQ := fun _ h c => ⟨(h c).1, (h c).2.2⟩)

/-- info: 'Cert.Kernel.Proto.run_main' depends on axioms: [propext, Classical.choice, Quot.sound] -/
#guard_msgs in #print axioms run_main

/-- The run with each device's result named: its block of the result as the pure function of the sixteen blocks. -/
theorem run_value : θ_run defs (onTc (τ := τ) (main (F := F))) ⟨m, fun _ => 0, ρ⟩ (fun r => ∀ c : Dev nD,
    r.2.mem ((c : Thread nD τ).loc main_v1) = Spec.out (fun d => m ((d : Thread nD τ).loc main_arg0)) c
    ∧ r.2.mem ((c : Thread nD τ).loc main_arg0) = m ((c : Thread nD τ).loc main_arg0)) :=
  (θ_run defs _ _).mono (fun r h c => ⟨((h c).1 (0 : Fin 1)).trans (final_out m ρ c), (h c).2⟩) (run_main m ρ)

end Cert.Kernel.Proto

end
-- ==== Proof.Softmax.lean ====
/-
  The softmax of a row cut into sixteen blocks, from per-block maxima and sums.

  For a row `x` of finite reals cut into blocks `x_d`, with `m_d = max_j x_d j`, `s_d = Σ_j exp (x_d j - m_d)`,
  `M = max_d m_d` and `S = Σ_d s_d · exp (m_d - M)`:
  `exp (x_c j - m_c) · (exp (m_c - M) / S) = exp (x_c j - M) / Σ_d Σ_j exp (x_d j - M)`,
  because `exp a · exp b = exp (a + b)` on the reals and every sum here is a sum of finite reals with `S ≥ 1`.
  The block maximum `M` and the sum `S` are taken the way a device takes them: its own block first, then the
  fifteen blocks of the devices behind it on the ring.
-/
import Idealize.ShloMosaic.PureOps.Ideal
import Idealize.ShloMosaic.Lib.ValueIdx
import proofs.«901065_g7700000000001066_dist_softmax_colshard_i_m512_n256_v7x_i16_f32_1_alg».proof.Proof.Ring16

noncomputable section

open scoped BigOperators

namespace Cert.Softmax

open Idealize.ShloMosaic Idealize.ShloMosaic.ValueIdx Cert.Ring16

/-- The maximum of finitely many extended reals, from `-∞`. -/
def rmax {n : ℕ} (f : Fin n → EReal) : EReal := (Finset.univ : Finset (Fin n)).fold max ⊥ f
/-- The sum of `exp (f j - max f)`. -/
def rsum {n : ℕ} (f : Fin n → EReal) : EReal := ∑ j, Ideal.exp (f j - rmax f)

/-- The softmax of one row. -/
def rowSoftmax {n : ℕ} (f : Fin n → EReal) (j : Fin n) : EReal := Ideal.div (Ideal.exp (f j - rmax f)) (rsum f)

/-- The global maximum as device `c` forms it: the maximum over the fifteen devices behind it, then its own. -/
def gmax (xb : Fin 16 → Fin 256 → EReal) (c : Fin 16) : EReal :=
  max (rmax fun k : Fin 15 => rmax (xb (bwd c k))) (rmax (xb c))
/-- The global sum as device `c` forms it: its own rescaled sum plus those of the fifteen devices behind it. -/
def gsum (xb : Fin 16 → Fin 256 → EReal) (c : Fin 16) : EReal :=
  rsum (xb c) * Ideal.exp (rmax (xb c) - gmax xb c)
    + ∑ k : Fin 15, rsum (xb (bwd c k)) * Ideal.exp (rmax (xb (bwd c k)) - gmax xb c)
/-- What device `c` stores at column `j` of the row. -/
def kernelVal (xb : Fin 16 → Fin 256 → EReal) (c : Fin 16) (j : Fin 256) : EReal :=
  Ideal.exp (xb c j - rmax (xb c)) * Ideal.div (Ideal.exp (rmax (xb c) - gmax xb c)) (gsum xb c)

/-- Column `j` of block `d` of a row of 4096. -/
def col (d : Fin 16) (j : Fin 256) : Fin 4096 := ⟨d.val * 256 + j.val, by have := d.isLt; have := j.isLt; omega⟩

/-! ### The maximum -/

/-- The fold of max from -∞ is the supremum of the family. -/
theorem rmax_eq_sup {n : ℕ} (f : Fin n → EReal) : rmax f = Finset.univ.sup f := rfl

/-- Every entry is at most the maximum. -/
theorem le_rmax {n : ℕ} (f : Fin n → EReal) (j : Fin n) : f j ≤ rmax f := by
  rw [rmax_eq_sup]; exact Finset.le_sup (Finset.mem_univ j)

/-- A bound of every entry bounds the maximum. -/
theorem rmax_le {n : ℕ} (f : Fin n → EReal) (a : EReal) (h : ∀ j, f j ≤ a) : rmax f ≤ a := by
  rw [rmax_eq_sup]; exact Finset.sup_le fun j _ => h j

/-- The maximum of a non-empty family is one of its entries. -/
theorem exists_eq_rmax {n : ℕ} (hn : 0 < n) (f : Fin n → EReal) : ∃ j, rmax f = f j := by
  obtain ⟨j, _, hj⟩ := Finset.exists_mem_eq_sup Finset.univ ⟨⟨0, hn⟩, Finset.mem_univ _⟩ f
  exact ⟨j, hj⟩

/-- The maximum of a non-empty family of reals is a real. -/
theorem rmax_coe {n : ℕ} (hn : 0 < n) (f : Fin n → ℝ) : ∃ m : ℝ, rmax (fun j => (f j : EReal)) = (m : EReal) := by
  obtain ⟨j, hj⟩ := exists_eq_rmax hn fun j => (f j : EReal)
  exact ⟨f j, hj⟩

/-! ### Sums of reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of exp (f j - max f) over reals with max f = m, as a real. -/
theorem rsum_coe {n : ℕ} (f : Fin n → ℝ) (m : ℝ) (hm : rmax (fun j => (f j : EReal)) = (m : EReal)) :
    rsum (fun j => (f j : EReal)) = ((∑ j, Real.exp (f j - m) : ℝ) : EReal) := by
  unfold rsum
  rw [hm, coe_sum]
  refine Finset.sum_congr rfl fun j _ => ?_
  rw [← EReal.coe_sub, Ideal.exp_coe]

/-- exp (a - μ) · (exp (μ - M) · s) = exp (a - M) · s. -/
theorem exp_rescale (a μ M s : ℝ) :
    Real.exp (a - μ) * (Real.exp (μ - M) * s) = Real.exp (a - M) * s := by
  rw [← mul_assoc, ← Real.exp_add, show a - μ + (μ - M) = a - M by ring]

/-- A sum of exp (f j - μ), times exp (μ - M), is the sum of exp (f j - M). -/
theorem sum_exp_rescale {n : ℕ} (f : Fin n → ℝ) (μ M : ℝ) :
    (∑ j, Real.exp (f j - μ)) * Real.exp (μ - M) = ∑ j, Real.exp (f j - M) := by
  rw [Finset.sum_mul]
  refine Finset.sum_congr rfl fun j _ => ?_
  rw [← Real.exp_add, show f j - μ + (μ - M) = f j - M by ring]

/-- The block c first and then the fifteen blocks behind it are all sixteen blocks. -/
theorem sum_ring (t : Fin 16 → ℝ) (c : Fin 16) : t c + ∑ k : Fin 15, t (bwd c k) = ∑ d, t d := by
  rw [← Finset.add_sum_erase Finset.univ t (Finset.mem_univ c)]
  congr 1
  refine Finset.sum_bij (fun k _ => bwd c k) ?_ ?_ ?_ ?_
  · intro k _; exact Finset.mem_erase.2 ⟨bwd_ne c k, Finset.mem_univ _⟩
  · intro k _ k' _ h; exact bwd_inj c k k' h
  · intro d hd
    obtain ⟨k, hk⟩ := exists_bwd c d (Finset.mem_erase.1 hd).1
    exact ⟨k, Finset.mem_univ _, hk⟩
  · intro k _; rfl

/-- The pair (block, column in the block) as a column of the row, a bijection. -/
def colEquiv : Fin 16 × Fin 256 ≃ Fin 4096 where
  toFun p := col p.1 p.2
  invFun i := (⟨i.val / 256, by have := i.isLt; omega⟩, ⟨i.val % 256, Nat.mod_lt _ (by decide)⟩)
  left_inv p := by
    obtain ⟨d, j⟩ := p
    have hd := d.isLt
    have hj := j.isLt
    refine Prod.ext (Fin.ext ?_) (Fin.ext ?_)
    · show (d.val * 256 + j.val) / 256 = d.val
      omega
    · show (d.val * 256 + j.val) % 256 = j.val
      omega
  right_inv i := by
    refine Fin.ext ?_
    show i.val / 256 * 256 + i.val % 256 = i.val
    omega

/-- The sum over the blocks of the sums over a block is the sum over the row. -/
theorem sum_blocks (g : Fin 4096 → ℝ) : ∑ d : Fin 16, ∑ j : Fin 256, g (col d j) = ∑ i, g i := by
  rw [← Equiv.sum_comp colEquiv g, Fintype.sum_prod_type]
  rfl

/-! ### The device's maximum and sum -/

/-- The maximum the device forms, over the fifteen blocks behind it and then its own, is the row's maximum. -/
theorem gmax_eq (row : Fin 4096 → EReal) (c : Fin 16) :
    gmax (fun d j' => row (col d j')) c = rmax row := by
  unfold gmax
  apply le_antisymm
  · apply max_le
    · apply rmax_le; intro k
      apply rmax_le; intro j'; exact le_rmax row _
    · apply rmax_le; intro j'; exact le_rmax row _
  · apply rmax_le; intro i
    obtain ⟨⟨d, j'⟩, rfl⟩ := colEquiv.surjective i
    show row (col d j') ≤ _
    by_cases hd : d = c
    · rw [hd]
      exact le_trans (le_rmax (fun j'' => row (col c j'')) j') (le_max_right _ _)
    · obtain ⟨k, hk⟩ := exists_bwd c d hd
      rw [← hk]
      refine le_trans ?_ (le_max_left _ _)
      refine le_trans (le_rmax (fun j'' => row (col (bwd c k) j'')) j') ?_
      exact le_rmax (fun k' : Fin 15 => rmax fun j'' => row (col (bwd c k') j'')) k

/-- On a row of reals the device's value is the row's softmax at that column. -/
theorem kernelVal_eq_real (r : Fin 4096 → ℝ) (c : Fin 16) (j : Fin 256) :
    kernelVal (fun d j' => ((r (col d j') : ℝ) : EReal)) c j
      = rowSoftmax (fun i => ((r i : ℝ) : EReal)) (col c j) := by
  obtain ⟨M, hM⟩ := rmax_coe (by decide : 0 < 4096) r
  have hμ : ∀ d : Fin 16, ∃ m : ℝ, rmax (fun j' => ((r (col d j') : ℝ) : EReal)) = (m : EReal) :=
    fun d => rmax_coe (by decide) fun j' => r (col d j')
  choose μ hμ using hμ
  have hg : gmax (fun d j' => ((r (col d j') : ℝ) : EReal)) c = (M : EReal) :=
    (gmax_eq (fun i => ((r i : ℝ) : EReal)) c).trans hM
  -- a block's sum, rescaled from the block's maximum to the row's
  have ht : ∀ d : Fin 16,
      rsum (fun j' => ((r (col d j') : ℝ) : EReal)) * Ideal.exp ((μ d : EReal) - (M : EReal))
        = ((∑ j' : Fin 256, Real.exp (r (col d j') - M) : ℝ) : EReal) := by
    intro d
    rw [rsum_coe (fun j' => r (col d j')) (μ d) (hμ d), ← EReal.coe_sub, Ideal.exp_coe, ← EReal.coe_mul,
      sum_exp_rescale]
  have hS : gsum (fun d j' => ((r (col d j') : ℝ) : EReal)) c = ((∑ i, Real.exp (r i - M) : ℝ) : EReal) := by
    unfold gsum
    rw [hg]
    simp only [hμ, ht]
    rw [← coe_sum, ← EReal.coe_add, sum_ring (fun d => ∑ j' : Fin 256, Real.exp (r (col d j') - M)) c,
      sum_blocks fun i => Real.exp (r i - M)]
  have hpos : (∑ i, Real.exp (r i - M) : ℝ) ≠ 0 :=
    (Finset.sum_pos (fun i _ => Real.exp_pos _) ⟨⟨0, by decide⟩, Finset.mem_univ _⟩).ne'
  unfold kernelVal rowSoftmax
  rw [hS, hg, hμ c, rsum_coe r M hM, hM, Ideal.div_coe hpos, Ideal.div_coe hpos,
    ← EReal.coe_sub, ← EReal.coe_sub, ← EReal.coe_sub, Ideal.exp_coe, Ideal.exp_coe, Ideal.exp_coe,
    ← EReal.coe_mul, ← EReal.coe_mul, ← EReal.coe_mul, exp_rescale]

/-- On a row of finite reals the device's value is the row's softmax at that column. -/
theorem kernelVal_eq (row : Fin 4096 → EReal) (hfin : ∀ j, row j ≠ ⊥ ∧ row j ≠ ⊤) (c : Fin 16) (j : Fin 256) :
    kernelVal (fun d j' => row (col d j')) c j = rowSoftmax row (col c j) := by
  obtain ⟨r, rfl⟩ : ∃ r : Fin 4096 → ℝ, row = fun i => ((r i : ℝ) : EReal) :=
    ⟨fun i => (row i).toReal, funext fun i => (EReal.coe_toReal (hfin i).2 (hfin i).1).symm⟩
  exact kernelVal_eq_real r c j

end Cert.Softmax

end
-- ==== Proof.RefSide.lean ====
/-
  The reference on one device: the softmax of every row of the whole array.

  The reference takes each row's maximum by a reduction from `-∞`, subtracts it, exponentiates, sums each row by a
  reduction from `0` and divides. On the extended reals the pattern of `-∞` is `⊥`, so the maximum is the fold of
  `max` from `⊥` over the row; the sum from `0` is the row's sum; the difference, the exponential and the quotient
  are the extended reals' own. So the result is `exp (x j - max x) / Σ_k exp (x k - max x)` in every row, with no
  hypothesis on the entries.
-/
import proofs.«901065_g7700000000001066_dist_softmax_colshard_i_m512_n256_v7x_i16_f32_1_alg».proof.Defs
import proofs.«901065_g7700000000001066_dist_softmax_colshard_i_m512_n256_v7x_i16_f32_1_alg».proof.Proof.Gen.ReferenceIdeal
import proofs.«901065_g7700000000001066_dist_softmax_colshard_i_m512_n256_v7x_i16_f32_1_alg».proof.Proof.Gen.ReferenceIdeal.Run
import proofs.«901065_g7700000000001066_dist_softmax_colshard_i_m512_n256_v7x_i16_f32_1_alg».proof.Proof.Gen.ReferenceIdeal.Read
import proofs.«901065_g7700000000001066_dist_softmax_colshard_i_m512_n256_v7x_i16_f32_1_alg».proof.Proof.Softmax

noncomputable section

namespace Cert.ReferenceIdeal.RefValue

open Idealize.ShloMosaic Idealize.ShloMosaic.TcCoe Idealize.SL.Sem Idealize.ShloMosaic.ValueIdx
open Cert.ReferenceIdeal Cert.ReferenceIdeal.Gen

/-- The reduced axis is axis 1: the shape fact in the form that names the index with a coordinate inserted. -/
theorem reduces_d1 : S512x4096.Reduces [1] S512 := by decide

/-- Row `r` with column `k` inserted on the reduced axis is the index `(r, k)`. -/
theorem lift_eq (r : S512.Idx) (k : Fin 4096) :
    reduces_d1.lift r k = ix2 (n0 := 512) (n1 := 4096) (r 0) k := by
  funext a
  match a with
  | ⟨0, _⟩ => exact Fin.ext rfl
  | ⟨1, _⟩ => exact Fin.ext rfl

/-- The index the sum over a row reads at column `k`, through the two broadcasts, is `(i 0, k)`. -/
theorem idx_v5_eq (i : S512x4096.Idx) (k : Fin 4096) :
    Read.idx_main_v5 (Read.idx_main_v6 (Read.idx_main_v7 i)) k = ix2 (n0 := 512) (n1 := 4096) (i 0) k := by
  funext a
  match a with
  | ⟨0, _⟩ => rfl
  | ⟨1, _⟩ => rfl

/-- The pattern of `-∞` is the bottom of the extended reals. -/
theorem ofBits_neg_inf : Ideal.ofBits .f32 0xFF800000#32 = (⊥ : EReal) := by simp [Ideal.ofBits, Ideal.ieee]

/-- The maximum of row `r`, reduced from `-∞`, is the fold of `max` from `⊥` over the row. -/
theorem val_v0_apply (X : FVec Ideal S512x4096 .f32) (r : S512.Idx) :
    Read.val_main_v0 (F := Ideal) X r
      = Cert.Softmax.rmax (fun j : Fin 4096 => X (ix2 (n0 := 512) (n1 := 4096) (r 0) j)) := by
  unfold Read.val_main_v0
  rw [Host.reduce_eq_fold_single (FloatOps.maximumf (F := Ideal) (φ := .f32)) X _ reducesTo_S512x4096_S512_d1 reduces_d1 h_S_ r]
  have hb : Read.val_main_cst (F := Ideal) (Shape.Idx.first h_S_) = (⊥ : EReal) := ofBits_neg_inf
  have hf : (X ∘ reduces_d1.lift r) = fun j : Fin 4096 => X (ix2 (n0 := 512) (n1 := 4096) (r 0) j) :=
    funext fun k => congrArg X (lift_eq r k)
  rw [hb, hf]
  rfl

/-- The row maximum broadcast back over the row. -/
theorem val_v2_apply (X : FVec Ideal S512x4096 .f32) (i : S512x4096.Idx) :
    Read.val_main_v2 (F := Ideal) X i
      = Cert.Softmax.rmax (fun j : Fin 4096 => X (ix2 (n0 := 512) (n1 := 4096) (i 0) j)) := by
  rw [Read.val_main_v2_apply, Read.val_main_v1_apply, val_v0_apply]
  rfl

/-- The exponential of an entry less its row's maximum. -/
theorem val_v4_apply (X : FVec Ideal S512x4096 .f32) (i : S512x4096.Idx) :
    Read.val_main_v4 (F := Ideal) X i
      = Ideal.exp (X i - Cert.Softmax.rmax (fun j : Fin 4096 => X (ix2 (n0 := 512) (n1 := 4096) (i 0) j))) := by
  rw [Read.val_main_v4_apply, Read.val_main_v3_apply, val_v2_apply]
  rfl

/-- The row's sum of exponentials, reduced from `0` and broadcast back over the row. -/
theorem val_v7_apply (X : FVec Ideal S512x4096 .f32) (i : S512x4096.Idx) :
    Read.val_main_v7 (F := Ideal) X i
      = Cert.Softmax.rsum (fun j : Fin 4096 => X (ix2 (n0 := 512) (n1 := 4096) (i 0) j)) := by
  rw [Read.val_main_v7_apply, Read.val_main_v6_apply, Read.val_main_v5_apply]
  have h0 : Read.val_main_cst_0 (F := Ideal) (Shape.Idx.first h_S_) = (0 : EReal) := Ideal.ofBits_zero_f32
  rw [h0, zero_add]
  unfold Cert.Softmax.rsum
  refine Finset.sum_congr rfl fun k _ => ?_
  rw [val_v4_apply, idx_v5_eq]

/-- The reference's result is the softmax of every row. -/
theorem val_v8_eq_softmax (X : FVec Ideal S512x4096 .f32) :
    Read.val_main_v8 (F := Ideal) X
      = fun i => Cert.Softmax.rowSoftmax (fun j : Fin 4096 => X (ix2 (n0 := 512) (n1 := 4096) (i 0) j)) (i 1) := by
  funext i
  rw [Read.val_main_v8_apply, val_v4_apply, val_v7_apply]
  have hi : X i = X (ix2 (n0 := 512) (n1 := 4096) (i 0) (i 1)) := congrArg X (eq_ix2 i)
  rw [hi]
  rfl

/-- The composed term of the run's result, as a function of the argument array, is the softmax of every row. No
    hypothesis on the entries: the maximum from `-∞` is the fold from `⊥`, the sum from `0` is the sum, and
    the exponential, the difference and the quotient are the extended reals' own. -/
theorem ref_value (X : FVec Ideal S512x4096 .f32) :
    Host.divf (F := Ideal) (Host.exp (F := Ideal) (subf (F := Ideal) X (broadcastInDim S512x4096 ![0, 1] bcast_S512x1_S512x4096_0_1 (broadcastInDim S512x1 ![0] bcast_S512_S512x1_0 (Host.reduce (FloatOps.maximumf (F := Ideal) (φ := .f32)) X (constant (F := Ideal) S_ .f32 0xFF800000#32) reducesTo_S512x4096_S512_d1 h_S_))))) (broadcastInDim S512x4096 ![0, 1] bcast_S512x1_S512x4096_0_1 (broadcastInDim S512x1 ![0] bcast_S512_S512x1_0 (Host.reduceAdd (F := Ideal) (Host.exp (F := Ideal) (subf (F := Ideal) X (broadcastInDim S512x4096 ![0, 1] bcast_S512x1_S512x4096_0_1 (broadcastInDim S512x1 ![0] bcast_S512_S512x1_0 (Host.reduce (FloatOps.maximumf (F := Ideal) (φ := .f32)) X (constant (F := Ideal) S_ .f32 0xFF800000#32) reducesTo_S512x4096_S512_d1 h_S_))))) (constant (F := Ideal) S_ .f32 0x00000000#32) reducesTo_S512x4096_S512_d1 h_S_)))
      = fun i => Cert.Softmax.rowSoftmax (fun j : Fin 4096 => X (ix2 (n0 := 512) (n1 := 4096) (i 0) j)) (i 1) :=
  (Read.val_main_v8_eq (F := Ideal) X).trans (val_v8_eq_softmax X)

/-- Every fair execution of the reference ends with its result the softmax of every row of its argument, and the
    argument unchanged. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v8)
          = (fun i : S512x4096.Idx => Cert.Softmax.rowSoftmax (fun j : Fin 4096 => m' (((0 : Dev Cert.ReferenceIdeal.nD).tc : Thread Cert.ReferenceIdeal.nD Cert.ReferenceIdeal.τ).loc Cert.ReferenceIdeal.main_arg0) (ix2 (n0 := 512) (n1 := 4096) (i 0) j)) (i 1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => ⟨(h 0).1.trans (ref_value _), (h 0).2⟩)
    (Cert.ReferenceIdeal.Value.run (F := Ideal) m' ρ')

/-- The reference runs and its argument ends unchanged: its run with the result dropped. -/
theorem frame_ri [hPre : Cert.Pre_finite_inputs_ReferenceIdeal.Facts] :
    Cert.frame_ReferenceIdeal (hReferenceIdeal := Cert.ReferenceIdeal.Gen.facts) (hPre_finite_inputs_ReferenceIdeal := hPre) :=
  fun m ρ _ => (θ_run Cert.ReferenceIdeal.defs _ _).mono (fun _ h c => (h c).2) (Cert.ReferenceIdeal.Value.run (F := Ideal) m ρ)

end Cert.ReferenceIdeal.RefValue

end
-- ==== Proof.ValStats.lean ====
/-
  The statistics tile read at an index: a block's row maxima and row sums of exponentials, 128 to a row of the tile.
-/
import proofs.«901065_g7700000000001066_dist_softmax_colshard_i_m512_n256_v7x_i16_f32_1_alg».proof.Proof.Spec
import proofs.«901065_g7700000000001066_dist_softmax_colshard_i_m512_n256_v7x_i16_f32_1_alg».proof.Proof.Softmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.ValStats

open Idealize.ShloMosaic Idealize.ShloMosaic.ValueIdx
open Cert.KernelIdeal Cert.KernelIdeal.Gen Cert.Softmax
open scoped BigOperators

/-- Row `i` of a block, as a function of the column. -/
def rowOf (x : Vec Ideal S512x256 .f32) (i : Fin 512) : Fin 256 → EReal := fun j => x (ix2 (n0 := 512) (n1 := 256) i j)

/-! ## Layout facts -/

section Layout
variable {α : Type}

/-- A vector cast to a column reads, at row i, entry i. -/
theorem shapeCast_a_a1_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_one, Shape.rowMajor_val_two]
    show i.val = i.val * 1 + u.val
    rw [hu, Nat.mul_one, Nat.add_zero])

/-- A column broadcast over the lanes reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One lane window of one row of a two-row array. -/
theorem slice_row_apply (X : S2x512.Idx → α) (c o : ℕ) (h : S2x512.Slices ![c, o] S1x128) (l : Fin 128)
    (hc : c < 2) (ho : o + l.val < 512) :
    extractStridedSlice S1x128 ![c, o] X h (ix2 (n0 := 1) (n1 := 128) 0 l) = X (ix2 (n0 := 2) (n1 := 512) ⟨c, hc⟩ ⟨o + l.val, ho⟩) :=
  extractStridedSlice_apply _ X h _ _ (fun ax => match ax with | ⟨0, _⟩ => rfl | ⟨1, _⟩ => rfl)

end Layout

/-- The source index over row i with lane k inserted. -/
theorem lift_row (i : Fin 512) (k : Fin 256) :
    reduces_S512x256_S512.lift (ix1 i) k = ix2 (n0 := 512) (n1 := 256) i k := by
  funext a
  match a with
  | ⟨0, _⟩ => exact Fin.ext rfl
  | ⟨1, _⟩ => exact Fin.ext rfl

/-- The word `0xFF800000` is `-∞`. -/
theorem negInf_f32 : Ideal.ofBits .f32 0xFF800000#32 = (⊥ : EReal) := by simp [Ideal.ofBits, Ideal.ieee]

/-! ## The two lane reductions of a block, at a row -/

/-- The maximum over the lanes of row i. -/
theorem rowmax_apply (x : Vec Ideal S512x256 .f32) (i : Fin 512) :
    multiReduction (F := Ideal) .maximumf [1] S512 x 0xFF800000#32 reduces_S512x256_S512 (.inl rfl) rfl (ix1 i)
      = rmax (rowOf x i) := by
  refine (Ideal.multiReduction_maximumf_single (φ := .f32) x 0xFF800000#32 reduces_S512x256_S512 (.inl rfl) rfl (ix1 i)).trans ?_
  have hf : (fun k : Fin 256 => x (reduces_S512x256_S512.lift (ix1 i) k)) = rowOf x i :=
    funext fun k => congrArg x (lift_row i k)
  show Finset.fold max (Ideal.ofBits .f32 0xFF800000#32) (fun k : Fin 256 => x (reduces_S512x256_S512.lift (ix1 i) k))
      (Finset.univ : Finset (Fin 256)) = _
  rw [negInf_f32, hf]
  rfl

/-- The sum over the lanes of row i. -/
theorem rowsum_apply (v : FVec Ideal S512x256 .f32) (i : Fin 512) :
    multiReduction (F := Ideal) .add [1] S512 v 0x00000000#32 reduces_S512x256_S512 (.inl rfl) rfl (ix1 i)
      = ∑ k : Fin 256, v (ix2 (n0 := 512) (n1 := 256) i k) := by
  refine (Ideal.multiReduction_add_single (φ := .f32) v 0x00000000#32 reduces_S512x256_S512 (.inl rfl) rfl (ix1 i)).trans ?_
  show (∑ k : Fin 256, v (reduces_S512x256_S512.lift (ix1 i) k)) = _
  exact Finset.sum_congr rfl fun k _ => congrArg v (lift_row i k)

/-! ## The payloads -/

/-- The row maxima, kept as a column: entry `i` is the maximum of row `i`. -/
theorem pay1_apply (x : Vec Ideal S512x256 .f32) (i : Fin 512) :
    k0_pay1 (F := Ideal) x (ix2 (n0 := 512) (n1 := 1) i 0) = rmax (rowOf x i) := by
  unfold k0_pay1
  refine (shapeCast_a_a1_apply _ shapeCasts_S512_S512x1 i 0).trans ?_
  exact rowmax_apply x i

/-- A block less its row maxima, exponentiated, at an entry. -/
theorem expsub_apply (x : Vec Ideal S512x256 .f32) (i : Fin 512) (j : Fin 256) :
    exp (F := Ideal) (subf x (broadcastTo S512x256 (k0_pay1 (F := Ideal) x) broadcasts_S512x1_S512x256)) (ix2 (n0 := 512) (n1 := 256) i j)
      = Ideal.exp (x (ix2 (n0 := 512) (n1 := 256) i j) - rmax (rowOf x i)) := by
  show Ideal.exp (x (ix2 (n0 := 512) (n1 := 256) i j)
      - broadcastTo S512x256 (k0_pay1 (F := Ideal) x) broadcasts_S512x1_S512x256 (ix2 (n0 := 512) (n1 := 256) i j)) = _
  rw [broadcastTo_a1_ab_apply (k0_pay1 (F := Ideal) x) broadcasts_S512x1_S512x256 i j, pay1_apply]

/-- The exponentials of a block against its own row maxima. -/
theorem pay11_apply (x : Vec Ideal S512x256 .f32) (i : Fin 512) (j : Fin 256) :
    k0_pay11 (F := Ideal) x (k0_pay1 x) (ix2 (n0 := 512) (n1 := 256) i j) = Ideal.exp (x (ix2 (n0 := 512) (n1 := 256) i j) - rmax (rowOf x i)) := by
  unfold k0_pay11
  exact expsub_apply x i j

/-- Row 0 of the transposed pair of columns: the row maxima. -/
theorem pay2_max_apply (x : Vec Ideal S512x256 .f32) (m : Fin 512) :
    k0_pay2 (F := Ideal) x (ix2 (n0 := 2) (n1 := 512) 0 m) = rmax (rowOf x m) := by
  unfold k0_pay2
  refine (transpose_ix2_apply _ transposes_S512x2_p1_0_S2x512 (0 : Fin 2) m).trans ?_
  refine (concatenate_pair_apply_left (t := S512x2) (s₁ := S512x1) (s₂ := S512x1) (1 : Fin 2) _ _ concatenates_S512x1_S512x1_S512x2_d1
    (ix2 (n0 := 512) (n1 := 2) m 0) (rfl : S512x1.rank = S512x2.rank) (ix2 (n0 := 512) (n1 := 1) m 0)
    (fun b => match b with | ⟨0, _⟩ => rfl | ⟨1, _⟩ => rfl)).trans ?_
  exact pay1_apply x m

/-- Row 1 of the transposed pair of columns: the row sums of exponentials. -/
theorem pay2_sum_apply (x : Vec Ideal S512x256 .f32) (m : Fin 512) :
    k0_pay2 (F := Ideal) x (ix2 (n0 := 2) (n1 := 512) 1 m) = rsum (rowOf x m) := by
  unfold k0_pay2
  refine (transpose_ix2_apply _ transposes_S512x2_p1_0_S2x512 (1 : Fin 2) m).trans ?_
  refine (concatenate_pair_apply_right (t := S512x2) (s₁ := S512x1) (s₂ := S512x1) (1 : Fin 2) _ _ concatenates_S512x1_S512x1_S512x2_d1
    (ix2 (n0 := 512) (n1 := 2) m 1) (rfl : S512x1.rank = S512x2.rank) (rfl : S512x1.rank = S512x2.rank) (ix2 (n0 := 512) (n1 := 1) m 0)
    (fun b hb => match b, hb with | ⟨0, _⟩, _ => rfl | ⟨1, _⟩, hb => absurd rfl hb) rfl).trans ?_
  refine (shapeCast_a_a1_apply _ shapeCasts_S512_S512x1 m 0).trans ?_
  refine (rowsum_apply _ m).trans ?_
  exact Finset.sum_congr rfl fun k _ => expsub_apply x m k

/-! ## The tile -/

/-- Row k of a stack of eight one-row pieces is piece k. -/
theorem tile_row_apply {α : Type} (xs : List ((s : Shape) × (s.Idx → α))) (h : Shape.Concatenates (xs.map (·.1)) S8x128 0)
    (hlen : xs.length = 8) (k : ℕ) (hk8 : k < 8) (p : S1x128.Idx → α) (hxk : xs[k]'(hlen ▸ hk8) = ⟨S1x128, p⟩)
    (hpre : (((xs.take k).map (·.1)).map fun s => if h : s.rank = S8x128.rank then s.size ((0 : Fin S8x128.rank).cast h.symm) else 0).sum = k)
    (l : Fin 128) :
    concatenate S8x128 0 xs h (ix2 (n0 := 8) (n1 := 128) ⟨k, hk8⟩ l) = p (ix2 (n0 := 1) (n1 := 128) 0 l) :=
  concatenate_apply_piece (t := S8x128) (0 : Fin 2) xs h (ix2 (n0 := 8) (n1 := 128) ⟨k, hk8⟩ l) k (hlen ▸ hk8) S1x128 p hxk
    (rfl : S1x128.rank = S8x128.rank) k hpre (ix2 (n0 := 1) (n1 := 128) 0 l)
    (fun b hb => match b, hb with | ⟨0, _⟩, hb => absurd rfl hb | ⟨1, _⟩, _ => rfl) (Nat.add_zero k)

/-- Row k, lane l of the tile is entry (k / 4, 128 (k mod 4) + l) of the transposed pair of columns. -/
theorem stats_eq_pay2 (x : Vec Ideal S512x256 .f32) (k : ℕ) (hk8 : k < 8) (l : Fin 128) (c : Fin 2) (m : Fin 512)
    (hc : c.val = k / 4) (hm : m.val = 128 * (k % 4) + l.val) :
    Spec.stats (F := Ideal) x (ix2 (n0 := 8) (n1 := 128) ⟨k, hk8⟩ l) = k0_pay2 (F := Ideal) x (ix2 (n0 := 2) (n1 := 512) c m) := by
  unfold Spec.stats k0_pay10
  refine (congrFun (shapeCast_self _ shapeCasts_S8x128_S8x128) _).trans ?_
  have hl := l.isLt
  match k, hk8, hc, hm with
  | 0, _, hc, hm =>
    refine (tile_row_apply _ _ rfl 0 (by decide) (k0_pay3 (F := Ideal) x) rfl rfl l).trans ?_
    unfold k0_pay3
    refine (slice_row_apply _ 0 0 slices_S2x512_o0_0_S1x128 l (by decide) (by omega)).trans ?_
    exact congrArg (k0_pay2 (F := Ideal) x) (congrArg₂ (ix2 (n0 := 2) (n1 := 512)) (Fin.ext hc.symm) (Fin.ext hm.symm))
  | 1, _, hc, hm =>
    refine (tile_row_apply _ _ rfl 1 (by decide) (k0_pay4 (F := Ideal) x) rfl rfl l).trans ?_
    unfold k0_pay4
    refine (slice_row_apply _ 0 128 slices_S2x512_o0_128_S1x128 l (by decide) (by omega)).trans ?_
    exact congrArg (k0_pay2 (F := Ideal) x) (congrArg₂ (ix2 (n0 := 2) (n1 := 512)) (Fin.ext hc.symm) (Fin.ext hm.symm))
  | 2, _, hc, hm =>
    refine (tile_row_apply _ _ rfl 2 (by decide) (k0_pay5 (F := Ideal) x) rfl rfl l).trans ?_
    unfold k0_pay5
    refine (slice_row_apply _ 0 256 slices_S2x512_o0_256_S1x128 l (by decide) (by omega)).trans ?_
    exact congrArg (k0_pay2 (F := Ideal) x) (congrArg₂ (ix2 (n0 := 2) (n1 := 512)) (Fin.ext hc.symm) (Fin.ext hm.symm))
  | 3, _, hc, hm =>
    refine (tile_row_apply _ _ rfl 3 (by decide) (k0_pay6 (F := Ideal) x) rfl rfl l).trans ?_
    unfold k0_pay6
    refine (slice_row_apply _ 0 384 slices_S2x512_o0_384_S1x128 l (by decide) (by omega)).trans ?_
    exact congrArg (k0_pay2 (F := Ideal) x) (congrArg₂ (ix2 (n0 := 2) (n1 := 512)) (Fin.ext hc.symm) (Fin.ext hm.symm))
  | 4, _, hc, hm =>
    refine (tile_row_apply _ _ rfl 4 (by decide) (k0_pay7 (F := Ideal) x) rfl rfl l).trans ?_
    unfold k0_pay7
    refine (slice_row_apply _ 1 0 slices_S2x512_o1_0_S1x128 l (by decide) (by omega)).trans ?_
    exact congrArg (k0_pay2 (F := Ideal) x) (congrArg₂ (ix2 (n0 := 2) (n1 := 512)) (Fin.ext hc.symm) (Fin.ext hm.symm))
  | 5, _, hc, hm =>
    refine (tile_row_apply _ _ rfl 5 (by decide) (k0_pay8 (F := Ideal) x) rfl rfl l).trans ?_
    unfold k0_pay8
    refine (slice_row_apply _ 1 128 slices_S2x512_o1_128_S1x128 l (by decide) (by omega)).trans ?_
    exact congrArg (k0_pay2 (F := Ideal) x) (congrArg₂ (ix2 (n0 := 2) (n1 := 512)) (Fin.ext hc.symm) (Fin.ext hm.symm))
  | 6, _, hc, hm =>
    refine (tile_row_apply _ _ rfl 6 (by decide) (k0_pay9 (F := Ideal) x) rfl rfl l).trans ?_
    unfold k0_pay9
    refine (slice_row_apply _ 1 256 slices_S2x512_o1_256_S1x128 l (by decide) (by omega)).trans ?_
    exact congrArg (k0_pay2 (F := Ideal) x) (congrArg₂ (ix2 (n0 := 2) (n1 := 512)) (Fin.ext hc.symm) (Fin.ext hm.symm))
  | 7, _, hc, hm =>
    refine (tile_row_apply _ _ rfl 7 (by decide) (extractStridedSlice S1x128 ![1, 384] (k0_pay2 (F := Ideal) x) slices_S2x512_o1_384_S1x128) rfl rfl l).trans ?_
    refine (slice_row_apply _ 1 384 slices_S2x512_o1_384_S1x128 l (by decide) (by omega)).trans ?_
    exact congrArg (k0_pay2 (F := Ideal) x) (congrArg₂ (ix2 (n0 := 2) (n1 := 512)) (Fin.ext hc.symm) (Fin.ext hm.symm))

/-- Rows 0–3 of the tile hold the 512 row maxima, 128 to a row; rows 4–7 the 512 row sums, laid out the same way. -/
theorem stats_apply (x : Vec Ideal S512x256 .f32) (r : Fin 8) (l : Fin 128) :
    Spec.stats (F := Ideal) x (ix2 (n0 := 8) (n1 := 128) r l)
      = if h : r.val < 4 then rmax (rowOf x ⟨128 * r.val + l.val, by have := l.isLt; omega⟩)
        else rsum (rowOf x ⟨128 * (r.val - 4) + l.val, by have := l.isLt; have := r.isLt; omega⟩) := by
  have hr := r.isLt
  have hl := l.isLt
  split
  · next h =>
    exact (stats_eq_pay2 x r.val r.isLt l 0 ⟨128 * r.val + l.val, by omega⟩ (by show 0 = r.val / 4; omega)
      (by show 128 * r.val + l.val = 128 * (r.val % 4) + l.val; omega)).trans (pay2_max_apply x _)
  · next h =>
    exact (stats_eq_pay2 x r.val r.isLt l 1 ⟨128 * (r.val - 4) + l.val, by omega⟩ (by show 1 = r.val / 4; omega)
      (by show 128 * (r.val - 4) + l.val = 128 * (r.val % 4) + l.val; omega)).trans (pay2_sum_apply x _)

end Cert.KernelIdeal.ValStats

end
-- ==== Proof.ValOut.lean ====
/-
  What a device stores, read at an index: from its own row maxima and sums and those of the fifteen devices behind it.

  Row `i` of the block has its statistics at `(r, l)` of the four-row tiles, `r = i / 128`, `l = i % 128`. The device forms,
  tile entry by tile entry, the global maximum `M = max (max over the fifteen received tiles) own` and the global sum
  `S = own sum · exp (own max − M) + Σ_k received sum_k · exp (received max_k − M)`, lays the two tiles out again as the
  two columns of a `[512, 2]` array (the four rows of a tile end to end, the two rows of 512 stacked, transposed), and
  stores `exp (x − m) · (exp (m − M) / S)`, the column broadcast along the row.
-/
import proofs.«901065_g7700000000001066_dist_softmax_colshard_i_m512_n256_v7x_i16_f32_1_alg».proof.Proof.ValStats

noncomputable section

namespace Cert.KernelIdeal.ValOut

open Idealize.ShloMosaic Idealize.ShloMosaic.ValueIdx
open Cert.KernelIdeal Cert.KernelIdeal.Gen Cert.Softmax Cert.Ring16 Cert.KernelIdeal.ValStats
open scoped BigOperators

/-! ## Layout operations at the coordinates met here -/

section Layout
variable {α : Type}

/-- A column `[a, 1]` broadcast to `[a, b]` reads, at `(p, q)`, the column's entry `p`. -/
theorem colBroadcast_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- One `[1, a, b]` slab broadcast to `[m, a, b]` reads, at `(k, r, l)`, the slab at `(r, l)`. -/
theorem slabBroadcast_apply {m a b : ℕ} (v : (⟨3, ![1, a, b]⟩ : Shape).Idx → α)
    (h : (⟨3, ![1, a, b]⟩ : Shape).Broadcasts ⟨3, ![m, a, b]⟩) (k : Fin m) (r : Fin a) (l : Fin b) :
    broadcastTo ⟨3, ![m, a, b]⟩ v h (ix3 k r l) = v (ix3 (0 : Fin 1) r l) := by
  refine broadcastTo_apply v h (ix3 k r l) (ix3 (0 : Fin 1) r l) fun ax => ?_
  match ax with
  | ⟨0, _⟩ => rfl
  | ⟨1, _⟩ =>
    show r.val = if a = 1 then 0 else r.val
    split
    · have := r.isLt; omega
    · rfl
  | ⟨2, _⟩ =>
    show l.val = if b = 1 then 0 else l.val
    split
    · have := l.isLt; omega
    · rfl

/-- Four rows of 128 laid end to end as one row of 512: entry `128 k + l` is entry `l` of row `k`. -/
theorem row4_apply (p0 p1 p2 p3 : S1x128.Idx → α)
    (hc : Shape.Concatenates [S1x128, S1x128, S1x128, S1x128] S1x512 1) (i : Fin 512) (l : Fin 128) :
    (i.val = l.val →
      concatenate S1x512 1 [⟨S1x128, p0⟩, ⟨S1x128, p1⟩, ⟨S1x128, p2⟩, ⟨S1x128, p3⟩] hc (ix2 (0 : Fin 1) i) = p0 (ix2 (0 : Fin 1) l))
    ∧ (i.val = 128 + l.val →
      concatenate S1x512 1 [⟨S1x128, p0⟩, ⟨S1x128, p1⟩, ⟨S1x128, p2⟩, ⟨S1x128, p3⟩] hc (ix2 (0 : Fin 1) i) = p1 (ix2 (0 : Fin 1) l))
    ∧ (i.val = 256 + l.val →
      concatenate S1x512 1 [⟨S1x128, p0⟩, ⟨S1x128, p1⟩, ⟨S1x128, p2⟩, ⟨S1x128, p3⟩] hc (ix2 (0 : Fin 1) i) = p2 (ix2 (0 : Fin 1) l))
    ∧ (i.val = 384 + l.val →
      concatenate S1x512 1 [⟨S1x128, p0⟩, ⟨S1x128, p1⟩, ⟨S1x128, p2⟩, ⟨S1x128, p3⟩] hc (ix2 (0 : Fin 1) i) = p3 (ix2 (0 : Fin 1) l)) := by
  have hoff : ∀ b : Fin S1x128.rank, b.cast (rfl : S1x128.rank = S1x512.rank) ≠ (1 : Fin 2) →
      ((ix2 (0 : Fin 1) l : S1x128.Idx) b).val = ((ix2 (0 : Fin 1) i : S1x512.Idx) (b.cast rfl)).val := fun b hb =>
    match b, hb with
    | ⟨0, _⟩, _ => rfl
    | ⟨1, _⟩, hb => absurd rfl hb
  refine ⟨fun hi => ?_, fun hi => ?_, fun hi => ?_, fun hi => ?_⟩
  · exact concatenate_apply_piece (t := S1x512) (1 : Fin 2) [⟨S1x128, p0⟩, ⟨S1x128, p1⟩, ⟨S1x128, p2⟩, ⟨S1x128, p3⟩] hc (ix2 (0 : Fin 1) i)
      0 (by show (0 : ℕ) < 4; omega) S1x128 p0 rfl rfl 0 rfl (ix2 (0 : Fin 1) l) hoff (by show 0 + l.val = i.val; omega)
  · exact concatenate_apply_piece (t := S1x512) (1 : Fin 2) [⟨S1x128, p0⟩, ⟨S1x128, p1⟩, ⟨S1x128, p2⟩, ⟨S1x128, p3⟩] hc (ix2 (0 : Fin 1) i)
      1 (by show (1 : ℕ) < 4; omega) S1x128 p1 rfl rfl 128 rfl (ix2 (0 : Fin 1) l) hoff (by show 128 + l.val = i.val; omega)
  · exact concatenate_apply_piece (t := S1x512) (1 : Fin 2) [⟨S1x128, p0⟩, ⟨S1x128, p1⟩, ⟨S1x128, p2⟩, ⟨S1x128, p3⟩] hc (ix2 (0 : Fin 1) i)
      2 (by show (2 : ℕ) < 4; omega) S1x128 p2 rfl rfl 256 rfl (ix2 (0 : Fin 1) l) hoff (by show 256 + l.val = i.val; omega)
  · exact concatenate_apply_piece (t := S1x512) (1 : Fin 2) [⟨S1x128, p0⟩, ⟨S1x128, p1⟩, ⟨S1x128, p2⟩, ⟨S1x128, p3⟩] hc (ix2 (0 : Fin 1) i)
      3 (by show (3 : ℕ) < 4; omega) S1x128 p3 rfl rfl 384 rfl (ix2 (0 : Fin 1) l) hoff (by show 384 + l.val = i.val; omega)

/-- The four rows of a `[4, 128]` tile laid end to end as one row of 512: entry `128 r + l` is the tile's `(r, l)`. -/
theorem tileRow_apply (t : S4x128.Idx → α)
    (h0 : S4x128.Slices ![0, 0] S1x128) (h1 : S4x128.Slices ![1, 0] S1x128)
    (h2 : S4x128.Slices ![2, 0] S1x128) (h3 : S4x128.Slices ![3, 0] S1x128)
    (hc : Shape.Concatenates [S1x128, S1x128, S1x128, S1x128] S1x512 1)
    (i : Fin 512) (r : Fin 4) (l : Fin 128) (hi : i.val = 128 * r.val + l.val) :
    concatenate S1x512 1 [⟨S1x128, extractStridedSlice S1x128 ![0, 0] t h0⟩, ⟨S1x128, extractStridedSlice S1x128 ![1, 0] t h1⟩,
        ⟨S1x128, extractStridedSlice S1x128 ![2, 0] t h2⟩, ⟨S1x128, extractStridedSlice S1x128 ![3, 0] t h3⟩] hc
      (ix2 (0 : Fin 1) i) = t (ix2 r l) := by
  obtain ⟨e0, e1, e2, e3⟩ := row4_apply (extractStridedSlice S1x128 ![0, 0] t h0) (extractStridedSlice S1x128 ![1, 0] t h1)
    (extractStridedSlice S1x128 ![2, 0] t h2) (extractStridedSlice S1x128 ![3, 0] t h3) hc i l
  match r, hi with
  | ⟨0, _⟩, hi =>
    have hi' : i.val = 128 * 0 + l.val := hi
    exact (e0 (by omega)).trans (slice2_axis0_apply 0 t h0 (0 : Fin 1) l ⟨0, by omega⟩ rfl)
  | ⟨1, _⟩, hi =>
    have hi' : i.val = 128 * 1 + l.val := hi
    exact (e1 (by omega)).trans (slice2_axis0_apply 1 t h1 (0 : Fin 1) l ⟨1, by omega⟩ rfl)
  | ⟨2, _⟩, hi =>
    have hi' : i.val = 128 * 2 + l.val := hi
    exact (e2 (by omega)).trans (slice2_axis0_apply 2 t h2 (0 : Fin 1) l ⟨2, by omega⟩ rfl)
  | ⟨3, _⟩, hi =>
    have hi' : i.val = 128 * 3 + l.val := hi
    exact (e3 (by omega)).trans (slice2_axis0_apply 3 t h3 (0 : Fin 1) l ⟨3, by omega⟩ rfl)

/-- Two rows of 512 stacked and transposed: column 0 of the `[512, 2]` result is the first row, column 1 the second. -/
theorem stackT_apply (x₀ x₁ : S1x512.Idx → α) (hc : Shape.Concatenates [S1x512, S1x512] S2x512 0)
    (ht : S2x512.Transposes [1, 0] S512x2) (i : Fin 512) :
    transpose S512x2 [1, 0] (concatenate S2x512 0 [⟨S1x512, x₀⟩, ⟨S1x512, x₁⟩] hc) ht (ix2 i (0 : Fin 2)) = x₀ (ix2 (0 : Fin 1) i)
    ∧ transpose S512x2 [1, 0] (concatenate S2x512 0 [⟨S1x512, x₀⟩, ⟨S1x512, x₁⟩] hc) ht (ix2 i (1 : Fin 2)) = x₁ (ix2 (0 : Fin 1) i) := by
  constructor
  · refine (transpose_ix2_apply (a := 2) (b := 512) _ ht i (0 : Fin 2)).trans ?_
    exact concatenate_pair_apply_left (0 : Fin 2) x₀ x₁ hc (ix2 (0 : Fin 2) i) rfl (ix2 (0 : Fin 1) i)
      (fun b => match b with | ⟨0, _⟩ => rfl | ⟨1, _⟩ => rfl)
  · refine (transpose_ix2_apply (a := 2) (b := 512) _ ht i (1 : Fin 2)).trans ?_
    exact concatenate_pair_apply_right (0 : Fin 2) x₀ x₁ hc (ix2 (1 : Fin 2) i) rfl rfl (ix2 (0 : Fin 1) i)
      (fun b hb => match b, hb with | ⟨0, _⟩, hb => absurd rfl hb | ⟨1, _⟩, _ => rfl) rfl

end Layout

/-! ## The two reductions over the fifteen received tiles -/

/-- The index over `(r, l)` with `k` put on the dropped leading axis is `(k, r, l)`. -/
theorem lift0_ix (h : S15x4x128.Reduces [0] S4x128) (r : Fin 4) (l : Fin 128) (k : Fin 15) :
    h.lift (ix2 r l) k = ix3 k r l := by
  funext c
  match c with
  | ⟨0, _⟩ => rfl
  | ⟨1, _⟩ => rfl
  | ⟨2, _⟩ => rfl

/-- The pattern of `-∞` reads `⊥`. -/
theorem ofBits_neg_inf : (FloatOps.ofBits (F := Ideal) .f32 0xFF800000#32 : EReal) = ⊥ := by
  simp [Ideal.ofBits, Ideal.ieee]

/-- A maximum over the leading axis read at `(r, l)`: the fold of `max` from `-∞` over the fifteen slabs. -/
theorem reduceMax0_apply (src : FVec Ideal S15x4x128 .f32) (h : S15x4x128.Reduces [0] S4x128) (hφ : FKind.Formats .f32)
    (hacc : (0xFF800000#32 : BitVec 32) = FKind.maximumf.neutral .f32 hφ) (r : Fin 4) (l : Fin 128) :
    multiReduction (F := Ideal) .maximumf [0] S4x128 src 0xFF800000#32 h hφ hacc (ix2 r l)
      = (Finset.univ : Finset (Fin 15)).fold max ⊥ (fun k => src (ix3 k r l)) := by
  refine (Ideal.multiReduction_maximumf_single src _ h hφ hacc (ix2 r l)).trans ?_
  rw [ofBits_neg_inf]
  show (Finset.univ : Finset (Fin 15)).fold max ⊥ (src ∘ h.lift (ix2 r l)) = _
  congr 1
  funext k
  exact congrArg src (lift0_ix h r l k)

/-- A sum over the leading axis read at `(r, l)`: the sum over the fifteen slabs. -/
theorem reduceAdd0_apply (src : FVec Ideal S15x4x128 .f32) (h : S15x4x128.Reduces [0] S4x128) (hφ : FKind.Formats .f32)
    (hacc : (0x00000000#32 : BitVec 32) = FKind.add.neutral .f32 hφ) (r : Fin 4) (l : Fin 128) :
    multiReduction (F := Ideal) .add [0] S4x128 src 0x00000000#32 h hφ hacc (ix2 r l)
      = ∑ k : Fin 15, src (ix3 k r l) := by
  refine (Ideal.multiReduction_add_single src _ h hφ hacc (ix2 r l)).trans ?_
  show ∑ k : Fin 15, src (h.lift (ix2 r l) k) = _
  refine Finset.sum_congr rfl fun k _ => ?_
  exact congrArg src (lift0_ix h r l k)

/-! ## The tiles at an index -/

/-- Two row indices with the same value pick the same row. -/
theorem rowOf_congr (x : Vec Ideal S512x256 .f32) {a b : Fin 512} (h : a.val = b.val) : rowOf x a = rowOf x b := by
  rw [Fin.ext h]

/-- Rows 0–3 of a block's own tile: entry `(r, l)` is the maximum of row `128 r + l`. -/
theorem ownMax_apply (x : Vec Ideal S512x256 .f32) (r : Fin 4) (l : Fin 128) :
    Spec.ownMax (F := Ideal) (Spec.stats x) (ix2 (n0 := 4) (n1 := 128) r l)
      = rmax (rowOf x ⟨128 * r.val + l.val, by have := r.isLt; have := l.isLt; omega⟩) := by
  have hr : r.val < 8 := by have := r.isLt; omega
  refine (stats_apply x ⟨r.val, hr⟩ l).trans ?_
  rw [dif_pos (show (⟨r.val, hr⟩ : Fin 8).val < 4 from r.isLt)]

/-- Rows 4–7 of a block's own tile: entry `(r, l)` is the sum of exponentials of row `128 r + l`. -/
theorem ownSum_apply (x : Vec Ideal S512x256 .f32) (r : Fin 4) (l : Fin 128) :
    Spec.ownSum (F := Ideal) (Spec.stats x) (ix2 (n0 := 4) (n1 := 128) r l)
      = rsum (rowOf x ⟨128 * r.val + l.val, by have := r.isLt; have := l.isLt; omega⟩) := by
  have hr : r.val + 4 < 8 := by have := r.isLt; omega
  refine (stats_apply x ⟨r.val + 4, hr⟩ l).trans ?_
  rw [dif_neg (show ¬ (⟨r.val + 4, hr⟩ : Fin 8).val < 4 from by show ¬ r.val + 4 < 4; omega)]
  exact congrArg rsum (rowOf_congr x (by show 128 * (r.val + 4 - 4) + l.val = 128 * r.val + l.val; omega))

/-- Slot `k` of the received maxima: entry `(r, l)` is the maximum of row `128 r + l` of the block `k + 1` places behind. -/
theorem peerMax_apply (xs : Dev nD → Vec Ideal S512x256 .f32) (c : Dev nD) (k : Fin 15) (r : Fin 4) (l : Fin 128) :
    Spec.peerMax (F := Ideal) (Spec.comm xs c) (ix3 (n0 := 15) (n1 := 4) (n2 := 128) k r l)
      = rmax (rowOf (xs (bwd c k)) ⟨128 * r.val + l.val, by have := r.isLt; have := l.isLt; omega⟩) := by
  have hr : r.val < 8 := by have := r.isLt; omega
  refine (stats_apply (xs (bwd c k)) ⟨r.val, hr⟩ l).trans ?_
  rw [dif_pos (show (⟨r.val, hr⟩ : Fin 8).val < 4 from r.isLt)]

/-- Slot `k` of the received sums: entry `(r, l)` is the sum of exponentials of row `128 r + l` of the block `k + 1` places behind. -/
theorem peerSum_apply (xs : Dev nD → Vec Ideal S512x256 .f32) (c : Dev nD) (k : Fin 15) (r : Fin 4) (l : Fin 128) :
    Spec.peerSum (F := Ideal) (Spec.comm xs c) (ix3 (n0 := 15) (n1 := 4) (n2 := 128) k r l)
      = rsum (rowOf (xs (bwd c k)) ⟨128 * r.val + l.val, by have := r.isLt; have := l.isLt; omega⟩) := by
  have hr : r.val + 4 < 8 := by have := r.isLt; omega
  refine (stats_apply (xs (bwd c k)) ⟨r.val + 4, hr⟩ l).trans ?_
  rw [dif_neg (show ¬ (⟨r.val + 4, hr⟩ : Fin 8).val < 4 from by show ¬ r.val + 4 < 4; omega)]
  exact congrArg rsum (rowOf_congr _ (by show 128 * (r.val + 4 - 4) + l.val = 128 * r.val + l.val; omega))

/-! ## The global maximum and the global sum, tile entry by tile entry -/

/-- The global-maximum tile at `(r, l)`: the maximum over the fifteen received entries, then the device's own. -/
theorem pay12_apply (pm : FVec Ideal S15x4x128 .f32) (om : FVec Ideal S4x128 .f32) (r : Fin 4) (l : Fin 128) :
    k0_pay12 (F := Ideal) pm om (ix2 (n0 := 4) (n1 := 128) r l)
      = max (rmax fun k : Fin 15 => pm (ix3 k r l)) (om (ix2 r l)) := by
  show max (multiReduction (F := Ideal) .maximumf [0] S4x128 pm 0xFF800000#32 reduces_S15x4x128_S4x128 (.inl rfl) rfl (ix2 r l))
      (om (ix2 r l)) = _
  exact congrArg (fun e : EReal => max e (om (ix2 r l))) (reduceMax0_apply pm _ _ _ r l)

/-- A received sum rescaled to the global maximum, slot by slot. -/
def peerTerm (pm ps : FVec Ideal S15x4x128 .f32) (g : FVec Ideal S4x128 .f32) : FVec Ideal S15x4x128 .f32 :=
  mulf ps (exp (subf pm
    (broadcastTo S15x4x128 (shapeCast S1x4x128 g shapeCasts_S4x128_S1x4x128) broadcasts_S1x4x128_S15x4x128)))

theorem peerTerm_apply (pm ps : FVec Ideal S15x4x128 .f32) (g : FVec Ideal S4x128 .f32) (k : Fin 15) (r : Fin 4) (l : Fin 128) :
    peerTerm pm ps g (ix3 k r l) = ps (ix3 k r l) * Ideal.exp (pm (ix3 k r l) - g (ix2 r l)) := by
  show ps (ix3 k r l) * Ideal.exp (pm (ix3 k r l)
    - broadcastTo S15x4x128 (shapeCast S1x4x128 g shapeCasts_S4x128_S1x4x128) broadcasts_S1x4x128_S15x4x128 (ix3 k r l)) = _
  rw [slabBroadcast_apply, shapeCast_ab_1ab_apply]

/-- The global-sum tile: the device's own sum rescaled to the global maximum, plus the fifteen received ones rescaled. -/
def sumTile (pm ps : FVec Ideal S15x4x128 .f32) (g os om : FVec Ideal S4x128 .f32) : FVec Ideal S4x128 .f32 :=
  addf (mulf os (exp (subf om g)))
    (multiReduction (F := Ideal) .add [0] S4x128 (peerTerm pm ps g) 0x00000000#32 reduces_S15x4x128_S4x128 (.inl rfl) rfl)

theorem sumTile_apply (pm ps : FVec Ideal S15x4x128 .f32) (g os om : FVec Ideal S4x128 .f32) (r : Fin 4) (l : Fin 128) :
    sumTile pm ps g os om (ix2 r l)
      = os (ix2 r l) * Ideal.exp (om (ix2 r l) - g (ix2 r l))
        + ∑ k : Fin 15, ps (ix3 k r l) * Ideal.exp (pm (ix3 k r l) - g (ix2 r l)) := by
  show os (ix2 r l) * Ideal.exp (om (ix2 r l) - g (ix2 r l))
    + multiReduction (F := Ideal) .add [0] S4x128 (peerTerm pm ps g) 0x00000000#32 reduces_S15x4x128_S4x128 (.inl rfl) rfl (ix2 r l) = _
  refine (congrArg (fun e : EReal => os (ix2 r l) * Ideal.exp (om (ix2 r l) - g (ix2 r l)) + e)
    (reduceAdd0_apply (peerTerm pm ps g) _ _ _ r l)).trans ?_
  simp only [peerTerm_apply]

/-! ## The tiles laid out again as columns -/

/-- The four rows of a tile end to end: one row of 512. -/
def tileRow (t : FVec Ideal S4x128 .f32) : FVec Ideal S1x512 .f32 :=
  concatenate S1x512 1 [⟨S1x128, extractStridedSlice S1x128 ![0, 0] t slices_S4x128_o0_0_S1x128⟩,
    ⟨S1x128, extractStridedSlice S1x128 ![1, 0] t slices_S4x128_o1_0_S1x128⟩,
    ⟨S1x128, extractStridedSlice S1x128 ![2, 0] t slices_S4x128_o2_0_S1x128⟩,
    ⟨S1x128, extractStridedSlice S1x128 ![3, 0] t slices_S4x128_o3_0_S1x128⟩] concatenates_S1x128_S1x128_S1x128_S1x128_S1x512_d1

/-- Two tiles as the two columns of a `[512, 2]` array. -/
def cols (t₀ t₁ : FVec Ideal S4x128 .f32) : FVec Ideal S512x2 .f32 :=
  transpose S512x2 [1, 0]
    (concatenate S2x512 0 [⟨S1x512, tileRow t₀⟩, ⟨S1x512, tileRow t₁⟩] concatenates_S1x512_S1x512_S2x512_d0)
    transposes_S2x512_p1_0_S512x2

/-- Column 0, kept as a `[512, 1]` column, holds the first tile: entry `128 r + l` is its `(r, l)`. -/
theorem col0_apply (t₀ t₁ : FVec Ideal S4x128 .f32) (i : Fin 512) (r : Fin 4) (l : Fin 128) (hi : i.val = 128 * r.val + l.val) :
    extractStridedSlice S512x1 ![0, 0] (cols t₀ t₁) slices_S512x2_o0_0_S512x1 (ix2 i (0 : Fin 1)) = t₀ (ix2 r l) := by
  refine (slice2_axis1_apply 0 (cols t₀ t₁) slices_S512x2_o0_0_S512x1 i (0 : Fin 1) (0 : Fin 2) rfl).trans ?_
  refine (stackT_apply (tileRow t₀) (tileRow t₁) _ _ i).1.trans ?_
  exact tileRow_apply t₀ _ _ _ _ _ i r l hi

/-- Column 1 holds the second tile. -/
theorem col1_apply (t₀ t₁ : FVec Ideal S4x128 .f32) (i : Fin 512) (r : Fin 4) (l : Fin 128) (hi : i.val = 128 * r.val + l.val) :
    extractStridedSlice S512x1 ![0, 1] (cols t₀ t₁) slices_S512x2_o0_1_S512x1 (ix2 i (0 : Fin 1)) = t₁ (ix2 r l) := by
  refine (slice2_axis1_apply 1 (cols t₀ t₁) slices_S512x2_o0_1_S512x1 i (0 : Fin 1) (1 : Fin 2) rfl).trans ?_
  refine (stackT_apply (tileRow t₀) (tileRow t₁) _ _ i).2.trans ?_
  exact tileRow_apply t₁ _ _ _ _ _ i r l hi

/-- The column `exp (m − M) / S` from the column of own maxima and the two re-laid columns. -/
def ratioCol (m : FVec Ideal S512x1 .f32) (X : FVec Ideal S512x2 .f32) : FVec Ideal S512x1 .f32 :=
  divf (exp (subf m (extractStridedSlice S512x1 ![0, 0] X slices_S512x2_o0_0_S512x1)))
    (extractStridedSlice S512x1 ![0, 1] X slices_S512x2_o0_1_S512x1)

/-- What is stored at `(i, j)`, over any operands: with `(r, l)` the place of row `i` in the tiles. -/
theorem pay13_apply (m : FVec Ideal S512x1 .f32) (e : FVec Ideal S512x256 .f32) (pm ps : FVec Ideal S15x4x128 .f32)
    (g os om : FVec Ideal S4x128 .f32) (i : Fin 512) (j : Fin 256) (r : Fin 4) (l : Fin 128) (hi : i.val = 128 * r.val + l.val) :
    k0_pay13 (F := Ideal) m e pm ps g os om (ix2 i j)
      = e (ix2 i j) * Ideal.div (Ideal.exp (m (ix2 i (0 : Fin 1)) - g (ix2 r l))) (sumTile pm ps g os om (ix2 r l)) := by
  show e (ix2 i j) * broadcastTo S512x256 (ratioCol m (cols g (sumTile pm ps g os om))) broadcasts_S512x1_S512x256 (ix2 i j) = _
  rw [colBroadcast_apply]
  show e (ix2 i j) * Ideal.div
      (Ideal.exp (m (ix2 i (0 : Fin 1))
        - extractStridedSlice S512x1 ![0, 0] (cols g (sumTile pm ps g os om)) slices_S512x2_o0_0_S512x1 (ix2 i (0 : Fin 1))))
      (extractStridedSlice S512x1 ![0, 1] (cols g (sumTile pm ps g os om)) slices_S512x2_o0_1_S512x1 (ix2 i (0 : Fin 1))) = _
  rw [col0_apply _ _ i r l hi, col1_apply _ _ i r l hi]

/-! ## The stored value -/

/-- The global-maximum tile of device `c` at `(r, l)` is the global maximum of row `128 r + l` as `c` forms it. -/
theorem gmax_tile (xs : Dev nD → Vec Ideal S512x256 .f32) (c : Dev nD) (r : Fin 4) (l : Fin 128) :
    k0_pay12 (F := Ideal) (Spec.peerMax (Spec.comm xs c)) (Spec.ownMax (Spec.stats (xs c))) (ix2 (n0 := 4) (n1 := 128) r l)
      = gmax (fun d => rowOf (xs d) ⟨128 * r.val + l.val, by have := r.isLt; have := l.isLt; omega⟩) c := by
  refine (pay12_apply _ _ r l).trans ?_
  rw [ownMax_apply]
  simp only [peerMax_apply]
  rfl

/-- The global-sum tile of device `c` at `(r, l)` is the global sum of row `128 r + l` as `c` forms it. -/
theorem gsum_tile (xs : Dev nD → Vec Ideal S512x256 .f32) (c : Dev nD) (r : Fin 4) (l : Fin 128) :
    sumTile (Spec.peerMax (F := Ideal) (Spec.comm xs c)) (Spec.peerSum (Spec.comm xs c))
        (k0_pay12 (Spec.peerMax (Spec.comm xs c)) (Spec.ownMax (Spec.stats (xs c))))
        (Spec.ownSum (Spec.stats (xs c))) (Spec.ownMax (Spec.stats (xs c))) (ix2 (n0 := 4) (n1 := 128) r l)
      = gsum (fun d => rowOf (xs d) ⟨128 * r.val + l.val, by have := r.isLt; have := l.isLt; omega⟩) c := by
  refine (sumTile_apply _ _ _ _ _ r l).trans ?_
  rw [gmax_tile, ownSum_apply, ownMax_apply]
  simp only [peerSum_apply, peerMax_apply]
  rfl

/-- The stored entry with the row's place `(r, l)` in the tiles named. -/
theorem out_apply_at (xs : Dev nD → Vec Ideal S512x256 .f32) (c : Dev nD) (i : Fin 512) (j : Fin 256)
    (r : Fin 4) (l : Fin 128) (hi : i.val = 128 * r.val + l.val) :
    Spec.out (F := Ideal) xs c (ix2 (n0 := 512) (n1 := 256) i j) = kernelVal (fun d => rowOf (xs d) i) c j := by
  have hlt : 128 * r.val + l.val < 512 := by have := r.isLt; have := l.isLt; omega
  obtain rfl : i = ⟨128 * r.val + l.val, hlt⟩ := Fin.ext hi
  refine (pay13_apply _ _ _ _ _ _ _ _ j r l rfl).trans ?_
  rw [pay11_apply, pay1_apply, gmax_tile, gsum_tile]
  rfl

/-- Entry `(i, j)` of what device `c` stores is the value formed from row `i` of the sixteen blocks. -/
theorem out_apply (xs : Dev nD → Vec Ideal S512x256 .f32) (c : Dev nD) (i : Fin 512) (j : Fin 256) :
    Spec.out (F := Ideal) xs c (ix2 (n0 := 512) (n1 := 256) i j) = kernelVal (fun d => rowOf (xs d) i) c j :=
  out_apply_at xs c i j ⟨i.val / 128, by have := i.isLt; omega⟩ ⟨i.val % 128, Nat.mod_lt _ (by decide)⟩
    (Nat.div_add_mod i.val 128).symm

end Cert.KernelIdeal.ValOut

end
-- ==== Proof.ValJoin.lean ====
/-
  A device's result is its block of the softmax of the whole array.

  The whole array `X` has 512 rows of 4096 columns and device `d` holds its columns `256 d … 256 d + 255`. Row `i` of
  the sixteen blocks is therefore row `i` of `X` read at the columns `col d j = 256 d + j`. On a row of finite reals the
  value a device forms from the sixteen pieces of the row, at its column `j`, is the row's softmax at column `col c j`;
  and entry `(i, j)` of block `c` of the row-wise softmax of `X` is that same number.
-/
import proofs.«901065_g7700000000001066_dist_softmax_colshard_i_m512_n256_v7x_i16_f32_1_alg».proof.Proof.ValOut
import Idealize.ShloMosaic.Lib.Layout

noncomputable section

namespace Cert.KernelIdeal.ValJoin

open Idealize.ShloMosaic Idealize.ShloMosaic.ValueIdx
open Cert.KernelIdeal Cert.KernelIdeal.Gen Cert.Softmax Cert.Ring16 Cert.KernelIdeal.ValStats Cert.KernelIdeal.ValOut

/-- Entry `(i, j)` of block `d` lies at row `i`, column `col d j = 256 d + j` of the whole array. -/
theorem block_idx (hT : Layout.Tiles ⟨2, ![512, 256]⟩ ⟨2, ![512, 4096]⟩ 1 16) (d : Fin 16) (i : Fin 512) (j : Fin 256) :
    hT.idx d (ix2 (n0 := 512) (n1 := 256) i j) = ix2 (n0 := 512) (n1 := 4096) i (col d j) := by
  funext b
  match b with
  | ⟨0, _⟩ => rfl
  | ⟨1, _⟩ => rfl

/-- Row `i` of the sixteen blocks of `X` is row `i` of `X`, block by block. -/
theorem rows_eq (X : FVec Ideal ⟨2, ![512, 4096]⟩ .f32)
    (xs : Dev Cert.KernelIdeal.nD → Vec Ideal Cert.KernelIdeal.S512x256 .f32)
    (hxs : ∀ d, xs d = Layout.block ⟨2, ![512, 256]⟩ ⟨2, ![512, 4096]⟩ 1 16 d X) (i : Fin 512) :
    (fun d => rowOf (xs d) i) = fun (d : Fin 16) (j' : Fin 256) => X (ix2 (n0 := 512) (n1 := 4096) i (col d j')) := by
  funext d j'
  show xs d (ix2 (n0 := 512) (n1 := 256) i j') = X (ix2 (n0 := 512) (n1 := 4096) i (col d j'))
  rw [hxs d, Layout.block_apply, block_idx]

/-- What device `c` stores is block `c` of the row-wise softmax of the whole array, when every entry of the whole
    array is a real number and every device holds its block of it. -/
theorem out_block (X : FVec Ideal ⟨2, ![512, 4096]⟩ .f32) (hfin : ∀ i, X i ≠ ⊥ ∧ X i ≠ ⊤)
    (xs : Dev Cert.KernelIdeal.nD → Vec Ideal Cert.KernelIdeal.S512x256 .f32)
    (hxs : ∀ d, xs d = Layout.block ⟨2, ![512, 256]⟩ ⟨2, ![512, 4096]⟩ 1 16 d X)
    (c : Dev Cert.KernelIdeal.nD) :
    Spec.out (F := Ideal) xs c
      = Layout.block ⟨2, ![512, 256]⟩ ⟨2, ![512, 4096]⟩ 1 16 c
          (fun i => Cert.Softmax.rowSoftmax (fun j : Fin 4096 => X (ValueIdx.ix2 (n0 := 512) (n1 := 4096) (i 0) j)) (i 1)) := by
  funext idx
  obtain ⟨i, j, rfl⟩ : ∃ (i : Fin 512) (j : Fin 256), idx = ix2 i j := ⟨idx 0, idx 1, eq_ix2 idx⟩
  rw [out_apply, rows_eq X xs hxs i, Layout.block_apply, block_idx]
  exact kernelVal_eq (fun q : Fin 4096 => X (ix2 (n0 := 512) (n1 := 4096) i q)) (fun q => hfin _) c j

/-- info: 'Cert.KernelIdeal.ValJoin.out_block' depends on axioms: [propext, Classical.choice, Quot.sound] -/
#guard_msgs in #print axioms out_block

end Cert.KernelIdeal.ValJoin

end
-- ==== Proof.Finite.lean ====
/-
  Finite inputs.

  The precondition of a device says of its block `x`, entry by entry, that `|x| < +∞`, and that the conjunction of all
  these comparisons is true. Over the extended reals `|x| = max x (-x)`, which is `+∞` exactly at the two infinities, so
  every entry of every block is a real number. The sixteen blocks of 256 columns cover the 4096 columns of the whole
  array (column `q` is column `q % 256` of block `q / 256`), so every entry of the whole array is a real number too.
-/
import proofs.«901065_g7700000000001066_dist_softmax_colshard_i_m512_n256_v7x_i16_f32_1_alg».proof.Defs
import proofs.«901065_g7700000000001066_dist_softmax_colshard_i_m512_n256_v7x_i16_f32_1_alg».proof.Proof.Gen.Pre_finite_inputs_Kernel
import Idealize.ShloMosaic.Lib.ReduceAll
import Idealize.ShloMosaic.Lib.ValueIdx
import Idealize.ShloMosaic.Lib.Layout

noncomputable section

namespace Cert.KernelIdeal.Finite

open Idealize.ShloMosaic Idealize.ShloMosaic.ValueIdx

/-- The scalar shape has one index. -/
instance : Subsingleton (Cert.Pre_finite_inputs_Kernel.S_.Idx) := ⟨fun _ _ => funext fun d => d.elim0⟩

/-- The word `0x7F800000` read as an extended real is `+∞`. -/
theorem inf_eq_top : Ideal.ofBits .f32 0x7F800000#32 = (⊤ : EReal) := by
  simp [Ideal.ofBits, Ideal.ieee]

/-- An extended real whose absolute value `max x (-x)` is below `+∞` is neither infinity. -/
theorem finite_of_abs_lt (x : EReal)
    (h : Ideal.cmp .olt (max x (-x)) (Ideal.ofBits .f32 0x7F800000#32) = 1#1) : x ≠ ⊥ ∧ x ≠ ⊤ := by
  rw [inf_eq_top] at h
  induction x using EReal.rec with
  | bot => simp [Ideal.cmp] at h
  | coe r => exact ⟨EReal.coe_ne_bot r, EReal.coe_ne_top r⟩
  | top => simp [Ideal.cmp] at h

/-- Under the kernel's precondition every entry of a device's block is a real number: the conjunction over all
    entries is true, so each comparison `|x i| < +∞` is. -/
theorem finite_of_pre [Cert.Pre_finite_inputs_Kernel.Facts]
    (x : FVec Ideal Cert.Pre_finite_inputs_Kernel.S512x256 .f32)
    (h : Cert.Pre_finite_inputs_Kernel.fn (F := Ideal) x = fun _ => 1#1) : ∀ i, x i ≠ ⊥ ∧ x i ≠ ⊤ := by
  intro i
  have h0 := congrFun h ValueIdx.ix0
  dsimp only [Cert.Pre_finite_inputs_Kernel.fn] at h0
  exact finite_of_abs_lt (x i) (Host.reduce_andi_all _ _ _ _ _ h0 i)

/-- Column `j` of block `d` is column `256 d + j` of the whole array, in the same row. -/
theorem block_idx (hT : Layout.Tiles ⟨2, ![512, 256]⟩ ⟨2, ![512, 4096]⟩ 1 16) (d : Fin 16) (r : Fin 512) (j : Fin 256)
    (q : Fin 4096) (hq : q.val = d.val * 256 + j.val) :
    hT.idx d (ix2 (n0 := 512) (n1 := 256) r j) = ix2 (n0 := 512) (n1 := 4096) r q := by
  funext b
  match b with
  | ⟨0, _⟩ => rfl
  | ⟨1, _⟩ => exact Fin.ext hq.symm

/-- If every entry of each of the sixteen column blocks of `X` is a real number, so is every entry of `X`:
    column `q` of the whole array is column `q % 256` of block `q / 256`. -/
theorem finite_whole (X : FVec Ideal ⟨2, ![512, 4096]⟩ .f32)
    (h : ∀ (d : Fin 16) (i : (⟨2, ![512, 256]⟩ : Shape).Idx),
      (Layout.block ⟨2, ![512, 256]⟩ ⟨2, ![512, 4096]⟩ 1 16 d X) i ≠ ⊥
        ∧ (Layout.block ⟨2, ![512, 256]⟩ ⟨2, ![512, 4096]⟩ 1 16 d X) i ≠ ⊤) :
    ∀ i, X i ≠ ⊥ ∧ X i ≠ ⊤ := by
  intro idx
  obtain ⟨r, q, rfl⟩ : ∃ (r : Fin 512) (q : Fin 4096), idx = ix2 r q := ⟨idx 0, idx 1, eq_ix2 idx⟩
  have hq := q.isLt
  obtain ⟨d, hd⟩ : ∃ d : Fin 16, d.val = q.val / 256 := ⟨⟨q.val / 256, by omega⟩, rfl⟩
  obtain ⟨j, hj⟩ : ∃ j : Fin 256, j.val = q.val % 256 := ⟨⟨q.val % 256, by omega⟩, rfl⟩
  have hb := h d (ix2 r j)
  rw [Layout.block_apply, block_idx _ d r j q (by omega)] at hb
  exact hb

/-- info: 'Cert.KernelIdeal.Finite.finite_whole' depends on axioms: [propext, Classical.choice, Quot.sound] -/
#guard_msgs in #print axioms finite_whole
/-- info: 'Cert.KernelIdeal.Finite.finite_of_pre' depends on axioms: [propext, Classical.choice, Quot.sound] -/
#guard_msgs in #print axioms finite_of_pre

end Cert.KernelIdeal.Finite

end
-- ==== Proof.lean ====
/-
  The certificate of the column-sharded softmax on sixteen devices.

  Every device holds 256 columns of a 512 × 4096 array. It takes the row maxima and the row sums of exponentials of its
  block, exchanges them with the fifteen other devices, and rescales: the result is the softmax of every row of the whole
  array, cut the same way. The three frames: the kernel's run (Proof/Run.lean at the ideal instance, its word-level copy
  under Proof/Bits/) with the result dropped, and the reference's run. The equivalence: the kernel's block of the result
  is a pure function of the sixteen blocks (Proof/Spec.lean), which at the extended reals, on finite inputs, is the
  block of the rows' softmax (Proof/ValJoin.lean over Proof/Softmax.lean), and the reference computes that softmax
  (Proof/RefSide.lean).
-/
import proofs.«901065_g7700000000001066_dist_softmax_colshard_i_m512_n256_v7x_i16_f32_1_alg».proof.Defs
import proofs.«901065_g7700000000001066_dist_softmax_colshard_i_m512_n256_v7x_i16_f32_1_alg».proof.Proof.Gen.Kernel
import proofs.«901065_g7700000000001066_dist_softmax_colshard_i_m512_n256_v7x_i16_f32_1_alg».proof.Proof.Gen.KernelIdeal
import proofs.«901065_g7700000000001066_dist_softmax_colshard_i_m512_n256_v7x_i16_f32_1_alg».proof.Proof.Gen.ReferenceIdeal
import proofs.«901065_g7700000000001066_dist_softmax_colshard_i_m512_n256_v7x_i16_f32_1_alg».proof.Proof.Gen.Pre_finite_inputs_Kernel
import proofs.«901065_g7700000000001066_dist_softmax_colshard_i_m512_n256_v7x_i16_f32_1_alg».proof.Proof.Gen.Pre_finite_inputs_ReferenceIdeal
import proofs.«901065_g7700000000001066_dist_softmax_colshard_i_m512_n256_v7x_i16_f32_1_alg».proof.Proof.Run
import proofs.«901065_g7700000000001066_dist_softmax_colshard_i_m512_n256_v7x_i16_f32_1_alg».proof.Proof.Bits.Run
import proofs.«901065_g7700000000001066_dist_softmax_colshard_i_m512_n256_v7x_i16_f32_1_alg».proof.Proof.RefSide
import proofs.«901065_g7700000000001066_dist_softmax_colshard_i_m512_n256_v7x_i16_f32_1_alg».proof.Proof.ValJoin
import proofs.«901065_g7700000000001066_dist_softmax_colshard_i_m512_n256_v7x_i16_f32_1_alg».proof.Proof.Finite
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts
  Cert.Pre_finite_inputs_Kernel.Gen.facts Cert.Pre_finite_inputs_ReferenceIdeal.Gen.facts

/-- The word-level kernel runs and leaves its blocks of `x` unchanged: its run with the result dropped. -/
theorem frame_k : Cert.frame_Kernel := fun m ρ _ =>
  (θ_run (Cert.Kernel.defs (F := Bits)) _ _).mono (fun _ h c => (h c).2) (Cert.Kernel.Proto.run_value (F := Bits) m ρ)

/-- The idealized kernel likewise. -/
theorem frame_ki : Cert.frame_KernelIdeal := fun m ρ _ =>
  (θ_run (Cert.KernelIdeal.defs (F := Ideal)) _ _).mono (fun _ h c => (h c).2) (Cert.KernelIdeal.Proto.run_value (F := Ideal) m ρ)

/-- The reference's run with the result dropped. -/
theorem frame_ri : Cert.frame_ReferenceIdeal := Cert.ReferenceIdeal.RefValue.frame_ri

/-- The ideal pass rewrote nothing. -/
theorem preserves : Cert.preserves_Kernel_KernelIdeal := trivial

/-- On finite inputs each device's block of the kernel's result is its block of the rows' softmax, which the reference computes. -/
theorem algebraic : Cert.algebraic_KernelIdeal_ReferenceIdeal := by
  intro m ρ m' ρ' hpre hagree
  have hfin := Cert.KernelIdeal.Finite.finite_whole
    (m' (((0 : Dev Cert.ReferenceIdeal.nD).tc : Thread Cert.ReferenceIdeal.nD Cert.ReferenceIdeal.τ).loc Cert.ReferenceIdeal.main_arg0))
    (fun d i => by
      have h := Cert.KernelIdeal.Finite.finite_of_pre _ (hpre d) i
      rw [hagree d] at h
      exact h)
  refine ⟨_, ?_, Cert.ReferenceIdeal.RefValue.ref_run m' ρ'⟩
  refine (θ_run (Cert.KernelIdeal.defs (F := Ideal)) _ _).mono (fun _ h c => ⟨(h c).1.trans ?_, (h c).2⟩)
    (Cert.KernelIdeal.Proto.run_value (F := Ideal) m ρ)
  exact Cert.KernelIdeal.ValJoin.out_block _ hfin _ hagree c

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
